-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16x1024 : Shape := ⟨3, ![1024, 16, 1024]⟩
abbrev S1024x16x32 : Shape := ⟨3, ![1024, 16, 32]⟩
abbrev S1024 : Shape := ⟨1, ![1024]⟩
abbrev S32 : Shape := ⟨1, ![32]⟩
abbrev S2048x1056 : Shape := ⟨2, ![2048, 1056]⟩
abbrev S2048 : Shape := ⟨1, ![2048]⟩
abbrev S_ : Shape := ⟨0, ![]⟩

class Facts : Prop where
  bcast_S_S1024x16x1024 : S_.BroadcastsInDim S1024x16x1024 (![] : Fin 0 → Fin S1024x16x1024.rank)
  reducesTo_S1024x16x1024_S_d0_1_2 : S1024x16x1024.ReducesTo [0, 1, 2] S_
  h_S_ : 0 < S_.numel
  bcast_S_S1024x16x32 : S_.BroadcastsInDim S1024x16x32 (![] : Fin 0 → Fin S1024x16x32.rank)
  reducesTo_S1024x16x32_S_d0_1_2 : S1024x16x32.ReducesTo [0, 1, 2] S_
  bcast_S_S1024 : S_.BroadcastsInDim S1024 (![] : Fin 0 → Fin S1024.rank)
  reducesTo_S1024_S_d0 : S1024.ReducesTo [0] S_
  bcast_S_S32 : S_.BroadcastsInDim S32 (![] : Fin 0 → Fin S32.rank)
  reducesTo_S32_S_d0 : S32.ReducesTo [0] S_
  bcast_S_S2048x1056 : S_.BroadcastsInDim S2048x1056 (![] : Fin 0 → Fin S2048x1056.rank)
  reducesTo_S2048x1056_S_d0_1 : S2048x1056.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg4 : IVec S1024 32) (main_arg10 : FVec F S2048 .f32) (main_v33 : IVec S_ 1) : IVec S_ 1 :=
  let main_v34 : FVec F S2048 .f32 := Host.absf main_arg10
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_c_14 : IVec S_ 32 := constantI S_ 32 0#32
  let main_v39 : IVec S1024 32 := broadcastInDim S1024 ![] bcast_S_S1024 main_c_14
  let main_v40 : IVec S1024 1 := cmpi .sge main_arg4 main_v39
  let main_c_15 : IVec S_ 1 := constantI S_ 1 1#1
  let main_v41 : IVec S_ 1 := (fun x v => Host.reduce IntOp.andi x v reducesTo_S1024_S_d0 h_S_) main_v40 main_c_15
  let main_v42 : IVec S_ 1 := andi main_v38 main_v41
  let main_c_16 : IVec S_ 32 := constantI S_ 32 16#32
  let main_v43 : IVec S1024 32 := broadcastInDim S1024 ![] bcast_S_S1024 main_c_16
  let main_v44 : IVec S1024 1 := cmpi .sle main_arg4 main_v43
  let main_c_17 : IVec S_ 1 := constantI S_ 1 1#1
  let main_v45 : IVec S_ 1 := (fun x v => Host.reduce IntOp.andi x v reducesTo_S1024_S_d0 h_S_) main_v44 main_c_17
  let main_v46 : IVec S_ 1 := andi main_v42 main_v45
  main_v46

def fn_part1 {F : FTy → Type} [FloatOps F] (main_arg4 : IVec S1024 32) (main_arg7 : FVec F S32 .f32) (main_arg8 : FVec F S32 .f32) (main_arg9 : FVec F S2048x1056 .f32) (main_arg10 : FVec F S2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg8
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S2048x1056 .f32 := Host.absf main_arg9
  let main_cst_10 : FVec F S_ .f32 := constant S_ .f32 0x7F800000#32
  let main_v30 : FVec F S2048x1056 .f32 := broadcastInDim S2048x1056 ![] bcast_S_S2048x1056 main_cst_10
  let main_v31 : IVec S2048x1056 1 := cmpf .olt main_v29 main_v30
  let main_c_11 : IVec S_ 1 := constantI S_ 1 1#1
  let main_v32 : IVec S_ 1 := (fun x v => Host.reduce IntOp.andi x v reducesTo_S2048x1056_S_d0_1 h_S_) main_v31 main_c_11
  let main_v33 : IVec S_ 1 := andi main_v28 main_v32
  fn_part2 (F := F) main_arg4 main_arg10 main_v33

def fn {F : FTy → Type} [FloatOps F] (main_arg0 : FVec F S1024x16x1024 .f32) (main_arg1 : FVec F S1024x16x32 .f32) (main_arg2 : IVec S1024 32) (main_arg3 : IVec S1024 32) (main_arg4 : IVec S1024 32) (main_arg5 : FVec F S1024 .f32) (main_arg6 : FVec F S1024 .f32) (main_arg7 : FVec F S32 .f32) (main_arg8 : FVec F S32 .f32) (main_arg9 : FVec F S2048x1056 .f32) (main_arg10 : FVec F S2048 .f32) : IVec S_ 1 :=
  let main_v0 : FVec F S1024x16x1024 .f32 := Host.absf main_arg0
  let main_cst : FVec F S_ .f32 := constant S_ .f32 0x7F800000#32
  let main_v1 : FVec F S1024x16x1024 .f32 := broadcastInDim S1024x16x1024 ![] bcast_S_S1024x16x1024 main_cst
  let main_v2 : IVec S1024x16x1024 1 := cmpf .olt main_v0 main_v1
  let main_c : IVec S_ 1 := constantI S_ 1 1#1
  let main_v3 : IVec S_ 1 := (fun x v => Host.reduce IntOp.andi x v reducesTo_S1024x16x1024_S_d0_1_2 h_S_) main_v2 main_c
  let main_v4 : FVec F S1024x16x32 .f32 := Host.absf main_arg1
  let main_cst_0 : FVec F S_ .f32 := constant S_ .f32 0x7F800000#32
  let main_v5 : FVec F S1024x16x32 .f32 := broadcastInDim S1024x16x32 ![] bcast_S_S1024x16x32 main_cst_0
  let main_v6 : IVec S1024x16x32 1 := cmpf .olt main_v4 main_v5
  let main_c_1 : IVec S_ 1 := constantI S_ 1 1#1
  let main_v7 : IVec S_ 1 := (fun x v => Host.reduce IntOp.andi x v reducesTo_S1024x16x32_S_d0_1_2 h_S_) main_v6 main_c_1
  let main_v8 : IVec S_ 1 := andi main_v3 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg6
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg7 main_arg8 main_arg9 main_arg10 main_v13 main_v16
-- ==== Kernel.lean ====
abbrev S1024x16x1024 : Shape := ⟨3, ![1024, 16, 1024]⟩
abbrev S1024x16x32 : Shape := ⟨3, ![1024, 16, 32]⟩
abbrev S1024 : Shape := ⟨1, ![1024]⟩
abbrev S32 : Shape := ⟨1, ![32]⟩
abbrev S2048x1056 : Shape := ⟨2, ![2048, 1056]⟩
abbrev S2048 : Shape := ⟨1, ![2048]⟩
abbrev S16 : Shape := ⟨1, ![16]⟩
abbrev S1x1024 : Shape := ⟨2, ![1, 1024]⟩
abbrev S16x1 : Shape := ⟨2, ![16, 1]⟩
abbrev S16x1024 : Shape := ⟨2, ![16, 1024]⟩
abbrev S_ : Shape := ⟨0, ![]⟩
abbrev S1 : Shape := ⟨1, ![1]⟩
abbrev S15 : Shape := ⟨1, ![15]⟩
abbrev S16384 : Shape := ⟨1, ![16384]⟩
abbrev S16385 : Shape := ⟨1, ![16385]⟩
abbrev S16x1024x1 : Shape := ⟨3, ![16, 1024, 1]⟩
abbrev S16384x1 : Shape := ⟨2, ![16384, 1]⟩
abbrev S1023 : Shape := ⟨1, ![1023]⟩
abbrev S1024x16 : Shape := ⟨2, ![1024, 16]⟩
abbrev S1024x1 : Shape := ⟨2, ![1024, 1]⟩
abbrev S16384x1024 : Shape := ⟨2, ![16384, 1024]⟩
abbrev S1x1 : Shape := ⟨2, ![1, 1]⟩
abbrev S16384x32 : Shape := ⟨2, ![16384, 32]⟩
abbrev S1x32 : Shape := ⟨2, ![1, 32]⟩
abbrev S1056x2048 : Shape := ⟨2, ![1056, 2048]⟩
abbrev S1024x2048 : Shape := ⟨2, ![1024, 2048]⟩
abbrev S32x2048 : Shape := ⟨2, ![32, 2048]⟩
abbrev S1x2048 : Shape := ⟨2, ![1, 2048]⟩
abbrev S16384x2048 : Shape := ⟨2, ![16384, 2048]⟩
abbrev S1024x1024 : Shape := ⟨2, ![1024, 1024]⟩
abbrev S1024x32 : Shape := ⟨2, ![1024, 32]⟩

abbrev nBuf : Space → Nat
  | .hbm => 221
  | .vmem => 17
  | .smem => 1
  | _ => 0

abbrev hbmTy0_0 (i : Nat) : BufTy := match i % 128 with
  | 0 => ⟨S1024x16x1024, .f32⟩
  | 1 => ⟨S1024x16x32, .f32⟩
  | 2 => ⟨S1024, .i32⟩
  | 3 => ⟨S1024, .i32⟩
  | 4 => ⟨S1024, .i32⟩
  | 5 => ⟨S1024, .f32⟩
  | 6 => ⟨S1024, .f32⟩
  | 7 => ⟨S32, .f32⟩
  | 8 => ⟨S32, .f32⟩
  | 9 => ⟨S2048x1056, .f32⟩
  | 10 => ⟨S2048, .f32⟩
  | 11 => ⟨S1024, .i32⟩
  | 12 => ⟨S1024, .i32⟩
  | 13 => ⟨S1024, .i32⟩
  | 14 => ⟨S1024, .i32⟩
  | 15 => ⟨S16, .i32⟩
  | 16 => ⟨S1x1024, .i32⟩
  | 17 => ⟨S16x1, .i32⟩
  | 18 => ⟨S16x1024, .i32⟩
  | 19 => ⟨S16x1024, .i32⟩
  | 20 => ⟨S16x1024, .i1⟩
  | 21 => ⟨S16x1024, .i32⟩
  | 22 => ⟨S_, .i32⟩
  | 23 => ⟨S16, .i32⟩
  | 24 => ⟨S_, .i32⟩
  | 25 => ⟨S1, .i32⟩
  | 26 => ⟨S_, .i32⟩
  | 27 => ⟨S_, .i32⟩
  | 28 => ⟨S16, .i32⟩
  | 29 => ⟨S15, .i32⟩
  | 30 => ⟨S16, .i32⟩
  | 31 => ⟨S1024, .i32⟩
  | 32 => ⟨S16x1024, .i32⟩
  | 33 => ⟨S16x1024, .i32⟩
  | 34 => ⟨S16x1, .i32⟩
  | 35 => ⟨S16x1024, .i32⟩
  | 36 => ⟨S16x1024, .i1⟩
  | 37 => ⟨S16x1, .i32⟩
  | 38 => ⟨S16x1024, .i32⟩
  | 39 => ⟨S16x1024, .i32⟩
  | 40 => ⟨S_, .i32⟩
  | 41 => ⟨S_, .i32⟩
  | 42 => ⟨S16x1024, .i32⟩
  | 43 => ⟨S16x1024, .i32⟩
  | 44 => ⟨S16384, .i32⟩
  | 45 => ⟨S_, .i32⟩
  | 46 => ⟨S16385, .i32⟩
  | 47 => ⟨S_, .i32⟩
  | 48 => ⟨S16x1024, .i32⟩
  | 49 => ⟨S16x1024, .i1⟩
  | 50 => ⟨S_, .i32⟩
  | 51 => ⟨S16x1024, .i32⟩
  | 52 => ⟨S16x1024, .i32⟩
  | 53 => ⟨S16x1024, .i32⟩
  | 54 => ⟨S16x1024x1, .i32⟩
  | 55 => ⟨S16x1024, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16385, .i32⟩
  | 66 => ⟨S16384, .i32⟩
  | 67 => ⟨S_, .i32⟩
  | 68 => ⟨S16385, .i32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S16385, .i32⟩
  | 79 => ⟨S16384, .i32⟩
  | 80 => ⟨S_, .i32⟩
  | 81 => ⟨S1, .i32⟩
  | 82 => ⟨S_, .i32⟩
  | 83 => ⟨S_, .i32⟩
  | 84 => ⟨S1024, .i32⟩
  | 85 => ⟨S1023, .i32⟩
  | 86 => ⟨S1024, .i32⟩
  | 87 => ⟨S1024, .i32⟩
  | 88 => ⟨S16, .i32⟩
  | 89 => ⟨S1024x16, .i32⟩
  | 90 => ⟨S1024x16, .i32⟩
  | 91 => ⟨S1024x1, .i32⟩
  | 92 => ⟨S1024x16, .i32⟩
  | 93 => ⟨S1024x16, .i1⟩
  | 94 => ⟨S1024x1, .i32⟩
  | 95 => ⟨S1024x16, .i32⟩
  | 96 => ⟨S1024x16, .i32⟩
  | 97 => ⟨S_, .i32⟩
  | 98 => ⟨S_, .i32⟩
  | 99 => ⟨S1024x16, .i32⟩
  | 100 => ⟨S1024x16, .i32⟩
  | 101 => ⟨S16384, .i32⟩
  | 102 => ⟨S1024x1, .i32⟩
  | 103 => ⟨S1024x16, .i32⟩
  | 104 => ⟨S16384, .i32⟩
  | 105 => ⟨S_, .i32⟩
  | 106 => ⟨S16385, .i32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S16385, .i32⟩
  | 116 => ⟨S16384, .i32⟩
  | 117 => ⟨S_, .i32⟩
  | 118 => ⟨S1, .i32⟩
  | 119 => ⟨S_, .i32⟩
  | 120 => ⟨S_, .i32⟩
  | 121 => ⟨S1024, .i32⟩
  | 122 => ⟨S1023, .i32⟩
  | 123 => ⟨S1024, .i32⟩
  | 124 => ⟨S1024, .i32⟩
  | 125 => ⟨S16, .i32⟩
  | 126 => ⟨S1024x16, .i32⟩
  | 127 => ⟨S1024x16, .i32⟩
  | _ => ⟨S1024x16x1024, .f32⟩

abbrev hbmTy0_1 (i : Nat) : BufTy := match i % 128 with
  | 0 => ⟨S1024x1, .i32⟩
  | 1 => ⟨S1024x16, .i32⟩
  | 2 => ⟨S1024x16, .i1⟩
  | 3 => ⟨S1024x1, .i32⟩
  | 4 => ⟨S1024x16, .i32⟩
  | 5 => ⟨S1024x16, .i32⟩
  | 6 => ⟨S_, .i32⟩
  | 7 => ⟨S_, .i32⟩
  | 8 => ⟨S1024x16, .i32⟩
  | 9 => ⟨S1024x16, .i32⟩
  | 10 => ⟨S16384, .i32⟩
  | 11 => ⟨S1024x1, .i32⟩
  | 12 => ⟨S1024x16, .i32⟩
  | 13 => ⟨S16384, .i32⟩
  | 14 => ⟨S_, .i32⟩
  | 15 => ⟨S16385, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S16385, .i32⟩
  | 25 => ⟨S16384, .i32⟩
  | 26 => ⟨S_, .i32⟩
  | 27 => ⟨S16384, .i32⟩
  | 28 => ⟨S16384, .i32⟩
  | 29 => ⟨S16384, .i32⟩
  | 30 => ⟨S16384x1024, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x1024, .f32⟩
  | 50 => ⟨S16384x1024, .i1⟩
  | 51 => ⟨S_, .f32⟩
  | 52 => ⟨S16384x1024, .f32⟩
  | 53 => ⟨S16384x1024, .f32⟩
  | 54 => ⟨S16384x32, .f32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S1, .i32⟩
  | 64 => ⟨S_, .i32⟩
  | 65 => ⟨S16384x1, .i32⟩
  | 66 => ⟨S16384x1, .i1⟩
  | 67 => ⟨S1x1, .i32⟩
  | 68 => ⟨S16384x1, .i32⟩
  | 69 => ⟨S16384x1, .i1⟩
  | 70 => ⟨S16384x1, .i1⟩
  | 71 => ⟨S_, .i1⟩
  | 72 => ⟨S16384, .i1⟩
  | 73 => ⟨S16384x32, .f32⟩
  | 74 => ⟨S16384x32, .i1⟩
  | 75 => ⟨S_, .f32⟩
  | 76 => ⟨S16384x32, .f32⟩
  | 77 => ⟨S16384x32, .f32⟩
  | 78 => ⟨S_, .i32⟩
  | 79 => ⟨S_, .i32⟩
  | 80 => ⟨S16384x1, .i32⟩
  | 81 => ⟨S16384x1, .i32⟩
  | 82 => ⟨S1x1024, .f32⟩
  | 83 => ⟨S1x1024, .f32⟩
  | 84 => ⟨S1x32, .f32⟩
  | 85 => ⟨S1x32, .f32⟩
  | 86 => ⟨S1056x2048, .f32⟩
  | 87 => ⟨S1024x2048, .f32⟩
  | 88 => ⟨S1024x2048, .bf16⟩
  | 89 => ⟨S32x2048, .f32⟩
  | 90 => ⟨S32x2048, .bf16⟩
  | 91 => ⟨S1x2048, .f32⟩
  | 92 => ⟨S16384x2048, .f32⟩
  | _ => ⟨S1024x16x1024, .f32⟩

abbrev hbmTy (i : Nat) : BufTy := match i / 128 with
  | 0 => hbmTy0_0 i
  | 1 => hbmTy0_1 i
  | _ => ⟨S1024x16x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x32, .f32⟩
  | .local _ .vmem, ⟨3, _⟩ => ⟨S1024x32, .f32⟩
  | .local _ .vmem, ⟨4, _⟩ => ⟨S1024x1, .i32⟩
  | .local _ .vmem, ⟨5, _⟩ => ⟨S1024x1, .i32⟩
  | .local _ .vmem, ⟨6, _⟩ => ⟨S1024x1, .i32⟩
  | .local _ .vmem, ⟨7, _⟩ => ⟨S1024x1, .i32⟩
  | .local _ .vmem, ⟨8, _⟩ => ⟨S1x1024, .f32⟩
  | .local _ .vmem, ⟨9, _⟩ => ⟨S1x1024, .f32⟩
  | .local _ .vmem, ⟨10, _⟩ => ⟨S1x32, .f32⟩
  | .local _ .vmem, ⟨11, _⟩ => ⟨S1x32, .f32⟩
  | .local _ .vmem, ⟨12, _⟩ => ⟨S1024x2048, .bf16⟩
  | .local _ .vmem, ⟨13, _⟩ => ⟨S32x2048, .bf16⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | .local _ .smem, ⟨0, _⟩ => ⟨S1, .i32⟩
  | _, _ => ⟨S1024x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_call1_call0_c : Ref sig .tc := ⟨.hbm, 26, rfl⟩
abbrev main_call1_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_1 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_call3_call0_c : Ref sig .tc := ⟨.hbm, 82, rfl⟩
abbrev main_call3_call0_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_call4_v0 : Ref sig .tc := ⟨.hbm, 98, rfl⟩
abbrev main_call4_v1 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_12 : Ref sig .tc := ⟨.hbm, 105, rfl⟩
abbrev main_v71 : Ref sig .tc := ⟨.hbm, 106, rfl⟩
abbrev main_c_13 : Ref sig .tc := ⟨.hbm, 107, rfl⟩
abbrev main_v72 : Ref sig .tc := ⟨.hbm, 108, rfl⟩
abbrev main_v73 : Ref sig .tc := ⟨.hbm, 109, rfl⟩
abbrev main_c_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_15 : Ref sig .tc := ⟨.hbm, 117, rfl⟩
abbrev main_v80 : Ref sig .tc := ⟨.hbm, 118, rfl⟩
abbrev main_call5_call0_c : Ref sig .tc := ⟨.hbm, 119, rfl⟩
abbrev main_call5_call0_v0 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_16 : Ref sig .tc := ⟨.hbm, 134, rfl⟩
abbrev main_call6_v0 : Ref sig .tc := ⟨.hbm, 135, rfl⟩
abbrev main_call6_v1 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_17 : Ref sig .tc := ⟨.hbm, 142, rfl⟩
abbrev main_v99 : Ref sig .tc := ⟨.hbm, 143, rfl⟩
abbrev main_c_18 : Ref sig .tc := ⟨.hbm, 144, rfl⟩
abbrev main_v100 : Ref sig .tc := ⟨.hbm, 145, rfl⟩
abbrev main_v101 : Ref sig .tc := ⟨.hbm, 146, rfl⟩
abbrev main_c_19 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_20 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_call7_c : Ref sig .tc := ⟨.hbm, 159, rfl⟩
abbrev main_call7_v0 : Ref sig .tc := ⟨.hbm, 160, rfl⟩
abbrev main_call7_v1 : Ref sig .tc := ⟨.hbm, 161, rfl⟩
abbrev main_call7_c_0 : Ref sig .tc := ⟨.hbm, 162, rfl⟩
abbrev main_call7_v2 : Ref sig .tc := ⟨.hbm, 163, rfl⟩
abbrev main_call7_v3 : Ref sig .tc := ⟨.hbm, 164, rfl⟩
abbrev main_call7_v4 : Ref sig .tc := ⟨.hbm, 165, rfl⟩
abbrev main_call7_v5 : Ref sig .tc := ⟨.hbm, 166, rfl⟩
abbrev main_call7_c_1 : Ref sig .tc := ⟨.hbm, 167, rfl⟩
abbrev main_call7_c_2 : Ref sig .tc := ⟨.hbm, 168, rfl⟩
abbrev main_call7_v6 : Ref sig .tc := ⟨.hbm, 169, rfl⟩
abbrev main_call7_v7 : Ref sig .tc := ⟨.hbm, 170, rfl⟩
abbrev main_call7_v8 : Ref sig .tc := ⟨.hbm, 171, rfl⟩
abbrev main_call7_v9 : Ref sig .tc := ⟨.hbm, 172, rfl⟩
abbrev main_call7_v10 : Ref sig .tc := ⟨.hbm, 173, rfl⟩
abbrev main_call7_v11 : Ref sig .tc := ⟨.hbm, 174, rfl⟩
abbrev main_call7_c_3 : Ref sig .tc := ⟨.hbm, 175, rfl⟩
abbrev main_call7_v12 : Ref sig .tc := ⟨.hbm, 176, rfl⟩
abbrev main_call7_v13 : Ref sig .tc := ⟨.hbm, 177, rfl⟩
abbrev main_call7_v14 : Ref sig .tc := ⟨.hbm, 178, rfl⟩
abbrev main_call7_cst : Ref sig .tc := ⟨.hbm, 179, rfl⟩
abbrev main_call7_v15 : Ref sig .tc := ⟨.hbm, 180, rfl⟩
abbrev main_v112 : Ref sig .tc := ⟨.hbm, 181, rfl⟩
abbrev main_v113 : Ref sig .tc := ⟨.hbm, 182, rfl⟩
abbrev main_call8_c : Ref sig .tc := ⟨.hbm, 183, rfl⟩
abbrev main_call8_v0 : Ref sig .tc := ⟨.hbm, 184, rfl⟩
abbrev main_call8_v1 : Ref sig .tc := ⟨.hbm, 185, rfl⟩
abbrev main_call8_c_0 : Ref sig .tc := ⟨.hbm, 186, rfl⟩
abbrev main_call8_v2 : Ref sig .tc := ⟨.hbm, 187, rfl⟩
abbrev main_call8_v3 : Ref sig .tc := ⟨.hbm, 188, rfl⟩
abbrev main_call8_v4 : Ref sig .tc := ⟨.hbm, 189, rfl⟩
abbrev main_call8_v5 : Ref sig .tc := ⟨.hbm, 190, rfl⟩
abbrev main_call8_c_1 : Ref sig .tc := ⟨.hbm, 191, rfl⟩
abbrev main_call8_c_2 : Ref sig .tc := ⟨.hbm, 192, rfl⟩
abbrev main_call8_v6 : Ref sig .tc := ⟨.hbm, 193, rfl⟩
abbrev main_call8_v7 : Ref sig .tc := ⟨.hbm, 194, rfl⟩
abbrev main_call8_v8 : Ref sig .tc := ⟨.hbm, 195, rfl⟩
abbrev main_call8_v9 : Ref sig .tc := ⟨.hbm, 196, rfl⟩
abbrev main_call8_v10 : Ref sig .tc := ⟨.hbm, 197, rfl⟩
abbrev main_call8_v11 : Ref sig .tc := ⟨.hbm, 198, rfl⟩
abbrev main_call8_c_3 : Ref sig .tc := ⟨.hbm, 199, rfl⟩
abbrev main_call8_v12 : Ref sig .tc := ⟨.hbm, 200, rfl⟩
abbrev main_call8_v13 : Ref sig .tc := ⟨.hbm, 201, rfl⟩
abbrev main_call8_v14 : Ref sig .tc := ⟨.hbm, 202, rfl⟩
abbrev main_call8_cst : Ref sig .tc := ⟨.hbm, 203, rfl⟩
abbrev main_call8_v15 : Ref sig .tc := ⟨.hbm, 204, rfl⟩
abbrev main_v114 : Ref sig .tc := ⟨.hbm, 205, rfl⟩
abbrev main_c_21 : Ref sig .tc := ⟨.hbm, 206, rfl⟩
abbrev main_v115 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v116 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v116.idx], fun | 0 => main_v116.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v1 : BitVec 32) : BitVec 1 :=
  let arg0 : BitVec 32 := BitVec.ofNat 32 (i 0).val
  let c1024_i32 : BitVec 32 := 1024#32
  let v0 : BitVec 32 := Scalar.muli arg0 c1024_i32
  let v2 : BitVec 1 := Scalar.cmpi .slt v0 v1
  let v3 : BitVec 32 := Scalar.extui v2
  let c0_i32 : BitVec 32 := 0#32
  let v4 : BitVec 1 := Scalar.cmpi .ne v3 c0_i32
  v4

def k0_cond2 (i : grid0.Coords) (v1 : BitVec 32) : BitVec 1 :=
  let arg0 : BitVec 32 := BitVec.ofNat 32 (i 0).val
  let c1024_i32 : BitVec 32 := 1024#32
  let v0 : BitVec 32 := Scalar.muli arg0 c1024_i32
  let v2 : BitVec 1 := Scalar.cmpi .slt v0 v1
  let v_true : BitVec 1 := 1#1
  let v5 : BitVec 1 := Scalar.xori v2 v_true
  let v6 : BitVec 32 := Scalar.extui v5
  let c0_i32_0 : BitVec 32 := 0#32
  let v7 : BitVec 1 := Scalar.cmpi .ne v6 c0_i32_0
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1023_i32 : BitVec 32 := 1023#32
  let v1 : BitVec 32 := Scalar.addi v0 c1023_i32
  let c1024_i32 : BitVec 32 := 1024#32
  let v2 : BitVec 32 := Scalar.divsi v1 c1024_i32
  let c1_i32 : BitVec 32 := 1#32
  let v3 : BitVec 32 := Scalar.maxsi c1_i32 v2
  let c1_i32_0 : BitVec 32 := 1#32
  let v4 : BitVec 32 := Scalar.subi v3 c1_i32_0
  let v5 : BitVec 32 := Scalar.minsi arg0 v4
  let c0_i32 : BitVec 32 := 0#32
  let c0_i32_1 : BitVec 32 := 0#32
  ![v5.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1023_i32 : BitVec 32 := 1023#32
  let v1 : BitVec 32 := Scalar.addi v0 c1023_i32
  let c1024_i32 : BitVec 32 := 1024#32
  let v2 : BitVec 32 := Scalar.divsi v1 c1024_i32
  let c1_i32 : BitVec 32 := 1#32
  let v3 : BitVec 32 := Scalar.maxsi c1_i32 v2
  let c1_i32_0 : BitVec 32 := 1#32
  let v4 : BitVec 32 := Scalar.subi v3 c1_i32_0
  let v5 : BitVec 32 := Scalar.minsi arg0 v4
  let c0_i32 : BitVec 32 := 0#32
  let c0_i32_1 : BitVec 32 := 0#32
  ![v5.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1023_i32 : BitVec 32 := 1023#32
  let v1 : BitVec 32 := Scalar.addi v0 c1023_i32
  let c1024_i32 : BitVec 32 := 1024#32
  let v2 : BitVec 32 := Scalar.divsi v1 c1024_i32
  let c1_i32 : BitVec 32 := 1#32
  let v3 : BitVec 32 := Scalar.maxsi c1_i32 v2
  let c1_i32_0 : BitVec 32 := 1#32
  let v4 : BitVec 32 := Scalar.subi v3 c1_i32_0
  let v5 : BitVec 32 := Scalar.minsi arg0 v4
  let c0_i32 : BitVec 32 := 0#32
  let c0_i32_1 : BitVec 32 := 0#32
  ![v5.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1023_i32 : BitVec 32 := 1023#32
  let v1 : BitVec 32 := Scalar.addi v0 c1023_i32
  let c1024_i32 : BitVec 32 := 1024#32
  let v2 : BitVec 32 := Scalar.divsi v1 c1024_i32
  let c1_i32 : BitVec 32 := 1#32
  let v3 : BitVec 32 := Scalar.maxsi c1_i32 v2
  let c1_i32_0 : BitVec 32 := 1#32
  let v4 : BitVec 32 := Scalar.subi v3 c1_i32_0
  let v5 : BitVec 32 := Scalar.minsi arg0 v4
  let c0_i32 : BitVec 32 := 0#32
  let c0_i32_1 : BitVec 32 := 0#32
  ![v5.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S1024_S1x1024_1 : S1024.BroadcastsInDim S1x1024 (![1] : Fin 1 → Fin S1x1024.rank)
  bcast_S16_S16x1_0 : S16.BroadcastsInDim S16x1 (![0] : Fin 1 → Fin S16x1.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  natLt_1_32 : 1 < 32
  reducesTo_S16x1024_S16_d1 : S16x1024.ReducesTo [1] S16
  h_S_ : 0 < S_.numel
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  slices_S16_S15_0 : S16.Slices ![0] S15
  concatenates_S1_S15_S16_d0 : Shape.Concatenates [S1, S15] S16 0
  bcast_S16_S16x1024_0 : S16.BroadcastsInDim S16x1024 (![0] : Fin 1 → Fin S16x1024.rank)
  bcast_S1024_S16x1024_1 : S1024.BroadcastsInDim S16x1024 (![1] : Fin 1 → Fin S16x1024.rank)
  bcast_S_S16x1024 : S_.BroadcastsInDim S16x1024 (![] : Fin 0 → Fin S16x1024.rank)
  shapeCasts_S16x1024_S16384 : S16x1024.ShapeCasts S16384
  bcast_S_S16385 : S_.BroadcastsInDim S16385 (![] : Fin 0 → Fin S16385.rank)
  bcast_S16x1024_S16x1024x1_0_1 : S16x1024.BroadcastsInDim S16x1024x1 (![0, 1] : Fin 2 → Fin S16x1024x1.rank)
  bcast_S_S16384 : S_.BroadcastsInDim S16384 (![] : Fin 0 → Fin S16384.rank)
  bcast_S16384_S16384x1_0 : S16384.BroadcastsInDim S16384x1 (![0] : Fin 1 → Fin S16384x1.rank)
  slices_S16385_S16384_0 : S16385.Slices ![0] S16384
  reduceWindows_S1024_S1024_w1024s1p1023_0 : S1024.ReduceWindows (![1024] : Fin 1 → Nat) ![1] ![1023] ![0] S1024
  slices_S1024_S1023_0 : S1024.Slices ![0] S1023
  concatenates_S1_S1023_S1024_d0 : Shape.Concatenates [S1, S1023] S1024 0
  bcast_S1024_S1024x16_0 : S1024.BroadcastsInDim S1024x16 (![0] : Fin 1 → Fin S1024x16.rank)
  bcast_S16_S1024x16_1 : S16.BroadcastsInDim S1024x16 (![1] : Fin 1 → Fin S1024x16.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  bcast_S_S1024x16 : S_.BroadcastsInDim S1024x16 (![] : Fin 0 → Fin S1024x16.rank)
  shapeCasts_S1024x16_S16384 : S1024x16.ShapeCasts S16384
  shapeCasts_S1024x16x1024_S16384x1024 : S1024x16x1024.ShapeCasts S16384x1024
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x1024_0 : S16384.BroadcastsInDim S16384x1024 (![0] : Fin 1 → Fin S16384x1024.rank)
  bcast_S_S16384x1024 : S_.BroadcastsInDim S16384x1024 (![] : Fin 0 → Fin S16384x1024.rank)
  shapeCasts_S1024x16x32_S16384x32 : S1024x16x32.ShapeCasts S16384x32
  bcast_S16384_S16384x32_0 : S16384.BroadcastsInDim S16384x32 (![0] : Fin 1 → Fin S16384x32.rank)
  bcast_S_S16384x32 : S_.BroadcastsInDim S16384x32 (![] : Fin 0 → Fin S16384x32.rank)
  reducesTo_S1024_S_d0 : S1024.ReducesTo [0] S_
  shapeCasts_S_S1 : S_.ShapeCasts S1
  shapeCasts_S16384_S16384x1 : S16384.ShapeCasts S16384x1
  shapeCasts_S1024_S1x1024 : S1024.ShapeCasts S1x1024
  shapeCasts_S32_S1x32 : S32.ShapeCasts S1x32
  transposes_S2048x1056_S1056x2048_1_0 : S2048x1056.Transposes [1, 0] S1056x2048
  slices_S1056x2048_S1024x2048_0_0 : S1056x2048.Slices ![0, 0] S1024x2048
  bitsLt_bf16_f32 : FTy.bits .bf16 < FTy.bits .f32
  slices_S1056x2048_S32x2048_1024_0 : S1056x2048.Slices ![1024, 0] S32x2048
  shapeCasts_S2048_S1x2048 : S2048.ShapeCasts S1x2048
  inb_S1_S1_0 : ∀ a, (![0] : Fin 1 → Nat) a + S1.size a ≤ S1.size a
  numel1_S1 : S1.numel = 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  reduces_S1024x1024_S1024 : S1024x1024.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  iota_S1024x32_d1_w32 : S1024x32.Iotas .tc 32 [1]
  broadcasts_S1024x1_S1024x32 : S1024x1.Broadcasts S1024x32
  reduces_S1024x32_S1024 : S1024x32.Reduces [1] S1024
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  iota_S1024x1_d0_w32 : S1024x1.Iotas .tc 32 [0]
  broadcasts_S1024x1_S1024x2048 : S1024x1.Broadcasts S1024x2048
  gather_S1024_S16x1024x1_S16x1024_n_0_n_n_0_2_1_wf : GatherDims.WF S1024 S16x1024x1 S16x1024 [] [0] [] [0] [] 2 ![1]
  scatter_S16385_S16384x1_S16384_n_0_0_1_wf : ScatterDims.WF S16385 S16384x1 S16384 [] [0] [0] 1
  gather_S16384x1024_S16384x1_S16384x1024_1_0_n_n_0_1_11024_wf : GatherDims.WF S16384x1024 S16384x1 S16384x1024 [1] [0] [] [0] [] 1 ![1, 1024]
  gather_S16384x32_S16384x1_S16384x32_1_0_n_n_0_1_132_wf : GatherDims.WF S16384x32 S16384x1 S16384x32 [1] [0] [] [0] [] 1 ![1, 32]
  dot_S1024x1024_S1024x2048_S1024x2048_1_0_0_1_n_n_wf : DotDims.WF S1024x1024 S1024x2048 S1024x2048 [1] [0] [0] [1] [] []
  dot_S1024x32_S32x2048_S1024x2048_1_0_0_1_n_n_wf : DotDims.WF S1024x32 S32x2048 S1024x2048 [1] [0] [0] [1] [] []
  hrank0 : 0 < grid0.rank
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 inb_S1_S1_0 numel1_S1 pf i = cc0_transform_0 inb_S1_S1_0 numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 inb_S1_S1_0 numel1_S1 pf i = cc0_transform_1 inb_S1_S1_0 numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 inb_S1_S1_0 numel1_S1 pf i = cc0_transform_2 inb_S1_S1_0 numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 inb_S1_S1_0 numel1_S1 pf i = cc0_transform_3 inb_S1_S1_0 numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2048.size a ≤ S1024x2048.size a
  hwx0_8 : ∀ i : grid0.Coords, EltTy.bits .bf16 = 32 ∨ (Rect.block (s := S1024x2048) S1024x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x2048.size a ≤ S32x2048.size a
  hwx0_9 : ∀ i : grid0.Coords, EltTy.bits .bf16 = 32 ∨ (Rect.block (s := S32x2048) S32x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x2048.size a ≤ S16384x2048.size a
  hwx0_11 : ∀ i : grid0.Coords, EltTy.bits .f32 = 32 ∨ (Rect.block (s := S16384x2048) S1024x2048.size (cc0_transform_11 i) (hinb0_11 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1024_S16x1024x1_S16x1024_n_0_n_n_0_2_1 : GatherDims S1024 S16x1024x1 S16x1024 where
  offsetDims := []
  collapsedSliceDims := [0]
  operandBatchingDims := []
  startIndicesBatchingDims := []
  startIndexMap := [0]
  indexVectorDim := 2
  sliceSizes := ![1]
  wf := gather_S1024_S16x1024x1_S16x1024_n_0_n_n_0_2_1_wf
def scatter_S16385_S16384x1_S16384_n_0_0_1 : ScatterDims S16385 S16384x1 S16384 where
  updateWindowDims := []
  insertedWindowDims := [0]
  scatterDimsToOperandDims := [0]
  indexVectorDim := 1
  wf := scatter_S16385_S16384x1_S16384_n_0_0_1_wf
def gather_S16384x1024_S16384x1_S16384x1024_1_0_n_n_0_1_11024 : GatherDims S16384x1024 S16384x1 S16384x1024 where
  offsetDims := [1]
  collapsedSliceDims := [0]
  operandBatchingDims := []
  startIndicesBatchingDims := []
  startIndexMap := [0]
  indexVectorDim := 1
  sliceSizes := ![1, 1024]
  wf := gather_S16384x1024_S16384x1_S16384x1024_1_0_n_n_0_1_11024_wf
def gather_S16384x32_S16384x1_S16384x32_1_0_n_n_0_1_132 : GatherDims S16384x32 S16384x1 S16384x32 where
  offsetDims := [1]
  collapsedSliceDims := [0]
  operandBatchingDims := []
  startIndicesBatchingDims := []
  startIndexMap := [0]
  indexVectorDim := 1
  sliceSizes := ![1, 32]
  wf := gather_S16384x32_S16384x1_S16384x32_1_0_n_n_0_1_132_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x32_S32x2048_S1024x2048_1_0_0_1_n_n : DotDims S1024x32 S32x2048 S1024x2048 where
  lhsContracting := [1]
  rhsContracting := [0]
  lhsNonContracting := [0]
  rhsNonContracting := [1]
  lhsBatch := []
  rhsBatch := []
  wf := dot_S1024x32_S32x2048_S1024x2048_1_0_0_1_n_n_wf

abbrev spec0_0 : Pipeline.WinSpec sig grid0.rank :=
  Pipeline.WinSpec.ofSpec (Memref.whole main_v112) S1024x1024.size reads0_0 false false 2 stage0_0 sem0_0 nbuf0_0 hstage0_0

abbrev spec0_1 : Pipeline.WinSpec sig grid0.rank :=
  Pipeline.WinSpec.ofSpec (Memref.whole main_v114) S1024x32.size reads0_1 false false 2 stage0_1 sem0_1 nbuf0_1 hstage0_1

abbrev spec0_2 : Pipeline.WinSpec sig grid0.rank :=
  Pipeline.WinSpec.ofSpec (Memref.whole main_v117) S1024x1.size reads0_2 false false 2 stage0_2 sem0_2 nbuf0_2 hstage0_2

abbrev spec0_3 : Pipeline.WinSpec sig grid0.rank :=
  Pipeline.WinSpec.ofSpec (Memref.whole main_v118) S1024x1.size reads0_3 false false 2 stage0_3 sem0_3 nbuf0_3 hstage0_3

abbrev spec0_4 : Pipeline.WinSpec sig grid0.rank :=
  Pipeline.WinSpec.ofSpec (Memref.whole main_v119) S1x1024.size reads0_4 false true 1 stage0_4 sem0_4 nbuf0_4 hstage0_4

abbrev spec0_5 : Pipeline.WinSpec sig grid0.rank :=
  Pipeline.WinSpec.ofSpec (Memref.whole main_v120) S1x1024.size reads0_5 false true 1 stage0_5 sem0_5 nbuf0_5 hstage0_5

abbrev spec0_6 : Pipeline.WinSpec sig grid0.rank :=
  Pipeline.WinSpec.ofSpec (Memref.whole main_v121) S1x32.size reads0_6 false true 1 stage0_6 sem0_6 nbuf0_6 hstage0_6

abbrev spec0_7 : Pipeline.WinSpec sig grid0.rank :=
  Pipeline.WinSpec.ofSpec (Memref.whole main_v122) S1x32.size reads0_7 false true 1 stage0_7 sem0_7 nbuf0_7 hstage0_7

abbrev spec0_8 : Pipeline.WinSpec sig grid0.rank :=
  Pipeline.WinSpec.ofSpec (Memref.whole main_v125) S1024x2048.size reads0_8 false true 1 stage0_8 sem0_8 nbuf0_8 hstage0_8

abbrev spec0_9 : Pipeline.WinSpec sig grid0.rank :=
  Pipeline.WinSpec.ofSpec (Memref.whole main_v127) S32x2048.size reads0_9 false true 1 stage0_9 sem0_9 nbuf0_9 hstage0_9

abbrev spec0_10 : Pipeline.WinSpec sig grid0.rank :=
  Pipeline.WinSpec.ofSpec (Memref.whole main_v128) S1x2048.size reads0_10 false true 1 stage0_10 sem0_10 nbuf0_10 hstage0_10

abbrev spec0_11 : Pipeline.WinSpec sig grid0.rank :=
  Pipeline.WinSpec.ofSpec (Memref.whole main_v129) S1024x2048.size reads0_11 true false 2 stage0_11 sem0_11 nbuf0_11 hstage0_11

abbrev spec0 : Fin 12 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | ⟨_ + 12, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | ⟨_ + 12, h⟩ => absurd h (Nat.not_lt.2 (Nat.le_add_left _ _))
abbrev ix0 (pf : pre0.Contents (Elt F)) : (w : Fin 12) → grid0.Coords → Fin (spec0 w).shape.rank → Nat := fun | 0 => cc0_transform_0 inb_S1_S1_0 numel1_S1 pf | 1 => cc0_transform_1 inb_S1_S1_0 numel1_S1 pf | 2 => cc0_transform_2 inb_S1_S1_0 numel1_S1 pf | 3 => cc0_transform_3 inb_S1_S1_0 numel1_S1 pf | 4 => cc0_transform_4 | 5 => cc0_transform_5 | 6 => cc0_transform_6 | 7 => cc0_transform_7 | 8 => cc0_transform_8 | 9 => cc0_transform_9 | 10 => cc0_transform_10 | 11 => cc0_transform_11 | ⟨_ + 12, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | 5 => hreads0_5 | 6 => hreads0_6 | 7 => hreads0_7 | 8 => hreads0_8 | 9 => hreads0_9 | 10 => hreads0_10 | 11 => hreads0_11 | ⟨_ + 12, h⟩ => absurd h (Nat.not_lt.2 (Nat.le_add_left _ _))
def ok0 (pf : pre0.Contents (Elt F)) : Prop :=
  (∀ i : grid0.Coords, ∃ h : (∀ a, (cc0_transform_0 inb_S1_S1_0 numel1_S1 pf i a + 1) * S1024x1024.size a ≤ S16384x1024.size a), EltTy.bits .f32 = 32 ∨ (Rect.block (s := S16384x1024) S1024x1024.size (cc0_transform_0 inb_S1_S1_0 numel1_S1 pf i) h).WholeWords (EltTy.packing .f32)) ∧
  (∀ i : grid0.Coords, ∃ h : (∀ a, (cc0_transform_1 inb_S1_S1_0 numel1_S1 pf i a + 1) * S1024x32.size a ≤ S16384x32.size a), EltTy.bits .f32 = 32 ∨ (Rect.block (s := S16384x32) S1024x32.size (cc0_transform_1 inb_S1_S1_0 numel1_S1 pf i) h).WholeWords (EltTy.packing .f32)) ∧
  (∀ i : grid0.Coords, ∃ h : (∀ a, (cc0_transform_2 inb_S1_S1_0 numel1_S1 pf i a + 1) * S1024x1.size a ≤ S16384x1.size a), EltTy.bits .i32 = 32 ∨ (Rect.block (s := S16384x1) S1024x1.size (cc0_transform_2 inb_S1_S1_0 numel1_S1 pf i) h).WholeWords (EltTy.packing .i32)) ∧
  (∀ i : grid0.Coords, ∃ h : (∀ a, (cc0_transform_3 inb_S1_S1_0 numel1_S1 pf i a + 1) * S1024x1.size a ≤ S16384x1.size a), EltTy.bits .i32 = 32 ∨ (Rect.block (s := S16384x1) S1024x1.size (cc0_transform_3 inb_S1_S1_0 numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | 5 => hinb0_5 | 6 => hinb0_6 | 7 => hinb0_7 | 8 => hinb0_8 | 9 => hinb0_9 | 10 => hinb0_10 | 11 => hinb0_11 | ⟨_ + 12, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | 5 => hwx0_5 | 6 => hwx0_6 | 7 => hwx0_7 | 8 => hwx0_8 | 9 => hwx0_9 | 10 => hwx0_10 | 11 => hwx0_11 | ⟨_ + 12, h⟩ => absurd h (Nat.not_lt.2 (Nat.le_add_left _ _))
abbrev idle0 (pf : pre0.Contents (Elt F)) : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond1 i (pf.atD 0 ![0]) == 1#1) && !(k0_cond2 i (pf.atD 0 ![0]) == 1#1) | ⟨_ + 12, h⟩ => absurd h (Nat.not_lt.2 (Nat.le_add_left _ _))

class Facts : Prop extends Facts₀ where
  harr0 : ∀ w, (spec0 w).arr.IsWhole

variable [Facts]
-- ==== ReferenceIdeal.lean ====
abbrev S1024x16x1024 : Shape := ⟨3, ![1024, 16, 1024]⟩
abbrev S1024x16x32 : Shape := ⟨3, ![1024, 16, 32]⟩
abbrev S1024 : Shape := ⟨1, ![1024]⟩
abbrev S32 : Shape := ⟨1, ![32]⟩
abbrev S2048x1056 : Shape := ⟨2, ![2048, 1056]⟩
abbrev S2048 : Shape := ⟨1, ![2048]⟩
abbrev S16 : Shape := ⟨1, ![16]⟩
abbrev S1x1024 : Shape := ⟨2, ![1, 1024]⟩
abbrev S16x1 : Shape := ⟨2, ![16, 1]⟩
abbrev S16x1024 : Shape := ⟨2, ![16, 1024]⟩
abbrev S_ : Shape := ⟨0, ![]⟩
abbrev S1 : Shape := ⟨1, ![1]⟩
abbrev S15 : Shape := ⟨1, ![15]⟩
abbrev S16384 : Shape := ⟨1, ![16384]⟩
abbrev S16385 : Shape := ⟨1, ![16385]⟩
abbrev S16x1024x1 : Shape := ⟨3, ![16, 1024, 1]⟩
abbrev S16384x1 : Shape := ⟨2, ![16384, 1]⟩
abbrev S1023 : Shape := ⟨1, ![1023]⟩
abbrev S1024x16 : Shape := ⟨2, ![1024, 16]⟩
abbrev S1024x1 : Shape := ⟨2, ![1024, 1]⟩
abbrev S16384x2 : Shape := ⟨2, ![16384, 2]⟩
abbrev S16384x1024 : Shape := ⟨2, ![16384, 1024]⟩
abbrev S16384x32 : Shape := ⟨2, ![16384, 32]⟩
abbrev S1x32 : Shape := ⟨2, ![1, 32]⟩
abbrev S16384x1056 : Shape := ⟨2, ![16384, 1056]⟩
abbrev S1056x2048 : Shape := ⟨2, ![1056, 2048]⟩
abbrev S16384x2048 : Shape := ⟨2, ![16384, 2048]⟩
abbrev S1x2048 : Shape := ⟨2, ![1, 2048]⟩

abbrev nBuf : Space → Nat
  | .hbm => 274
  | .vmem => 0
  | .smem => 0
  | _ => 0

abbrev hbmTy0_0 (i : Nat) : BufTy := match i % 128 with
  | 0 => ⟨S1024x16x1024, .f32⟩
  | 1 => ⟨S1024x16x32, .f32⟩
  | 2 => ⟨S1024, .i32⟩
  | 3 => ⟨S1024, .i32⟩
  | 4 => ⟨S1024, .i32⟩
  | 5 => ⟨S1024, .f32⟩
  | 6 => ⟨S1024, .f32⟩
  | 7 => ⟨S32, .f32⟩
  | 8 => ⟨S32, .f32⟩
  | 9 => ⟨S2048x1056, .f32⟩
  | 10 => ⟨S2048, .f32⟩
  | 11 => ⟨S1024, .i32⟩
  | 12 => ⟨S1024, .i32⟩
  | 13 => ⟨S1024, .i32⟩
  | 14 => ⟨S1024, .i32⟩
  | 15 => ⟨S16, .i32⟩
  | 16 => ⟨S1x1024, .i32⟩
  | 17 => ⟨S16x1, .i32⟩
  | 18 => ⟨S16x1024, .i32⟩
  | 19 => ⟨S16x1024, .i32⟩
  | 20 => ⟨S16x1024, .i1⟩
  | 21 => ⟨S16x1024, .i32⟩
  | 22 => ⟨S_, .i32⟩
  | 23 => ⟨S16, .i32⟩
  | 24 => ⟨S_, .i32⟩
  | 25 => ⟨S1, .i32⟩
  | 26 => ⟨S_, .i32⟩
  | 27 => ⟨S_, .i32⟩
  | 28 => ⟨S16, .i32⟩
  | 29 => ⟨S15, .i32⟩
  | 30 => ⟨S16, .i32⟩
  | 31 => ⟨S1024, .i32⟩
  | 32 => ⟨S16x1024, .i32⟩
  | 33 => ⟨S16x1024, .i32⟩
  | 34 => ⟨S16x1, .i32⟩
  | 35 => ⟨S16x1024, .i32⟩
  | 36 => ⟨S16x1024, .i1⟩
  | 37 => ⟨S16x1, .i32⟩
  | 38 => ⟨S16x1024, .i32⟩
  | 39 => ⟨S16x1024, .i32⟩
  | 40 => ⟨S_, .i32⟩
  | 41 => ⟨S_, .i32⟩
  | 42 => ⟨S16x1024, .i32⟩
  | 43 => ⟨S16x1024, .i32⟩
  | 44 => ⟨S16384, .i32⟩
  | 45 => ⟨S_, .i32⟩
  | 46 => ⟨S16385, .i32⟩
  | 47 => ⟨S_, .i32⟩
  | 48 => ⟨S16x1024, .i32⟩
  | 49 => ⟨S16x1024, .i1⟩
  | 50 => ⟨S_, .i32⟩
  | 51 => ⟨S16x1024, .i32⟩
  | 52 => ⟨S16x1024, .i32⟩
  | 53 => ⟨S16x1024, .i32⟩
  | 54 => ⟨S16x1024x1, .i32⟩
  | 55 => ⟨S16x1024, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i32⟩
  | 63 => ⟨S16384, .i32⟩
  | 64 => ⟨S16384x1, .i32⟩
  | 65 => ⟨S16385, .i32⟩
  | 66 => ⟨S16384, .i32⟩
  | 67 => ⟨S_, .i32⟩
  | 68 => ⟨S16385, .i32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S16385, .i32⟩
  | 79 => ⟨S16384, .i32⟩
  | 80 => ⟨S_, .i32⟩
  | 81 => ⟨S1, .i32⟩
  | 82 => ⟨S_, .i32⟩
  | 83 => ⟨S_, .i32⟩
  | 84 => ⟨S1024, .i32⟩
  | 85 => ⟨S1023, .i32⟩
  | 86 => ⟨S1024, .i32⟩
  | 87 => ⟨S1024, .i32⟩
  | 88 => ⟨S16, .i32⟩
  | 89 => ⟨S1024x16, .i32⟩
  | 90 => ⟨S1024x16, .i32⟩
  | 91 => ⟨S1024x1, .i32⟩
  | 92 => ⟨S1024x16, .i32⟩
  | 93 => ⟨S1024x16, .i1⟩
  | 94 => ⟨S1024x1, .i32⟩
  | 95 => ⟨S1024x16, .i32⟩
  | 96 => ⟨S1024x16, .i32⟩
  | 97 => ⟨S_, .i32⟩
  | 98 => ⟨S_, .i32⟩
  | 99 => ⟨S1024x16, .i32⟩
  | 100 => ⟨S1024x16, .i32⟩
  | 101 => ⟨S16384, .i32⟩
  | 102 => ⟨S1024x1, .i32⟩
  | 103 => ⟨S1024x16, .i32⟩
  | 104 => ⟨S16384, .i32⟩
  | 105 => ⟨S_, .i32⟩
  | 106 => ⟨S16385, .i32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S16385, .i32⟩
  | 116 => ⟨S16384, .i32⟩
  | 117 => ⟨S_, .i32⟩
  | 118 => ⟨S1, .i32⟩
  | 119 => ⟨S_, .i32⟩
  | 120 => ⟨S_, .i32⟩
  | 121 => ⟨S1024, .i32⟩
  | 122 => ⟨S1023, .i32⟩
  | 123 => ⟨S1024, .i32⟩
  | 124 => ⟨S1024, .i32⟩
  | 125 => ⟨S16, .i32⟩
  | 126 => ⟨S1024x16, .i32⟩
  | 127 => ⟨S1024x16, .i32⟩
  | _ => ⟨S1024x16x1024, .f32⟩

abbrev hbmTy0_1 (i : Nat) : BufTy := match i % 128 with
  | 0 => ⟨S1024x1, .i32⟩
  | 1 => ⟨S1024x16, .i32⟩
  | 2 => ⟨S1024x16, .i1⟩
  | 3 => ⟨S1024x1, .i32⟩
  | 4 => ⟨S1024x16, .i32⟩
  | 5 => ⟨S1024x16, .i32⟩
  | 6 => ⟨S_, .i32⟩
  | 7 => ⟨S_, .i32⟩
  | 8 => ⟨S1024x16, .i32⟩
  | 9 => ⟨S1024x16, .i32⟩
  | 10 => ⟨S16384, .i32⟩
  | 11 => ⟨S1024x1, .i32⟩
  | 12 => ⟨S1024x16, .i32⟩
  | 13 => ⟨S16384, .i32⟩
  | 14 => ⟨S_, .i32⟩
  | 15 => ⟨S16385, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S16385, .i32⟩
  | 25 => ⟨S16384, .i32⟩
  | 26 => ⟨S_, .i32⟩
  | 27 => ⟨S16384, .i32⟩
  | 28 => ⟨S16384, .i1⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S16384x1, .i32⟩
  | 42 => ⟨S16384x2, .i32⟩
  | 43 => ⟨S16384x1024, .f32⟩
  | 44 => ⟨S1024, .i32⟩
  | 45 => ⟨S1x1024, .i32⟩
  | 46 => ⟨S16384x1, .i32⟩
  | 47 => ⟨S16384x1024, .i32⟩
  | 48 => ⟨S16384x1024, .i32⟩
  | 49 => ⟨S16384x1024, .i1⟩
  | 50 => ⟨S_, .f32⟩
  | 51 => ⟨S_, .f32⟩
  | 52 => ⟨S16384x1024, .f32⟩
  | 53 => ⟨S16384x1024, .f32⟩
  | 54 => ⟨S_, .f32⟩
  | 55 => ⟨S16384, .f32⟩
  | 56 => ⟨S16384, .f32⟩
  | 57 => ⟨S16384x1, .f32⟩
  | 58 => ⟨S1x1024, .f32⟩
  | 59 => ⟨S16384x1024, .f32⟩
  | 60 => ⟨S16384x1024, .f32⟩
  | 61 => ⟨S16384x1024, .f32⟩
  | 62 => ⟨S16384x1, .f32⟩
  | 63 => ⟨S1x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S16384x1, .i32⟩
  | 92 => ⟨S16384x2, .i32⟩
  | 93 => ⟨S16384x32, .f32⟩
  | 94 => ⟨S32, .i32⟩
  | 95 => ⟨S1x32, .i32⟩
  | 96 => ⟨S16384x1, .i32⟩
  | 97 => ⟨S16384x32, .i32⟩
  | 98 => ⟨S16384x32, .i32⟩
  | 99 => ⟨S16384x32, .i1⟩
  | 100 => ⟨S_, .f32⟩
  | 101 => ⟨S_, .f32⟩
  | 102 => ⟨S16384x32, .f32⟩
  | 103 => ⟨S16384x32, .f32⟩
  | 104 => ⟨S_, .f32⟩
  | 105 => ⟨S16384, .f32⟩
  | 106 => ⟨S16384, .f32⟩
  | 107 => ⟨S16384x1, .f32⟩
  | 108 => ⟨S1x32, .f32⟩
  | 109 => ⟨S16384x32, .f32⟩
  | 110 => ⟨S16384x32, .f32⟩
  | 111 => ⟨S16384x32, .f32⟩
  | 112 => ⟨S16384x1, .f32⟩
  | 113 => ⟨S1x32, .f32⟩
  | 114 => ⟨S16384x32, .f32⟩
  | 115 => ⟨S16384x32, .f32⟩
  | 116 => ⟨S16384x32, .f32⟩
  | 117 => ⟨S16384x32, .f32⟩
  | 118 => ⟨S16384x32, .f32⟩
  | 119 => ⟨S16384x32, .f32⟩
  | 120 => ⟨S_, .f32⟩
  | 121 => ⟨S16384x32, .f32⟩
  | 122 => ⟨S16384x32, .f32⟩
  | 123 => ⟨S_, .f32⟩
  | 124 => ⟨S16384x32, .f32⟩
  | 125 => ⟨S16384x32, .f32⟩
  | 126 => ⟨S16384x1056, .f32⟩
  | 127 => ⟨S1056x2048, .f32⟩
  | _ => ⟨S1024x16x1024, .f32⟩

abbrev hbmTy0_2 (i : Nat) : BufTy := match i % 128 with
  | 0 => ⟨S16384x2048, .f32⟩
  | 1 => ⟨S1x2048, .f32⟩
  | 2 => ⟨S16384x2048, .f32⟩
  | 3 => ⟨S16384x2048, .f32⟩
  | 4 => ⟨S_, .f32⟩
  | 5 => ⟨S16384x2048, .f32⟩
  | 6 => ⟨S16384x2048, .f32⟩
  | 7 => ⟨S_, .i32⟩
  | 8 => ⟨S_, .i32⟩
  | 9 => ⟨S16384, .i32⟩
  | 10 => ⟨S16384, .i32⟩
  | 11 => ⟨S16384, .i1⟩
  | 12 => ⟨S16384x1, .i1⟩
  | 13 => ⟨S_, .f32⟩
  | 14 => ⟨S_, .f32⟩
  | 15 => ⟨S16384x2048, .i1⟩
  | 16 => ⟨S16384x2048, .f32⟩
  | 17 => ⟨S16384x2048, .f32⟩
  | _ => ⟨S1024x16x1024, .f32⟩

abbrev hbmTy (i : Nat) : BufTy := match i / 128 with
  | 0 => hbmTy0_0 i
  | 1 => hbmTy0_1 i
  | 2 => hbmTy0_2 i
  | _ => ⟨S1024x16x1024, .f32⟩

abbrev bufTy : (tb : Table) → Fin (tcTables nBuf tb) → BufTy
  | .hbm, ⟨i, _⟩ => hbmTy i
  | _, _ => ⟨S1024x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_v0 : Ref sig .tc := ⟨.hbm, 12, rfl⟩
abbrev main_call0_v1_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_call1_call0_c : Ref sig .tc := ⟨.hbm, 26, rfl⟩
abbrev main_call1_call0_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_1 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_v24 : Ref sig .tc := ⟨.hbm, 44, rfl⟩
abbrev main_c_2 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_c_8 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_call3_call0_c : Ref sig .tc := ⟨.hbm, 82, rfl⟩
abbrev main_call3_call0_v0 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_call4_v0 : Ref sig .tc := ⟨.hbm, 98, rfl⟩
abbrev main_call4_v1 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_12 : Ref sig .tc := ⟨.hbm, 105, rfl⟩
abbrev main_v71 : Ref sig .tc := ⟨.hbm, 106, rfl⟩
abbrev main_c_13 : Ref sig .tc := ⟨.hbm, 107, rfl⟩
abbrev main_v72 : Ref sig .tc := ⟨.hbm, 108, rfl⟩
abbrev main_v73 : Ref sig .tc := ⟨.hbm, 109, rfl⟩
abbrev main_c_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_15 : Ref sig .tc := ⟨.hbm, 117, rfl⟩
abbrev main_v80 : Ref sig .tc := ⟨.hbm, 118, rfl⟩
abbrev main_call5_call0_c : Ref sig .tc := ⟨.hbm, 119, rfl⟩
abbrev main_call5_call0_v0 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_16 : Ref sig .tc := ⟨.hbm, 134, rfl⟩
abbrev main_call6_v0 : Ref sig .tc := ⟨.hbm, 135, rfl⟩
abbrev main_call6_v1 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_17 : Ref sig .tc := ⟨.hbm, 142, rfl⟩
abbrev main_v99 : Ref sig .tc := ⟨.hbm, 143, rfl⟩
abbrev main_c_18 : Ref sig .tc := ⟨.hbm, 144, rfl⟩
abbrev main_v100 : Ref sig .tc := ⟨.hbm, 145, rfl⟩
abbrev main_v101 : Ref sig .tc := ⟨.hbm, 146, rfl⟩
abbrev main_c_19 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_20 : Ref sig .tc := ⟨.hbm, 154, rfl⟩
abbrev main_v108 : Ref sig .tc := ⟨.hbm, 155, rfl⟩
abbrev main_v109 : Ref sig .tc := ⟨.hbm, 156, rfl⟩
abbrev main_c_21 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_c_22 : Ref sig .tc := ⟨.hbm, 161, rfl⟩
abbrev main_v113 : Ref sig .tc := ⟨.hbm, 162, rfl⟩
abbrev main_v114 : Ref sig .tc := ⟨.hbm, 163, rfl⟩
abbrev main_c_23 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst : Ref sig .tc := ⟨.hbm, 178, rfl⟩
abbrev main_call7_v0 : Ref sig .tc := ⟨.hbm, 179, rfl⟩
abbrev main_call7_v1 : Ref sig .tc := ⟨.hbm, 180, rfl⟩
abbrev main_v128 : Ref sig .tc := ⟨.hbm, 181, rfl⟩
abbrev main_cst_24 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_25 : Ref sig .tc := ⟨.hbm, 198, rfl⟩
abbrev main_v144 : Ref sig .tc := ⟨.hbm, 199, rfl⟩
abbrev main_v145 : Ref sig .tc := ⟨.hbm, 200, rfl⟩
abbrev main_cst_26 : Ref sig .tc := ⟨.hbm, 201, rfl⟩
abbrev main_v146 : Ref sig .tc := ⟨.hbm, 202, rfl⟩
abbrev main_v147 : Ref sig .tc := ⟨.hbm, 203, rfl⟩
abbrev main_c_27 : Ref sig .tc := ⟨.hbm, 204, rfl⟩
abbrev main_v148 : Ref sig .tc := ⟨.hbm, 205, rfl⟩
abbrev main_v149 : Ref sig .tc := ⟨.hbm, 206, rfl⟩
abbrev main_c_28 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_c_29 : Ref sig .tc := ⟨.hbm, 211, rfl⟩
abbrev main_v153 : Ref sig .tc := ⟨.hbm, 212, rfl⟩
abbrev main_v154 : Ref sig .tc := ⟨.hbm, 213, rfl⟩
abbrev main_c_30 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_31 : Ref sig .tc := ⟨.hbm, 228, rfl⟩
abbrev main_call8_v0 : Ref sig .tc := ⟨.hbm, 229, rfl⟩
abbrev main_call8_v1 : Ref sig .tc := ⟨.hbm, 230, rfl⟩
abbrev main_v168 : Ref sig .tc := ⟨.hbm, 231, rfl⟩
abbrev main_cst_32 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_33 : Ref sig .tc := ⟨.hbm, 248, rfl⟩
abbrev main_v184 : Ref sig .tc := ⟨.hbm, 249, rfl⟩
abbrev main_v185 : Ref sig .tc := ⟨.hbm, 250, rfl⟩
abbrev main_cst_34 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_call9_cst : Ref sig .tc := ⟨.hbm, 260, rfl⟩
abbrev main_call9_v0 : Ref sig .tc := ⟨.hbm, 261, rfl⟩
abbrev main_v194 : Ref sig .tc := ⟨.hbm, 262, rfl⟩
abbrev main_c_35 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_cst_36 : Ref sig .tc := ⟨.hbm, 269, rfl⟩
abbrev main_call10_v0 : Ref sig .tc := ⟨.hbm, 270, rfl⟩
abbrev main_call10_v1 : Ref sig .tc := ⟨.hbm, 271, rfl⟩
abbrev main_call10_v2 : Ref sig .tc := ⟨.hbm, 272, rfl⟩
abbrev main_v200 : Ref sig .tc := ⟨.hbm, 273, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S16_S16x1_0 : S16.BroadcastsInDim S16x1 (![0] : Fin 1 → Fin S16x1.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  natLt_1_32 : 1 < 32
  reducesTo_S16x1024_S16_d1 : S16x1024.ReducesTo [1] S16
  h_S_ : 0 < S_.numel
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  slices_S16_S15_0 : S16.Slices ![0] S15
  concatenates_S1_S15_S16_d0 : Shape.Concatenates [S1, S15] S16 0
  bcast_S16_S16x1024_0 : S16.BroadcastsInDim S16x1024 (![0] : Fin 1 → Fin S16x1024.rank)
  bcast_S1024_S16x1024_1 : S1024.BroadcastsInDim S16x1024 (![1] : Fin 1 → Fin S16x1024.rank)
  bcast_S_S16x1024 : S_.BroadcastsInDim S16x1024 (![] : Fin 0 → Fin S16x1024.rank)
  shapeCasts_S16x1024_S16384 : S16x1024.ShapeCasts S16384
  bcast_S_S16385 : S_.BroadcastsInDim S16385 (![] : Fin 0 → Fin S16385.rank)
  bcast_S16x1024_S16x1024x1_0_1 : S16x1024.BroadcastsInDim S16x1024x1 (![0, 1] : Fin 2 → Fin S16x1024x1.rank)
  bcast_S_S16384 : S_.BroadcastsInDim S16384 (![] : Fin 0 → Fin S16384.rank)
  bcast_S16384_S16384x1_0 : S16384.BroadcastsInDim S16384x1 (![0] : Fin 1 → Fin S16384x1.rank)
  slices_S16385_S16384_0 : S16385.Slices ![0] S16384
  reduceWindows_S1024_S1024_w1024s1p1023_0 : S1024.ReduceWindows (![1024] : Fin 1 → Nat) ![1] ![1023] ![0] S1024
  slices_S1024_S1023_0 : S1024.Slices ![0] S1023
  concatenates_S1_S1023_S1024_d0 : Shape.Concatenates [S1, S1023] S1024 0
  bcast_S1024_S1024x16_0 : S1024.BroadcastsInDim S1024x16 (![0] : Fin 1 → Fin S1024x16.rank)
  bcast_S16_S1024x16_1 : S16.BroadcastsInDim S1024x16 (![1] : Fin 1 → Fin S1024x16.rank)
  bcast_S1024_S1024x1_0 : S1024.BroadcastsInDim S1024x1 (![0] : Fin 1 → Fin S1024x1.rank)
  bcast_S1024x1_S1024x16_0_1 : S1024x1.BroadcastsInDim S1024x16 (![0, 1] : Fin 2 → Fin S1024x16.rank)
  bcast_S_S1024x16 : S_.BroadcastsInDim S1024x16 (![] : Fin 0 → Fin S1024x16.rank)
  shapeCasts_S1024x16_S16384 : S1024x16.ShapeCasts S16384
  concatenates_S16384x1_S16384x1_S16384x2_d1 : Shape.Concatenates [S16384x1, S16384x1] S16384x2 1
  bcast_S1x1024_S16384x1024_0_1 : S1x1024.BroadcastsInDim S16384x1024 (![0, 1] : Fin 2 → Fin S16384x1024.rank)
  bcast_S16384x1_S16384x1024_0_1 : S16384x1.BroadcastsInDim S16384x1024 (![0, 1] : Fin 2 → Fin S16384x1024.rank)
  bcast_S_S16384x1024 : S_.BroadcastsInDim S16384x1024 (![] : Fin 0 → Fin S16384x1024.rank)
  reducesTo_S16384x1024_S16384_d1 : S16384x1024.ReducesTo [1] S16384
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S16384x1_S16384x32_0_1 : S16384x1.BroadcastsInDim S16384x32 (![0, 1] : Fin 2 → Fin S16384x32.rank)
  bcast_S_S16384x32 : S_.BroadcastsInDim S16384x32 (![] : Fin 0 → Fin S16384x32.rank)
  reducesTo_S16384x32_S16384_d1 : S16384x32.ReducesTo [1] S16384
  concatenates_S16384x1024_S16384x32_S16384x1056_d1 : Shape.Concatenates [S16384x1024, S16384x32] S16384x1056 1
  transposes_S2048x1056_S1056x2048_1_0 : S2048x1056.Transposes [1, 0] S1056x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  reducesTo_S1024_S_d0 : S1024.ReducesTo [0] S_
  bcast_S16384x1_S16384x2048_0_1 : S16384x1.BroadcastsInDim S16384x2048 (![0, 1] : Fin 2 → Fin S16384x2048.rank)
  gather_S1024_S16x1024x1_S16x1024_n_0_n_n_0_2_1_wf : GatherDims.WF S1024 S16x1024x1 S16x1024 [] [0] [] [0] [] 2 ![1]
  scatter_S16385_S16384x1_S16384_n_0_0_1_wf : ScatterDims.WF S16385 S16384x1 S16384 [] [0] [0] 1
  gather_S1024x16x1024_S16384x2_S16384x1024_1_01_n_n_01_1_111024_wf : GatherDims.WF S1024x16x1024 S16384x2 S16384x1024 [1] [0, 1] [] [0, 1] [] 1 ![1, 1, 1024]
  gather_S1024x16x32_S16384x2_S16384x32_1_01_n_n_01_1_1132_wf : GatherDims.WF S1024x16x32 S16384x2 S16384x32 [1] [0, 1] [] [0, 1] [] 1 ![1, 1, 32]
  dot_S16384x1056_S1056x2048_S16384x2048_1_0_0_1_n_n_wf : DotDims.WF S16384x1056 S1056x2048 S16384x2048 [1] [0] [0] [1] [] []

variable [Facts₀]

def comparator_i32_i32_d0 : BitVec 32 × BitVec 32 → BitVec 32 × BitVec 32 → BitVec 1 :=
  fun l r =>
    let v2 := IntOp.cmpi .slt l.1 r.1
    v2
def gather_S1024_S16x1024x1_S16x1024_n_0_n_n_0_2_1 : GatherDims S1024 S16x1024x1 S16x1024 where
  offsetDims := []
  collapsedSliceDims := [0]
  operandBatchingDims := []
  startIndicesBatchingDims := []
  startIndexMap := [0]
  indexVectorDim := 2
  sliceSizes := ![1]
  wf := gather_S1024_S16x1024x1_S16x1024_n_0_n_n_0_2_1_wf
def scatter_S16385_S16384x1_S16384_n_0_0_1 : ScatterDims S16385 S16384x1 S16384 where
  updateWindowDims := []
  insertedWindowDims := [0]
  scatterDimsToOperandDims := [0]
  indexVectorDim := 1
  wf := scatter_S16385_S16384x1_S16384_n_0_0_1_wf
def gather_S1024x16x1024_S16384x2_S16384x1024_1_01_n_n_01_1_111024 : GatherDims S1024x16x1024 S16384x2 S16384x1024 where
  offsetDims := [1]
  collapsedSliceDims := [0, 1]
  operandBatchingDims := []
  startIndicesBatchingDims := []
  startIndexMap := [0, 1]
  indexVectorDim := 1
  sliceSizes := ![1, 1, 1024]
  wf := gather_S1024x16x1024_S16384x2_S16384x1024_1_01_n_n_01_1_111024_wf
def gather_S1024x16x32_S16384x2_S16384x32_1_01_n_n_01_1_1132 : GatherDims S1024x16x32 S16384x2 S16384x32 where
  offsetDims := [1]
  collapsedSliceDims := [0, 1]
  operandBatchingDims := []
  startIndicesBatchingDims := []
  startIndexMap := [0, 1]
  indexVectorDim := 1
  sliceSizes := ![1, 1, 32]
  wf := gather_S1024x16x32_S16384x2_S16384x32_1_01_n_n_01_1_1132_wf
def dot_S16384x1056_S1056x2048_S16384x2048_1_0_0_1_n_n : DotDims S16384x1056 S1056x2048 S16384x2048 where
  lhsContracting := [1]
  rhsContracting := [0]
  lhsNonContracting := [0]
  rhsNonContracting := [1]
  lhsBatch := []
  rhsBatch := []
  wf := dot_S16384x1056_S1056x2048_S16384x2048_1_0_0_1_n_n_wf

class Facts : Prop extends Facts₀ where

variable [Facts]
-- ==== Proof.KernelBaseBits.lean ====
/-
  The kernel's program up to its one pallas_call, at either instance: what every buffer holds when the region is
  entered (the host operations folded over the launch memory), the prefetched table (the total length, one word)
  read off it, and the pipeline at that table.  The four row-tiled inputs take block `min(i, max(1, ⌈n/1024⌉) - 1)`
  at grid point `i`: between 0 and `i` whatever the word `n` is, so every block lies inside its array and the
  pipeline's side condition holds of every table.
-/
import proofs.«400249_j88502096101408_2_alg».proof.Proof.Gen.Kernel.Launch
import proofs.«400249_j88502096101408_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after every host operation before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

/-- @main is the stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched table and the pipeline at it -/

/-- The table's contents when the region is entered (one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every table is admissible: the clamped block index never exceeds the grid coordinate. -/
theorem ok_all (pf : pre0.Contents (Elt F)) : ok0 (F := F) pf := by
  -- a signed minimum of a coordinate below 16 with one less than a signed maximum with 1 lies between 0 and the coordinate
  have clamp_le : ∀ (n : ℕ), n < 16 → ∀ x : BitVec 32,
      (Scalar.minsi (BitVec.ofNat 32 n) (Scalar.subi (Scalar.maxsi 1#32 x) 1#32)).toNat ≤ n := by
    intro n hn x
    unfold Scalar.minsi Scalar.subi Scalar.maxsi IntOp.minsi IntOp.subi IntOp.maxsi
    simp only [BitVec.slt, BitVec.toInt_eq_toNat_cond, BitVec.toNat_ofNat]
    split_ifs <;> simp_all <;> bv_omega
  -- so the block of 1024 rows it names ends inside the 16384 rows
  have clamp_blk : ∀ (i : grid0.Coords) (x : BitVec 32),
      ((Scalar.minsi (BitVec.ofNat 32 (i 0).val) (Scalar.subi (Scalar.maxsi 1#32 x) 1#32)).toNat + 1) * 1024 ≤ 16384 := by
    intro i x
    have h16 : (i 0).val < 16 := (i 0).isLt
    have := clamp_le _ h16 x
    omega
  have fin2_all : ∀ (f s S : Fin 2 → ℕ), (f 0 + 1) * s 0 ≤ S 0 → (f 1 + 1) * s 1 ≤ S 1 → ∀ a, (f a + 1) * s a ≤ S a := by
    intro f s S h0 h1 a
    fin_cases a
    · exact h0
    · exact h1
  unfold ok0
  refine ⟨fun i => ⟨fin2_all _ _ _ ?_ ?_, .inl rfl⟩, fun i => ⟨fin2_all _ _ _ ?_ ?_, .inl rfl⟩,
    fun i => ⟨fin2_all _ _ _ ?_ ?_, .inl rfl⟩, fun i => ⟨fin2_all _ _ _ ?_ ?_, .inl rfl⟩⟩
  · simp only [cc0_transform_0, Matrix.cons_val_zero]; exact clamp_blk i _
  · simp only [cc0_transform_0, Matrix.cons_val_one, Matrix.cons_val_zero]; decide
  · simp only [cc0_transform_1, Matrix.cons_val_zero]; exact clamp_blk i _
  · simp only [cc0_transform_1, Matrix.cons_val_one, Matrix.cons_val_zero]; decide
  · simp only [cc0_transform_2, Matrix.cons_val_zero]; exact clamp_blk i _
  · simp only [cc0_transform_2, Matrix.cons_val_one, Matrix.cons_val_zero]; decide
  · simp only [cc0_transform_3, Matrix.cons_val_zero]; exact clamp_blk i _
  · simp only [cc0_transform_3, Matrix.cons_val_one, Matrix.cons_val_zero]; decide

abbrev adm : (pcfg0 (F := F)).Adm := ⟨tbl m, ok_all (tbl m)⟩
abbrev cfgM : Pipeline.Cfg sig Λ₀ := cfg0 (adm m)

/-- The table's one word. -/
def nvWord (pf : pre0.Contents (Elt F)) : BitVec 32 := pf.atD 0 ![0]

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves in the output block at a grid point, from the table's word and the eleven input blocks:
    the masked encoding where the tile starts below the total length, zeros where it does not. -/
def outBlk (pf : pre0.Contents (Elt F)) (i : grid0.Coords)
    (x0 : Vec F S1024x1024 .f32) (x1 : Vec F S1024x32 .f32) (x2 x3 : Vec F S1024x1 .i32)
    (x4 x5 : Vec F S1x1024 .f32) (x6 x7 : Vec F S1x32 .f32) (x8 : Vec F S1024x2048 .bf16) (x9 : Vec F S32x2048 .bf16)
    (x10 : Vec F S1x2048 .f32) : Vec F S1024x2048 .f32 :=
  if k0_cond1 i (nvWord pf) = 1#1 then
    k0_pay1 i (nvWord pf) (k0_pay4 x0 x2 x4 x5) (k0_pay5 x3) (k0_pay6 x1 x3 x6) x7 x8 x9 x10
  else k0_pay2

/-! ## The frame claim's post from a frame run's -/

theorem frame_of (dats : (p : Fin 1) → (c : Dev nD) → Dat τ (Elt F) Unit ℕ (UR sig nD τ) ℕ ((Pipeline.pin pcfgs fun _ => adm m) p) c)
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

end Cert.Kernel.Hand

end
-- ==== Proof.KernelFrameBits.lean ====
/-
  The kernel's frame at either instance: the proof data of its one pipeline (each input's staging buffer holds its
  block; the output's holds `outBlk` of the table's word and the input blocks), the body's run in its two cases
  (the tile starts below the total length, or not), the body obligation, and the frame run.
-/
import proofs.«400249_j88502096101408_2_alg».proof.Proof.KernelBaseBits
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table as the body is handed it -/

/-- The table's whole buffer as a memref. -/
abbrev tbM0 : Memref sig .tc .smem S1 .i32 := Memref.whole main_v116
abbrev htbM0 : tbM0.IsWhole := Memref.isWhole_whole _

/-- The table memref's buffer on core `c`, and it held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half share the region hands the body. -/
theorem PhiT0_eq (pf : pre0.Contents (Elt F)) (c : Dev nD) : (Pipeline.ΦT pre0 pf c : sProp 𝕄) = tbPt0 c tbM0 (pf 0) := by
  unfold Pipeline.ΦT Pipeline.prefHeld
  rw [show (Finset.univ : Finset (Fin 1)) = {(0 : Fin 1)} from by decide, bigSep_singleton]
  rfl

/-- The word the body's scalar load reads off the table's buffer at contents `xt`. -/
abbrev rdW (c : Dev nD) (xt : TbBuf0 (F := F) c tbM0) : BitVec 32 :=
  tbM0.view.readAt (Elt F) (Rect.unit (s := S1) ![0] S1.size inb_S1_S1_0).toLoadRect xt (Shape.Idx.first (numel1_S1.symm ▸ Nat.one_pos))

/-- It is the table's one word. -/
theorem rdW_eq (pf : pre0.Contents (Elt F)) (c : Dev nD) : rdW c (pf 0) = nvWord pf := by
  unfold nvWord Pipeline.Prefetch.Contents.atD
  rw [dif_pos (fun a => by fin_cases a; decide)]
  rfl

/-! ## Reading whole blocks -/

theorem frame_zero2 : (![0, 0] : Fin 2 → ℕ) = fun _ => 0 := by funext a; fin_cases a <;> rfl

/-- A load of the whole block through a whole memref held at the contents that read `X` reads `X`. -/
theorem frame_readAt_whole {sp : Space} {S : Shape} {e : EltTy} {M : Memref sig .tc sp S e} (h : M.IsWhole) (X : S.Idx → Elt F e)
    {off : Fin S.rank → ℕ} (hz : off = fun _ => 0) (inb : ∀ a, off a + S.size a ≤ S.size a) :
    View.readAt (Elt F) M.view (Rect.unit off S.size inb).toLoadRect (h.unread X) = X :=
  (View.readAt_eq_ld _ _ _).trans ((congrArg (fun Y => View.ld Y (Rect.unit off S.size inb)) (h.read_unread X)).trans (View.ld_unit_zero hz inb X))

/-- One store of the whole block leaves its payload, whatever the buffer held. -/
theorem frame_read_store_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

/-! ## The two conditions -/

/-- A one-bit word is set exactly when its flip is not. -/
theorem cond_flip (b : BitVec 1) : (Scalar.cmpi .ne (Scalar.extui b) 0#32 = 1#1) ↔ ¬ (Scalar.cmpi .ne (Scalar.extui (Scalar.xori b 1#1)) 0#32 = 1#1) := by
  rcases BitVec.eq_zero_or_eq_one b with h | h <;> subst h <;> decide

/-- The second condition is the first negated: both test the one comparison, the second after flipping it. -/
theorem cond2_of_cond1 {i : grid0.Coords} {v : BitVec 32} (h : k0_cond1 i v = 1#1) : ¬ k0_cond2 i v = 1#1 :=
  (cond_flip (Scalar.cmpi .slt (Scalar.muli (BitVec.ofNat 32 (i 0).val) 1024#32) v)).mp h

theorem cond2_of_not_cond1 {i : grid0.Coords} {v : BitVec 32} (h : ¬ k0_cond1 i v = 1#1) : k0_cond2 i v = 1#1 :=
  Classical.not_not.mp fun h2 => h ((cond_flip (Scalar.cmpi .slt (Scalar.muli (BitVec.ofNat 32 (i 0).val) 1024#32) v)).mpr h2)

/-! ## The body's run in its two cases -/

set_option maxHeartbeats 1000000 in
/-- The tile starts below the total length: the body loads the eleven input blocks and stores the masked encoding. -/
theorem kernelRun0_A (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1024x2048 .bf16) (harg10 : arg10.IsWhole) (arg11 : Memref sig .tc .vmem S32x2048 .bf16) (harg11 : arg11.IsWhole) (arg12 : Memref sig .tc .vmem S1x2048 .f32) (harg12 : arg12.IsWhole) (arg13 : Memref sig .tc .vmem S1024x2048 .f32) (harg13 : arg13.IsWhole)
    (x0 : Vec F S1024x1024 .f32) (x1 : Vec F S1024x32 .f32) (x2 : Vec F S1024x1 .i32) (x3 : Vec F S1024x1 .i32) (x4 : Vec F S1x1024 .f32) (x5 : Vec F S1x1024 .f32) (x6 : Vec F S1x32 .f32) (x7 : Vec F S1x32 .f32) (x8 : Vec F S1024x2048 .bf16) (x9 : Vec F S32x2048 .bf16) (x10 : Vec F S1x2048 .f32) (xt : TbBuf0 (F := F) c tbM0) (wd : BitVec 32) (hw : rdW c xt = wd)
    (h1 : k0_cond1 i wd = 1#1) (h2 : ¬ k0_cond2 i wd = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ tbPt0 c tbM0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay1 i wd (k0_pay4 x0 x2 x4 x5) (k0_pay5 x3) (k0_pay6 x1 x3 x6) x7 x8 x9 x10) ∗ tbPt0 c tbM0 xt) -∗ K ⟨⟩))
      ⊢ wp frame (wpE (defs₀ (F := F)) Variants.none c none) E (cc0__encode_kernel i tbM0 htbM0 arg2 harg2 arg3 harg3 arg4 harg4 arg5 harg5 arg6 harg6 arg7 harg7 arg8 harg8 arg9 harg9 arg10 harg10 arg11 harg11 arg12 harg12 arg13 harg13) K := by
  subst hw
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact h1 | sl_exact h2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]; · iexists _; isplitr; · ipureintro; exact harg10.read_unread _
                  iexact H8
  isplitl [H9]; · iexists _; isplitr; · ipureintro; exact harg11.read_unread _
                  iexact H9
  isplitl [H10]; · iexists _; isplitr; · ipureintro; exact harg12.read_unread _
                   iexact H10
  isplitl [H11]
  · iexists _; isplitr
    swap; · iexact H11
    ipureintro
    refine (frame_read_store_whole _ _ frame_zero2 _ _).trans ?_
    unfold kernelRun0_A.sl.r kernelRun0_A.sl.r_1 kernelRun0_A.sl.r_2 kernelRun0_A.sl.r_3
    rw [frame_readAt_whole harg2 x0 frame_zero2, frame_readAt_whole harg3 x1 frame_zero2, frame_readAt_whole harg4 x2 frame_zero2, frame_readAt_whole harg5 x3 frame_zero2, frame_readAt_whole harg6 x4 frame_zero2, frame_readAt_whole harg7 x5 frame_zero2, frame_readAt_whole harg8 x6 frame_zero2, frame_readAt_whole harg9 x7 frame_zero2, frame_readAt_whole harg10 x8 frame_zero2, frame_readAt_whole harg11 x9 frame_zero2, frame_readAt_whole harg12 x10 frame_zero2]
  iexact HT

set_option maxHeartbeats 1000000 in
/-- The tile starts at or past the total length: the body stores zeros. -/
theorem kernelRun0_B (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1024x2048 .bf16) (harg10 : arg10.IsWhole) (arg11 : Memref sig .tc .vmem S32x2048 .bf16) (harg11 : arg11.IsWhole) (arg12 : Memref sig .tc .vmem S1x2048 .f32) (harg12 : arg12.IsWhole) (arg13 : Memref sig .tc .vmem S1024x2048 .f32) (harg13 : arg13.IsWhole)
    (x0 : Vec F S1024x1024 .f32) (x1 : Vec F S1024x32 .f32) (x2 : Vec F S1024x1 .i32) (x3 : Vec F S1024x1 .i32) (x4 : Vec F S1x1024 .f32) (x5 : Vec F S1x1024 .f32) (x6 : Vec F S1x32 .f32) (x7 : Vec F S1x32 .f32) (x8 : Vec F S1024x2048 .bf16) (x9 : Vec F S32x2048 .bf16) (x10 : Vec F S1x2048 .f32) (xt : TbBuf0 (F := F) c tbM0) (wd : BitVec 32) (hw : rdW c xt = wd)
    (h1 : ¬ k0_cond1 i wd = 1#1) (h2 : k0_cond2 i wd = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ tbPt0 c tbM0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay2 (F := F)) ∗ tbPt0 c tbM0 xt) -∗ K ⟨⟩))
      ⊢ wp frame (wpE (defs₀ (F := F)) Variants.none c none) E (cc0__encode_kernel i tbM0 htbM0 arg2 harg2 arg3 harg3 arg4 harg4 arg5 harg5 arg6 harg6 arg7 harg7 arg8 harg8 arg9 harg9 arg10 harg10 arg11 harg11 arg12 harg12 arg13 harg13) K := by
  subst hw
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact h1 | sl_exact h2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]; · iexists _; isplitr; · ipureintro; exact harg10.read_unread _
                  iexact H8
  isplitl [H9]; · iexists _; isplitr; · ipureintro; exact harg11.read_unread _
                  iexact H9
  isplitl [H10]; · iexists _; isplitr; · ipureintro; exact harg12.read_unread _
                   iexact H10
  isplitl [H11]
  · iexists _; isplitr
    swap; · iexact H11
    ipureintro
    refine (frame_read_store_whole _ _ frame_zero2 _ _).trans ?_
    rfl
  iexact HT

/-! ## The staging memrefs and the body at a point -/

/-- Each window's current staging memref at point `t`, and its wholeness. -/
abbrev ms0_0 (a : (pcfg0 (F := F)).Adm) (t : Fin (cfg0 a).N) : Memref sig .tc .vmem S1024x1024 .f32 := spec0_0.stage ((cfg0 a).slots t 0)
abbrev hs0_0 (a : (pcfg0 (F := F)).Adm) (t : Fin (cfg0 a).N) : (ms0_0 a t).IsWhole := hstage0_0 (((cfg0 a).slots t 0).cast nbuf0_0)
abbrev ms0_1 (a : (pcfg0 (F := F)).Adm) (t : Fin (cfg0 a).N) : Memref sig .tc .vmem S1024x32 .f32 := spec0_1.stage ((cfg0 a).slots t 1)
abbrev hs0_1 (a : (pcfg0 (F := F)).Adm) (t : Fin (cfg0 a).N) : (ms0_1 a t).IsWhole := hstage0_1 (((cfg0 a).slots t 1).cast nbuf0_1)
abbrev ms0_2 (a : (pcfg0 (F := F)).Adm) (t : Fin (cfg0 a).N) : Memref sig .tc .vmem S1024x1 .i32 := spec0_2.stage ((cfg0 a).slots t 2)
abbrev hs0_2 (a : (pcfg0 (F := F)).Adm) (t : Fin (cfg0 a).N) : (ms0_2 a t).IsWhole := hstage0_2 (((cfg0 a).slots t 2).cast nbuf0_2)
abbrev ms0_3 (a : (pcfg0 (F := F)).Adm) (t : Fin (cfg0 a).N) : Memref sig .tc .vmem S1024x1 .i32 := spec0_3.stage ((cfg0 a).slots t 3)
abbrev hs0_3 (a : (pcfg0 (F := F)).Adm) (t : Fin (cfg0 a).N) : (ms0_3 a t).IsWhole := hstage0_3 (((cfg0 a).slots t 3).cast nbuf0_3)
abbrev ms0_4 (a : (pcfg0 (F := F)).Adm) (t : Fin (cfg0 a).N) : Memref sig .tc .vmem S1x1024 .f32 := spec0_4.stage ((cfg0 a).slots t 4)
abbrev hs0_4 (a : (pcfg0 (F := F)).Adm) (t : Fin (cfg0 a).N) : (ms0_4 a t).IsWhole := hstage0_4 (((cfg0 a).slots t 4).cast nbuf0_4)
abbrev ms0_5 (a : (pcfg0 (F := F)).Adm) (t : Fin (cfg0 a).N) : Memref sig .tc .vmem S1x1024 .f32 := spec0_5.stage ((cfg0 a).slots t 5)
abbrev hs0_5 (a : (pcfg0 (F := F)).Adm) (t : Fin (cfg0 a).N) : (ms0_5 a t).IsWhole := hstage0_5 (((cfg0 a).slots t 5).cast nbuf0_5)
abbrev ms0_6 (a : (pcfg0 (F := F)).Adm) (t : Fin (cfg0 a).N) : Memref sig .tc .vmem S1x32 .f32 := spec0_6.stage ((cfg0 a).slots t 6)
abbrev hs0_6 (a : (pcfg0 (F := F)).Adm) (t : Fin (cfg0 a).N) : (ms0_6 a t).IsWhole := hstage0_6 (((cfg0 a).slots t 6).cast nbuf0_6)
abbrev ms0_7 (a : (pcfg0 (F := F)).Adm) (t : Fin (cfg0 a).N) : Memref sig .tc .vmem S1x32 .f32 := spec0_7.stage ((cfg0 a).slots t 7)
abbrev hs0_7 (a : (pcfg0 (F := F)).Adm) (t : Fin (cfg0 a).N) : (ms0_7 a t).IsWhole := hstage0_7 (((cfg0 a).slots t 7).cast nbuf0_7)
abbrev ms0_8 (a : (pcfg0 (F := F)).Adm) (t : Fin (cfg0 a).N) : Memref sig .tc .vmem S1024x2048 .bf16 := spec0_8.stage ((cfg0 a).slots t 8)
abbrev hs0_8 (a : (pcfg0 (F := F)).Adm) (t : Fin (cfg0 a).N) : (ms0_8 a t).IsWhole := hstage0_8 (((cfg0 a).slots t 8).cast nbuf0_8)
abbrev ms0_9 (a : (pcfg0 (F := F)).Adm) (t : Fin (cfg0 a).N) : Memref sig .tc .vmem S32x2048 .bf16 := spec0_9.stage ((cfg0 a).slots t 9)
abbrev hs0_9 (a : (pcfg0 (F := F)).Adm) (t : Fin (cfg0 a).N) : (ms0_9 a t).IsWhole := hstage0_9 (((cfg0 a).slots t 9).cast nbuf0_9)
abbrev ms0_10 (a : (pcfg0 (F := F)).Adm) (t : Fin (cfg0 a).N) : Memref sig .tc .vmem S1x2048 .f32 := spec0_10.stage ((cfg0 a).slots t 10)
abbrev hs0_10 (a : (pcfg0 (F := F)).Adm) (t : Fin (cfg0 a).N) : (ms0_10 a t).IsWhole := hstage0_10 (((cfg0 a).slots t 10).cast nbuf0_10)
abbrev ms0_11 (a : (pcfg0 (F := F)).Adm) (t : Fin (cfg0 a).N) : Memref sig .tc .vmem S1024x2048 .f32 := spec0_11.stage ((cfg0 a).slots t 11)
abbrev hs0_11 (a : (pcfg0 (F := F)).Adm) (t : Fin (cfg0 a).N) : (ms0_11 a t).IsWhole := hstage0_11 (((cfg0 a).slots t 11).cast nbuf0_11)

/-- The kernel body at point `t`, on what the pipeline calls it with. -/
abbrev bodyAt0 (a : (pcfg0 (F := F)).Adm) (t : Fin (cfg0 a).N) : Prog (TpuEff nD τ sig (Elt F) Λ₀ .tc) PUnit :=
  cc0__encode_kernel (grid0.coords t) (Memref.whole main_v116) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11))

/-! ## The pipeline's proof data -/

/-- The proof data of the pipeline on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk (tbl m) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := iprop(Pipeline.ΦA spec0 c ∗ Pipeline.ΦT pre0 (tbl m) c)
  q _ := fullShare
  owed _ := 0

/-- The proof data's arrays are the contents at the region's entry. -/
theorem A_eq (c : Dev nD) (w : Fin (cfgM m).W) : (dats m 0 c).A w = V m c (Pipeline.arrRef spec0 w) := by
  dsimp only [dats]

/-- What the body leaves, window by window. -/
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = iblk m c 7 t := by dsimp only [dats]; try rfl
theorem after0_8 (c : Dev nD) (t : Fin (cfgM m).N) : (dats m 0 c).after 8 t = iblk m c 8 t := by dsimp only [dats]; try rfl
theorem after0_9 (c : Dev nD) (t : Fin (cfgM m).N) : (dats m 0 c).after 9 t = iblk m c 9 t := by dsimp only [dats]; try rfl
theorem after0_10 (c : Dev nD) (t : Fin (cfgM m).N) : (dats m 0 c).after 10 t = iblk m c 10 t := by dsimp only [dats]; try rfl

/-- An input window's staging buffer holds its block after the body as before it. -/
theorem after_in (c : Dev nD) (w : Fin (cfgM m).W) (hw : w ≠ 11) (t : Fin (cfgM m).N) : (dats m 0 c).after w t = iblk m c w t := by
  obtain ⟨k, hk⟩ := w
  match k, hk, hw with
  | 0, _, _ => exact after0_0 m c t
  | 1, _, _ => exact after0_1 m c t
  | 2, _, _ => exact after0_2 m c t
  | 3, _, _ => exact after0_3 m c t
  | 4, _, _ => exact after0_4 m c t
  | 5, _, _ => exact after0_5 m c t
  | 6, _, _ => exact after0_6 m c t
  | 7, _, _ => exact after0_7 m c t
  | 8, _, _ => exact after0_8 m c t
  | 9, _, _ => exact after0_9 m c t
  | 10, _, _ => exact after0_10 m c t
  | 11, _, hw => exact absurd rfl hw
  | k + 12, hk, _ => exact absurd hk (Nat.not_lt.2 (Nat.le_add_left _ _))

/-- The output window's staging buffer after the body at point `t`. -/
theorem after_out (c : Dev nD) (t : Fin (cfgM m).N) :
    (dats m 0 c).after 11 t = outBlk (tbl m) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  dsimp only [dats]; try rfl

/-- Each input's current staging buffer holds its block at every point, fetched there or not, at any admissible
    contents of the table: unfetched, the block index has not moved. -/
theorem before0_0_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 0 = Vc (Pipeline.arrRef spec0 0))
    (hafter : ∀ t, dat.after 0 t = (((cfg0 a).win 0).blk t).view.read (Elt F) (Vc (Pipeline.arrRef spec0 0))) (t : Fin (cfg0 a).N) (d) :
    dat.before 0 t d = (((cfg0 a).win 0).blk t).view.read (Elt F) (Vc (Pipeline.arrRef spec0 0)) :=
  (dat.before_in_eq_fetched 0 rfl (fun _ => rfl) (fun _ _ _ => rfl) (fun t => by rw [hafter]; unfold Dat.blockOf; rw [hA]; try rfl) t d).trans
    (by unfold Dat.fetched Dat.blockOf; rw [hA]; try rfl)
theorem before0_1_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 1 = Vc (Pipeline.arrRef spec0 1))
    (hafter : ∀ t, dat.after 1 t = (((cfg0 a).win 1).blk t).view.read (Elt F) (Vc (Pipeline.arrRef spec0 1))) (t : Fin (cfg0 a).N) (d) :
    dat.before 1 t d = (((cfg0 a).win 1).blk t).view.read (Elt F) (Vc (Pipeline.arrRef spec0 1)) :=
  (dat.before_in_eq_fetched 1 rfl (fun _ => rfl) (fun _ _ _ => rfl) (fun t => by rw [hafter]; unfold Dat.blockOf; rw [hA]; try rfl) t d).trans
    (by unfold Dat.fetched Dat.blockOf; rw [hA]; try rfl)
theorem before0_2_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 2 = Vc (Pipeline.arrRef spec0 2))
    (hafter : ∀ t, dat.after 2 t = (((cfg0 a).win 2).blk t).view.read (Elt F) (Vc (Pipeline.arrRef spec0 2))) (t : Fin (cfg0 a).N) (d) :
    dat.before 2 t d = (((cfg0 a).win 2).blk t).view.read (Elt F) (Vc (Pipeline.arrRef spec0 2)) :=
  (dat.before_in_eq_fetched 2 rfl (fun _ => rfl) (fun _ _ _ => rfl) (fun t => by rw [hafter]; unfold Dat.blockOf; rw [hA]; try rfl) t d).trans
    (by unfold Dat.fetched Dat.blockOf; rw [hA]; try rfl)
theorem before0_3_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 3 = Vc (Pipeline.arrRef spec0 3))
    (hafter : ∀ t, dat.after 3 t = (((cfg0 a).win 3).blk t).view.read (Elt F) (Vc (Pipeline.arrRef spec0 3))) (t : Fin (cfg0 a).N) (d) :
    dat.before 3 t d = (((cfg0 a).win 3).blk t).view.read (Elt F) (Vc (Pipeline.arrRef spec0 3)) :=
  (dat.before_in_eq_fetched 3 rfl (fun _ => rfl) (fun _ _ _ => rfl) (fun t => by rw [hafter]; unfold Dat.blockOf; rw [hA]; try rfl) t d).trans
    (by unfold Dat.fetched Dat.blockOf; rw [hA]; try rfl)
theorem before0_4_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 4 = Vc (Pipeline.arrRef spec0 4))
    (hafter : ∀ t, dat.after 4 t = (((cfg0 a).win 4).blk t).view.read (Elt F) (Vc (Pipeline.arrRef spec0 4))) (t : Fin (cfg0 a).N) (d) :
    dat.before 4 t d = (((cfg0 a).win 4).blk t).view.read (Elt F) (Vc (Pipeline.arrRef spec0 4)) :=
  (dat.before_in_eq_fetched 4 rfl (fun _ => rfl) (fun _ _ _ => rfl) (fun t => by rw [hafter]; unfold Dat.blockOf; rw [hA]; try rfl) t d).trans
    (by unfold Dat.fetched Dat.blockOf; rw [hA]; try rfl)
theorem before0_5_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 5 = Vc (Pipeline.arrRef spec0 5))
    (hafter : ∀ t, dat.after 5 t = (((cfg0 a).win 5).blk t).view.read (Elt F) (Vc (Pipeline.arrRef spec0 5))) (t : Fin (cfg0 a).N) (d) :
    dat.before 5 t d = (((cfg0 a).win 5).blk t).view.read (Elt F) (Vc (Pipeline.arrRef spec0 5)) :=
  (dat.before_in_eq_fetched 5 rfl (fun _ => rfl) (fun _ _ _ => rfl) (fun t => by rw [hafter]; unfold Dat.blockOf; rw [hA]; try rfl) t d).trans
    (by unfold Dat.fetched Dat.blockOf; rw [hA]; try rfl)
theorem before0_6_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 6 = Vc (Pipeline.arrRef spec0 6))
    (hafter : ∀ t, dat.after 6 t = (((cfg0 a).win 6).blk t).view.read (Elt F) (Vc (Pipeline.arrRef spec0 6))) (t : Fin (cfg0 a).N) (d) :
    dat.before 6 t d = (((cfg0 a).win 6).blk t).view.read (Elt F) (Vc (Pipeline.arrRef spec0 6)) :=
  (dat.before_in_eq_fetched 6 rfl (fun _ => rfl) (fun _ _ _ => rfl) (fun t => by rw [hafter]; unfold Dat.blockOf; rw [hA]; try rfl) t d).trans
    (by unfold Dat.fetched Dat.blockOf; rw [hA]; try rfl)
theorem before0_7_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 7 = Vc (Pipeline.arrRef spec0 7))
    (hafter : ∀ t, dat.after 7 t = (((cfg0 a).win 7).blk t).view.read (Elt F) (Vc (Pipeline.arrRef spec0 7))) (t : Fin (cfg0 a).N) (d) :
    dat.before 7 t d = (((cfg0 a).win 7).blk t).view.read (Elt F) (Vc (Pipeline.arrRef spec0 7)) :=
  (dat.before_in_eq_fetched 7 rfl (fun _ => rfl) (fun _ _ _ => rfl) (fun t => by rw [hafter]; unfold Dat.blockOf; rw [hA]; try rfl) t d).trans
    (by unfold Dat.fetched Dat.blockOf; rw [hA]; try rfl)
theorem before0_8_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 8 = Vc (Pipeline.arrRef spec0 8))
    (hafter : ∀ t, dat.after 8 t = (((cfg0 a).win 8).blk t).view.read (Elt F) (Vc (Pipeline.arrRef spec0 8))) (t : Fin (cfg0 a).N) (d) :
    dat.before 8 t d = (((cfg0 a).win 8).blk t).view.read (Elt F) (Vc (Pipeline.arrRef spec0 8)) :=
  (dat.before_in_eq_fetched 8 rfl (fun _ => rfl) (fun _ _ _ => rfl) (fun t => by rw [hafter]; unfold Dat.blockOf; rw [hA]; try rfl) t d).trans
    (by unfold Dat.fetched Dat.blockOf; rw [hA]; try rfl)
theorem before0_9_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 9 = Vc (Pipeline.arrRef spec0 9))
    (hafter : ∀ t, dat.after 9 t = (((cfg0 a).win 9).blk t).view.read (Elt F) (Vc (Pipeline.arrRef spec0 9))) (t : Fin (cfg0 a).N) (d) :
    dat.before 9 t d = (((cfg0 a).win 9).blk t).view.read (Elt F) (Vc (Pipeline.arrRef spec0 9)) :=
  (dat.before_in_eq_fetched 9 rfl (fun _ => rfl) (fun _ _ _ => rfl) (fun t => by rw [hafter]; unfold Dat.blockOf; rw [hA]; try rfl) t d).trans
    (by unfold Dat.fetched Dat.blockOf; rw [hA]; try rfl)
theorem before0_10_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 10 = Vc (Pipeline.arrRef spec0 10))
    (hafter : ∀ t, dat.after 10 t = (((cfg0 a).win 10).blk t).view.read (Elt F) (Vc (Pipeline.arrRef spec0 10))) (t : Fin (cfg0 a).N) (d) :
    dat.before 10 t d = (((cfg0 a).win 10).blk t).view.read (Elt F) (Vc (Pipeline.arrRef spec0 10)) :=
  (dat.before_in_eq_fetched 10 rfl (fun _ => rfl) (fun _ _ _ => rfl) (fun t => by rw [hafter]; unfold Dat.blockOf; rw [hA]; try rfl) t d).trans
    (by unfold Dat.fetched Dat.blockOf; rw [hA]; try rfl)

theorem before0_0 (c : Dev nD) (t : Fin (cfgM m).N) (d) : (dats m 0 c).before 0 t d = iblk m c 0 t :=
  before0_0_of (adm m) (dats m 0 c) (V m c) (A_eq m c 0) (after0_0 m c) t d
theorem before0_1 (c : Dev nD) (t : Fin (cfgM m).N) (d) : (dats m 0 c).before 1 t d = iblk m c 1 t :=
  before0_1_of (adm m) (dats m 0 c) (V m c) (A_eq m c 1) (after0_1 m c) t d
theorem before0_2 (c : Dev nD) (t : Fin (cfgM m).N) (d) : (dats m 0 c).before 2 t d = iblk m c 2 t :=
  before0_2_of (adm m) (dats m 0 c) (V m c) (A_eq m c 2) (after0_2 m c) t d
theorem before0_3 (c : Dev nD) (t : Fin (cfgM m).N) (d) : (dats m 0 c).before 3 t d = iblk m c 3 t :=
  before0_3_of (adm m) (dats m 0 c) (V m c) (A_eq m c 3) (after0_3 m c) t d
theorem before0_4 (c : Dev nD) (t : Fin (cfgM m).N) (d) : (dats m 0 c).before 4 t d = iblk m c 4 t :=
  before0_4_of (adm m) (dats m 0 c) (V m c) (A_eq m c 4) (after0_4 m c) t d
theorem before0_5 (c : Dev nD) (t : Fin (cfgM m).N) (d) : (dats m 0 c).before 5 t d = iblk m c 5 t :=
  before0_5_of (adm m) (dats m 0 c) (V m c) (A_eq m c 5) (after0_5 m c) t d
theorem before0_6 (c : Dev nD) (t : Fin (cfgM m).N) (d) : (dats m 0 c).before 6 t d = iblk m c 6 t :=
  before0_6_of (adm m) (dats m 0 c) (V m c) (A_eq m c 6) (after0_6 m c) t d
theorem before0_7 (c : Dev nD) (t : Fin (cfgM m).N) (d) : (dats m 0 c).before 7 t d = iblk m c 7 t :=
  before0_7_of (adm m) (dats m 0 c) (V m c) (A_eq m c 7) (after0_7 m c) t d
theorem before0_8 (c : Dev nD) (t : Fin (cfgM m).N) (d) : (dats m 0 c).before 8 t d = iblk m c 8 t :=
  before0_8_of (adm m) (dats m 0 c) (V m c) (A_eq m c 8) (after0_8 m c) t d
theorem before0_9 (c : Dev nD) (t : Fin (cfgM m).N) (d) : (dats m 0 c).before 9 t d = iblk m c 9 t :=
  before0_9_of (adm m) (dats m 0 c) (V m c) (A_eq m c 9) (after0_9 m c) t d
theorem before0_10 (c : Dev nD) (t : Fin (cfgM m).N) (d) : (dats m 0 c).before 10 t d = iblk m c 10 t :=
  before0_10_of (adm m) (dats m 0 c) (V m c) (A_eq m c 10) (after0_10 m c) t d

/-! ## The body obligation -/

/-- The output window's idle table at any admissible contents: neither condition holds. -/
theorem idle11 (a : (pcfg0 (F := F)).Adm) (i : grid0.Coords) :
    (cfg0 a).idle (11 : Fin 12) i = (!(k0_cond1 i (nvWord a.1) == 1#1) && !(k0_cond2 i (nvWord a.1) == 1#1)) := rfl

/-- One of the two conditions always holds, so the output window is idle at no point. -/
theorem idle11_false (a : (pcfg0 (F := F)).Adm) (i : grid0.Coords) : (cfg0 a).idle (11 : Fin 12) i = false := by
  rw [idle11]
  by_cases h : k0_cond1 i (nvWord a.1) = 1#1
  · rw [h]; rfl
  · rw [cond2_of_not_cond1 h]; exact Bool.and_false _

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 (adm m) t) fullShare ((dats m 0 c).before 0 t d))
    ∗ (∃ d, owns (c : Thread nD τ) (ms0_1 (adm m) t) fullShare ((dats m 0 c).before 1 t d))
    ∗ (∃ d, owns (c : Thread nD τ) (ms0_2 (adm m) t) fullShare ((dats m 0 c).before 2 t d))
    ∗ (∃ d, owns (c : Thread nD τ) (ms0_3 (adm m) t) fullShare ((dats m 0 c).before 3 t d))
    ∗ (∃ d, owns (c : Thread nD τ) (ms0_4 (adm m) t) fullShare ((dats m 0 c).before 4 t d))
    ∗ (∃ d, owns (c : Thread nD τ) (ms0_5 (adm m) t) fullShare ((dats m 0 c).before 5 t d))
    ∗ (∃ d, owns (c : Thread nD τ) (ms0_6 (adm m) t) fullShare ((dats m 0 c).before 6 t d))
    ∗ (∃ d, owns (c : Thread nD τ) (ms0_7 (adm m) t) fullShare ((dats m 0 c).before 7 t d))
    ∗ (∃ d, owns (c : Thread nD τ) (ms0_8 (adm m) t) fullShare ((dats m 0 c).before 8 t d))
    ∗ (∃ d, owns (c : Thread nD τ) (ms0_9 (adm m) t) fullShare ((dats m 0 c).before 9 t d))
    ∗ (∃ d, owns (c : Thread nD τ) (ms0_10 (adm m) t) fullShare ((dats m 0 c).before 10 t d))
    ∗ (∃ d, owns (c : Thread nD τ) (ms0_11 (adm m) t) fullShare ((dats m 0 c).before 11 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0_0 (adm m) t) fullShare ((dats m 0 c).after 0 t)
    ∗ owns (c : Thread nD τ) (ms0_1 (adm m) t) fullShare ((dats m 0 c).after 1 t)
    ∗ owns (c : Thread nD τ) (ms0_2 (adm m) t) fullShare ((dats m 0 c).after 2 t)
    ∗ owns (c : Thread nD τ) (ms0_3 (adm m) t) fullShare ((dats m 0 c).after 3 t)
    ∗ owns (c : Thread nD τ) (ms0_4 (adm m) t) fullShare ((dats m 0 c).after 4 t)
    ∗ owns (c : Thread nD τ) (ms0_5 (adm m) t) fullShare ((dats m 0 c).after 5 t)
    ∗ owns (c : Thread nD τ) (ms0_6 (adm m) t) fullShare ((dats m 0 c).after 6 t)
    ∗ owns (c : Thread nD τ) (ms0_7 (adm m) t) fullShare ((dats m 0 c).after 7 t)
    ∗ owns (c : Thread nD τ) (ms0_8 (adm m) t) fullShare ((dats m 0 c).after 8 t)
    ∗ owns (c : Thread nD τ) (ms0_9 (adm m) t) fullShare ((dats m 0 c).after 9 t)
    ∗ owns (c : Thread nD τ) (ms0_10 (adm m) t) fullShare ((dats m 0 c).after 10 t)
    ∗ owns (c : Thread nD τ) (ms0_11 (adm m) t) fullShare ((dats m 0 c).after 11 t))

/-- The body at any point: the inputs' memrefs hold their blocks; the run of the point's case applies; the invariant
    passes through unread; the core owes nothing throughout. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1, before0_2, before0_3, before0_4, before0_5, before0_6, before0_7, before0_8, before0_9, before0_10]
  rewrite [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after_out]
  rewrite [show (dats m 0 c).Φ t.castSucc = iprop(Pipeline.ΦA spec0 c ∗ Pipeline.ΦT pre0 (tbl m) c) from rfl, PhiT0_eq]
  by_cases h : k0_cond1 (grid0.coords t) (nvWord (tbl m)) = 1#1
  · unfold outBlk; rewrite [if_pos h]
    iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (nvWord (tbl m)) (rdW_eq (tbl m) c) h (cond2_of_cond1 h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HT]; · iexact HT
    iintro ⟨H0, H1, H2, H3, H4, H5, H6, H7, H8, H9, H10, H11, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · unfold outBlk; rewrite [if_neg h]
    iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernelRun0_B c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (nvWord (tbl m)) (rdW_eq (tbl m) c) h (cond2_of_not_cond1 h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HT]; · iexact HT
    iintro ⟨H0, H1, H2, H3, H4, H5, H6, H7, H8, H9, H10, H11, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation (c : Dev nD) : BodyObligation (dats (F := F) m 0 c) (defs₀ (F := F)) Variants.none () Set.univ := fun t => by
  rw [bigSep_W0, bigSep_W0]
  rewrite [idle11_false (adm m) ((cfgM m).grid.coords t)]
  exact sound_body m c t

/-! ## The run and the frame -/

set_option backward.isDefEq.respectTransparency.types false in
/-- The frame run: every weakly fair execution terminates, each window's array at what the library computes from
    the proof data, every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs and leaves its eleven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.Hand

end
-- ==== Proof.KernelBase.lean ====
/-
  The kernel's program up to its one pallas_call, at either instance: what every buffer holds when the region is
  entered (the host operations folded over the launch memory), the prefetched table (the total length, one word)
  read off it, and the pipeline at that table.  The four row-tiled inputs take block `min(i, max(1, ⌈n/1024⌉) - 1)`
  at grid point `i`: between 0 and `i` whatever the word `n` is, so every block lies inside its array and the
  pipeline's side condition holds of every table.
-/
import proofs.«400249_j88502096101408_2_alg».proof.Proof.Gen.KernelIdeal.Launch
import proofs.«400249_j88502096101408_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after every host operation before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

/-- @main is the stretches of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched table and the pipeline at it -/

/-- The table's contents when the region is entered (one device). -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every table is admissible: the clamped block index never exceeds the grid coordinate. -/
theorem ok_all (pf : pre0.Contents (Elt F)) : ok0 (F := F) pf := by
  -- a signed minimum of a coordinate below 16 with one less than a signed maximum with 1 lies between 0 and the coordinate
  have clamp_le : ∀ (n : ℕ), n < 16 → ∀ x : BitVec 32,
      (Scalar.minsi (BitVec.ofNat 32 n) (Scalar.subi (Scalar.maxsi 1#32 x) 1#32)).toNat ≤ n := by
    intro n hn x
    unfold Scalar.minsi Scalar.subi Scalar.maxsi IntOp.minsi IntOp.subi IntOp.maxsi
    simp only [BitVec.slt, BitVec.toInt_eq_toNat_cond, BitVec.toNat_ofNat]
    split_ifs <;> simp_all <;> bv_omega
  -- so the block of 1024 rows it names ends inside the 16384 rows
  have clamp_blk : ∀ (i : grid0.Coords) (x : BitVec 32),
      ((Scalar.minsi (BitVec.ofNat 32 (i 0).val) (Scalar.subi (Scalar.maxsi 1#32 x) 1#32)).toNat + 1) * 1024 ≤ 16384 := by
    intro i x
    have h16 : (i 0).val < 16 := (i 0).isLt
    have := clamp_le _ h16 x
    omega
  have fin2_all : ∀ (f s S : Fin 2 → ℕ), (f 0 + 1) * s 0 ≤ S 0 → (f 1 + 1) * s 1 ≤ S 1 → ∀ a, (f a + 1) * s a ≤ S a := by
    intro f s S h0 h1 a
    fin_cases a
    · exact h0
    · exact h1
  unfold ok0
  refine ⟨fun i => ⟨fin2_all _ _ _ ?_ ?_, .inl rfl⟩, fun i => ⟨fin2_all _ _ _ ?_ ?_, .inl rfl⟩,
    fun i => ⟨fin2_all _ _ _ ?_ ?_, .inl rfl⟩, fun i => ⟨fin2_all _ _ _ ?_ ?_, .inl rfl⟩⟩
  · simp only [cc0_transform_0, Matrix.cons_val_zero]; exact clamp_blk i _
  · simp only [cc0_transform_0, Matrix.cons_val_one, Matrix.cons_val_zero]; decide
  · simp only [cc0_transform_1, Matrix.cons_val_zero]; exact clamp_blk i _
  · simp only [cc0_transform_1, Matrix.cons_val_one, Matrix.cons_val_zero]; decide
  · simp only [cc0_transform_2, Matrix.cons_val_zero]; exact clamp_blk i _
  · simp only [cc0_transform_2, Matrix.cons_val_one, Matrix.cons_val_zero]; decide
  · simp only [cc0_transform_3, Matrix.cons_val_zero]; exact clamp_blk i _
  · simp only [cc0_transform_3, Matrix.cons_val_one, Matrix.cons_val_zero]; decide

abbrev adm : (pcfg0 (F := F)).Adm := ⟨tbl m, ok_all (tbl m)⟩
abbrev cfgM : Pipeline.Cfg sig Λ₀ := cfg0 (adm m)

/-- The table's one word. -/
def nvWord (pf : pre0.Contents (Elt F)) : BitVec 32 := pf.atD 0 ![0]

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the body leaves in the output block at a grid point, from the table's word and the eleven input blocks:
    the masked encoding where the tile starts below the total length, zeros where it does not. -/
def outBlk (pf : pre0.Contents (Elt F)) (i : grid0.Coords)
    (x0 : Vec F S1024x1024 .f32) (x1 : Vec F S1024x32 .f32) (x2 x3 : Vec F S1024x1 .i32)
    (x4 x5 : Vec F S1x1024 .f32) (x6 x7 : Vec F S1x32 .f32) (x8 : Vec F S1024x2048 .bf16) (x9 : Vec F S32x2048 .bf16)
    (x10 : Vec F S1x2048 .f32) : Vec F S1024x2048 .f32 :=
  if k0_cond1 i (nvWord pf) = 1#1 then
    k0_pay1 i (nvWord pf) (k0_pay4 x0 x2 x4 x5) (k0_pay5 x3) (k0_pay6 x1 x3 x6) x7 x8 x9 x10
  else k0_pay2

/-! ## The frame claim's post from a frame run's -/

theorem frame_of (dats : (p : Fin 1) → (c : Dev nD) → Dat τ (Elt F) Unit ℕ (UR sig nD τ) ℕ ((Pipeline.pin pcfgs fun _ => adm m) p) c)
    (h : θ_run defs (onTc (τ := τ) (main (F := F))) (s₀ m ρ) (Pipeline.FramePost (Pipeline.pin pcfgs fun _ => adm m) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

end Cert.KernelIdeal.Hand

end
-- ==== Proof.KernelFrame.lean ====
/-
  The kernel's frame at either instance: the proof data of its one pipeline (each input's staging buffer holds its
  block; the output's holds `outBlk` of the table's word and the input blocks), the body's run in its two cases
  (the tile starts below the total length, or not), the body obligation, and the frame run.
-/
import proofs.«400249_j88502096101408_2_alg».proof.Proof.KernelBase
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table as the body is handed it -/

/-- The table's whole buffer as a memref. -/
abbrev tbM0 : Memref sig .tc .smem S1 .i32 := Memref.whole main_v116
abbrev htbM0 : tbM0.IsWhole := Memref.isWhole_whole _

/-- The table memref's buffer on core `c`, and it held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table's half share the region hands the body. -/
theorem PhiT0_eq (pf : pre0.Contents (Elt F)) (c : Dev nD) : (Pipeline.ΦT pre0 pf c : sProp 𝕄) = tbPt0 c tbM0 (pf 0) := by
  unfold Pipeline.ΦT Pipeline.prefHeld
  rw [show (Finset.univ : Finset (Fin 1)) = {(0 : Fin 1)} from by decide, bigSep_singleton]
  rfl

/-- The word the body's scalar load reads off the table's buffer at contents `xt`. -/
abbrev rdW (c : Dev nD) (xt : TbBuf0 (F := F) c tbM0) : BitVec 32 :=
  tbM0.view.readAt (Elt F) (Rect.unit (s := S1) ![0] S1.size inb_S1_S1_0).toLoadRect xt (Shape.Idx.first (numel1_S1.symm ▸ Nat.one_pos))

/-- It is the table's one word. -/
theorem rdW_eq (pf : pre0.Contents (Elt F)) (c : Dev nD) : rdW c (pf 0) = nvWord pf := by
  unfold nvWord Pipeline.Prefetch.Contents.atD
  rw [dif_pos (fun a => by fin_cases a; decide)]
  rfl

/-! ## Reading whole blocks -/

theorem frame_zero2 : (![0, 0] : Fin 2 → ℕ) = fun _ => 0 := by funext a; fin_cases a <;> rfl

/-- A load of the whole block through a whole memref held at the contents that read `X` reads `X`. -/
theorem frame_readAt_whole {sp : Space} {S : Shape} {e : EltTy} {M : Memref sig .tc sp S e} (h : M.IsWhole) (X : S.Idx → Elt F e)
    {off : Fin S.rank → ℕ} (hz : off = fun _ => 0) (inb : ∀ a, off a + S.size a ≤ S.size a) :
    View.readAt (Elt F) M.view (Rect.unit off S.size inb).toLoadRect (h.unread X) = X :=
  (View.readAt_eq_ld _ _ _).trans ((congrArg (fun Y => View.ld Y (Rect.unit off S.size inb)) (h.read_unread X)).trans (View.ld_unit_zero hz inb X))

/-- One store of the whole block leaves its payload, whatever the buffer held. -/
theorem frame_read_store_whole {sp : Space} {S : Shape} {e : EltTy} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero hz inb y⟩)).trans
    (View.canon_unit_zero hz inb w)

/-! ## The two conditions -/

/-- A one-bit word is set exactly when its flip is not. -/
theorem cond_flip (b : BitVec 1) : (Scalar.cmpi .ne (Scalar.extui b) 0#32 = 1#1) ↔ ¬ (Scalar.cmpi .ne (Scalar.extui (Scalar.xori b 1#1)) 0#32 = 1#1) := by
  rcases BitVec.eq_zero_or_eq_one b with h | h <;> subst h <;> decide

/-- The second condition is the first negated: both test the one comparison, the second after flipping it. -/
theorem cond2_of_cond1 {i : grid0.Coords} {v : BitVec 32} (h : k0_cond1 i v = 1#1) : ¬ k0_cond2 i v = 1#1 :=
  (cond_flip (Scalar.cmpi .slt (Scalar.muli (BitVec.ofNat 32 (i 0).val) 1024#32) v)).mp h

theorem cond2_of_not_cond1 {i : grid0.Coords} {v : BitVec 32} (h : ¬ k0_cond1 i v = 1#1) : k0_cond2 i v = 1#1 :=
  Classical.not_not.mp fun h2 => h ((cond_flip (Scalar.cmpi .slt (Scalar.muli (BitVec.ofNat 32 (i 0).val) 1024#32) v)).mpr h2)

/-! ## The body's run in its two cases -/

set_option maxHeartbeats 1000000 in
/-- The tile starts below the total length: the body loads the eleven input blocks and stores the masked encoding. -/
theorem kernelRun0_A (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1024x2048 .bf16) (harg10 : arg10.IsWhole) (arg11 : Memref sig .tc .vmem S32x2048 .bf16) (harg11 : arg11.IsWhole) (arg12 : Memref sig .tc .vmem S1x2048 .f32) (harg12 : arg12.IsWhole) (arg13 : Memref sig .tc .vmem S1024x2048 .f32) (harg13 : arg13.IsWhole)
    (x0 : Vec F S1024x1024 .f32) (x1 : Vec F S1024x32 .f32) (x2 : Vec F S1024x1 .i32) (x3 : Vec F S1024x1 .i32) (x4 : Vec F S1x1024 .f32) (x5 : Vec F S1x1024 .f32) (x6 : Vec F S1x32 .f32) (x7 : Vec F S1x32 .f32) (x8 : Vec F S1024x2048 .bf16) (x9 : Vec F S32x2048 .bf16) (x10 : Vec F S1x2048 .f32) (xt : TbBuf0 (F := F) c tbM0) (wd : BitVec 32) (hw : rdW c xt = wd)
    (h1 : k0_cond1 i wd = 1#1) (h2 : ¬ k0_cond2 i wd = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ tbPt0 c tbM0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay1 i wd (k0_pay4 x0 x2 x4 x5) (k0_pay5 x3) (k0_pay6 x1 x3 x6) x7 x8 x9 x10) ∗ tbPt0 c tbM0 xt) -∗ K ⟨⟩))
      ⊢ wp frame (wpE (defs₀ (F := F)) Variants.none c none) E (cc0__encode_kernel i tbM0 htbM0 arg2 harg2 arg3 harg3 arg4 harg4 arg5 harg5 arg6 harg6 arg7 harg7 arg8 harg8 arg9 harg9 arg10 harg10 arg11 harg11 arg12 harg12 arg13 harg13) K := by
  subst hw
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact h1 | sl_exact h2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]; · iexists _; isplitr; · ipureintro; exact harg10.read_unread _
                  iexact H8
  isplitl [H9]; · iexists _; isplitr; · ipureintro; exact harg11.read_unread _
                  iexact H9
  isplitl [H10]; · iexists _; isplitr; · ipureintro; exact harg12.read_unread _
                   iexact H10
  isplitl [H11]
  · iexists _; isplitr
    swap; · iexact H11
    ipureintro
    refine (frame_read_store_whole _ _ frame_zero2 _ _).trans ?_
    unfold kernelRun0_A.sl.r kernelRun0_A.sl.r_1 kernelRun0_A.sl.r_2 kernelRun0_A.sl.r_3
    rw [frame_readAt_whole harg2 x0 frame_zero2, frame_readAt_whole harg3 x1 frame_zero2, frame_readAt_whole harg4 x2 frame_zero2, frame_readAt_whole harg5 x3 frame_zero2, frame_readAt_whole harg6 x4 frame_zero2, frame_readAt_whole harg7 x5 frame_zero2, frame_readAt_whole harg8 x6 frame_zero2, frame_readAt_whole harg9 x7 frame_zero2, frame_readAt_whole harg10 x8 frame_zero2, frame_readAt_whole harg11 x9 frame_zero2, frame_readAt_whole harg12 x10 frame_zero2]
  iexact HT

set_option maxHeartbeats 1000000 in
/-- The tile starts at or past the total length: the body stores zeros. -/
theorem kernelRun0_B (c : Dev nD) (i : grid0.Coords) (arg2 : Memref sig .tc .vmem S1024x1024 .f32) (harg2 : arg2.IsWhole) (arg3 : Memref sig .tc .vmem S1024x32 .f32) (harg3 : arg3.IsWhole) (arg4 : Memref sig .tc .vmem S1024x1 .i32) (harg4 : arg4.IsWhole) (arg5 : Memref sig .tc .vmem S1024x1 .i32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x32 .f32) (harg8 : arg8.IsWhole) (arg9 : Memref sig .tc .vmem S1x32 .f32) (harg9 : arg9.IsWhole) (arg10 : Memref sig .tc .vmem S1024x2048 .bf16) (harg10 : arg10.IsWhole) (arg11 : Memref sig .tc .vmem S32x2048 .bf16) (harg11 : arg11.IsWhole) (arg12 : Memref sig .tc .vmem S1x2048 .f32) (harg12 : arg12.IsWhole) (arg13 : Memref sig .tc .vmem S1024x2048 .f32) (harg13 : arg13.IsWhole)
    (x0 : Vec F S1024x1024 .f32) (x1 : Vec F S1024x32 .f32) (x2 : Vec F S1024x1 .i32) (x3 : Vec F S1024x1 .i32) (x4 : Vec F S1x1024 .f32) (x5 : Vec F S1x1024 .f32) (x6 : Vec F S1x32 .f32) (x7 : Vec F S1x32 .f32) (x8 : Vec F S1024x2048 .bf16) (x9 : Vec F S32x2048 .bf16) (x10 : Vec F S1x2048 .f32) (xt : TbBuf0 (F := F) c tbM0) (wd : BitVec 32) (hw : rdW c xt = wd)
    (h1 : ¬ k0_cond1 i wd = 1#1) (h2 : k0_cond2 i wd = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ tbPt0 c tbM0 xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (k0_pay2 (F := F)) ∗ tbPt0 c tbM0 xt) -∗ K ⟨⟩))
      ⊢ wp frame (wpE (defs₀ (F := F)) Variants.none c none) E (cc0__encode_kernel i tbM0 htbM0 arg2 harg2 arg3 harg3 arg4 harg4 arg5 harg5 arg6 harg6 arg7 harg7 arg8 harg8 arg9 harg9 arg10 harg10 arg11 harg11 arg12 harg12 arg13 harg13) K := by
  subst hw
  simp only [cc0__encode_kernel_eq_skeleton]; unfold cc0__encode_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, HT, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec (disch := first | sl_exact h1 | sl_exact h2)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]; · iexists _; isplitr; · ipureintro; exact harg9.read_unread _
                  iexact H7
  isplitl [H8]; · iexists _; isplitr; · ipureintro; exact harg10.read_unread _
                  iexact H8
  isplitl [H9]; · iexists _; isplitr; · ipureintro; exact harg11.read_unread _
                  iexact H9
  isplitl [H10]; · iexists _; isplitr; · ipureintro; exact harg12.read_unread _
                   iexact H10
  isplitl [H11]
  · iexists _; isplitr
    swap; · iexact H11
    ipureintro
    refine (frame_read_store_whole _ _ frame_zero2 _ _).trans ?_
    rfl
  iexact HT

/-! ## The staging memrefs and the body at a point -/

/-- Each window's current staging memref at point `t`, and its wholeness. -/
abbrev ms0_0 (a : (pcfg0 (F := F)).Adm) (t : Fin (cfg0 a).N) : Memref sig .tc .vmem S1024x1024 .f32 := spec0_0.stage ((cfg0 a).slots t 0)
abbrev hs0_0 (a : (pcfg0 (F := F)).Adm) (t : Fin (cfg0 a).N) : (ms0_0 a t).IsWhole := hstage0_0 (((cfg0 a).slots t 0).cast nbuf0_0)
abbrev ms0_1 (a : (pcfg0 (F := F)).Adm) (t : Fin (cfg0 a).N) : Memref sig .tc .vmem S1024x32 .f32 := spec0_1.stage ((cfg0 a).slots t 1)
abbrev hs0_1 (a : (pcfg0 (F := F)).Adm) (t : Fin (cfg0 a).N) : (ms0_1 a t).IsWhole := hstage0_1 (((cfg0 a).slots t 1).cast nbuf0_1)
abbrev ms0_2 (a : (pcfg0 (F := F)).Adm) (t : Fin (cfg0 a).N) : Memref sig .tc .vmem S1024x1 .i32 := spec0_2.stage ((cfg0 a).slots t 2)
abbrev hs0_2 (a : (pcfg0 (F := F)).Adm) (t : Fin (cfg0 a).N) : (ms0_2 a t).IsWhole := hstage0_2 (((cfg0 a).slots t 2).cast nbuf0_2)
abbrev ms0_3 (a : (pcfg0 (F := F)).Adm) (t : Fin (cfg0 a).N) : Memref sig .tc .vmem S1024x1 .i32 := spec0_3.stage ((cfg0 a).slots t 3)
abbrev hs0_3 (a : (pcfg0 (F := F)).Adm) (t : Fin (cfg0 a).N) : (ms0_3 a t).IsWhole := hstage0_3 (((cfg0 a).slots t 3).cast nbuf0_3)
abbrev ms0_4 (a : (pcfg0 (F := F)).Adm) (t : Fin (cfg0 a).N) : Memref sig .tc .vmem S1x1024 .f32 := spec0_4.stage ((cfg0 a).slots t 4)
abbrev hs0_4 (a : (pcfg0 (F := F)).Adm) (t : Fin (cfg0 a).N) : (ms0_4 a t).IsWhole := hstage0_4 (((cfg0 a).slots t 4).cast nbuf0_4)
abbrev ms0_5 (a : (pcfg0 (F := F)).Adm) (t : Fin (cfg0 a).N) : Memref sig .tc .vmem S1x1024 .f32 := spec0_5.stage ((cfg0 a).slots t 5)
abbrev hs0_5 (a : (pcfg0 (F := F)).Adm) (t : Fin (cfg0 a).N) : (ms0_5 a t).IsWhole := hstage0_5 (((cfg0 a).slots t 5).cast nbuf0_5)
abbrev ms0_6 (a : (pcfg0 (F := F)).Adm) (t : Fin (cfg0 a).N) : Memref sig .tc .vmem S1x32 .f32 := spec0_6.stage ((cfg0 a).slots t 6)
abbrev hs0_6 (a : (pcfg0 (F := F)).Adm) (t : Fin (cfg0 a).N) : (ms0_6 a t).IsWhole := hstage0_6 (((cfg0 a).slots t 6).cast nbuf0_6)
abbrev ms0_7 (a : (pcfg0 (F := F)).Adm) (t : Fin (cfg0 a).N) : Memref sig .tc .vmem S1x32 .f32 := spec0_7.stage ((cfg0 a).slots t 7)
abbrev hs0_7 (a : (pcfg0 (F := F)).Adm) (t : Fin (cfg0 a).N) : (ms0_7 a t).IsWhole := hstage0_7 (((cfg0 a).slots t 7).cast nbuf0_7)
abbrev ms0_8 (a : (pcfg0 (F := F)).Adm) (t : Fin (cfg0 a).N) : Memref sig .tc .vmem S1024x2048 .bf16 := spec0_8.stage ((cfg0 a).slots t 8)
abbrev hs0_8 (a : (pcfg0 (F := F)).Adm) (t : Fin (cfg0 a).N) : (ms0_8 a t).IsWhole := hstage0_8 (((cfg0 a).slots t 8).cast nbuf0_8)
abbrev ms0_9 (a : (pcfg0 (F := F)).Adm) (t : Fin (cfg0 a).N) : Memref sig .tc .vmem S32x2048 .bf16 := spec0_9.stage ((cfg0 a).slots t 9)
abbrev hs0_9 (a : (pcfg0 (F := F)).Adm) (t : Fin (cfg0 a).N) : (ms0_9 a t).IsWhole := hstage0_9 (((cfg0 a).slots t 9).cast nbuf0_9)
abbrev ms0_10 (a : (pcfg0 (F := F)).Adm) (t : Fin (cfg0 a).N) : Memref sig .tc .vmem S1x2048 .f32 := spec0_10.stage ((cfg0 a).slots t 10)
abbrev hs0_10 (a : (pcfg0 (F := F)).Adm) (t : Fin (cfg0 a).N) : (ms0_10 a t).IsWhole := hstage0_10 (((cfg0 a).slots t 10).cast nbuf0_10)
abbrev ms0_11 (a : (pcfg0 (F := F)).Adm) (t : Fin (cfg0 a).N) : Memref sig .tc .vmem S1024x2048 .f32 := spec0_11.stage ((cfg0 a).slots t 11)
abbrev hs0_11 (a : (pcfg0 (F := F)).Adm) (t : Fin (cfg0 a).N) : (ms0_11 a t).IsWhole := hstage0_11 (((cfg0 a).slots t 11).cast nbuf0_11)

/-- The kernel body at point `t`, on what the pipeline calls it with. -/
abbrev bodyAt0 (a : (pcfg0 (F := F)).Adm) (t : Fin (cfg0 a).N) : Prog (TpuEff nD τ sig (Elt F) Λ₀ .tc) PUnit :=
  cc0__encode_kernel (grid0.coords t) (Memref.whole main_v116) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11))

/-! ## The pipeline's proof data -/

/-- The proof data of the pipeline on core `c`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk (tbl m) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := iprop(Pipeline.ΦA spec0 c ∗ Pipeline.ΦT pre0 (tbl m) c)
  q _ := fullShare
  owed _ := 0

/-- The proof data's arrays are the contents at the region's entry. -/
theorem A_eq (c : Dev nD) (w : Fin (cfgM m).W) : (dats m 0 c).A w = V m c (Pipeline.arrRef spec0 w) := by
  dsimp only [dats]

/-- What the body leaves, window by window. -/
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = iblk m c 6 t := by dsimp only [dats]; try rfl
theorem after0_7 (c : Dev nD) (t : Fin (cfgM m).N) : (dats m 0 c).after 7 t = iblk m c 7 t := by dsimp only [dats]; try rfl
theorem after0_8 (c : Dev nD) (t : Fin (cfgM m).N) : (dats m 0 c).after 8 t = iblk m c 8 t := by dsimp only [dats]; try rfl
theorem after0_9 (c : Dev nD) (t : Fin (cfgM m).N) : (dats m 0 c).after 9 t = iblk m c 9 t := by dsimp only [dats]; try rfl
theorem after0_10 (c : Dev nD) (t : Fin (cfgM m).N) : (dats m 0 c).after 10 t = iblk m c 10 t := by dsimp only [dats]; try rfl

/-- An input window's staging buffer holds its block after the body as before it. -/
theorem after_in (c : Dev nD) (w : Fin (cfgM m).W) (hw : w ≠ 11) (t : Fin (cfgM m).N) : (dats m 0 c).after w t = iblk m c w t := by
  obtain ⟨k, hk⟩ := w
  match k, hk, hw with
  | 0, _, _ => exact after0_0 m c t
  | 1, _, _ => exact after0_1 m c t
  | 2, _, _ => exact after0_2 m c t
  | 3, _, _ => exact after0_3 m c t
  | 4, _, _ => exact after0_4 m c t
  | 5, _, _ => exact after0_5 m c t
  | 6, _, _ => exact after0_6 m c t
  | 7, _, _ => exact after0_7 m c t
  | 8, _, _ => exact after0_8 m c t
  | 9, _, _ => exact after0_9 m c t
  | 10, _, _ => exact after0_10 m c t
  | 11, _, hw => exact absurd rfl hw
  | k + 12, hk, _ => exact absurd hk (Nat.not_lt.2 (Nat.le_add_left _ _))

/-- The output window's staging buffer after the body at point `t`. -/
theorem after_out (c : Dev nD) (t : Fin (cfgM m).N) :
    (dats m 0 c).after 11 t = outBlk (tbl m) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  dsimp only [dats]; try rfl

/-- Each input's current staging buffer holds its block at every point, fetched there or not, at any admissible
    contents of the table: unfetched, the block index has not moved. -/
theorem before0_0_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 0 = Vc (Pipeline.arrRef spec0 0))
    (hafter : ∀ t, dat.after 0 t = (((cfg0 a).win 0).blk t).view.read (Elt F) (Vc (Pipeline.arrRef spec0 0))) (t : Fin (cfg0 a).N) (d) :
    dat.before 0 t d = (((cfg0 a).win 0).blk t).view.read (Elt F) (Vc (Pipeline.arrRef spec0 0)) :=
  (dat.before_in_eq_fetched 0 rfl (fun _ => rfl) (fun _ _ _ => rfl) (fun t => by rw [hafter]; unfold Dat.blockOf; rw [hA]; try rfl) t d).trans
    (by unfold Dat.fetched Dat.blockOf; rw [hA]; try rfl)
theorem before0_1_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 1 = Vc (Pipeline.arrRef spec0 1))
    (hafter : ∀ t, dat.after 1 t = (((cfg0 a).win 1).blk t).view.read (Elt F) (Vc (Pipeline.arrRef spec0 1))) (t : Fin (cfg0 a).N) (d) :
    dat.before 1 t d = (((cfg0 a).win 1).blk t).view.read (Elt F) (Vc (Pipeline.arrRef spec0 1)) :=
  (dat.before_in_eq_fetched 1 rfl (fun _ => rfl) (fun _ _ _ => rfl) (fun t => by rw [hafter]; unfold Dat.blockOf; rw [hA]; try rfl) t d).trans
    (by unfold Dat.fetched Dat.blockOf; rw [hA]; try rfl)
theorem before0_2_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 2 = Vc (Pipeline.arrRef spec0 2))
    (hafter : ∀ t, dat.after 2 t = (((cfg0 a).win 2).blk t).view.read (Elt F) (Vc (Pipeline.arrRef spec0 2))) (t : Fin (cfg0 a).N) (d) :
    dat.before 2 t d = (((cfg0 a).win 2).blk t).view.read (Elt F) (Vc (Pipeline.arrRef spec0 2)) :=
  (dat.before_in_eq_fetched 2 rfl (fun _ => rfl) (fun _ _ _ => rfl) (fun t => by rw [hafter]; unfold Dat.blockOf; rw [hA]; try rfl) t d).trans
    (by unfold Dat.fetched Dat.blockOf; rw [hA]; try rfl)
theorem before0_3_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 3 = Vc (Pipeline.arrRef spec0 3))
    (hafter : ∀ t, dat.after 3 t = (((cfg0 a).win 3).blk t).view.read (Elt F) (Vc (Pipeline.arrRef spec0 3))) (t : Fin (cfg0 a).N) (d) :
    dat.before 3 t d = (((cfg0 a).win 3).blk t).view.read (Elt F) (Vc (Pipeline.arrRef spec0 3)) :=
  (dat.before_in_eq_fetched 3 rfl (fun _ => rfl) (fun _ _ _ => rfl) (fun t => by rw [hafter]; unfold Dat.blockOf; rw [hA]; try rfl) t d).trans
    (by unfold Dat.fetched Dat.blockOf; rw [hA]; try rfl)
theorem before0_4_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 4 = Vc (Pipeline.arrRef spec0 4))
    (hafter : ∀ t, dat.after 4 t = (((cfg0 a).win 4).blk t).view.read (Elt F) (Vc (Pipeline.arrRef spec0 4))) (t : Fin (cfg0 a).N) (d) :
    dat.before 4 t d = (((cfg0 a).win 4).blk t).view.read (Elt F) (Vc (Pipeline.arrRef spec0 4)) :=
  (dat.before_in_eq_fetched 4 rfl (fun _ => rfl) (fun _ _ _ => rfl) (fun t => by rw [hafter]; unfold Dat.blockOf; rw [hA]; try rfl) t d).trans
    (by unfold Dat.fetched Dat.blockOf; rw [hA]; try rfl)
theorem before0_5_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 5 = Vc (Pipeline.arrRef spec0 5))
    (hafter : ∀ t, dat.after 5 t = (((cfg0 a).win 5).blk t).view.read (Elt F) (Vc (Pipeline.arrRef spec0 5))) (t : Fin (cfg0 a).N) (d) :
    dat.before 5 t d = (((cfg0 a).win 5).blk t).view.read (Elt F) (Vc (Pipeline.arrRef spec0 5)) :=
  (dat.before_in_eq_fetched 5 rfl (fun _ => rfl) (fun _ _ _ => rfl) (fun t => by rw [hafter]; unfold Dat.blockOf; rw [hA]; try rfl) t d).trans
    (by unfold Dat.fetched Dat.blockOf; rw [hA]; try rfl)
theorem before0_6_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 6 = Vc (Pipeline.arrRef spec0 6))
    (hafter : ∀ t, dat.after 6 t = (((cfg0 a).win 6).blk t).view.read (Elt F) (Vc (Pipeline.arrRef spec0 6))) (t : Fin (cfg0 a).N) (d) :
    dat.before 6 t d = (((cfg0 a).win 6).blk t).view.read (Elt F) (Vc (Pipeline.arrRef spec0 6)) :=
  (dat.before_in_eq_fetched 6 rfl (fun _ => rfl) (fun _ _ _ => rfl) (fun t => by rw [hafter]; unfold Dat.blockOf; rw [hA]; try rfl) t d).trans
    (by unfold Dat.fetched Dat.blockOf; rw [hA]; try rfl)
theorem before0_7_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 7 = Vc (Pipeline.arrRef spec0 7))
    (hafter : ∀ t, dat.after 7 t = (((cfg0 a).win 7).blk t).view.read (Elt F) (Vc (Pipeline.arrRef spec0 7))) (t : Fin (cfg0 a).N) (d) :
    dat.before 7 t d = (((cfg0 a).win 7).blk t).view.read (Elt F) (Vc (Pipeline.arrRef spec0 7)) :=
  (dat.before_in_eq_fetched 7 rfl (fun _ => rfl) (fun _ _ _ => rfl) (fun t => by rw [hafter]; unfold Dat.blockOf; rw [hA]; try rfl) t d).trans
    (by unfold Dat.fetched Dat.blockOf; rw [hA]; try rfl)
theorem before0_8_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 8 = Vc (Pipeline.arrRef spec0 8))
    (hafter : ∀ t, dat.after 8 t = (((cfg0 a).win 8).blk t).view.read (Elt F) (Vc (Pipeline.arrRef spec0 8))) (t : Fin (cfg0 a).N) (d) :
    dat.before 8 t d = (((cfg0 a).win 8).blk t).view.read (Elt F) (Vc (Pipeline.arrRef spec0 8)) :=
  (dat.before_in_eq_fetched 8 rfl (fun _ => rfl) (fun _ _ _ => rfl) (fun t => by rw [hafter]; unfold Dat.blockOf; rw [hA]; try rfl) t d).trans
    (by unfold Dat.fetched Dat.blockOf; rw [hA]; try rfl)
theorem before0_9_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 9 = Vc (Pipeline.arrRef spec0 9))
    (hafter : ∀ t, dat.after 9 t = (((cfg0 a).win 9).blk t).view.read (Elt F) (Vc (Pipeline.arrRef spec0 9))) (t : Fin (cfg0 a).N) (d) :
    dat.before 9 t d = (((cfg0 a).win 9).blk t).view.read (Elt F) (Vc (Pipeline.arrRef spec0 9)) :=
  (dat.before_in_eq_fetched 9 rfl (fun _ => rfl) (fun _ _ _ => rfl) (fun t => by rw [hafter]; unfold Dat.blockOf; rw [hA]; try rfl) t d).trans
    (by unfold Dat.fetched Dat.blockOf; rw [hA]; try rfl)
theorem before0_10_of (a : (pcfg0 (F := F)).Adm) {c : Dev nD} (dat : Dat τ (Elt F) Unit ℕ (UR sig nD τ) ℕ (cfg0 a) c)
    (Vc : (b : Ref sig .tc) → Buf (Elt F) ((c : Thread nD τ).loc b)) (hA : dat.A 10 = Vc (Pipeline.arrRef spec0 10))
    (hafter : ∀ t, dat.after 10 t = (((cfg0 a).win 10).blk t).view.read (Elt F) (Vc (Pipeline.arrRef spec0 10))) (t : Fin (cfg0 a).N) (d) :
    dat.before 10 t d = (((cfg0 a).win 10).blk t).view.read (Elt F) (Vc (Pipeline.arrRef spec0 10)) :=
  (dat.before_in_eq_fetched 10 rfl (fun _ => rfl) (fun _ _ _ => rfl) (fun t => by rw [hafter]; unfold Dat.blockOf; rw [hA]; try rfl) t d).trans
    (by unfold Dat.fetched Dat.blockOf; rw [hA]; try rfl)

theorem before0_0 (c : Dev nD) (t : Fin (cfgM m).N) (d) : (dats m 0 c).before 0 t d = iblk m c 0 t :=
  before0_0_of (adm m) (dats m 0 c) (V m c) (A_eq m c 0) (after0_0 m c) t d
theorem before0_1 (c : Dev nD) (t : Fin (cfgM m).N) (d) : (dats m 0 c).before 1 t d = iblk m c 1 t :=
  before0_1_of (adm m) (dats m 0 c) (V m c) (A_eq m c 1) (after0_1 m c) t d
theorem before0_2 (c : Dev nD) (t : Fin (cfgM m).N) (d) : (dats m 0 c).before 2 t d = iblk m c 2 t :=
  before0_2_of (adm m) (dats m 0 c) (V m c) (A_eq m c 2) (after0_2 m c) t d
theorem before0_3 (c : Dev nD) (t : Fin (cfgM m).N) (d) : (dats m 0 c).before 3 t d = iblk m c 3 t :=
  before0_3_of (adm m) (dats m 0 c) (V m c) (A_eq m c 3) (after0_3 m c) t d
theorem before0_4 (c : Dev nD) (t : Fin (cfgM m).N) (d) : (dats m 0 c).before 4 t d = iblk m c 4 t :=
  before0_4_of (adm m) (dats m 0 c) (V m c) (A_eq m c 4) (after0_4 m c) t d
theorem before0_5 (c : Dev nD) (t : Fin (cfgM m).N) (d) : (dats m 0 c).before 5 t d = iblk m c 5 t :=
  before0_5_of (adm m) (dats m 0 c) (V m c) (A_eq m c 5) (after0_5 m c) t d
theorem before0_6 (c : Dev nD) (t : Fin (cfgM m).N) (d) : (dats m 0 c).before 6 t d = iblk m c 6 t :=
  before0_6_of (adm m) (dats m 0 c) (V m c) (A_eq m c 6) (after0_6 m c) t d
theorem before0_7 (c : Dev nD) (t : Fin (cfgM m).N) (d) : (dats m 0 c).before 7 t d = iblk m c 7 t :=
  before0_7_of (adm m) (dats m 0 c) (V m c) (A_eq m c 7) (after0_7 m c) t d
theorem before0_8 (c : Dev nD) (t : Fin (cfgM m).N) (d) : (dats m 0 c).before 8 t d = iblk m c 8 t :=
  before0_8_of (adm m) (dats m 0 c) (V m c) (A_eq m c 8) (after0_8 m c) t d
theorem before0_9 (c : Dev nD) (t : Fin (cfgM m).N) (d) : (dats m 0 c).before 9 t d = iblk m c 9 t :=
  before0_9_of (adm m) (dats m 0 c) (V m c) (A_eq m c 9) (after0_9 m c) t d
theorem before0_10 (c : Dev nD) (t : Fin (cfgM m).N) (d) : (dats m 0 c).before 10 t d = iblk m c 10 t :=
  before0_10_of (adm m) (dats m 0 c) (V m c) (A_eq m c 10) (after0_10 m c) t d

/-! ## The body obligation -/

/-- The output window's idle table at any admissible contents: neither condition holds. -/
theorem idle11 (a : (pcfg0 (F := F)).Adm) (i : grid0.Coords) :
    (cfg0 a).idle (11 : Fin 12) i = (!(k0_cond1 i (nvWord a.1) == 1#1) && !(k0_cond2 i (nvWord a.1) == 1#1)) := rfl

/-- One of the two conditions always holds, so the output window is idle at no point. -/
theorem idle11_false (a : (pcfg0 (F := F)).Adm) (i : grid0.Coords) : (cfg0 a).idle (11 : Fin 12) i = false := by
  rw [idle11]
  by_cases h : k0_cond1 i (nvWord a.1) = 1#1
  · rw [h]; rfl
  · rw [cond2_of_not_cond1 h]; exact Bool.and_false _

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 (adm m) t) fullShare ((dats m 0 c).before 0 t d))
    ∗ (∃ d, owns (c : Thread nD τ) (ms0_1 (adm m) t) fullShare ((dats m 0 c).before 1 t d))
    ∗ (∃ d, owns (c : Thread nD τ) (ms0_2 (adm m) t) fullShare ((dats m 0 c).before 2 t d))
    ∗ (∃ d, owns (c : Thread nD τ) (ms0_3 (adm m) t) fullShare ((dats m 0 c).before 3 t d))
    ∗ (∃ d, owns (c : Thread nD τ) (ms0_4 (adm m) t) fullShare ((dats m 0 c).before 4 t d))
    ∗ (∃ d, owns (c : Thread nD τ) (ms0_5 (adm m) t) fullShare ((dats m 0 c).before 5 t d))
    ∗ (∃ d, owns (c : Thread nD τ) (ms0_6 (adm m) t) fullShare ((dats m 0 c).before 6 t d))
    ∗ (∃ d, owns (c : Thread nD τ) (ms0_7 (adm m) t) fullShare ((dats m 0 c).before 7 t d))
    ∗ (∃ d, owns (c : Thread nD τ) (ms0_8 (adm m) t) fullShare ((dats m 0 c).before 8 t d))
    ∗ (∃ d, owns (c : Thread nD τ) (ms0_9 (adm m) t) fullShare ((dats m 0 c).before 9 t d))
    ∗ (∃ d, owns (c : Thread nD τ) (ms0_10 (adm m) t) fullShare ((dats m 0 c).before 10 t d))
    ∗ (∃ d, owns (c : Thread nD τ) (ms0_11 (adm m) t) fullShare ((dats m 0 c).before 11 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0_0 (adm m) t) fullShare ((dats m 0 c).after 0 t)
    ∗ owns (c : Thread nD τ) (ms0_1 (adm m) t) fullShare ((dats m 0 c).after 1 t)
    ∗ owns (c : Thread nD τ) (ms0_2 (adm m) t) fullShare ((dats m 0 c).after 2 t)
    ∗ owns (c : Thread nD τ) (ms0_3 (adm m) t) fullShare ((dats m 0 c).after 3 t)
    ∗ owns (c : Thread nD τ) (ms0_4 (adm m) t) fullShare ((dats m 0 c).after 4 t)
    ∗ owns (c : Thread nD τ) (ms0_5 (adm m) t) fullShare ((dats m 0 c).after 5 t)
    ∗ owns (c : Thread nD τ) (ms0_6 (adm m) t) fullShare ((dats m 0 c).after 6 t)
    ∗ owns (c : Thread nD τ) (ms0_7 (adm m) t) fullShare ((dats m 0 c).after 7 t)
    ∗ owns (c : Thread nD τ) (ms0_8 (adm m) t) fullShare ((dats m 0 c).after 8 t)
    ∗ owns (c : Thread nD τ) (ms0_9 (adm m) t) fullShare ((dats m 0 c).after 9 t)
    ∗ owns (c : Thread nD τ) (ms0_10 (adm m) t) fullShare ((dats m 0 c).after 10 t)
    ∗ owns (c : Thread nD τ) (ms0_11 (adm m) t) fullShare ((dats m 0 c).after 11 t))

/-- The body at any point: the inputs' memrefs hold their blocks; the run of the point's case applies; the invariant
    passes through unread; the core owes nothing throughout. -/
theorem sound_body (c : Dev nD) (t : Fin (cfgM m).N) :
    bodyPre m c t ⊢ wp frame (wpE (defs₀ (F := F)) Variants.none c none) Set.univ (bodyAt0 (adm m) t) (fun _ => bodyPost m c t) := by
  unfold bodyPre bodyPost bodyAt0
  simp only [before0_0, before0_1, before0_2, before0_3, before0_4, before0_5, before0_6, before0_7, before0_8, before0_9, before0_10]
  rewrite [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after_out]
  rewrite [show (dats m 0 c).Φ t.castSucc = iprop(Pipeline.ΦA spec0 c ∗ Pipeline.ΦT pre0 (tbl m) c) from rfl, PhiT0_eq]
  by_cases h : k0_cond1 (grid0.coords t) (nvWord (tbl m)) = 1#1
  · unfold outBlk; rewrite [if_pos h]
    iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (nvWord (tbl m)) (rdW_eq (tbl m) c) h (cond2_of_cond1 h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HT]; · iexact HT
    iintro ⟨H0, H1, H2, H3, H4, H5, H6, H7, H8, H9, H10, H11, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · unfold outBlk; rewrite [if_neg h]
    iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (kernelRun0_B c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (tbl m 0) (nvWord (tbl m)) (rdW_eq (tbl m) c) h (cond2_of_not_cond1 h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [HT]; · iexact HT
    iintro ⟨H0, H1, H2, H3, H4, H5, H6, H7, H8, H9, H10, H11, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation, at every point. -/
theorem body_obligation (c : Dev nD) : BodyObligation (dats (F := F) m 0 c) (defs₀ (F := F)) Variants.none () Set.univ := fun t => by
  rw [bigSep_W0, bigSep_W0]
  rewrite [idle11_false (adm m) ((cfgM m).grid.coords t)]
  exact sound_body m c t

/-! ## The run and the frame -/

set_option backward.isDefEq.respectTransparency.types false in
/-- The frame run: every weakly fair execution terminates, each window's array at what the library computes from
    the proof data, every other unscoped buffer as the region found it. -/
theorem run_main : θ_run defs (onTc (τ := τ) (main (F := F))) (s₀ m ρ) (Pipeline.FramePost (Pipeline.pin pcfgs fun _ => adm m) (dats m) 0 (V m)) :=
  Pipeline.θ_run_frameP pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The frame: the program runs and leaves its eleven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.Hand

end
-- ==== Proof.Packing.lean ====
/-
  The packed row order and the per-row lengths, as pure functions of the integer inputs.

  `lengths : i32[1024]` gives each of the 1024 sequences a length.  The host code of both programs sorts the
  sequences by decreasing length (a stable sort of the negated lengths carrying an iota), counts for every step
  `t < 16` how many sequences are longer than `t`, and lays the pairs (sequence, step) out step-major into
  16384 rows by a row scatter into a zero table of 16385 entries whose last entry takes every pair past its
  sequence's length.  `srcB r` / `srcT r` are the sequence and the step of packed row `r`;
  `packLens lengths p r` is the per-sequence count `p` of the sequence row `r` belongs to in the
  sequence-major layout (zero past the total length); `nValid lengths` is the sum of the lengths, as a 32-bit word.
  Every entry of `srcB` is a sequence number and every entry of `srcT` a step, whatever the lengths are: a scatter's
  result holds entries of the table it writes into or of the values it writes, and the values written are entries of
  the sorted iota, respectively of the step iota.
-/
import Idealize.ShloMosaic.PureOps
import Idealize.ShloMosaic.Lib.ValueIdx
import Idealize.ShloMosaic.Lib.WordArith

noncomputable section

namespace Cert.Packing

open Idealize.ShloMosaic Idealize.ShloMosaic.ValueIdx

abbrev S1024 : Shape := ⟨1, ![1024]⟩
abbrev S16384 : Shape := ⟨1, ![16384]⟩
abbrev S_ : Shape := ⟨0, ![]⟩
abbrev S1 : Shape := ⟨1, ![1]⟩
abbrev S15 : Shape := ⟨1, ![15]⟩
abbrev S16 : Shape := ⟨1, ![16]⟩
abbrev S1023 : Shape := ⟨1, ![1023]⟩
abbrev S16385 : Shape := ⟨1, ![16385]⟩
abbrev S1x1024 : Shape := ⟨2, ![1, 1024]⟩
abbrev S16x1 : Shape := ⟨2, ![16, 1]⟩
abbrev S16x1024 : Shape := ⟨2, ![16, 1024]⟩
abbrev S16x1024x1 : Shape := ⟨3, ![16, 1024, 1]⟩
abbrev S16384x1 : Shape := ⟨2, ![16384, 1]⟩
abbrev S1024x16 : Shape := ⟨2, ![1024, 16]⟩
abbrev S1024x1 : Shape := ⟨2, ![1024, 1]⟩

/-! ## The order of the sequences and the counts per step -/

/-- The sort's comparator: the first components, signed. -/
def before : BitVec 32 × BitVec 32 → BitVec 32 × BitVec 32 → BitVec 1 :=
  fun l r =>
    let v2 := IntOp.cmpi .slt l.1 r.1
    v2

/-- The take of one sequence number per (step, rank) out of the sorted sequence numbers. -/
def takeDims : GatherDims S1024 S16x1024x1 S16x1024 where
  offsetDims := []
  collapsedSliceDims := [0]
  operandBatchingDims := []
  startIndicesBatchingDims := []
  startIndexMap := [0]
  indexVectorDim := 2
  sliceSizes := ![1]
  wf := by decide

/-- The row scatter of 16384 words into the table of 16385. -/
def putDims : ScatterDims S16385 S16384x1 S16384 where
  updateWindowDims := []
  insertedWindowDims := [0]
  scatterDimsToOperandDims := [0]
  indexVectorDim := 1
  wf := by decide

/-- The sequence numbers by decreasing length: the iota carried through the stable sort of the negated lengths. -/
def order (lengths : IVec S1024 32) : IVec S1024 32 :=
  (Host.sort2 S1024 0 before (negi lengths) (iotaInDim S1024 32 0)).2

/-- For every step, the number of sequences longer than it. -/
def counts (lengths : IVec S1024 32) : IVec S16 32 :=
  Host.reduce IntOp.addi
    (extui 32
      (cmpi .sgt
        (broadcastInDim S16x1024 ![0, 1] (by decide) (broadcastInDim S1x1024 ![1] (by decide) lengths))
        (broadcastInDim S16x1024 ![0, 1] (by decide) (broadcastInDim S16x1 ![0] (by decide) (iotaInDim S16 32 0))))
      (by decide))
    (constantI S_ 32 0#32) (by decide : S16x1024.ReducesTo [1] S16) (by decide)

/-- One zero. -/
def zero1 : IVec S1 32 := broadcastInDim S1 ![] (by decide) (constantI S_ 32 0#32)

/-- The running sum of the counts. -/
def countsSum (lengths : IVec S1024 32) : IVec S16 32 :=
  Host.reduceWindow IntOp.addi ![16] ![1] ![15] ![0] (counts lengths)
    (broadcastInDim S_ ![] (by decide) (constantI S_ 32 0#32)) (by decide) (by decide)

/-- The first packed row of every step: the running sum of the counts, shifted by one. -/
def stepStart (lengths : IVec S1024 32) : IVec S16 32 :=
  concatenate S16 0 [⟨S1, zero1⟩, ⟨S15, extractStridedSlice S15 ![0] (countsSum lengths) (by decide)⟩]
    (by decide : Shape.Concatenates [S1, S15] S16 0)

/-- The step of every (step, rank) pair. -/
def stepGrid : IVec S16x1024 32 := broadcastInDim S16x1024 ![0] (by decide) (iotaInDim S16 32 0)

/-- The rank of every (step, rank) pair. -/
def rankGrid : IVec S16x1024 32 := broadcastInDim S16x1024 ![1] (by decide) (iotaInDim S1024 32 0)

/-- The packed row of every (step, rank) pair: the step's first row plus the rank where the rank is below the
    step's count, 16384 where it is not; step-major. -/
def dest (lengths : IVec S1024 32) : IVec S16384 32 :=
  shapeCast S16384
    (select
      (cmpi .slt rankGrid
        (broadcastInDim S16x1024 ![0, 1] (by decide) (broadcastInDim S16x1 ![0] (by decide) (counts lengths))))
      (addi
        (broadcastInDim S16x1024 ![0, 1] (by decide) (broadcastInDim S16x1 ![0] (by decide) (stepStart lengths)))
        rankGrid)
      (broadcastInDim S16x1024 ![] (by decide) (id (constantI S_ 32 16384#32))))
    (by decide)

/-- The table the scatters write into: 16385 zeros. -/
def zeroTable : IVec S16385 32 := broadcastInDim S16385 ![] (by decide) (constantI S_ 32 0#32)

/-- The sequence of every (step, rank) pair: the rank-th of the sorted sequence numbers; step-major. -/
def seqGrid (lengths : IVec S1024 32) : IVec S16384 32 :=
  shapeCast S16384
    (Host.gather takeDims (order lengths)
      (broadcastInDim S16x1024x1 ![0, 1] (by decide)
        (select (cmpi .slt rankGrid (broadcastInDim S16x1024 ![] (by decide) (constantI S_ 32 0#32)))
          (addi rankGrid (broadcastInDim S16x1024 ![] (by decide) (constantI S_ 32 1024#32)))
          rankGrid)))
    (by decide)

/-- A row list as the scatter's index array: a negative entry counted from the table's end. -/
def asIndex (d : IVec S16384 32) : IVec S16384x1 32 :=
  broadcastInDim S16384x1 ![0] (by decide)
    (select (cmpi .slt d (broadcastInDim S16384 ![] (by decide) (constantI S_ 32 0#32)))
      (addi d (broadcastInDim S16384 ![] (by decide) (constantI S_ 32 16385#32)))
      d)

/-- Sequence number of each packed row. -/
def srcB (lengths : IVec S1024 32) : IVec S16384 32 :=
  extractStridedSlice S16384 ![0]
    (Host.scatter putDims (fun _ b => b) zeroTable (asIndex (dest lengths)) (seqGrid lengths))
    (by decide)

/-- Step number of each packed row. -/
def srcT (lengths : IVec S1024 32) : IVec S16384 32 :=
  extractStridedSlice S16384 ![0]
    (Host.scatter putDims (fun _ b => b) zeroTable (asIndex (dest lengths)) (shapeCast S16384 stepGrid (by decide)))
    (by decide)

/-! ## The sequence-major layout -/

/-- The running sum of the lengths. -/
def lengthsSum (lengths : IVec S1024 32) : IVec S1024 32 :=
  Host.reduceWindow IntOp.addi ![1024] ![1] ![1023] ![0] lengths
    (broadcastInDim S_ ![] (by decide) (constantI S_ 32 0#32)) (by decide) (by decide)

/-- The first row of every sequence in the sequence-major layout: the running sum of the lengths, shifted by one. -/
def seqStart (lengths : IVec S1024 32) : IVec S1024 32 :=
  concatenate S1024 0 [⟨S1, zero1⟩, ⟨S1023, extractStridedSlice S1023 ![0] (lengthsSum lengths) (by decide)⟩]
    (by decide : Shape.Concatenates [S1, S1023] S1024 0)

/-- The step of every (sequence, step) pair. -/
def stepCols : IVec S1024x16 32 := broadcastInDim S1024x16 ![1] (by decide) (iotaInDim S16 32 0)

/-- The row of every (sequence, step) pair in the sequence-major layout: the sequence's first row plus the step
    where the step is below the length, 16384 where it is not; sequence-major. -/
def destSeq (lengths : IVec S1024 32) : IVec S16384 32 :=
  shapeCast S16384
    (select
      (cmpi .slt stepCols
        (broadcastInDim S1024x16 ![0, 1] (by decide) (broadcastInDim S1024x1 ![0] (by decide) lengths)))
      (addi
        (broadcastInDim S1024x16 ![0, 1] (by decide) (broadcastInDim S1024x1 ![0] (by decide) (seqStart lengths)))
        stepCols)
      (broadcastInDim S1024x16 ![] (by decide) (id (constantI S_ 32 16384#32))))
    (by decide)

/-- The per-sequence count `p`, repeated once per step of its sequence, sequence-major, zero past the total. -/
def packLens (lengths p : IVec S1024 32) : IVec S16384 32 :=
  extractStridedSlice S16384 ![0]
    (Host.scatter putDims (fun _ b => b) zeroTable (asIndex (destSeq lengths))
      (shapeCast S16384
        (broadcastInDim S1024x16 ![0, 1] (by decide) (broadcastInDim S1024x1 ![0] (by decide) p))
        (by decide)))
    (by decide)

/-- The total length, a 32-bit sum. -/
def nValid (lengths : IVec S1024 32) : IVec S_ 32 :=
  Host.reduce IntOp.addi lengths (constantI S_ 32 0#32) (by decide : S1024.ReducesTo [0] S_) (by decide)

/-! ## Ranges -/

/-- A property of the start that every step keeps holds of a left fold. -/
theorem foldl_keeps {β γ : Type} (Q : β → Prop) (f : β → γ → β) (hf : ∀ b c, Q b → Q (f b c)) :
    ∀ (l : List γ) (b : β), Q b → Q (l.foldl f b) := by
  intro l
  induction l with
  | nil => intro b hb; exact hb
  | cons c l ih => intro b hb; rw [List.foldl_cons]; exact ih _ (hf b c hb)

/-- A scatter that keeps the update holds, at every index, an entry of the table it writes into or one of the
    values it writes: what holds of all of those holds of every entry of the result. -/
theorem scatter_keep_prop {s si u : Shape} {w : Nat} {α : Type} (d : ScatterDims s si u) (P : α → Prop)
    (x : s.Idx → α) (idx : IVec si w) (upd : u.Idx → α) (hx : ∀ i, P (x i)) (hu : ∀ j, P (upd j)) (i : s.Idx) :
    P (Host.scatter d (fun _ b => b) x idx upd i) := by
  unfold Host.scatter
  refine foldl_keeps (fun r : s.Idx → α => ∀ i, P (r i)) _ (fun r n hr i => ?_) _ x hx i
  generalize d.resultIdx? (u.rowMajor.symm n) idx = o
  cases o with
  | none => exact hr i
  | some i0 =>
    show P (if i = i0 then upd (u.rowMajor.symm n) else r i)
    split
    · exact hu _
    · exact hr _

/-- The carried operand of a two-operand sort holds, at every index, an entry of the carried operand. -/
theorem sort2_snd_exists {s : Shape} (d : Nat) {α β : Type} (cmp : α × β → α × β → BitVec 1) (x : s.Idx → α)
    (y : s.Idx → β) (j : s.Idx) : ∃ k, (Host.sort2 s d cmp x y).2 j = y k := by
  unfold Host.sort2
  split
  · exact ⟨_, rfl⟩
  · exact ⟨j, rfl⟩

/-- Every entry of the sorted sequence numbers is a sequence number. -/
theorem order_lt (lengths : IVec S1024 32) (k : S1024.Idx) : (order lengths k).toNat < 1024 := by
  obtain ⟨k', hk'⟩ := sort2_snd_exists 0 before (negi lengths) (iotaInDim S1024 32 0) k
  unfold order
  rw [hk']
  show (BitVec.ofNat 32 (k' 0).val).toNat < 1024
  rw [BitVec.toNat_ofNat]
  exact Nat.lt_of_le_of_lt (Nat.mod_le _ _) (k' 0).isLt

/-- Every entry of the step-major list of sequences is an entry of the sorted sequence numbers. -/
theorem seqGrid_exists (lengths : IVec S1024 32) (j : S16384.Idx) : ∃ k, seqGrid lengths j = order lengths k :=
  ⟨_, rfl⟩

/-- Every entry of the step-major list of steps is a step. -/
theorem stepGrid_lt (k : S16x1024.Idx) : (stepGrid k).toNat < 16 := by
  have hlt : ∀ k' : S16.Idx, (iotaInDim S16 32 0 k').toNat < 16 := fun k' => by
    show (BitVec.ofNat 32 (k' 0).val).toNat < 16
    rw [BitVec.toNat_ofNat]
    exact Nat.lt_of_le_of_lt (Nat.mod_le _ _) (k' 0).isLt
  unfold stepGrid broadcastInDim
  exact hlt _

theorem srcB_lt (lengths : IVec S1024 32) (r : S16384.Idx) : (srcB lengths r).toNat < 1024 := by
  unfold srcB extractStridedSlice
  refine scatter_keep_prop putDims (fun v : BitVec 32 => v.toNat < 1024) _ _ _ (fun i => ?_) (fun j => ?_) _
  · show (0#32).toNat < 1024
    decide
  · obtain ⟨k, hk⟩ := seqGrid_exists lengths j
    rw [hk]
    exact order_lt lengths k

theorem srcT_lt (lengths : IVec S1024 32) (r : S16384.Idx) : (srcT lengths r).toNat < 16 := by
  unfold srcT extractStridedSlice
  refine scatter_keep_prop putDims (fun v : BitVec 32 => v.toNat < 16) _ _ _ (fun i => ?_) (fun j => ?_) _
  · show (0#32).toNat < 16
    decide
  · dsimp only [shapeCast]
    exact stepGrid_lt _

/-- A left fold of 32-bit sums over at most 1024 words, each between 0 and 16, from zero: no sum wraps. -/
theorem foldl_addi_bounds {ι : Type} (f : ι → BitVec 32) (hf : ∀ n, 0 ≤ (f n).toInt ∧ (f n).toInt ≤ 16) :
    ∀ (l : List ι) (acc : BitVec 32) (A : Int), 0 ≤ acc.toInt → acc.toInt ≤ A → A + 16 * l.length < 2 ^ 31 →
      0 ≤ (l.foldl (fun r n => IntOp.addi r (f n)) acc).toInt
        ∧ (l.foldl (fun r n => IntOp.addi r (f n)) acc).toInt ≤ A + 16 * l.length := by
  intro l
  induction l with
  | nil => intro acc A h0 h1 _; simpa using ⟨h0, h1⟩
  | cons n l ih =>
    intro acc A h0 h1 h2
    rw [List.foldl_cons]
    have hn := hf n
    simp only [List.length_cons, Nat.cast_add, Nat.cast_one] at h2 ⊢
    have e : (IntOp.addi acc (f n)).toInt = acc.toInt + (f n).toInt :=
      WordArith.toInt_add_of_bounds _ _ (by omega) (by omega)
    have := ih (IntOp.addi acc (f n)) (A + 16) (by omega) (by omega) (by omega)
    omega

/-- With every length between 0 and 16 the 1024 lengths sum without wrapping, to at most 16384. -/
theorem nValid_bounds (lengths : IVec S1024 32)
    (h : ∀ i, 0 ≤ (lengths i).toInt ∧ (lengths i).toInt ≤ 16) :
    0 ≤ (nValid lengths ix0).toInt ∧ (nValid lengths ix0).toInt ≤ 16384 := by
  unfold nValid Host.reduce
  have hl : ∀ p : Fin S1024.numel → Bool, ((List.finRange S1024.numel).filter p).length ≤ 1024 := fun p =>
    (List.length_filter_le _ _).trans (by rw [List.length_finRange]; decide)
  have H := foldl_addi_bounds (fun n : Fin S1024.numel => lengths (S1024.rowMajor.symm n)) (fun n => h _)
    ((List.finRange S1024.numel).filter fun n => (by decide : S1024.ReducesTo [0] S_).drop (S1024.rowMajor.symm n) = ix0)
    (0#32) 0 (by decide) (by decide) (by have := hl (fun n => (by decide : S1024.ReducesTo [0] S_).drop (S1024.rowMajor.symm n) = ix0); omega)
  have hl' := hl (fun n => (by decide : S1024.ReducesTo [0] S_).drop (S1024.rowMajor.symm n) = ix0)
  constructor
  · exact H.1
  · refine H.2.trans ?_
    omega

end Cert.Packing

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.KernelHost.lean ====
/-
  What the twelve arrays the pipeline reads hold when the region is entered, entry by entry, at the extended reals:
  the gathered weight and bias rows are rows `(srcB r, srcT r)` of the arguments (the flat row index
  `16 · srcB r + srcT r` is in range, so the gather's fill never shows), the packed counts and the total length are
  the shared integer chain's, the encoder matrix is read transposed and split at column 1024, the rest are reshapes.
-/
import proofs.«400249_j88502096101408_2_alg».proof.Proof.KernelBase
import proofs.«400249_j88502096101408_2_alg».proof.Proof.Packing
import proofs.«400249_j88502096101408_2_alg».proof.Proof.LibIndexMaps
import Idealize.ShloMosaic.Lib.Pipeline.Value
import Idealize.ShloMosaic.Lib.ValueLayout
import Idealize.ShloMosaic.Lib.StableHlo.Predicate
import Idealize.ShloMosaic.PureOps.Reduce

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx Cert.Packing

variable (m : (ℓ : Loc nD τ sig) → Buf (Elt Ideal) ℓ)

/-! ## The last five stretches of host operations, evaluated over what the earlier ones leave -/

/-- Core `c`'s buffers before the last five stretches of host operations. -/
def W (c : Dev nD) : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13]) (fun b => m (c, b))

/-- What the region finds is what the last five stretches leave over `W`. -/
theorem V_tail (c : Dev nD) (b : Ref sig .tc) :
    V m c b = StableHlo.after (List.flatten [hostOps0_14, hostOps0_15, hostOps0_16, hostOps0_17, hostOps0_18]) (W m c) (Proc.devRef .tc b) := by
  show StableHlo.after (List.flatten ([hostOps0, hostOps0_1, hostOps0_2, hostOps0_3, hostOps0_4, hostOps0_5, hostOps0_6, hostOps0_7, hostOps0_8, hostOps0_9, hostOps0_10, hostOps0_11, hostOps0_12, hostOps0_13] ++ [hostOps0_14, hostOps0_15, hostOps0_16, hostOps0_17, hostOps0_18])) (fun b => m (c, b)) (Proc.devRef .tc b) = _
  rw [List.flatten_append, StableHlo.after_append]
  rfl

/-- A buffer none of the last five stretches writes is already there before them. -/
theorem W_eq (c : Dev nD) (x : Ref sig .tc)
    (h : ∀ op ∈ List.flatten [hostOps0_14, hostOps0_15, hostOps0_16, hostOps0_17, hostOps0_18], (Proc.devRef .tc x : DevRef τ sig) ∉ (op : HloOp τ sig (Elt Ideal)).writes) :
    W m c (Proc.devRef .tc x) = V m c x := by
  rw [V_tail]
  exact (StableHlo.after_of_forall_not_mem _ _ h).symm

/-- None of the last five stretches writes the named buffer. -/
local macro "not_written" : tactic =>
  `(tactic| (refine List.forall_iff_forall_mem.mp ?_
             simp only [hostOps0_14, hostOps0_15, hostOps0_16, hostOps0_17, hostOps0_18, List.flatten_cons, List.flatten_nil, List.append_nil, List.cons_append,
               List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

theorem W_v41 (c : Dev nD) : W m c (Proc.devRef .tc main_v41) = V m c main_v41 := W_eq m c main_v41 (by not_written)
theorem W_v51 (c : Dev nD) : W m c (Proc.devRef .tc main_v51) = V m c main_v51 := W_eq m c main_v51 (by not_written)
theorem W_v79 (c : Dev nD) : W m c (Proc.devRef .tc main_v79) = V m c main_v79 := W_eq m c main_v79 (by not_written)
theorem W_arg0 (c : Dev nD) : W m c (Proc.devRef .tc main_arg0) = m ((c.tc : Thread nD τ).loc main_arg0) := (W_eq m c main_arg0 (by not_written)).trans (V_main_arg0 m c)
theorem W_arg1 (c : Dev nD) : W m c (Proc.devRef .tc main_arg1) = m ((c.tc : Thread nD τ).loc main_arg1) := (W_eq m c main_arg1 (by not_written)).trans (V_main_arg1 m c)
theorem W_arg4 (c : Dev nD) : W m c (Proc.devRef .tc main_arg4) = m ((c.tc : Thread nD τ).loc main_arg4) := (W_eq m c main_arg4 (by not_written)).trans (V_main_arg4 m c)
theorem W_arg5 (c : Dev nD) : W m c (Proc.devRef .tc main_arg5) = m ((c.tc : Thread nD τ).loc main_arg5) := (W_eq m c main_arg5 (by not_written)).trans (V_main_arg5 m c)
theorem W_arg6 (c : Dev nD) : W m c (Proc.devRef .tc main_arg6) = m ((c.tc : Thread nD τ).loc main_arg6) := (W_eq m c main_arg6 (by not_written)).trans (V_main_arg6 m c)
theorem W_arg7 (c : Dev nD) : W m c (Proc.devRef .tc main_arg7) = m ((c.tc : Thread nD τ).loc main_arg7) := (W_eq m c main_arg7 (by not_written)).trans (V_main_arg7 m c)
theorem W_arg8 (c : Dev nD) : W m c (Proc.devRef .tc main_arg8) = m ((c.tc : Thread nD τ).loc main_arg8) := (W_eq m c main_arg8 (by not_written)).trans (V_main_arg8 m c)
theorem W_arg9 (c : Dev nD) : W m c (Proc.devRef .tc main_arg9) = m ((c.tc : Thread nD τ).loc main_arg9) := (W_eq m c main_arg9 (by not_written)).trans (V_main_arg9 m c)
theorem W_arg10 (c : Dev nD) : W m c (Proc.devRef .tc main_arg10) = m ((c.tc : Thread nD τ).loc main_arg10) := (W_eq m c main_arg10 (by not_written)).trans (V_main_arg10 m c)

/-- The last five stretches opened at one buffer: every operation's result read at its own buffer and passed over
    at the others. -/
local macro "tail_eval" : tactic =>
  `(tactic| (simp only [hostOps0_14, hostOps0_15, hostOps0_16, hostOps0_17, hostOps0_18, List.flatten_cons, List.flatten_nil, List.append_nil, List.cons_append, List.nil_append]
             after_results_simp))

/-! ## The take of rows: a gather of whole rows at a column of row numbers, guarded by an in-range mask -/

/-- The row numbers as the gather reads them: a negative word moved up by the row count, laid out as a column. -/
def takeCol (idx : IVec S16384 32) : IVec S16384x1 32 :=
  broadcastInDim S16384x1 ![0] bcast_S16384_S16384x1_0
    (select (cmpi .slt idx (broadcastInDim S16384 ![] bcast_S_S16384 (constantI S_ 32 0#32)))
      (addi idx (broadcastInDim S16384 ![] bcast_S_S16384 (constantI S_ 32 16384#32))) idx)

/-- Per row, whether its row number lies between 0 and 16383. -/
def takeOk (idx : IVec S16384 32) : IVec S16384 1 :=
  Host.reduce IntOp.andi
    (andi (cmpi .sge (takeCol idx) (broadcastInDim S16384x1 ![] bcast_S_S16384x1 (constantI S_ 32 0#32)))
      (cmpi .sle (takeCol idx) (broadcastInDim S16384x1 ![0, 1] bcast_S1x1_S16384x1_0_1
        (broadcastInDim S1x1 ![1] bcast_S1_S1x1_1 (constantI S1 32 16383#32)))))
    (constantI S_ 1 1#1) reducesTo_S16384x1_S16384_d1 h_S_

/-- A row number below 16384 is read as it stands. -/
theorem takeCol_apply (idx : IVec S16384 32) (r : Fin 16384) (hk : (idx (ix1 r)).toNat < 16384) :
    takeCol idx (ix2 r (0 : Fin 1)) = idx (ix1 r) := by
  unfold takeCol
  refine (broadcastInDim_apply _ _ _ _ (ix1 r) (fun a => match a with | ⟨0, _⟩ => rfl)).trans ?_
  show Scalar.select (IntOp.cmpi .slt (idx (ix1 r)) 0#32) (IntOp.addi (idx (ix1 r)) 16384#32) (idx (ix1 r)) = idx (ix1 r)
  have hn : ¬ IntOp.cmpi .slt (idx (ix1 r)) 0#32 = 1#1 := fun h => by
    have := (StableHlo.Predicate.slt_iff_toNat (a := idx (ix1 r)) (b := 0#32) (by omega) (by decide)).mp h
    simp at this
  rw [eq_zero_of_ne_one hn, select_zero]

/-- A row number below 16384 passes the mask. -/
theorem takeOk_apply (idx : IVec S16384 32) (r : Fin 16384) (hk : (idx (ix1 r)).toNat < 16384) :
    takeOk idx (ix1 r) = 1#1 := by
  unfold takeOk
  have hred : S16384x1.Reduces [1] S16384 := by decide
  rw [Host.reduce_eq_fold_single IntOp.andi _ _ reducesTo_S16384x1_S16384_d1 hred h_S_ (ix1 r)]
  have huniv : (Finset.univ : Finset (Fin (S16384x1.size (1 : Fin 2)))) = {(⟨0, Nat.one_pos⟩ : Fin (S16384x1.size (1 : Fin 2)))} := by decide
  rw [huniv, Finset.fold_singleton]
  have hl : hred.lift (ix1 r) (⟨0, Nat.one_pos⟩ : Fin (S16384x1.size (1 : Fin 2))) = ix2 r (0 : Fin 1) := by
    funext a; apply Fin.ext
    match a with
    | ⟨0, _⟩ => rfl
    | ⟨1, _⟩ => rfl
  show IntOp.andi (IntOp.andi (IntOp.cmpi .sge (takeCol idx (hred.lift (ix1 r) ⟨0, Nat.one_pos⟩)) 0#32)
    (IntOp.cmpi .sle (takeCol idx (hred.lift (ix1 r) ⟨0, Nat.one_pos⟩)) 16383#32)) 1#1 = 1#1
  rw [hl, takeCol_apply idx r hk,
    (StableHlo.Predicate.sge_iff_toNat (a := idx (ix1 r)) (b := 0#32) (by omega) (by decide)).mpr (by simp),
    (StableHlo.Predicate.sle_iff_toNat (a := idx (ix1 r)) (b := 16383#32) (by omega) (by decide)).mpr (by simp; omega)]
  decide

/-- The guarded gather read at row `r`, column `q`: the operand's row `k` when row `r`'s number is `k < 16384`. -/
theorem take_apply {P : ℕ} {α : Type} (d : GatherDims ⟨2, ![16384, P]⟩ ⟨2, ![16384, 1]⟩ ⟨2, ![16384, P]⟩)
    (hod : d.offsetDims = [1]) (hcoll : d.collapsedSliceDims = [0]) (hob : d.operandBatchingDims = [])
    (hsim : d.startIndexMap = [0]) (hivd : d.indexVectorDim = 1)
    (hF : S16384.BroadcastsInDim ⟨2, ![16384, P]⟩ ![0])
    (idx : IVec S16384 32) (x fill : (⟨2, ![16384, P]⟩ : Shape).Idx → α) (r : Fin 16384) (q : Fin P)
    (k : ℕ) (hk : k < 16384) (hidx : (idx (ix1 r)).toNat = k) :
    select (broadcastInDim ⟨2, ![16384, P]⟩ ![0] hF (takeOk idx)) (Host.gather d x (takeCol idx)) fill (ix2 r q)
      = x (ix2 ⟨k, hk⟩ q) := by
  have hlt : (idx (ix1 r)).toNat < 16384 := by omega
  show Scalar.select (broadcastInDim ⟨2, ![16384, P]⟩ ![0] hF (takeOk idx) (ix2 r q)) (Host.gather d x (takeCol idx) (ix2 r q)) (fill (ix2 r q)) = _
  rw [broadcastInDim_apply _ hF (takeOk idx) (ix2 r q) (ix1 r) (fun a => match a with | ⟨0, _⟩ => rfl),
    takeOk_apply idx r hlt, select_one]
  refine Cert.Gcn.IndexMaps.gather2_ix_apply d hod hcoll hob hsim hivd x (takeCol idx) r q k hk ?_
  rw [takeCol_apply idx r hlt, StableHlo.Predicate.toInt_eq_toNat_of_lt (by omega), hidx]

/-- The launch memory after the host operations, evaluated at one buffer: the fold opened, every operation's result
    read at its own buffer and passed over at the others. -/
local macro "host_unfold" : tactic =>
  `(tactic| (dsimp only [V]
             simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append, List.nil_append]
             after_results_simp))

/-! ## The shared integer chain -/

section Chain

attribute [local irreducible] Host.sort2 Host.scatter Host.gather Host.reduce Host.reduceWindow

set_option maxHeartbeats 8000000 in
theorem e41 (c : Dev nD) : (V m c main_v41 : IVec S16384 32) = srcB (m ((c.tc : Thread nD τ).loc main_arg4)) := by
  host_unfold <;> rfl

set_option maxHeartbeats 8000000 in
theorem e51 (c : Dev nD) : (V m c main_v51 : IVec S16384 32) = srcT (m ((c.tc : Thread nD τ).loc main_arg4)) := by
  host_unfold <;> rfl

set_option maxHeartbeats 8000000 in
theorem e79 (c : Dev nD) : (V m c main_v79 : IVec S16384 32) = packLens (m ((c.tc : Thread nD τ).loc main_arg4)) (m ((c.tc : Thread nD τ).loc main_arg2)) := by
  host_unfold <;> rfl

set_option maxHeartbeats 8000000 in
theorem e107 (c : Dev nD) : (V m c main_v107 : IVec S16384 32) = packLens (m ((c.tc : Thread nD τ).loc main_arg4)) (m ((c.tc : Thread nD τ).loc main_arg3)) := by
  host_unfold <;> rfl

end Chain

/-! ## The arrays as terms over the arguments and the shared integer chain -/

theorem e110 (c : Dev nD) :
    (V m c main_v110 : IVec S16384 32)
      = addi (muli (V m c main_v41 : IVec S16384 32) (broadcastInDim S16384 ![] bcast_S_S16384 (constantI S_ 32 16#32)))
          (V m c main_v51 : IVec S16384 32) := by
  rw [← W_v41 m c, ← W_v51 m c, V_tail m c main_v110]
  tail_eval <;> rfl

theorem e112 (c : Dev nD) :
    (V m c main_v112 : FVec Ideal S16384x1024 .f32)
      = select (broadcastInDim S16384x1024 ![0] bcast_S16384_S16384x1024_0 (takeOk (V m c main_v110 : IVec S16384 32)))
          (Host.gather gather_S16384x1024_S16384x1_S16384x1024_1_0_n_n_0_1_11024
            (shapeCast (s := S1024x16x1024) (α := Ideal .f32) S16384x1024 (m ((c.tc : Thread nD τ).loc main_arg0)) shapeCasts_S1024x16x1024_S16384x1024)
            (takeCol (V m c main_v110 : IVec S16384 32)))
          (broadcastInDim S16384x1024 ![] bcast_S_S16384x1024 (constant (F := Ideal) S_ .f32 0x7FC00000#32)) := by
  rw [← W_arg0 m c, V_tail m c main_v112, V_tail m c main_v110]
  unfold takeOk takeCol
  tail_eval <;> (try simp only [StableHlo.TRef.ofBuf, StableHlo.TRef.toBuf, cast_eq]) <;> rfl

theorem e114 (c : Dev nD) :
    (V m c main_v114 : FVec Ideal S16384x32 .f32)
      = select (broadcastInDim S16384x32 ![0] bcast_S16384_S16384x32_0 (takeOk (V m c main_v110 : IVec S16384 32)))
          (Host.gather gather_S16384x32_S16384x1_S16384x32_1_0_n_n_0_1_132
            (shapeCast (s := S1024x16x32) (α := Ideal .f32) S16384x32 (m ((c.tc : Thread nD τ).loc main_arg1)) shapeCasts_S1024x16x32_S16384x32)
            (takeCol (V m c main_v110 : IVec S16384 32)))
          (broadcastInDim S16384x32 ![] bcast_S_S16384x32 (constant (F := Ideal) S_ .f32 0x7FC00000#32)) := by
  rw [← W_arg1 m c, V_tail m c main_v114, V_tail m c main_v110]
  unfold takeOk takeCol
  tail_eval <;> (try simp only [StableHlo.TRef.ofBuf, StableHlo.TRef.toBuf, cast_eq]) <;> rfl

theorem e115 (c : Dev nD) :
    (V m c main_v115 : IVec S_ 32) = nValid (m ((c.tc : Thread nD τ).loc main_arg4)) := by
  rw [← W_arg4 m c, V_tail m c main_v115]
  tail_eval <;> rfl

theorem e116 (c : Dev nD) :
    (V m c main_v116 : IVec S1 32) = shapeCast (s := S_) (α := BitVec 32) S1 (V m c main_v115) shapeCasts_S_S1 := by
  rw [V_tail m c main_v116, V_tail m c main_v115]
  tail_eval <;> rfl

theorem e117 (c : Dev nD) :
    (V m c main_v117 : IVec S16384x1 32) = shapeCast (s := S16384) (α := BitVec 32) S16384x1 (V m c main_v79) shapeCasts_S16384_S16384x1 := by
  rw [← W_v79 m c, V_tail m c main_v117]
  tail_eval <;> rfl

theorem e118 (c : Dev nD) :
    (V m c main_v118 : IVec S16384x1 32) = shapeCast (s := S16384) (α := BitVec 32) S16384x1 (V m c main_v107) shapeCasts_S16384_S16384x1 := by
  rw [V_tail m c main_v118, V_tail m c main_v107]
  tail_eval <;> rfl

theorem e119 (c : Dev nD) :
    (V m c main_v119 : FVec Ideal S1x1024 .f32) = shapeCast (s := S1024) (α := Ideal .f32) S1x1024 (m ((c.tc : Thread nD τ).loc main_arg5)) shapeCasts_S1024_S1x1024 := by
  rw [← W_arg5 m c, V_tail m c main_v119]
  tail_eval <;> rfl

theorem e120 (c : Dev nD) :
    (V m c main_v120 : FVec Ideal S1x1024 .f32) = shapeCast (s := S1024) (α := Ideal .f32) S1x1024 (m ((c.tc : Thread nD τ).loc main_arg6)) shapeCasts_S1024_S1x1024 := by
  rw [← W_arg6 m c, V_tail m c main_v120]
  tail_eval <;> rfl

theorem e121 (c : Dev nD) :
    (V m c main_v121 : FVec Ideal S1x32 .f32) = shapeCast (s := S32) (α := Ideal .f32) S1x32 (m ((c.tc : Thread nD τ).loc main_arg7)) shapeCasts_S32_S1x32 := by
  rw [← W_arg7 m c, V_tail m c main_v121]
  tail_eval <;> rfl

theorem e122 (c : Dev nD) :
    (V m c main_v122 : FVec Ideal S1x32 .f32) = shapeCast (s := S32) (α := Ideal .f32) S1x32 (m ((c.tc : Thread nD τ).loc main_arg8)) shapeCasts_S32_S1x32 := by
  rw [← W_arg8 m c, V_tail m c main_v122]
  tail_eval <;> rfl

theorem e125 (c : Dev nD) :
    (V m c main_v125 : FVec Ideal S1024x2048 .bf16)
      = (truncf (F := Ideal) .bf16 (extractStridedSlice S1024x2048 ![0, 0]
          (transpose (s := S2048x1056) (α := Ideal .f32) S1056x2048 [1, 0] (m ((c.tc : Thread nD τ).loc main_arg9)) transposes_S2048x1056_S1056x2048_1_0)
          slices_S1056x2048_S1024x2048_0_0) bitsLt_bf16_f32 : FVec Ideal S1024x2048 .bf16) := by
  rw [← W_arg9 m c, V_tail m c main_v125]
  tail_eval <;> rfl

theorem e127 (c : Dev nD) :
    (V m c main_v127 : FVec Ideal S32x2048 .bf16)
      = (truncf (F := Ideal) .bf16 (extractStridedSlice S32x2048 ![1024, 0]
          (transpose (s := S2048x1056) (α := Ideal .f32) S1056x2048 [1, 0] (m ((c.tc : Thread nD τ).loc main_arg9)) transposes_S2048x1056_S1056x2048_1_0)
          slices_S1056x2048_S32x2048_1024_0) bitsLt_bf16_f32 : FVec Ideal S32x2048 .bf16) := by
  rw [← W_arg9 m c, V_tail m c main_v127]
  tail_eval <;> rfl

theorem e128 (c : Dev nD) :
    (V m c main_v128 : FVec Ideal S1x2048 .f32) = shapeCast (s := S2048) (α := Ideal .f32) S1x2048 (m ((c.tc : Thread nD τ).loc main_arg10)) shapeCasts_S2048_S1x2048 := by
  rw [← W_arg10 m c, V_tail m c main_v128]
  tail_eval <;> rfl

/-! ## The twelve arrays, entry by entry -/

/-- Row `16 · b + t` of a `[1024, 16, P]` array laid out as `[16384, P]` is its row `(b, t)`. -/
theorem rows_apply {α : Type} {P : ℕ} (x : (⟨3, ![1024, 16, P]⟩ : Shape).Idx → α)
    (h : (⟨3, ![1024, 16, P]⟩ : Shape).ShapeCasts ⟨2, ![16384, P]⟩) (b : Fin 1024) (t : Fin 16) (q : Fin P)
    (k : ℕ) (hk : k < 16384) (e : k = b.val * 16 + t.val) :
    shapeCast ⟨2, ![16384, P]⟩ x h (ix2 ⟨k, hk⟩ q) = x (ix3 b t q) :=
  shapeCast_apply x h _ _ (by
    rw [Shape.rowMajor_val_three, Shape.rowMajor_val_two]
    show (b.val * 16 + t.val) * P + q.val = k * P + q.val
    rw [e])

/-- The flat row word of packed row `r`: sixteen times its sequence number plus its step, without wrapping. -/
theorem flat_toNat (c : Dev nD) (r : Fin 16384) :
    ((V m c main_v110 : IVec S16384 32) (ix1 r)).toNat
      = (srcB (m ((c.tc : Thread nD τ).loc main_arg4)) (ix1 r)).toNat * 16 + (srcT (m ((c.tc : Thread nD τ).loc main_arg4)) (ix1 r)).toNat := by
  have hb := srcB_lt (m ((c.tc : Thread nD τ).loc main_arg4)) (ix1 r)
  have ht := srcT_lt (m ((c.tc : Thread nD τ).loc main_arg4)) (ix1 r)
  rw [congrFun (e110 m c) (ix1 r)]
  show (IntOp.addi (IntOp.muli ((V m c main_v41 : IVec S16384 32) (ix1 r)) 16#32) ((V m c main_v51 : IVec S16384 32) (ix1 r))).toNat = _
  rw [congrFun (e41 m c) (ix1 r), congrFun (e51 m c) (ix1 r)]
  simp only [IntOp.addi, IntOp.muli, BitVec.toNat_add, BitVec.toNat_mul, BitVec.toNat_ofNat]
  omega

/-- A gathered weight row, with the sequence number and the step of the packed row named. -/
theorem gw_aux (c : Dev nD) (r : Fin 16384) (q : Fin 1024) (b t : ℕ) (hb : b < 1024) (ht : t < 16)
    (hflat : ((V m c main_v110 : IVec S16384 32) (ix1 r)).toNat = b * 16 + t) :
    (V m c main_v112 : FVec Ideal S16384x1024 .f32) (ix2 r q)
      = ((m ((c.tc : Thread nD τ).loc main_arg0)) : FVec Ideal S1024x16x1024 .f32) (ix3 (⟨b, hb⟩ : Fin 1024) (⟨t, ht⟩ : Fin 16) q) := by
  rw [congrFun (e112 m c) (ix2 r q)]
  refine (take_apply gather_S16384x1024_S16384x1_S16384x1024_1_0_n_n_0_1_11024 rfl rfl rfl rfl rfl
    bcast_S16384_S16384x1024_0 _ _ _ r q (b * 16 + t) (by omega) hflat).trans ?_
  exact rows_apply (P := 1024) (α := Ideal .f32) (m ((c.tc : Thread nD τ).loc main_arg0)) shapeCasts_S1024x16x1024_S16384x1024 ⟨b, hb⟩ ⟨t, ht⟩ q _ _ rfl

theorem gw_apply (c : Dev nD) (r : Fin 16384) (q : Fin 1024) :
    (V m c main_v112 : FVec Ideal S16384x1024 .f32) (ix2 r q)
      = ((m ((c.tc : Thread nD τ).loc main_arg0)) : FVec Ideal S1024x16x1024 .f32)
          (ix3 ⟨(srcB (m ((c.tc : Thread nD τ).loc main_arg4)) (ix1 r)).toNat, srcB_lt _ _⟩ ⟨(srcT (m ((c.tc : Thread nD τ).loc main_arg4)) (ix1 r)).toNat, srcT_lt _ _⟩ q) :=
  gw_aux m c r q _ _ (srcB_lt _ _) (srcT_lt _ _) (flat_toNat m c r)

/-- A gathered bias row, with the sequence number and the step of the packed row named. -/
theorem gb_aux (c : Dev nD) (r : Fin 16384) (q : Fin 32) (b t : ℕ) (hb : b < 1024) (ht : t < 16)
    (hflat : ((V m c main_v110 : IVec S16384 32) (ix1 r)).toNat = b * 16 + t) :
    (V m c main_v114 : FVec Ideal S16384x32 .f32) (ix2 r q)
      = ((m ((c.tc : Thread nD τ).loc main_arg1)) : FVec Ideal S1024x16x32 .f32) (ix3 (⟨b, hb⟩ : Fin 1024) (⟨t, ht⟩ : Fin 16) q) := by
  rw [congrFun (e114 m c) (ix2 r q)]
  refine (take_apply gather_S16384x32_S16384x1_S16384x32_1_0_n_n_0_1_132 rfl rfl rfl rfl rfl
    bcast_S16384_S16384x32_0 _ _ _ r q (b * 16 + t) (by omega) hflat).trans ?_
  exact rows_apply (P := 32) (α := Ideal .f32) (m ((c.tc : Thread nD τ).loc main_arg1)) shapeCasts_S1024x16x32_S16384x32 ⟨b, hb⟩ ⟨t, ht⟩ q _ _ rfl

theorem gb_apply (c : Dev nD) (r : Fin 16384) (q : Fin 32) :
    (V m c main_v114 : FVec Ideal S16384x32 .f32) (ix2 r q)
      = ((m ((c.tc : Thread nD τ).loc main_arg1)) : FVec Ideal S1024x16x32 .f32)
          (ix3 ⟨(srcB (m ((c.tc : Thread nD τ).loc main_arg4)) (ix1 r)).toNat, srcB_lt _ _⟩ ⟨(srcT (m ((c.tc : Thread nD τ).loc main_arg4)) (ix1 r)).toNat, srcT_lt _ _⟩ q) :=
  gb_aux m c r q _ _ (srcB_lt _ _) (srcT_lt _ _) (flat_toNat m c r)

/-- A vector laid out as a one-column matrix reads, at `(r, 0)`, its entry `r`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem wpl_apply (c : Dev nD) (r : Fin 16384) :
    (V m c main_v117 : IVec S16384x1 32) (ix2 r (0 : Fin 1)) = packLens (m ((c.tc : Thread nD τ).loc main_arg4)) (m ((c.tc : Thread nD τ).loc main_arg2)) (ix1 r) := by
  rw [congrFun (e117 m c) (ix2 r (0 : Fin 1)), e79 m c]
  exact shapeCast_a_a1_apply _ _ r 0

theorem bpl_apply (c : Dev nD) (r : Fin 16384) :
    (V m c main_v118 : IVec S16384x1 32) (ix2 r (0 : Fin 1)) = packLens (m ((c.tc : Thread nD τ).loc main_arg4)) (m ((c.tc : Thread nD τ).loc main_arg3)) (ix1 r) := by
  rw [congrFun (e118 m c) (ix2 r (0 : Fin 1)), e107 m c]
  exact shapeCast_a_a1_apply _ _ r 0

theorem nv_apply (c : Dev nD) :
    (V m c main_v116 : IVec S1 32) (ix1 (0 : Fin 1)) = nValid (m ((c.tc : Thread nD τ).loc main_arg4)) ValueIdx.ix0 := by
  rw [congrFun (e116 m c) (ix1 (0 : Fin 1)), e115 m c]
  refine shapeCast_apply _ _ _ _ ?_
  rw [Shape.rowMajor_val_one]
  exact Shape.rowMajorPi_zero _ _

theorem tww_apply (c : Dev nD) (k : Fin 1024) :
    (V m c main_v119 : FVec Ideal S1x1024 .f32) (ix2 (0 : Fin 1) k) = ((m ((c.tc : Thread nD τ).loc main_arg5)) : FVec Ideal S1024 .f32) (ix1 k) :=
  (congrFun (e119 m c) _).trans (shapeCast_a_1a_apply _ _ 0 k)

theorem twb_apply (c : Dev nD) (k : Fin 1024) :
    (V m c main_v120 : FVec Ideal S1x1024 .f32) (ix2 (0 : Fin 1) k) = ((m ((c.tc : Thread nD τ).loc main_arg6)) : FVec Ideal S1024 .f32) (ix1 k) :=
  (congrFun (e120 m c) _).trans (shapeCast_a_1a_apply _ _ 0 k)

theorem tbw_apply (c : Dev nD) (k : Fin 32) :
    (V m c main_v121 : FVec Ideal S1x32 .f32) (ix2 (0 : Fin 1) k) = ((m ((c.tc : Thread nD τ).loc main_arg7)) : FVec Ideal S32 .f32) (ix1 k) :=
  (congrFun (e121 m c) _).trans (shapeCast_a_1a_apply _ _ 0 k)

theorem tbb_apply (c : Dev nD) (k : Fin 32) :
    (V m c main_v122 : FVec Ideal S1x32 .f32) (ix2 (0 : Fin 1) k) = ((m ((c.tc : Thread nD τ).loc main_arg8)) : FVec Ideal S32 .f32) (ix1 k) :=
  (congrFun (e122 m c) _).trans (shapeCast_a_1a_apply _ _ 0 k)

theorem ew1_apply (c : Dev nD) (k : Fin 1024) (j : Fin 2048) :
    (V m c main_v125 : FVec Ideal S1024x2048 .bf16) (ix2 k j) = ((m ((c.tc : Thread nD τ).loc main_arg9)) : FVec Ideal S2048x1056 .f32) (ix2 j (⟨k.val, by omega⟩ : Fin 1056)) := by
  rw [congrFun (e125 m c) (ix2 k j)]
  refine (truncf_apply (s := S1024x2048) (φ := .f32) (ψ := .bf16) _ bitsLt_bf16_f32 (ix2 k j)).trans ?_
  refine (extractStridedSlice_apply ![0, 0] _ slices_S1056x2048_S1024x2048_0_0 (ix2 k j) (ix2 (⟨k.val, by omega⟩ : Fin 1056) j) (fun a => match a with
    | ⟨0, _⟩ => by show k.val = 0 + k.val; omega
    | ⟨1, _⟩ => by show j.val = 0 + j.val; omega)).trans ?_
  exact transpose_apply _ _ _ _ _ (fun b => match b with | ⟨0, _⟩ => rfl | ⟨1, _⟩ => rfl)

theorem ew2_apply (c : Dev nD) (k : Fin 32) (j : Fin 2048) :
    (V m c main_v127 : FVec Ideal S32x2048 .bf16) (ix2 k j) = ((m ((c.tc : Thread nD τ).loc main_arg9)) : FVec Ideal S2048x1056 .f32) (ix2 j (⟨1024 + k.val, by omega⟩ : Fin 1056)) := by
  rw [congrFun (e127 m c) (ix2 k j)]
  refine (truncf_apply (s := S32x2048) (φ := .f32) (ψ := .bf16) _ bitsLt_bf16_f32 (ix2 k j)).trans ?_
  refine (extractStridedSlice_apply ![1024, 0] _ slices_S1056x2048_S32x2048_1024_0 (ix2 k j) (ix2 (⟨1024 + k.val, by omega⟩ : Fin 1056) j) (fun a => match a with
    | ⟨0, _⟩ => by show 1024 + k.val = 1024 + k.val; rfl
    | ⟨1, _⟩ => by show j.val = 0 + j.val; omega)).trans ?_
  exact transpose_apply _ _ _ _ _ (fun b => match b with | ⟨0, _⟩ => rfl | ⟨1, _⟩ => rfl)

theorem eb_apply (c : Dev nD) (j : Fin 2048) :
    (V m c main_v128 : FVec Ideal S1x2048 .f32) (ix2 (0 : Fin 1) j) = ((m ((c.tc : Thread nD τ).loc main_arg10)) : FVec Ideal S2048 .f32) (ix1 j) :=
  (congrFun (e128 m c) _).trans (shapeCast_a_1a_apply _ _ 0 j)

end Cert.KernelIdeal.Hand

end
-- ==== Proof.Encoder.lean ====
/-
  The encoder both programs compute, as ONE function of the argument arrays over the extended reals.

  Packed row `r` takes row `(srcB r, srcT r)` of the weights and of the biases.  Of each it sums the first `n`
  entries, `n` the row's packed count (an entry whose position is not below the count contributes zero), maps the
  sum `s` to `logistic (s · w_k + n · b_k)` for every unit `k` (1024 units for the weights, 32 for the biases),
  multiplies the 1056 values so obtained by row `j` of the encoder matrix, adds the encoder bias, and clips at zero
  from below.  Rows at or past the total length are zero.
-/
import Idealize.ShloMosaic.PureOps.Ideal
import Idealize.ShloMosaic.Lib.ValueIdx
import proofs.«400249_j88502096101408_2_alg».proof.Proof.Packing

noncomputable section

namespace Cert.Encoder

open Idealize.ShloMosaic Idealize.ShloMosaic.ValueIdx Cert.Packing

abbrev Sw : Shape := ⟨3, ![1024, 16, 1024]⟩
abbrev Sb : Shape := ⟨3, ![1024, 16, 32]⟩
abbrev S32 : Shape := ⟨1, ![32]⟩
abbrev Senc : Shape := ⟨2, ![2048, 1056]⟩
abbrev S2048 : Shape := ⟨1, ![2048]⟩
abbrev Sout : Shape := ⟨2, ![16384, 2048]⟩

/-- The sum of the entries of `x` whose position is (signed) below the word `n`. -/
def maskedSum {P : Nat} (x : Fin P → EReal) (n : BitVec 32) : EReal :=
  ∑ q : Fin P, if IntOp.cmpi .slt (BitVec.ofNat 32 q.val) n = 1#1 then x q else 0

/-- One unit of the embedding: `logistic (s · w + n · b)`, the count read as a signed integer. -/
def embed (s : EReal) (n : BitVec 32) (w b : EReal) : EReal :=
  Ideal.logistic (s * w + ((n.toInt : ℝ) : EReal) * b)

/-- One entry of the encoding of a row, before the row mask. -/
def encEntry (gw : Fin 1024 → EReal) (gb : Fin 32 → EReal) (nw nb : BitVec 32)
    (tww twb : Fin 1024 → EReal) (tbw tbb : Fin 32 → EReal) (ew : Fin 1056 → EReal) (eb : EReal) : EReal :=
  max ((∑ k : Fin 1024, embed (maskedSum gw nw) nw (tww k) (twb k) * ew ⟨k.val, by omega⟩
        + ∑ k : Fin 32, embed (maskedSum gb nb) nb (tbw k) (tbb k) * ew ⟨1024 + k.val, by omega⟩) + eb) 0

/-- The result array, entry `(r, j)`. -/
def out (W : FVec Ideal Sw .f32) (B : FVec Ideal Sb .f32) (wp bp lengths : IVec S1024 32)
    (tww twb : FVec Ideal S1024 .f32) (tbw tbb : FVec Ideal S32 .f32)
    (ew : FVec Ideal Senc .f32) (eb : FVec Ideal S2048 .f32) : FVec Ideal Sout .f32 :=
  fun idx =>
    let r : Fin 16384 := ⟨(idx 0).val, idx2_lt0 idx⟩
    let j : Fin 2048 := ⟨(idx 1).val, idx2_lt1 idx⟩
    let b : Fin 1024 := ⟨(srcB lengths (ix1 r)).toNat, srcB_lt lengths (ix1 r)⟩
    let t : Fin 16 := ⟨(srcT lengths (ix1 r)).toNat, srcT_lt lengths (ix1 r)⟩
    if IntOp.cmpi .slt (BitVec.ofNat 32 r.val) (nValid lengths ix0) = 1#1 then
      encEntry (fun q => W (ix3 b t q)) (fun q => B (ix3 b t q))
        (packLens lengths wp (ix1 r)) (packLens lengths bp (ix1 r))
        (fun k => tww (ix1 k)) (fun k => twb (ix1 k)) (fun k => tbw (ix1 k)) (fun k => tbb (ix1 k))
        (fun k => ew (ix2 j k)) (eb (ix1 j))
    else 0

end Cert.Encoder

end
-- ==== Proof.KernelBlock.lean ====
/-
  One entry of the block the kernel's body stores, over the extended reals and over ANY input blocks: where the tile
  starts below the total length and the row lies below it, the encoder's entry of the row's blocks — the two matrix
  products over the first 1024 and the last 32 units read as plain sums, the two row reductions as masked sums, the
  change of float format the identity, the row mask a factor 1 —; where the row does not lie below it, the factor is
  0 and so is the product; where the tile does not start below it, the stored block is zero.
-/
import proofs.«400249_j88502096101408_2_alg».proof.Proof.KernelBase
import proofs.«400249_j88502096101408_2_alg».proof.Proof.Encoder
import Idealize.ShloMosaic.PureOps.Ideal.Laws
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx

/-- The encoder matrix's column `j` as the kernel holds it: its first 1024 rows in one block, its last 32 in another. -/
def encCol (x8 : Vec Ideal S1024x2048 .bf16) (x9 : Vec Ideal S32x2048 .bf16) (j : Fin 2048) : Fin 1056 → EReal :=
  fun k => if h : k.val < 1024 then x8 (ix2 (⟨k.val, h⟩ : Fin 1024) j) else x9 (ix2 (⟨k.val - 1024, by omega⟩ : Fin 32) j)

/-! ## Two layout operations at an index: a vector made a column, a column spread over the columns -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products at an index

Each product contracts the left operand's columns against the right operand's rows: at the output entry `(r, c)` and the
contraction position `q` the left operand is read at `(r, q)` and the right operand at `(q, c)`. Per product, four
lemmas say so one coordinate at a time; the product lemma then re-indexes the contraction by its one coordinate. -/

theorem lhs_encW_0 (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide),
    dif_pos (show (0 : Fin S1024x1024.rank) ∈ dot_S1024x1024_S1024x2048_S1024x2048_1_0_0_1_n_n.lhsNonContracting by decide)]
  rfl
theorem lhs_encW_1 (i : S1024x2048.Idx) (q : dot_S1024x1024_S1024x2048_S1024x2048_1_0_0_1_n_n.contr.Idx) :
    (dot_S1024x1024_S1024x2048_S1024x2048_1_0_0_1_n_n.lhsIdx i q 1).val = (q ⟨0, by decide⟩).val :=
  dot_S1024x1024_S1024x2048_S1024x2048_1_0_0_1_n_n.lhsIdx_val_of_single rfl i q
theorem rhs_encW_0 (i : S1024x2048.Idx) (q : dot_S1024x1024_S1024x2048_S1024x2048_1_0_0_1_n_n.contr.Idx) :
    (dot_S1024x1024_S1024x2048_S1024x2048_1_0_0_1_n_n.rhsIdx i q 0).val = (q ⟨0, by decide⟩).val :=
  dot_S1024x1024_S1024x2048_S1024x2048_1_0_0_1_n_n.rhsIdx_val_of_single rfl i q
theorem rhs_encW_1 (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide),
    dif_pos (show (1 : Fin S1024x2048.rank) ∈ dot_S1024x1024_S1024x2048_S1024x2048_1_0_0_1_n_n.rhsNonContracting by decide)]
  rfl

/-- The product over the first 1024 units into a zero accumulator, at `(p, j)`: the plain sum over the units. -/
theorem matmulW_apply (lhs : FVec Ideal S1024x1024 .bf16) (rhs : FVec Ideal S1024x2048 .bf16) (p : Fin 1024) (j : Fin 2048) :
    matmul dot_S1024x1024_S1024x2048_S1024x2048_1_0_0_1_n_n none lhs rhs (constant (F := Ideal) S1024x2048 .f32 0x00000000#32) (ix2 p j)
      = ∑ k : Fin 1024, lhs (ix2 p k) * rhs (ix2 k j) := by
  refine (Ideal.matmul_constant_zero_apply dot_S1024x1024_S1024x2048_S1024x2048_1_0_0_1_n_n none lhs rhs (ix2 p j)).trans ?_
  rw [← Equiv.sum_comp (contrEquiv1 dot_S1024x1024_S1024x2048_S1024x2048_1_0_0_1_n_n 1024 rfl rfl).symm]
  refine Finset.sum_congr rfl fun k _ => ?_
  have hk := contrEquiv1_symm_val dot_S1024x1024_S1024x2048_S1024x2048_1_0_0_1_n_n 1024 rfl rfl k
  have el : dot_S1024x1024_S1024x2048_S1024x2048_1_0_0_1_n_n.lhsIdx (ix2 p j)
      ((contrEquiv1 dot_S1024x1024_S1024x2048_S1024x2048_1_0_0_1_n_n 1024 rfl rfl).symm k) = ix2 p k := funext fun a => Fin.ext (by
    match a with
    | ⟨0, _⟩ => exact lhs_encW_0 _ _
    | ⟨1, _⟩ => exact (lhs_encW_1 _ _).trans hk)
  have er : dot_S1024x1024_S1024x2048_S1024x2048_1_0_0_1_n_n.rhsIdx (ix2 p j)
      ((contrEquiv1 dot_S1024x1024_S1024x2048_S1024x2048_1_0_0_1_n_n 1024 rfl rfl).symm k) = ix2 k j := funext fun a => Fin.ext (by
    match a with
    | ⟨0, _⟩ => exact (rhs_encW_0 _ _).trans hk
    | ⟨1, _⟩ => exact rhs_encW_1 _ _)
  rw [el, er]

theorem lhs_encB_0 (i : S1024x2048.Idx) (q : dot_S1024x32_S32x2048_S1024x2048_1_0_0_1_n_n.contr.Idx) :
    (dot_S1024x32_S32x2048_S1024x2048_1_0_0_1_n_n.lhsIdx i q 0).val = (i 0).val := by
  unfold DotDims.lhsIdx
  rw [dif_neg (show ¬(0 : Fin S1024x32.rank) ∈ dot_S1024x32_S32x2048_S1024x2048_1_0_0_1_n_n.lhsBatch by decide),
    dif_pos (show (0 : Fin S1024x32.rank) ∈ dot_S1024x32_S32x2048_S1024x2048_1_0_0_1_n_n.lhsNonContracting by decide)]
  rfl
theorem lhs_encB_1 (i : S1024x2048.Idx) (q : dot_S1024x32_S32x2048_S1024x2048_1_0_0_1_n_n.contr.Idx) :
    (dot_S1024x32_S32x2048_S1024x2048_1_0_0_1_n_n.lhsIdx i q 1).val = (q ⟨0, by decide⟩).val :=
  dot_S1024x32_S32x2048_S1024x2048_1_0_0_1_n_n.lhsIdx_val_of_single rfl i q
theorem rhs_encB_0 (i : S1024x2048.Idx) (q : dot_S1024x32_S32x2048_S1024x2048_1_0_0_1_n_n.contr.Idx) :
    (dot_S1024x32_S32x2048_S1024x2048_1_0_0_1_n_n.rhsIdx i q 0).val = (q ⟨0, by decide⟩).val :=
  dot_S1024x32_S32x2048_S1024x2048_1_0_0_1_n_n.rhsIdx_val_of_single rfl i q
theorem rhs_encB_1 (i : S1024x2048.Idx) (q : dot_S1024x32_S32x2048_S1024x2048_1_0_0_1_n_n.contr.Idx) :
    (dot_S1024x32_S32x2048_S1024x2048_1_0_0_1_n_n.rhsIdx i q 1).val = (i 1).val := by
  unfold DotDims.rhsIdx
  rw [dif_neg (show ¬(1 : Fin S32x2048.rank) ∈ dot_S1024x32_S32x2048_S1024x2048_1_0_0_1_n_n.rhsBatch by decide),
    dif_pos (show (1 : Fin S32x2048.rank) ∈ dot_S1024x32_S32x2048_S1024x2048_1_0_0_1_n_n.rhsNonContracting by decide)]
  rfl

/-- The product over the last 32 units into a zero accumulator, at `(p, j)`: the plain sum over the units. -/
theorem matmulB_apply (lhs : FVec Ideal S1024x32 .bf16) (rhs : FVec Ideal S32x2048 .bf16) (p : Fin 1024) (j : Fin 2048) :
    matmul dot_S1024x32_S32x2048_S1024x2048_1_0_0_1_n_n none lhs rhs (constant (F := Ideal) S1024x2048 .f32 0x00000000#32) (ix2 p j)
      = ∑ k : Fin 32, lhs (ix2 p k) * rhs (ix2 k j) := by
  refine (Ideal.matmul_constant_zero_apply dot_S1024x32_S32x2048_S1024x2048_1_0_0_1_n_n none lhs rhs (ix2 p j)).trans ?_
  rw [← Equiv.sum_comp (contrEquiv1 dot_S1024x32_S32x2048_S1024x2048_1_0_0_1_n_n 32 rfl rfl).symm]
  refine Finset.sum_congr rfl fun k _ => ?_
  have hk := contrEquiv1_symm_val dot_S1024x32_S32x2048_S1024x2048_1_0_0_1_n_n 32 rfl rfl k
  have el : dot_S1024x32_S32x2048_S1024x2048_1_0_0_1_n_n.lhsIdx (ix2 p j)
      ((contrEquiv1 dot_S1024x32_S32x2048_S1024x2048_1_0_0_1_n_n 32 rfl rfl).symm k) = ix2 p k := funext fun a => Fin.ext (by
    match a with
    | ⟨0, _⟩ => exact lhs_encB_0 _ _
    | ⟨1, _⟩ => exact (lhs_encB_1 _ _).trans hk)
  have er : dot_S1024x32_S32x2048_S1024x2048_1_0_0_1_n_n.rhsIdx (ix2 p j)
      ((contrEquiv1 dot_S1024x32_S32x2048_S1024x2048_1_0_0_1_n_n 32 rfl rfl).symm k) = ix2 k j := funext fun a => Fin.ext (by
    match a with
    | ⟨0, _⟩ => exact (rhs_encB_0 _ _).trans hk
    | ⟨1, _⟩ => exact rhs_encB_1 _ _)
  rw [el, er]

/-! ## A row's masked sum, and the row mask -/

/-- The lane reduction of a block whose entries at or past each row's count are replaced by zero, at row `p`: the
    masked sum of that row. -/
theorem maskedRow_apply {b : ℕ} (x : FVec Ideal ⟨2, ![1024, b]⟩ .f32) (n : IVec S1024x1 32)
    (hi : (⟨2, ![1024, b]⟩ : Shape).Iotas .tc 32 [1]) (hb : S1024x1.Broadcasts ⟨2, ![1024, b]⟩)
    (hr : (⟨2, ![1024, b]⟩ : Shape).Reduces [1] S1024) (hφ : FKind.Formats .f32)
    (hacc : (0x00000000#32 : BitVec 32) = FKind.add.neutral .f32 hφ) (p : Fin 1024) :
    multiReduction (F := Ideal) .add [1] S1024
        (select (cmpi .slt (iota .tc ⟨2, ![1024, b]⟩ 32 [1] hi) (broadcastTo ⟨2, ![1024, b]⟩ n hb)) x
          (broadcast ⟨2, ![1024, b]⟩ (Scalar.ofBits (F := Ideal) .f32 0x00000000#32)))
        0x00000000#32 hr hφ hacc (ix1 p)
      = Cert.Encoder.maskedSum (fun q : Fin b => x (ix2 p q)) (n (ix2 p (0 : Fin 1))) := by
  refine (Ideal.multiReduction_add_single _ _ hr hφ hacc (ix1 p)).trans ?_
  unfold Cert.Encoder.maskedSum
  refine Finset.sum_congr rfl fun (k : Fin b) _ => ?_
  have hl : hr.lift (ix1 p) k = ix2 p k := funext fun a => Fin.ext (by
    match a with
    | ⟨0, _⟩ => rfl
    | ⟨1, _⟩ => rfl)
  rw [hl]
  show Scalar.select (IntOp.cmpi .slt (iota .tc ⟨2, ![1024, b]⟩ 32 [1] hi (ix2 p k)) (broadcastTo ⟨2, ![1024, b]⟩ n hb (ix2 p k)))
    (x (ix2 p k)) (Ideal.ofBits .f32 0x00000000#32) = _
  rw [iota_single_apply, broadcastTo_a1_ab_apply, Ideal.ofBits_zero_f32]
  rfl

/-- The row mask at an index: one where the row's number, counted from the tile's first row, lies (signed) below the
    total, zero elsewhere. -/
theorem rowMask_apply (off nv : BitVec 32) (hi : S1024x1.Iotas .tc 32 [0]) (hlt : 1 < 32) (hb : S1024x1.Broadcasts S1024x2048)
    (p : Fin 1024) (j : Fin 2048) :
    broadcastTo S1024x2048 (sitofp (F := Ideal) .f32 (extui 32 (cmpi .slt (addi (iota .tc S1024x1 32 [0] hi) (broadcast S1024x1 off)) (broadcast S1024x1 nv)) hlt)) hb (ix2 p j)
      = if IntOp.cmpi .slt (BitVec.ofNat 32 p.val + off) nv = 1#1 then (1 : EReal) else 0 := by
  refine (broadcastTo_a1_ab_apply _ hb p j).trans ?_
  show (((((IntOp.cmpi .slt (IntOp.addi (iota .tc S1024x1 32 [0] hi (ix2 p (0 : Fin 1))) off) nv).setWidth 32).toInt : ℝ)) : EReal) = _
  rw [iota_single_apply]
  show (((((IntOp.cmpi .slt (BitVec.ofNat 32 p.val + off) nv).setWidth 32).toInt : ℝ)) : EReal) = _
  have e0 : ((0#1 : BitVec 1).setWidth 32).toInt = 0 := by decide
  have e1 : ((1#1 : BitVec 1).setWidth 32).toInt = 1 := by decide
  rcases BitVec.eq_zero_or_eq_one (IntOp.cmpi .slt (BitVec.ofNat 32 p.val + off) nv) with h | h
  · rw [h, if_neg (by decide), e0, Int.cast_zero, EReal.coe_zero]
  · rw [h, if_pos rfl, e1, Int.cast_one, EReal.coe_one]

/-! ## The kernel's intermediate values at an index -/

/-- The logistic function of a vector at an index is the logistic function of the entry. -/
theorem logistic_apply {s : Shape} {φ : FTy} (a : FVec Ideal s φ) (i : s.Idx) : logistic a i = Ideal.logistic (a i) := rfl

/-- A row's bias count, read as a signed integer. -/
theorem pay5_apply (x3 : Vec Ideal S1024x1 .i32) (y : S1024x1.Idx) :
    k0_pay5 (F := Ideal) x3 y = (((x3 y).toInt : ℝ) : EReal) := by
  unfold k0_pay5 k0_pay3
  simp only [shapeCast_self]
  rfl

/-- The bias part of the embedding before its count term, at row `p` and unit `k`: the masked sum of the row's first
    `n` bias entries times the unit's weight. -/
theorem pay6_apply (x1 : Vec Ideal S1024x32 .f32) (x3 : Vec Ideal S1024x1 .i32) (x6 : Vec Ideal S1x32 .f32) (p : Fin 1024) (k : Fin 32) :
    k0_pay6 (F := Ideal) x1 x3 x6 (ix2 p k)
      = Cert.Encoder.maskedSum (fun q : Fin 32 => x1 (ix2 p q)) (x3 (ix2 p (0 : Fin 1))) * x6 (ix2 (0 : Fin 1) k) := by
  unfold k0_pay6 k0_pay3
  simp only [shapeCast_self]
  show broadcastTo S1024x32 _ _ (ix2 p k) * broadcastTo S1024x32 _ _ (ix2 p k) = _
  rw [broadcastTo_a1_ab_apply, shapeCast_a_a1_apply, broadcastTo_1b_ab_apply]
  exact congrArg (fun s : EReal => s * x6 (ix2 (0 : Fin 1) k)) (maskedRow_apply (b := 32) x1 x3 _ _ _ _ _ p)

/-- The weight part of the embedding at row `p` and unit `k`: `logistic (s · w_k + n · b_k)`, `s` the masked sum of the
    row's first `n` weight entries and `n` the row's count. -/
theorem pay4_apply (x0 : Vec Ideal S1024x1024 .f32) (x2 : Vec Ideal S1024x1 .i32) (x4 x5 : Vec Ideal S1x1024 .f32) (p : Fin 1024) (k : Fin 1024) :
    k0_pay4 (F := Ideal) x0 x2 x4 x5 (ix2 p k)
      = Cert.Encoder.embed (Cert.Encoder.maskedSum (fun q : Fin 1024 => x0 (ix2 p q)) (x2 (ix2 p (0 : Fin 1)))) (x2 (ix2 p (0 : Fin 1)))
          (x4 (ix2 (0 : Fin 1) k)) (x5 (ix2 (0 : Fin 1) k)) := by
  unfold k0_pay4
  simp only [shapeCast_self]
  show Ideal.logistic (broadcastTo S1024x1024 _ _ (ix2 p k) * broadcastTo S1024x1024 _ _ (ix2 p k)
    + broadcastTo S1024x1024 _ _ (ix2 p k) * broadcastTo S1024x1024 _ _ (ix2 p k)) = _
  rw [broadcastTo_a1_ab_apply, broadcastTo_a1_ab_apply, shapeCast_a_a1_apply, broadcastTo_1b_ab_apply, broadcastTo_1b_ab_apply]
  exact congrArg (fun s : EReal => Ideal.logistic (s * x4 (ix2 (0 : Fin 1) k)
      + sitofp (F := Ideal) .f32 x2 (ix2 p (0 : Fin 1)) * x5 (ix2 (0 : Fin 1) k)))
    (maskedRow_apply (b := 1024) x0 x2 _ _ _ _ _ p)

/-- The entry stored where the tile starts below the total: the product over the first 1024 units plus the product over
    the last 32 (whose embedding is completed here, `logistic (s · w_k + n · b_k)`), plus the encoder bias, clipped at zero
    from below, times the row mask. -/
theorem pay1_apply (i : grid0.Coords) (nv : BitVec 32) (v35 : FVec Ideal S1024x1024 .f32) (v43 : FVec Ideal S1024x1 .f32)
    (v48 : FVec Ideal S1024x32 .f32) (v49 : Vec Ideal S1x32 .f32) (v58 : Vec Ideal S1024x2048 .bf16) (v61 : Vec Ideal S32x2048 .bf16)
    (v65 : Vec Ideal S1x2048 .f32) (p : Fin 1024) (j : Fin 2048) :
    k0_pay1 (F := Ideal) i nv v35 v43 v48 v49 v58 v61 v65 (ix2 p j)
      = max ((∑ k : Fin 1024, v35 (ix2 p k) * v58 (ix2 k j)
              + ∑ k : Fin 32, Ideal.logistic (v48 (ix2 p k) + v43 (ix2 p (0 : Fin 1)) * v49 (ix2 (0 : Fin 1) k)) * v61 (ix2 k j))
            + v65 (ix2 (0 : Fin 1) j)) 0
          * (if IntOp.cmpi .slt (BitVec.ofNat 32 p.val + BitVec.ofNat 32 (i 0).val * 1024#32) nv = 1#1 then (1 : EReal) else 0) := by
  unfold k0_pay1
  simp only [shapeCast_self]
  show max ((matmul dot_S1024x1024_S1024x2048_S1024x2048_1_0_0_1_n_n none _ _ _ (ix2 p j)
        + matmul dot_S1024x32_S32x2048_S1024x2048_1_0_0_1_n_n none _ _ _ (ix2 p j))
      + broadcastTo S1024x2048 _ _ (ix2 p j)) (Ideal.ofBits .f32 0x00000000#32) * broadcastTo S1024x2048 _ _ (ix2 p j) = _
  rw [matmulW_apply, matmulB_apply, broadcastTo_1b_ab_apply, rowMask_apply, Ideal.ofBits_zero_f32]
  refine congrArg₂ (· * ·) (congrArg₂ max (congrArg₂ (· + ·) (congrArg₂ (· + ·) rfl ?_) rfl) rfl) rfl
  refine Finset.sum_congr rfl fun k _ => ?_
  show Ideal.logistic (v48 (ix2 p k) + broadcastTo S1024x32 v43 _ (ix2 p k) * broadcastTo S1024x32 v49 _ (ix2 p k)) * v61 (ix2 k j) = _
  rw [broadcastTo_a1_ab_apply, broadcastTo_1b_ab_apply]

/-- Below position 1024 the column reads the first block … -/
theorem encCol_lo (x8 : Vec Ideal S1024x2048 .bf16) (x9 : Vec Ideal S32x2048 .bf16) (j : Fin 2048) (k : Fin 1024) (h : k.val < 1056) :
    encCol x8 x9 j ⟨k.val, h⟩ = x8 (ix2 k j) := by
  unfold encCol
  exact dif_pos k.isLt

/-- … and from position 1024 on the second, 1024 positions earlier. -/
theorem encCol_hi (x8 : Vec Ideal S1024x2048 .bf16) (x9 : Vec Ideal S32x2048 .bf16) (j : Fin 2048) (k : Fin 32) (h : 1024 + k.val < 1056) :
    encCol x8 x9 j ⟨1024 + k.val, h⟩ = x9 (ix2 k j) := by
  unfold encCol
  have hn : ¬ (1024 + k.val < 1024) := by omega
  exact (dif_neg hn).trans (congrArg (fun q : Fin 32 => x9 (ix2 q j)) (Fin.ext (by show 1024 + k.val - 1024 = k.val; omega)))

/-! ## The stored block at an index

Where the tile starts below the total the entry is the clipped sum times the row mask: the mask is 1 on a row below the
total, and the sum is then the encoder's entry term by term; it is 0 on the other rows, and a product with 0 is 0 on the
extended reals whatever the other factor. Where the tile does not start below the total the block is the zero constant. -/

theorem outBlk_apply (pf : pre0.Contents (Elt Ideal)) (i : grid0.Coords)
    (x0 : Vec Ideal S1024x1024 .f32) (x1 : Vec Ideal S1024x32 .f32) (x2 x3 : Vec Ideal S1024x1 .i32)
    (x4 x5 : Vec Ideal S1x1024 .f32) (x6 x7 : Vec Ideal S1x32 .f32) (x8 : Vec Ideal S1024x2048 .bf16) (x9 : Vec Ideal S32x2048 .bf16)
    (x10 : Vec Ideal S1x2048 .f32) (p : Fin 1024) (j : Fin 2048) :
    outBlk (F := Ideal) pf i x0 x1 x2 x3 x4 x5 x6 x7 x8 x9 x10 (ix2 p j)
      = if k0_cond1 i (nvWord pf) = 1#1
            ∧ IntOp.cmpi .slt (BitVec.ofNat 32 p.val + BitVec.ofNat 32 (i 0).val * 1024#32) (nvWord pf) = 1#1 then
          Cert.Encoder.encEntry (fun q => x0 (ix2 p q)) (fun q => x1 (ix2 p q)) (x2 (ix2 p (0 : Fin 1))) (x3 (ix2 p (0 : Fin 1)))
            (fun k => x4 (ix2 (0 : Fin 1) k)) (fun k => x5 (ix2 (0 : Fin 1) k)) (fun k => x6 (ix2 (0 : Fin 1) k)) (fun k => x7 (ix2 (0 : Fin 1) k))
            (encCol x8 x9 j) (x10 (ix2 (0 : Fin 1) j))
        else 0 := by
  unfold outBlk
  by_cases hc : k0_cond1 i (nvWord pf) = 1#1
  · rw [if_pos hc]
    refine (pay1_apply i (nvWord pf) _ _ _ x7 x8 x9 x10 p j).trans ?_
    by_cases hm : IntOp.cmpi .slt (BitVec.ofNat 32 p.val + BitVec.ofNat 32 (i 0).val * 1024#32) (nvWord pf) = 1#1
    · rw [if_pos hm, if_pos ⟨hc, hm⟩, mul_one]
      unfold Cert.Encoder.encEntry
      refine congrArg₂ max (congrArg₂ (· + ·) (congrArg₂ (· + ·) ?_ ?_) rfl) rfl
      · refine Finset.sum_congr rfl fun k _ => ?_
        rw [pay4_apply, encCol_lo]
      · refine Finset.sum_congr rfl fun k _ => ?_
        rw [pay6_apply, pay5_apply, encCol_hi]
        rfl
    · rw [if_neg hm, if_neg (fun h => hm h.2), mul_zero]
  · rw [if_neg hc, if_neg (fun h => hc h.1)]
    unfold k0_pay2
    exact Ideal.ofBits_zero_f32

end Cert.KernelIdeal.Hand

end
-- ==== Proof.KernelValue.lean ====
/-
  The kernel's result over the extended reals: under lengths between 0 and 16 the result array ends at the encoder
  `Cert.Encoder.out` of the arguments.  A tile that starts below the total length reads its own blocks (the clamp is
  the identity there, the total being at most 16384) and stores the encoding times the row mask, which is the
  encoding on the rows below the total and zero on the others; a tile that does not stores zeros, and all its rows
  are at or past the total.

  In order: the word arithmetic with the total a variable (the clamp, the two row tests); the block index of every
  window at a grid point, with the table's contents a variable; each input block's entries as entries of its array
  (a block's coordinate is its index times its size plus the coordinate inside it); what the output window writes
  back at a point as that point's block of one whole-array function, and the cover of the array by the sixteen
  blocks; then the table's word read as the total length, the body's result at an entry, and the run.
-/
import proofs.«400249_j88502096101408_2_alg».proof.Proof.KernelFrame
import proofs.«400249_j88502096101408_2_alg».proof.Proof.KernelHost
import proofs.«400249_j88502096101408_2_alg».proof.Proof.KernelBlock
import proofs.«400249_j88502096101408_2_alg».proof.Proof.Encoder
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx Cert.Packing

namespace Val

/-! ## Words: the clamp and the two row tests, with the total a variable -/

theorem toInt_small (x : BitVec 32) (h : x.toNat < 2147483648) : x.toInt = (x.toNat : Int) := by
  rw [BitVec.toInt_eq_toNat_cond, if_pos (by omega)]

theorem toNat_of_bounds (nv : BitVec 32) (h0 : 0 ≤ nv.toInt) (h1 : nv.toInt ≤ 16384) : nv.toNat ≤ 16384 := by
  rw [BitVec.toInt_eq_toNat_cond] at h0 h1
  have := nv.isLt
  by_cases hc : 2 * nv.toNat < 2 ^ 32
  · rw [if_pos hc] at h0 h1; omega
  · rw [if_neg hc] at h0; omega

theorem slt_small (x y : BitVec 32) (hx : x.toNat < 2147483648) (hy : y.toNat < 2147483648) : x.slt y = true ↔ x.toNat < y.toNat := by
  rw [BitVec.slt_iff_toInt_lt, toInt_small x hx, toInt_small y hy]; omega

theorem ofBool_eq_one (b : Bool) : BitVec.ofBool b = 1#1 ↔ b = true := by cases b <;> decide

theorem cmpi_slt_iff (x y : BitVec 32) : IntOp.cmpi .slt x y = 1#1 ↔ x.slt y = true := by
  unfold IntOp.cmpi; exact ofBool_eq_one _

theorem sdiv_small (x : BitVec 32) (hx : x.toNat < 2147483648) : (IntOp.divsi .scalar x 1024#32).toNat = x.toNat / 1024 := by
  unfold IntOp.divsi
  have hnc : ¬ IntOp.SDivCorner x 1024#32 := by
    unfold IntOp.SDivCorner
    rintro (h | ⟨_, h⟩)
    · exact absurd h (by decide)
    · exact absurd h (by decide)
  rw [if_neg hnc, BitVec.sdiv_eq]
  have hm : x.msb = false := by rw [BitVec.msb_eq_decide]; simp; omega
  have hm' : (1024#32 : BitVec 32).msb = false := by decide
  rw [hm, hm']
  show (x / 1024#32).toNat = _
  rw [BitVec.toNat_udiv]; rfl

theorem tile_start_toNat (tv : Nat) (ht : tv < 16) : (BitVec.ofNat 32 tv * 1024#32).toNat = tv * 1024 := by
  rw [BitVec.toNat_mul, BitVec.toNat_ofNat]; show tv % 2 ^ 32 * 1024 % 2 ^ 32 = _; omega

/-- The clamped block index `min(i, max(1, ⌈n/1024⌉) − 1)` is `i` when tile `i` starts below the total `n ≤ 16384`. -/
theorem clamp_eq (nv : BitVec 32) (tv : Nat) (ht : tv < 16) (h0 : 0 ≤ nv.toInt) (h1 : nv.toInt ≤ 16384)
    (hc : (BitVec.ofNat 32 tv * 1024#32).slt nv = true) :
    (Scalar.minsi (BitVec.ofNat 32 tv) (Scalar.subi (Scalar.maxsi 1#32 (Scalar.divsi (Scalar.addi nv 1023#32) 1024#32)) 1#32)).toNat = tv := by
  have hn := toNat_of_bounds nv h0 h1
  have htv : (BitVec.ofNat 32 tv).toNat = tv := by rw [BitVec.toNat_ofNat]; omega
  have htm := tile_start_toNat tv ht
  rw [slt_small _ _ (by omega) (by omega), htm] at hc
  unfold Scalar.minsi Scalar.subi Scalar.maxsi Scalar.divsi Scalar.addi IntOp.minsi IntOp.subi IntOp.maxsi IntOp.addi
  have ha : (nv + 1023#32).toNat = nv.toNat + 1023 := by
    rw [BitVec.toNat_add]; show (nv.toNat + 1023) % 2 ^ 32 = _; omega
  have hd : (IntOp.divsi .scalar (nv + 1023#32) 1024#32).toNat = (nv.toNat + 1023) / 1024 := by
    rw [sdiv_small _ (by omega), ha]
  generalize IntOp.divsi .scalar (nv + 1023#32) 1024#32 = d at hd
  have h1n : (1#32 : BitVec 32).toNat = 1 := rfl
  have hmx : (if d.slt 1#32 = true then 1#32 else d).toNat = max 1 d.toNat := by
    split
    · rename_i h; rw [slt_small _ _ (by omega) (by omega)] at h; rw [h1n] at h ⊢; omega
    · rename_i h; rw [slt_small _ _ (by omega) (by omega)] at h; rw [h1n] at h; omega
  generalize (if d.slt 1#32 = true then 1#32 else d) = mx at hmx
  have hs : (mx - 1#32).toNat = mx.toNat - 1 := by
    rw [BitVec.toNat_sub]; show (2 ^ 32 - 1 + mx.toNat) % 2 ^ 32 = _; omega
  generalize mx - 1#32 = s at hs
  split
  · exact htv
  · rename_i h; rw [slt_small _ _ (by omega) (by omega), htv] at h; omega

/-- The body's row test at row `p` of tile `tv` is the row test of row `1024·tv + p` of the array; and where the tile does not start
    below the total, no row of it is below the total. -/
theorem row_test (nv : BitVec 32) (h0 : 0 ≤ nv.toInt) (h1 : nv.toInt ≤ 16384) (tv : Nat) (ht : tv < 16) (p : Nat) (hp : p < 1024)
    (r : Nat) (hr : r = 1024 * tv + p) (C : Prop) [Decidable C] (hC : C ↔ (BitVec.ofNat 32 tv * 1024#32).slt nv = true)
    (E E' : EReal) (hE : C → E = E') :
    (if C ∧ IntOp.cmpi .slt (BitVec.ofNat 32 p + BitVec.ofNat 32 tv * 1024#32) nv = 1#1 then E else 0)
      = (if IntOp.cmpi .slt (BitVec.ofNat 32 r) nv = 1#1 then E' else 0) := by
  have hn := toNat_of_bounds nv h0 h1
  have htm := tile_start_toNat tv ht
  have hpn : (BitVec.ofNat 32 p).toNat = p := by rw [BitVec.toNat_ofNat]; omega
  have hrn : (BitVec.ofNat 32 r).toNat = r := by rw [BitVec.toNat_ofNat]; omega
  have hsum : (BitVec.ofNat 32 p + BitVec.ofNat 32 tv * 1024#32).toNat = r := by
    rw [BitVec.toNat_add, htm, hpn]; show (p + tv * 1024) % 2 ^ 32 = _; omega
  have e1 : (BitVec.ofNat 32 tv * 1024#32).slt nv = true ↔ tv * 1024 < nv.toNat := by
    rw [slt_small _ _ (by omega) (by omega), htm]
  have e2 : IntOp.cmpi .slt (BitVec.ofNat 32 p + BitVec.ofNat 32 tv * 1024#32) nv = 1#1 ↔ r < nv.toNat := by
    rw [cmpi_slt_iff, slt_small _ _ (by omega) (by omega), hsum]
  have e3 : IntOp.cmpi .slt (BitVec.ofNat 32 r) nv = 1#1 ↔ r < nv.toNat := by
    rw [cmpi_slt_iff, slt_small _ _ (by omega) (by omega), hrn]
  by_cases hc : r < nv.toNat
  · have hC' : C := hC.mpr (e1.mpr (by omega))
    rw [if_pos ⟨hC', e2.mpr hc⟩, if_pos (e3.mpr hc)]
    exact hE hC'
  · rw [if_neg (fun h => hc (e2.mp h.2)), if_neg (fun h => hc (e3.mp h))]

/-! ## The block indices at a grid point, the table's contents a variable -/

theorem idx0_eq (a : (pcfg0 (F := Ideal)).Adm) (t : Fin (cfg0 a).N) :
    ((cfg0 a).win 0).index t = cc0_transform_0 inb_S1_S1_0 numel1_S1 a.1 (grid0.coords t) := rfl
theorem idx1_eq (a : (pcfg0 (F := Ideal)).Adm) (t : Fin (cfg0 a).N) :
    ((cfg0 a).win 1).index t = cc0_transform_1 inb_S1_S1_0 numel1_S1 a.1 (grid0.coords t) := rfl
theorem idx2_eq (a : (pcfg0 (F := Ideal)).Adm) (t : Fin (cfg0 a).N) :
    ((cfg0 a).win 2).index t = cc0_transform_2 inb_S1_S1_0 numel1_S1 a.1 (grid0.coords t) := rfl
theorem idx3_eq (a : (pcfg0 (F := Ideal)).Adm) (t : Fin (cfg0 a).N) :
    ((cfg0 a).win 3).index t = cc0_transform_3 inb_S1_S1_0 numel1_S1 a.1 (grid0.coords t) := rfl
theorem idx4_eq (a : (pcfg0 (F := Ideal)).Adm) (t : Fin (cfg0 a).N) :
    ((cfg0 a).win 4).index t = cc0_transform_4 (grid0.coords t) := rfl
theorem idx5_eq (a : (pcfg0 (F := Ideal)).Adm) (t : Fin (cfg0 a).N) :
    ((cfg0 a).win 5).index t = cc0_transform_5 (grid0.coords t) := rfl
theorem idx6_eq (a : (pcfg0 (F := Ideal)).Adm) (t : Fin (cfg0 a).N) :
    ((cfg0 a).win 6).index t = cc0_transform_6 (grid0.coords t) := rfl
theorem idx7_eq (a : (pcfg0 (F := Ideal)).Adm) (t : Fin (cfg0 a).N) :
    ((cfg0 a).win 7).index t = cc0_transform_7 (grid0.coords t) := rfl
theorem idx8_eq (a : (pcfg0 (F := Ideal)).Adm) (t : Fin (cfg0 a).N) :
    ((cfg0 a).win 8).index t = cc0_transform_8 (grid0.coords t) := rfl
theorem idx9_eq (a : (pcfg0 (F := Ideal)).Adm) (t : Fin (cfg0 a).N) :
    ((cfg0 a).win 9).index t = cc0_transform_9 (grid0.coords t) := rfl
theorem idx10_eq (a : (pcfg0 (F := Ideal)).Adm) (t : Fin (cfg0 a).N) :
    ((cfg0 a).win 10).index t = cc0_transform_10 (grid0.coords t) := rfl
theorem idx11_eq (a : (pcfg0 (F := Ideal)).Adm) (t : Fin (cfg0 a).N) :
    ((cfg0 a).win 11).index t = cc0_transform_11 (grid0.coords t) := rfl

/-- The word an index map loads from the table is the table's one word. -/
theorem at_eq_nvWord (pf : pre0.Contents (Elt Ideal)) :
    pf.at 0 (Rect.unit (s := S1) ![0] S1.size inb_S1_S1_0) numel1_S1 = nvWord pf := by
  unfold nvWord Pipeline.Prefetch.Contents.at Pipeline.Prefetch.Contents.atD
  have h : ∀ a : Fin (pre0.ref 0).ty.shape.rank, (![0] : Fin 1 → Nat) a + 1 ≤ (pre0.ref 0).ty.shape.size a := by decide
  rw [dif_pos h]
  refine congrArg (pf 0) (funext fun a => Fin.ext ?_)
  match a with
  | ⟨0, _⟩ => rfl

/-- The one coordinate of grid point `t` is `t`. -/
theorem coords_val : ∀ t : Fin grid0.N, (grid0.coords t 0).val = t.val := by decide

/-- The output's block index at a point is `(t, 0)`. -/
theorem tr11_eq (i : grid0.Coords) : cc0_transform_11 i = ![(i 0).val, 0] := by
  unfold cc0_transform_11
  have h16 : (i 0).val < 16 := (i 0).isLt
  funext k
  match k with
  | ⟨0, _⟩ => show (BitVec.ofNat 32 (i 0).val).toNat = (i 0).val; rw [BitVec.toNat_ofNat]; omega
  | ⟨1, _⟩ => rfl

/-- The second block index of a row-tiled input is 0; a whole-array input's block index is `(0, 0)`. -/
theorem tr0_1 (pf : pre0.Contents (Elt Ideal)) (i : grid0.Coords) : cc0_transform_0 inb_S1_S1_0 numel1_S1 pf i 1 = 0 := rfl
theorem tr1_1 (pf : pre0.Contents (Elt Ideal)) (i : grid0.Coords) : cc0_transform_1 inb_S1_S1_0 numel1_S1 pf i 1 = 0 := rfl
theorem tr2_1 (pf : pre0.Contents (Elt Ideal)) (i : grid0.Coords) : cc0_transform_2 inb_S1_S1_0 numel1_S1 pf i 1 = 0 := rfl
theorem tr3_1 (pf : pre0.Contents (Elt Ideal)) (i : grid0.Coords) : cc0_transform_3 inb_S1_S1_0 numel1_S1 pf i 1 = 0 := rfl
theorem tr4_eq (i : grid0.Coords) : cc0_transform_4 i = ![0, 0] := rfl
theorem tr5_eq (i : grid0.Coords) : cc0_transform_5 i = ![0, 0] := rfl
theorem tr6_eq (i : grid0.Coords) : cc0_transform_6 i = ![0, 0] := rfl
theorem tr7_eq (i : grid0.Coords) : cc0_transform_7 i = ![0, 0] := rfl
theorem tr8_eq (i : grid0.Coords) : cc0_transform_8 i = ![0, 0] := rfl
theorem tr9_eq (i : grid0.Coords) : cc0_transform_9 i = ![0, 0] := rfl
theorem tr10_eq (i : grid0.Coords) : cc0_transform_10 i = ![0, 0] := rfl

/-- The output's block index changes at every point, so every point writes its block back. -/
theorem flush11 (a : (pcfg0 (F := Ideal)).Adm) (t : Fin (cfg0 a).N) : ((cfg0 a).win 11).flush t = true := by
  unfold Pipeline.Window.flush
  have hN : (cfg0 a).N = 16 := N_0
  have hN' : (cfg0 a).grid.N = 16 := N_0
  have hN'' : grid0.N = 16 := N_0
  have htl : t.val < 16 := hN ▸ t.isLt
  show (true && _) = true
  rw [Bool.true_and, Bool.or_eq_true, decide_eq_true_eq, decide_eq_true_eq]
  by_cases h : t.val + 1 = (cfg0 a).N
  · exact Or.inl h
  · refine Or.inr ⟨by omega, fun e => ?_⟩
    have e' : cc0_transform_11 (grid0.coords ⟨t.val + 1, by omega⟩) = cc0_transform_11 (grid0.coords t) := e
    rw [tr11_eq, tr11_eq] at e'
    have e1 : (grid0.coords ⟨t.val + 1, by omega⟩ 0).val = (grid0.coords t 0).val := congrFun e' 0
    rw [coords_val, coords_val] at e1
    exact absurd e1 (by simp)

/-! ## An input block's entry is an entry of its array

  Entry `(p, q)` of the block with index `(b, 0)` of a row-tiled array is the array's entry `(1024·b + p, q)`; a
  whole-array block is the array. -/

theorem read0 (a : (pcfg0 (F := Ideal)).Adm) (A : FVec Ideal S16384x1024 .f32) (t : Fin (cfg0 a).N) (p : Fin 1024) (q : Fin 1024) (r : Fin 16384)
    (hr : r.val = cc0_transform_0 inb_S1_S1_0 numel1_S1 a.1 (grid0.coords t) 0 * 1024 + p.val) :
    (((cfg0 a).win 0).blk t).view.read (Elt Ideal) A (ix2 p q) = A (ix2 r q) := by
  show A ((((cfg0 a).win 0).blk t).view.emb (ix2 p q)) = A (ix2 r q)
  refine congrArg A (funext fun k => Fin.ext ?_)
  match k with
  | ⟨0, _⟩ =>
    show ((cfg0 a).win 0).index t (0 : Fin 2) * 1024 + 1 * p.val = r.val
    rw [idx0_eq]; omega
  | ⟨1, _⟩ =>
    show ((cfg0 a).win 0).index t (1 : Fin 2) * 1024 + 1 * q.val = q.val
    rw [idx0_eq, tr0_1]; omega

theorem read1 (a : (pcfg0 (F := Ideal)).Adm) (A : FVec Ideal S16384x32 .f32) (t : Fin (cfg0 a).N) (p : Fin 1024) (q : Fin 32) (r : Fin 16384)
    (hr : r.val = cc0_transform_1 inb_S1_S1_0 numel1_S1 a.1 (grid0.coords t) 0 * 1024 + p.val) :
    (((cfg0 a).win 1).blk t).view.read (Elt Ideal) A (ix2 p q) = A (ix2 r q) := by
  show A ((((cfg0 a).win 1).blk t).view.emb (ix2 p q)) = A (ix2 r q)
  refine congrArg A (funext fun k => Fin.ext ?_)
  match k with
  | ⟨0, _⟩ =>
    show ((cfg0 a).win 1).index t (0 : Fin 2) * 1024 + 1 * p.val = r.val
    rw [idx1_eq]; omega
  | ⟨1, _⟩ =>
    show ((cfg0 a).win 1).index t (1 : Fin 2) * 32 + 1 * q.val = q.val
    rw [idx1_eq, tr1_1]; omega

theorem read2 (a : (pcfg0 (F := Ideal)).Adm) (A : IVec S16384x1 32) (t : Fin (cfg0 a).N) (p : Fin 1024) (q : Fin 1) (r : Fin 16384)
    (hr : r.val = cc0_transform_2 inb_S1_S1_0 numel1_S1 a.1 (grid0.coords t) 0 * 1024 + p.val) :
    (((cfg0 a).win 2).blk t).view.read (Elt Ideal) A (ix2 p q) = A (ix2 r q) := by
  show A ((((cfg0 a).win 2).blk t).view.emb (ix2 p q)) = A (ix2 r q)
  refine congrArg A (funext fun k => Fin.ext ?_)
  match k with
  | ⟨0, _⟩ =>
    show ((cfg0 a).win 2).index t (0 : Fin 2) * 1024 + 1 * p.val = r.val
    rw [idx2_eq]; omega
  | ⟨1, _⟩ =>
    show ((cfg0 a).win 2).index t (1 : Fin 2) * 1 + 1 * q.val = q.val
    rw [idx2_eq, tr2_1]; omega

theorem read3 (a : (pcfg0 (F := Ideal)).Adm) (A : IVec S16384x1 32) (t : Fin (cfg0 a).N) (p : Fin 1024) (q : Fin 1) (r : Fin 16384)
    (hr : r.val = cc0_transform_3 inb_S1_S1_0 numel1_S1 a.1 (grid0.coords t) 0 * 1024 + p.val) :
    (((cfg0 a).win 3).blk t).view.read (Elt Ideal) A (ix2 p q) = A (ix2 r q) := by
  show A ((((cfg0 a).win 3).blk t).view.emb (ix2 p q)) = A (ix2 r q)
  refine congrArg A (funext fun k => Fin.ext ?_)
  match k with
  | ⟨0, _⟩ =>
    show ((cfg0 a).win 3).index t (0 : Fin 2) * 1024 + 1 * p.val = r.val
    rw [idx3_eq]; omega
  | ⟨1, _⟩ =>
    show ((cfg0 a).win 3).index t (1 : Fin 2) * 1 + 1 * q.val = q.val
    rw [idx3_eq, tr3_1]; omega

theorem read4 (a : (pcfg0 (F := Ideal)).Adm) (A : FVec Ideal S1x1024 .f32) (t : Fin (cfg0 a).N) (p : Fin 1) (q : Fin 1024) :
    (((cfg0 a).win 4).blk t).view.read (Elt Ideal) A (ix2 p q) = A (ix2 p q) := by
  show A ((((cfg0 a).win 4).blk t).view.emb (ix2 p q)) = A (ix2 p q)
  refine congrArg A (funext fun k => Fin.ext ?_)
  match k with
  | ⟨0, _⟩ =>
    show ((cfg0 a).win 4).index t (0 : Fin 2) * 1 + 1 * p.val = p.val
    rw [idx4_eq, tr4_eq]; show 0 * 1 + 1 * p.val = p.val; omega
  | ⟨1, _⟩ =>
    show ((cfg0 a).win 4).index t (1 : Fin 2) * 1024 + 1 * q.val = q.val
    rw [idx4_eq, tr4_eq]; show 0 * 1024 + 1 * q.val = q.val; omega

theorem read5 (a : (pcfg0 (F := Ideal)).Adm) (A : FVec Ideal S1x1024 .f32) (t : Fin (cfg0 a).N) (p : Fin 1) (q : Fin 1024) :
    (((cfg0 a).win 5).blk t).view.read (Elt Ideal) A (ix2 p q) = A (ix2 p q) := by
  show A ((((cfg0 a).win 5).blk t).view.emb (ix2 p q)) = A (ix2 p q)
  refine congrArg A (funext fun k => Fin.ext ?_)
  match k with
  | ⟨0, _⟩ =>
    show ((cfg0 a).win 5).index t (0 : Fin 2) * 1 + 1 * p.val = p.val
    rw [idx5_eq, tr5_eq]; show 0 * 1 + 1 * p.val = p.val; omega
  | ⟨1, _⟩ =>
    show ((cfg0 a).win 5).index t (1 : Fin 2) * 1024 + 1 * q.val = q.val
    rw [idx5_eq, tr5_eq]; show 0 * 1024 + 1 * q.val = q.val; omega

theorem read6 (a : (pcfg0 (F := Ideal)).Adm) (A : FVec Ideal S1x32 .f32) (t : Fin (cfg0 a).N) (p : Fin 1) (q : Fin 32) :
    (((cfg0 a).win 6).blk t).view.read (Elt Ideal) A (ix2 p q) = A (ix2 p q) := by
  show A ((((cfg0 a).win 6).blk t).view.emb (ix2 p q)) = A (ix2 p q)
  refine congrArg A (funext fun k => Fin.ext ?_)
  match k with
  | ⟨0, _⟩ =>
    show ((cfg0 a).win 6).index t (0 : Fin 2) * 1 + 1 * p.val = p.val
    rw [idx6_eq, tr6_eq]; show 0 * 1 + 1 * p.val = p.val; omega
  | ⟨1, _⟩ =>
    show ((cfg0 a).win 6).index t (1 : Fin 2) * 32 + 1 * q.val = q.val
    rw [idx6_eq, tr6_eq]; show 0 * 32 + 1 * q.val = q.val; omega

theorem read7 (a : (pcfg0 (F := Ideal)).Adm) (A : FVec Ideal S1x32 .f32) (t : Fin (cfg0 a).N) (p : Fin 1) (q : Fin 32) :
    (((cfg0 a).win 7).blk t).view.read (Elt Ideal) A (ix2 p q) = A (ix2 p q) := by
  show A ((((cfg0 a).win 7).blk t).view.emb (ix2 p q)) = A (ix2 p q)
  refine congrArg A (funext fun k => Fin.ext ?_)
  match k with
  | ⟨0, _⟩ =>
    show ((cfg0 a).win 7).index t (0 : Fin 2) * 1 + 1 * p.val = p.val
    rw [idx7_eq, tr7_eq]; show 0 * 1 + 1 * p.val = p.val; omega
  | ⟨1, _⟩ =>
    show ((cfg0 a).win 7).index t (1 : Fin 2) * 32 + 1 * q.val = q.val
    rw [idx7_eq, tr7_eq]; show 0 * 32 + 1 * q.val = q.val; omega

theorem read8 (a : (pcfg0 (F := Ideal)).Adm) (A : FVec Ideal S1024x2048 .bf16) (t : Fin (cfg0 a).N) (p : Fin 1024) (q : Fin 2048) :
    (((cfg0 a).win 8).blk t).view.read (Elt Ideal) A (ix2 p q) = A (ix2 p q) := by
  show A ((((cfg0 a).win 8).blk t).view.emb (ix2 p q)) = A (ix2 p q)
  refine congrArg A (funext fun k => Fin.ext ?_)
  match k with
  | ⟨0, _⟩ =>
    show ((cfg0 a).win 8).index t (0 : Fin 2) * 1024 + 1 * p.val = p.val
    rw [idx8_eq, tr8_eq]; show 0 * 1024 + 1 * p.val = p.val; omega
  | ⟨1, _⟩ =>
    show ((cfg0 a).win 8).index t (1 : Fin 2) * 2048 + 1 * q.val = q.val
    rw [idx8_eq, tr8_eq]; show 0 * 2048 + 1 * q.val = q.val; omega

theorem read9 (a : (pcfg0 (F := Ideal)).Adm) (A : FVec Ideal S32x2048 .bf16) (t : Fin (cfg0 a).N) (p : Fin 32) (q : Fin 2048) :
    (((cfg0 a).win 9).blk t).view.read (Elt Ideal) A (ix2 p q) = A (ix2 p q) := by
  show A ((((cfg0 a).win 9).blk t).view.emb (ix2 p q)) = A (ix2 p q)
  refine congrArg A (funext fun k => Fin.ext ?_)
  match k with
  | ⟨0, _⟩ =>
    show ((cfg0 a).win 9).index t (0 : Fin 2) * 32 + 1 * p.val = p.val
    rw [idx9_eq, tr9_eq]; show 0 * 32 + 1 * p.val = p.val; omega
  | ⟨1, _⟩ =>
    show ((cfg0 a).win 9).index t (1 : Fin 2) * 2048 + 1 * q.val = q.val
    rw [idx9_eq, tr9_eq]; show 0 * 2048 + 1 * q.val = q.val; omega

theorem read10 (a : (pcfg0 (F := Ideal)).Adm) (A : FVec Ideal S1x2048 .f32) (t : Fin (cfg0 a).N) (p : Fin 1) (q : Fin 2048) :
    (((cfg0 a).win 10).blk t).view.read (Elt Ideal) A (ix2 p q) = A (ix2 p q) := by
  show A ((((cfg0 a).win 10).blk t).view.emb (ix2 p q)) = A (ix2 p q)
  refine congrArg A (funext fun k => Fin.ext ?_)
  match k with
  | ⟨0, _⟩ =>
    show ((cfg0 a).win 10).index t (0 : Fin 2) * 1 + 1 * p.val = p.val
    rw [idx10_eq, tr10_eq]; show 0 * 1 + 1 * p.val = p.val; omega
  | ⟨1, _⟩ =>
    show ((cfg0 a).win 10).index t (1 : Fin 2) * 2048 + 1 * q.val = q.val
    rw [idx10_eq, tr10_eq]; show 0 * 2048 + 1 * q.val = q.val; omega

/-! ## The output's blocks -/

/-- What the output window writes back at a point, against the point's block of a whole-array function: it is enough
    that entry `(p, j)` of the one be entry `(1024·t + p, j)` of the other. -/
theorem out_point (a : (pcfg0 (F := Ideal)).Adm) (t : Fin (cfg0 a).N) (X : Vec Ideal S1024x2048 .f32) (G : FVec Ideal S16384x2048 .f32)
    (h : ∀ (p : Fin 1024) (j : Fin 2048) (r : Fin 16384), r.val = 1024 * (grid0.coords t 0).val + p.val → X (ix2 p j) = G (ix2 r j)) :
    ((cfg0 a).win 11).cut ((cfg0 a).grid.coords t) X = (((cfg0 a).win 11).blk t).view.read (Elt Ideal) G := by
  suffices hs : ∀ y : S1024x2048.Idx, X (((cfg0 a).win 11).xinj ((cfg0 a).grid.coords t) y) = G ((((cfg0 a).win 11).blk t).view.emb y) from
    funext fun y => hs y
  intro y
  obtain ⟨p, j, rfl⟩ : ∃ (p : Fin 1024) (j : Fin 2048), y = ix2 p j := ⟨y 0, y 1, eq_ix2 y⟩
  have ht : (grid0.coords t 0).val < 16 := (grid0.coords t 0).isLt
  have e1 : ((cfg0 a).win 11).xinj ((cfg0 a).grid.coords t) (ix2 p j) = (ix2 p j : S1024x2048.Idx) := by
    funext k
    match k with
    | ⟨0, _⟩ => rfl
    | ⟨1, _⟩ => rfl
  have e2 : (((cfg0 a).win 11).blk t).view.emb (ix2 p j) = (ix2 (⟨1024 * (grid0.coords t 0).val + p.val, by omega⟩ : Fin 16384) j : S16384x2048.Idx) := by
    funext k
    apply Fin.ext
    match k with
    | ⟨0, _⟩ =>
      show cc0_transform_11 (grid0.coords t) 0 * 1024 + 1 * p.val = 1024 * (grid0.coords t 0).val + p.val
      rw [tr11_eq]; show (grid0.coords t 0).val * 1024 + 1 * p.val = _; omega
    | ⟨1, _⟩ =>
      show cc0_transform_11 (grid0.coords t) 1 * 2048 + 1 * j.val = j.val
      rw [tr11_eq]; show 0 * 2048 + 1 * j.val = _; omega
  rw [e1, e2]
  exact h _ _ _ rfl

/-- Row `r` of the array lies in the block of point `r / 1024`. -/
theorem cover (a : (pcfg0 (F := Ideal)).Adm) (i : S16384x2048.Idx) :
    ∃ t : Fin (cfg0 a).N, ((cfg0 a).win 11).flush t = true ∧ i ∈ (((cfg0 a).win 11).blk t).view.set := by
  have hN : (cfg0 a).N = 16 := N_0
  have hi0 : (i 0).val < 16384 := (i 0).isLt
  have hi1 : (i 1).val < 2048 := (i 1).isLt
  have hlt : (i 0).val / 1024 < (cfg0 a).N := by rw [hN]; omega
  refine ⟨⟨(i 0).val / 1024, hlt⟩, flush11 a _, ?_⟩
  have hset : (((cfg0 a).win 11).blk ⟨(i 0).val / 1024, hlt⟩).view.set = (((cfg0 a).win 11).rect ⟨(i 0).val / 1024, hlt⟩).set :=
    View.set_slice_whole main_v129 _
  rw [hset]
  refine Rect.mem_set_unit.mpr (fun k => ?_)
  match k with
  | ⟨0, _⟩ =>
    show cc0_transform_11 (grid0.coords ⟨(i 0).val / 1024, hlt⟩) 0 * 1024 ≤ (i 0).val
      ∧ (i 0).val < cc0_transform_11 (grid0.coords ⟨(i 0).val / 1024, hlt⟩) 0 * 1024 + 1024
    rw [tr11_eq]
    show (grid0.coords ⟨(i 0).val / 1024, hlt⟩ 0).val * 1024 ≤ (i 0).val ∧ (i 0).val < (grid0.coords ⟨(i 0).val / 1024, hlt⟩ 0).val * 1024 + 1024
    rw [coords_val]
    show (i 0).val / 1024 * 1024 ≤ (i 0).val ∧ (i 0).val < (i 0).val / 1024 * 1024 + 1024
    omega
  | ⟨1, _⟩ =>
    show cc0_transform_11 (grid0.coords ⟨(i 0).val / 1024, hlt⟩) 1 * 2048 ≤ (i 1).val
      ∧ (i 1).val < cc0_transform_11 (grid0.coords ⟨(i 0).val / 1024, hlt⟩) 1 * 2048 + 2048
    rw [tr11_eq]
    show 0 * 2048 ≤ (i 1).val ∧ (i 1).val < 0 * 2048 + 2048
    omega
/-- The tile test of the body, as a comparison of words. -/
theorem cond1_iff (i : grid0.Coords) (nv : BitVec 32) :
    k0_cond1 i nv = 1#1 ↔ (BitVec.ofNat 32 (i 0).val * 1024#32).slt nv = true := by
  unfold k0_cond1 Scalar.cmpi Scalar.extui Scalar.muli IntOp.cmpi IntOp.muli
  show BitVec.ofBool ((BitVec.ofBool ((BitVec.ofNat 32 (i 0).val * 1024#32).slt nv)).setWidth 32 != 0#32) = 1#1 ↔ _
  generalize (BitVec.ofNat 32 (i 0).val * 1024#32).slt nv = b
  cases b <;> decide

theorem tr0_clamp (pf : pre0.Contents (Elt Ideal)) (i : grid0.Coords) (h0 : 0 ≤ (nvWord pf).toInt) (h1 : (nvWord pf).toInt ≤ 16384)
    (hc : k0_cond1 i (nvWord pf) = 1#1) : cc0_transform_0 inb_S1_S1_0 numel1_S1 pf i 0 = (i 0).val := by
  unfold cc0_transform_0
  dsimp only
  simp only [Matrix.cons_val_zero]
  rw [at_eq_nvWord]
  exact clamp_eq _ _ (i 0).isLt h0 h1 ((cond1_iff i _).mp hc)

theorem tr1_clamp (pf : pre0.Contents (Elt Ideal)) (i : grid0.Coords) (h0 : 0 ≤ (nvWord pf).toInt) (h1 : (nvWord pf).toInt ≤ 16384)
    (hc : k0_cond1 i (nvWord pf) = 1#1) : cc0_transform_1 inb_S1_S1_0 numel1_S1 pf i 0 = (i 0).val := by
  unfold cc0_transform_1
  dsimp only
  simp only [Matrix.cons_val_zero]
  rw [at_eq_nvWord]
  exact clamp_eq _ _ (i 0).isLt h0 h1 ((cond1_iff i _).mp hc)

theorem tr2_clamp (pf : pre0.Contents (Elt Ideal)) (i : grid0.Coords) (h0 : 0 ≤ (nvWord pf).toInt) (h1 : (nvWord pf).toInt ≤ 16384)
    (hc : k0_cond1 i (nvWord pf) = 1#1) : cc0_transform_2 inb_S1_S1_0 numel1_S1 pf i 0 = (i 0).val := by
  unfold cc0_transform_2
  dsimp only
  simp only [Matrix.cons_val_zero]
  rw [at_eq_nvWord]
  exact clamp_eq _ _ (i 0).isLt h0 h1 ((cond1_iff i _).mp hc)

theorem tr3_clamp (pf : pre0.Contents (Elt Ideal)) (i : grid0.Coords) (h0 : 0 ≤ (nvWord pf).toInt) (h1 : (nvWord pf).toInt ≤ 16384)
    (hc : k0_cond1 i (nvWord pf) = 1#1) : cc0_transform_3 inb_S1_S1_0 numel1_S1 pf i 0 = (i 0).val := by
  unfold cc0_transform_3
  dsimp only
  simp only [Matrix.cons_val_zero]
  rw [at_eq_nvWord]
  exact clamp_eq _ _ (i 0).isLt h0 h1 ((cond1_iff i _).mp hc)

variable (m : (ℓ : Loc nD τ sig) → Buf (Elt Ideal) ℓ)

/-! ## The input blocks as entries of the arrays the region finds -/

theorem blk0 (c : Dev nD) (t : Fin (cfgM m).N)
    (hb : cc0_transform_0 inb_S1_S1_0 numel1_S1 (tbl m) (grid0.coords t) 0 = (grid0.coords t 0).val)
    (p : Fin 1024) (q : Fin 1024) (r : Fin 16384) (hr : r.val = 1024 * (grid0.coords t 0).val + p.val) :
    (iblk m c 0 t : Vec Ideal S1024x1024 .f32) (ix2 p q) = (V m c main_v112 : FVec Ideal S16384x1024 .f32) (ix2 r q) :=
  read0 (adm m) (V m c main_v112) t p q r (by rw [hb, hr]; omega)

theorem blk1 (c : Dev nD) (t : Fin (cfgM m).N)
    (hb : cc0_transform_1 inb_S1_S1_0 numel1_S1 (tbl m) (grid0.coords t) 0 = (grid0.coords t 0).val)
    (p : Fin 1024) (q : Fin 32) (r : Fin 16384) (hr : r.val = 1024 * (grid0.coords t 0).val + p.val) :
    (iblk m c 1 t : Vec Ideal S1024x32 .f32) (ix2 p q) = (V m c main_v114 : FVec Ideal S16384x32 .f32) (ix2 r q) :=
  read1 (adm m) (V m c main_v114) t p q r (by rw [hb, hr]; omega)

theorem blk2 (c : Dev nD) (t : Fin (cfgM m).N)
    (hb : cc0_transform_2 inb_S1_S1_0 numel1_S1 (tbl m) (grid0.coords t) 0 = (grid0.coords t 0).val)
    (p : Fin 1024) (q : Fin 1) (r : Fin 16384) (hr : r.val = 1024 * (grid0.coords t 0).val + p.val) :
    (iblk m c 2 t : Vec Ideal S1024x1 .i32) (ix2 p q) = (V m c main_v117 : IVec S16384x1 32) (ix2 r q) :=
  read2 (adm m) (V m c main_v117) t p q r (by rw [hb, hr]; omega)

theorem blk3 (c : Dev nD) (t : Fin (cfgM m).N)
    (hb : cc0_transform_3 inb_S1_S1_0 numel1_S1 (tbl m) (grid0.coords t) 0 = (grid0.coords t 0).val)
    (p : Fin 1024) (q : Fin 1) (r : Fin 16384) (hr : r.val = 1024 * (grid0.coords t 0).val + p.val) :
    (iblk m c 3 t : Vec Ideal S1024x1 .i32) (ix2 p q) = (V m c main_v118 : IVec S16384x1 32) (ix2 r q) :=
  read3 (adm m) (V m c main_v118) t p q r (by rw [hb, hr]; omega)

theorem blk4 (c : Dev nD) (t : Fin (cfgM m).N) (p : Fin 1) (q : Fin 1024) :
    (iblk m c 4 t : Vec Ideal S1x1024 .f32) (ix2 p q) = (V m c main_v119 : FVec Ideal S1x1024 .f32) (ix2 p q) :=
  read4 (adm m) (V m c main_v119) t p q

theorem blk5 (c : Dev nD) (t : Fin (cfgM m).N) (p : Fin 1) (q : Fin 1024) :
    (iblk m c 5 t : Vec Ideal S1x1024 .f32) (ix2 p q) = (V m c main_v120 : FVec Ideal S1x1024 .f32) (ix2 p q) :=
  read5 (adm m) (V m c main_v120) t p q

theorem blk6 (c : Dev nD) (t : Fin (cfgM m).N) (p : Fin 1) (q : Fin 32) :
    (iblk m c 6 t : Vec Ideal S1x32 .f32) (ix2 p q) = (V m c main_v121 : FVec Ideal S1x32 .f32) (ix2 p q) :=
  read6 (adm m) (V m c main_v121) t p q

theorem blk7 (c : Dev nD) (t : Fin (cfgM m).N) (p : Fin 1) (q : Fin 32) :
    (iblk m c 7 t : Vec Ideal S1x32 .f32) (ix2 p q) = (V m c main_v122 : FVec Ideal S1x32 .f32) (ix2 p q) :=
  read7 (adm m) (V m c main_v122) t p q

theorem blk8 (c : Dev nD) (t : Fin (cfgM m).N) (p : Fin 1024) (q : Fin 2048) :
    (iblk m c 8 t : Vec Ideal S1024x2048 .bf16) (ix2 p q) = (V m c main_v125 : FVec Ideal S1024x2048 .bf16) (ix2 p q) :=
  read8 (adm m) (V m c main_v125) t p q

theorem blk9 (c : Dev nD) (t : Fin (cfgM m).N) (p : Fin 32) (q : Fin 2048) :
    (iblk m c 9 t : Vec Ideal S32x2048 .bf16) (ix2 p q) = (V m c main_v127 : FVec Ideal S32x2048 .bf16) (ix2 p q) :=
  read9 (adm m) (V m c main_v127) t p q

theorem blk10 (c : Dev nD) (t : Fin (cfgM m).N) (p : Fin 1) (q : Fin 2048) :
    (iblk m c 10 t : Vec Ideal S1x2048 .f32) (ix2 p q) = (V m c main_v128 : FVec Ideal S1x2048 .f32) (ix2 p q) :=
  read10 (adm m) (V m c main_v128) t p q

/-! ## The table's word -/

/-- The table's one word is the total length. -/
theorem nvWord_tbl (c : Dev nD) : nvWord (tbl m) = nValid (m ((c.tc : Thread nD τ).loc main_arg4)) ValueIdx.ix0 := by
  have e : tbl m 0 = (V m c main_v116 : IVec S1 32) := (V_pre m c 0).symm
  unfold nvWord Pipeline.Prefetch.Contents.atD
  have h : ∀ a : Fin (pre0.ref 0).ty.shape.rank, (![0] : Fin 1 → Nat) a + 1 ≤ (pre0.ref 0).ty.shape.size a := by decide
  rw [dif_pos h, e]
  refine Eq.trans ?_ (nv_apply m c)
  refine congrArg (V m c main_v116 : IVec S1 32) (funext fun a => Fin.ext ?_)
  match a with
  | ⟨0, _⟩ => rfl

/-! ## The encoder of a core's arguments, and one tile's rows of it -/

/-- The encoder of core `c`'s arguments. -/
abbrev enc (c : Dev nD) : FVec Ideal S16384x2048 .f32 :=
  Cert.Encoder.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

theorem enc_apply (c : Dev nD) (r : Fin 16384) (j : Fin 2048) :
    enc m c (ix2 r j)
      = if IntOp.cmpi .slt (BitVec.ofNat 32 r.val) (nValid (m ((c.tc : Thread nD τ).loc main_arg4)) ValueIdx.ix0) = 1#1 then
          Cert.Encoder.encEntry
          (fun q => ((m ((c.tc : Thread nD τ).loc main_arg0)) : FVec Ideal S1024x16x1024 .f32) (ix3 ⟨(srcB (m ((c.tc : Thread nD τ).loc main_arg4)) (ix1 r)).toNat, srcB_lt _ _⟩ ⟨(srcT (m ((c.tc : Thread nD τ).loc main_arg4)) (ix1 r)).toNat, srcT_lt _ _⟩ q))
          (fun q => ((m ((c.tc : Thread nD τ).loc main_arg1)) : FVec Ideal S1024x16x32 .f32) (ix3 ⟨(srcB (m ((c.tc : Thread nD τ).loc main_arg4)) (ix1 r)).toNat, srcB_lt _ _⟩ ⟨(srcT (m ((c.tc : Thread nD τ).loc main_arg4)) (ix1 r)).toNat, srcT_lt _ _⟩ q))
          (packLens (m ((c.tc : Thread nD τ).loc main_arg4)) (m ((c.tc : Thread nD τ).loc main_arg2)) (ix1 r)) (packLens (m ((c.tc : Thread nD τ).loc main_arg4)) (m ((c.tc : Thread nD τ).loc main_arg3)) (ix1 r))
          (fun k => ((m ((c.tc : Thread nD τ).loc main_arg5)) : FVec Ideal S1024 .f32) (ix1 k)) (fun k => ((m ((c.tc : Thread nD τ).loc main_arg6)) : FVec Ideal S1024 .f32) (ix1 k))
          (fun k => ((m ((c.tc : Thread nD τ).loc main_arg7)) : FVec Ideal S32 .f32) (ix1 k)) (fun k => ((m ((c.tc : Thread nD τ).loc main_arg8)) : FVec Ideal S32 .f32) (ix1 k))
          (fun k => ((m ((c.tc : Thread nD τ).loc main_arg9)) : FVec Ideal S2048x1056 .f32) (ix2 j k)) (((m ((c.tc : Thread nD τ).loc main_arg10)) : FVec Ideal S2048 .f32) (ix1 j))
        else 0 := rfl

/-- The encoder matrix's column as the kernel holds it, below and from row 1024. -/
theorem encCol_lt (x8 : Vec Ideal S1024x2048 .bf16) (x9 : Vec Ideal S32x2048 .bf16) (j : Fin 2048) (k : Fin 1056) (h : k.val < 1024) :
    encCol x8 x9 j k = x8 (ix2 (⟨k.val, h⟩ : Fin 1024) j) := by
  unfold encCol; exact dif_pos h

theorem encCol_ge (x8 : Vec Ideal S1024x2048 .bf16) (x9 : Vec Ideal S32x2048 .bf16) (j : Fin 2048) (k : Fin 1056) (h : ¬ k.val < 1024) :
    encCol x8 x9 j k = x9 (ix2 (⟨k.val - 1024, by omega⟩ : Fin 32) j) := by
  unfold encCol; exact dif_neg h

theorem encEntry_congr {gw gw' : Fin 1024 → EReal} {gb gb' : Fin 32 → EReal} {nw nw' nb nb' : BitVec 32}
    {tww tww' twb twb' : Fin 1024 → EReal} {tbw tbw' tbb tbb' : Fin 32 → EReal} {ew ew' : Fin 1056 → EReal} {eb eb' : EReal}
    (h0 : gw = gw') (h1 : gb = gb') (h2 : nw = nw') (h3 : nb = nb') (h4 : tww = tww') (h5 : twb = twb') (h6 : tbw = tbw')
    (h7 : tbb = tbb') (h8 : ew = ew') (h9 : eb = eb') :
    Cert.Encoder.encEntry gw gb nw nb tww twb tbw tbb ew eb = Cert.Encoder.encEntry gw' gb' nw' nb' tww' twb' tbw' tbb' ew' eb' := by
  rw [h0, h1, h2, h3, h4, h5, h6, h7, h8, h9]

/-- Entry `(p, j)` of what the body leaves in the output block at point `t` is entry `(1024·t + p, j)` of the encoder. -/
theorem point_value (c : Dev nD)
    (hlen : ∀ i, 0 ≤ (((m ((c.tc : Thread nD τ).loc main_arg4)) : IVec S1024 32) i).toInt ∧ (((m ((c.tc : Thread nD τ).loc main_arg4)) : IVec S1024 32) i).toInt ≤ 16)
    (t : Fin (cfgM m).N) (p : Fin 1024) (j : Fin 2048) (r : Fin 16384) (hr : r.val = 1024 * (grid0.coords t 0).val + p.val) :
    outBlk (tbl m) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j) = enc m c (ix2 r j) := by
  have hw := nvWord_tbl m c
  obtain ⟨h0, h1⟩ := nValid_bounds _ hlen
  rw [← hw] at h0 h1
  have hi : (grid0.coords t 0).val < 16 := (grid0.coords t 0).isLt
  refine ((outBlk_apply (tbl m) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) p j).trans ?_).trans (enc_apply m c r j).symm
  rw [← hw]
  refine row_test (nvWord (tbl m)) h0 h1 _ hi p.val p.isLt r.val hr _ (cond1_iff _ _) _ _ (fun hc => ?_)
  have hb0 := tr0_clamp (tbl m) (grid0.coords t) h0 h1 hc
  have hb1 := tr1_clamp (tbl m) (grid0.coords t) h0 h1 hc
  have hb2 := tr2_clamp (tbl m) (grid0.coords t) h0 h1 hc
  have hb3 := tr3_clamp (tbl m) (grid0.coords t) h0 h1 hc
  refine encEntry_congr (funext fun q => ?_) (funext fun q => ?_) ?_ ?_ (funext fun k => ?_) (funext fun k => ?_)
    (funext fun k => ?_) (funext fun k => ?_) (funext fun k => ?_) ?_
  · exact (blk0 m c t hb0 p q r hr).trans (gw_apply m c r q)
  · exact (blk1 m c t hb1 p q r hr).trans (gb_apply m c r q)
  · exact (blk2 m c t hb2 p 0 r hr).trans (wpl_apply m c r)
  · exact (blk3 m c t hb3 p 0 r hr).trans (bpl_apply m c r)
  · exact (blk4 m c t 0 k).trans (tww_apply m c k)
  · exact (blk5 m c t 0 k).trans (twb_apply m c k)
  · exact (blk6 m c t 0 k).trans (tbw_apply m c k)
  · exact (blk7 m c t 0 k).trans (tbb_apply m c k)
  · by_cases h : k.val < 1024
    · exact (encCol_lt (iblk m c 8 t) (iblk m c 9 t) j k h).trans
        ((blk8 m c t ⟨k.val, h⟩ j).trans (ew1_apply m c ⟨k.val, h⟩ j))
    · refine (encCol_ge (iblk m c 8 t) (iblk m c 9 t) j k h).trans
        (((blk9 m c t ⟨k.val - 1024, by omega⟩ j).trans (ew2_apply m c ⟨k.val - 1024, by omega⟩ j)).trans ?_)
      exact congrArg (fun x : Fin 1056 => ((m ((c.tc : Thread nD τ).loc main_arg9)) : FVec Ideal S2048x1056 .f32) (ix2 j x))
        (Fin.ext (by show 1024 + (k.val - 1024) = k.val; omega))
  · exact (blk10 m c t 0 j).trans (eb_apply m c j)

/-! ## From the points' blocks to the array -/

/-- What point `t` writes back is its block of the encoder. -/
theorem flushed_eq (c : Dev nD)
    (hlen : ∀ i, 0 ≤ (((m ((c.tc : Thread nD τ).loc main_arg4)) : IVec S1024 32) i).toInt ∧ (((m ((c.tc : Thread nD τ).loc main_arg4)) : IVec S1024 32) i).toInt ≤ 16)
    (t : Fin (cfgM m).N) :
    (dats m 0 c).flushed 11 t = (((cfgM m).win 11).blk t).view.read (Elt Ideal) (enc m c) := by
  show ((cfgM m).win 11).cut ((cfgM m).grid.coords t) ((dats m 0 c).after 11 t) = _
  rw [after_out]
  exact out_point (adm m) t _ (enc m c) (fun p j r hr => point_value m c hlen t p j r hr)

/-- The result array ends at the encoder. -/
theorem final (c : Dev nD)
    (hlen : ∀ i, 0 ≤ (((m ((c.tc : Thread nD τ).loc main_arg4)) : IVec S1024 32) i).toInt ∧ (((m ((c.tc : Thread nD τ).loc main_arg4)) : IVec S1024 32) i).toInt ≤ 16) :
    (dats m 0 c).arrAt 11 (cfgM m).N = enc m c :=
  (dats m 0 c).arrAt_eq_of_cover 11 (enc m c) (fun t _ => flushed_eq m c hlen t) (cover (adm m))

end Val

/-! ## The run -/

theorem value (m : (ℓ : Loc nD τ sig) → Buf (Elt Ideal) ℓ) (ρ : Dev nD → PrngReg)
    (hlen : ∀ (c : Dev nD) i, 0 ≤ (((m ((c.tc : Thread nD τ).loc main_arg4)) : IVec S1024 32) i).toInt ∧ (((m ((c.tc : Thread nD τ).loc main_arg4)) : IVec S1024 32) i).toInt ≤ 16) :
    θ_run (defs (F := Ideal)) (onTc (τ := τ) (main (F := Ideal))) ⟨m, fun _ => 0, ρ⟩ (fun r => ∀ c : Dev nD,
      r.2.mem ((c.tc : Thread nD τ).loc main_v129)
        = Cert.Encoder.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 11).trans (Val.final m c (hlen c)),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩)
    (run_main m ρ)

end Cert.KernelIdeal.Hand

end
-- ==== Proof.RefRun.lean ====
/-
  The reference's run: its @main is one straight line of host operations (the module-local functions' operations
  listed at their calls), so every weakly fair execution terminates with each buffer at the operations' fold over the
  launch memory.
-/
import proofs.«400249_j88502096101408_2_alg».proof.Proof.Gen.ReferenceIdeal
import Idealize.ShloMosaic.Lib.StableHlo.Run

noncomputable section

namespace Cert.ReferenceIdeal.Hand

open Idealize.ShloMosaic Idealize.SL.Sem Idealize.ShloMosaic.StableHlo Cert.ReferenceIdeal.Gen

variable {F : FTy → Type} [FloatOps F]

set_option maxHeartbeats 4000000 in
/-- The reference's @main as a list of host operations, in order. -/
def ops : List (HloOp τ sig (Elt F)) :=
  [ StableHlo.unary main_arg4 main_v0 (negi : (⟨S1024, .i32⟩ : BufTy).Contents (Elt F) → (⟨S1024, .i32⟩ : BufTy).Contents (Elt F)),
    StableHlo.TRef.nullary main_call0.v0 (iotaInDim S1024 32 0),
    StableHlo.TRef.binary (.of main_v0 : StableHlo.TRef sig ⟨S1024, .i32⟩) main_call0.v0 main_call0.v1_0 (fun x y => (Host.sort2 S1024 0 comparator_i32_i32_d0 x y).1),
    StableHlo.TRef.binary (.of main_v0 : StableHlo.TRef sig ⟨S1024, .i32⟩) main_call0.v0 main_call0.v1_1 (fun x y => (Host.sort2 S1024 0 comparator_i32_i32_d0 x y).2),
    StableHlo.nullary main_v2 (iotaInDim S16 32 0),
    StableHlo.unary main_arg4 main_v3 (broadcastInDim S1x1024 ![1] bcast_S1024_S1x1024_1 : (⟨S1024, .i32⟩ : BufTy).Contents (Elt F) → (⟨S1x1024, .i32⟩ : BufTy).Contents (Elt F)),
    StableHlo.unary main_v2 main_v4 (broadcastInDim S16x1 ![0] bcast_S16_S16x1_0 : (⟨S16, .i32⟩ : BufTy).Contents (Elt F) → (⟨S16x1, .i32⟩ : BufTy).Contents (Elt F)),
    StableHlo.unary main_v3 main_v5 (broadcastInDim S16x1024 ![0, 1] bcast_S1x1024_S16x1024_0_1 : (⟨S1x1024, .i32⟩ : BufTy).Contents (Elt F) → (⟨S16x1024, .i32⟩ : BufTy).Contents (Elt F)),
    StableHlo.unary main_v4 main_v6 (broadcastInDim S16x1024 ![0, 1] bcast_S16x1_S16x1024_0_1 : (⟨S16x1, .i32⟩ : BufTy).Contents (Elt F) → (⟨S16x1024, .i32⟩ : BufTy).Contents (Elt F)),
    StableHlo.binary main_v5 main_v6 main_v7 (cmpi .sgt : (⟨S16x1024, .i32⟩ : BufTy).Contents (Elt F) → (⟨S16x1024, .i32⟩ : BufTy).Contents (Elt F) → (⟨S16x1024, .i1⟩ : BufTy).Contents (Elt F)),
    StableHlo.unary main_v7 main_v8 ((extui 32 · natLt_1_32) : (⟨S16x1024, .i1⟩ : BufTy).Contents (Elt F) → (⟨S16x1024, .i32⟩ : BufTy).Contents (Elt F)),
    StableHlo.nullary main_c (constantI S_ 32 0#32),
    StableHlo.binary main_v8 main_c main_v9 ((fun x v => Host.reduce IntOp.addi x v reducesTo_S16x1024_S16_d1 h_S_) : (⟨S16x1024, .i32⟩ : BufTy).Contents (Elt F) → (⟨S_, .i32⟩ : BufTy).Contents (Elt F) → (⟨S16, .i32⟩ : BufTy).Contents (Elt F)),
    StableHlo.nullary main_c_0 (constantI S_ 32 0#32),
    StableHlo.unary main_c_0 main_v10 (broadcastInDim S1 ![] bcast_S_S1 : (⟨S_, .i32⟩ : BufTy).Contents (Elt F) → (⟨S1, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v9 : StableHlo.TRef sig ⟨S16, .i32⟩) main_call1.call0.v0 main_call1.call0.v1 (fun x v => Host.reduceWindow IntOp.addi ![16] ![1] ![15] ![0] x v reduceWindows_S16_S16_w16s1p15_0 h_S_),
    StableHlo.unary main_v11 main_v12 ((extractStridedSlice S15 ![0] · slices_S16_S15_0) : (⟨S16, .i32⟩ : BufTy).Contents (Elt F) → (⟨S15, .i32⟩ : BufTy).Contents (Elt F)),
    StableHlo.binary main_v10 main_v12 main_v13 ((fun a b => concatenate S16 0 [⟨S1, a⟩, ⟨S15, b⟩] concatenates_S1_S15_S16_d0) : (⟨S1, .i32⟩ : BufTy).Contents (Elt F) → (⟨S15, .i32⟩ : BufTy).Contents (Elt F) → (⟨S16, .i32⟩ : BufTy).Contents (Elt F)),
    StableHlo.nullary main_v14 (iotaInDim S1024 32 0),
    StableHlo.unary main_v2 main_v15 (broadcastInDim S16x1024 ![0] bcast_S16_S16x1024_0 : (⟨S16, .i32⟩ : BufTy).Contents (Elt F) → (⟨S16x1024, .i32⟩ : BufTy).Contents (Elt F)),
    StableHlo.unary main_v14 main_v16 (broadcastInDim S16x1024 ![1] bcast_S1024_S16x1024_1 : (⟨S1024, .i32⟩ : BufTy).Contents (Elt F) → (⟨S16x1024, .i32⟩ : BufTy).Contents (Elt F)),
    StableHlo.unary main_v9 main_v17 (broadcastInDim S16x1 ![0] bcast_S16_S16x1_0 : (⟨S16, .i32⟩ : BufTy).Contents (Elt F) → (⟨S16x1, .i32⟩ : BufTy).Contents (Elt F)),
    StableHlo.unary main_v17 main_v18 (broadcastInDim S16x1024 ![0, 1] bcast_S16x1_S16x1024_0_1 : (⟨S16x1, .i32⟩ : BufTy).Contents (Elt F) → (⟨S16x1024, .i32⟩ : BufTy).Contents (Elt F)),
    StableHlo.binary main_v16 main_v18 main_v19 (cmpi .slt : (⟨S16x1024, .i32⟩ : BufTy).Contents (Elt F) → (⟨S16x1024, .i32⟩ : BufTy).Contents (Elt F) → (⟨S16x1024, .i1⟩ : BufTy).Contents (Elt F)),
    StableHlo.unary main_v13 main_v20 (broadcastInDim S16x1 ![0] bcast_S16_S16x1_0 : (⟨S16, .i32⟩ : BufTy).Contents (Elt F) → (⟨S16x1, .i32⟩ : BufTy).Contents (Elt F)),
    StableHlo.unary main_v20 main_v21 (broadcastInDim S16x1024 ![0, 1] bcast_S16x1_S16x1024_0_1 : (⟨S16x1, .i32⟩ : BufTy).Contents (Elt F) → (⟨S16x1024, .i32⟩ : BufTy).Contents (Elt F)),
    StableHlo.binary main_v21 main_v16 main_v22 (addi : (⟨S16x1024, .i32⟩ : BufTy).Contents (Elt F) → (⟨S16x1024, .i32⟩ : BufTy).Contents (Elt F) → (⟨S16x1024, .i32⟩ : BufTy).Contents (Elt F)),
    StableHlo.nullary main_c_1 (constantI S_ 32 16384#32),
    StableHlo.TRef.unary (.of main_c_1 : StableHlo.TRef sig ⟨S_, .i32⟩) main_call2.v0 id,
    StableHlo.TRef.unary main_call2.v0 main_call2.v1 (broadcastInDim S16x1024 ![] bcast_S_S16x1024),
    StableHlo.TRef.ternary (.of main_v19 : StableHlo.TRef sig ⟨S16x1024, .i1⟩) (.of main_v22 : StableHlo.TRef sig ⟨S16x1024, .i32⟩) main_call2.v1 main_call2.v2 select,
    StableHlo.reshape main_v23 main_v24 rfl shapeCasts_S16x1024_S16384,
    StableHlo.nullary main_c_2 (constantI S_ 32 0#32),
    StableHlo.unary main_c_2 main_v25 (broadcastInDim S16385 ![] bcast_S_S16385 : (⟨S_, .i32⟩ : BufTy).Contents (Elt F) → (⟨S16385, .i32⟩ : BufTy).Contents (Elt F)),
    StableHlo.nullary main_c_3 (constantI S_ 32 0#32),
    StableHlo.unary main_c_3 main_v26 (broadcastInDim S16x1024 ![] bcast_S_S16x1024 : (⟨S_, .i32⟩ : BufTy).Contents (Elt F) → (⟨S16x1024, .i32⟩ : BufTy).Contents (Elt F)),
    StableHlo.binary main_v16 main_v26 main_v27 (cmpi .slt : (⟨S16x1024, .i32⟩ : BufTy).Contents (Elt F) → (⟨S16x1024, .i32⟩ : BufTy).Contents (Elt F) → (⟨S16x1024, .i1⟩ : BufTy).Contents (Elt F)),
    StableHlo.nullary main_c_4 (constantI S_ 32 1024#32),
    StableHlo.unary main_c_4 main_v28 (broadcastInDim S16x1024 ![] bcast_S_S16x1024 : (⟨S_, .i32⟩ : BufTy).Contents (Elt F) → (⟨S16x1024, .i32⟩ : BufTy).Contents (Elt F)),
    StableHlo.binary main_v16 main_v28 main_v29 (addi : (⟨S16x1024, .i32⟩ : BufTy).Contents (Elt F) → (⟨S16x1024, .i32⟩ : BufTy).Contents (Elt F) → (⟨S16x1024, .i32⟩ : BufTy).Contents (Elt F)),
    StableHlo.ternary main_v27 main_v29 main_v16 main_v30 (select : (⟨S16x1024, .i1⟩ : BufTy).Contents (Elt F) → (⟨S16x1024, .i32⟩ : BufTy).Contents (Elt F) → (⟨S16x1024, .i32⟩ : BufTy).Contents (Elt F) → (⟨S16x1024, .i32⟩ : BufTy).Contents (Elt F)),
    StableHlo.unary main_v30 main_v31 (broadcastInDim S16x1024x1 ![0, 1] bcast_S16x1024_S16x1024x1_0_1 : (⟨S16x1024, .i32⟩ : BufTy).Contents (Elt F) → (⟨S16x1024x1, .i32⟩ : BufTy).Contents (Elt F)),
    StableHlo.binary main_v1 main_v31 main_v32 ((fun x i => Host.gather gather_S1024_S16x1024x1_S16x1024_n_0_n_n_0_2_1 x i) : (⟨S1024, .i32⟩ : BufTy).Contents (Elt F) → (⟨S16x1024x1, .i32⟩ : BufTy).Contents (Elt F) → (⟨S16x1024, .i32⟩ : BufTy).Contents (Elt F)),
    StableHlo.reshape main_v32 main_v33 rfl shapeCasts_S16x1024_S16384,
    StableHlo.nullary main_c_5 (constantI S_ 32 0#32),
    StableHlo.unary main_c_5 main_v34 (broadcastInDim S16384 ![] bcast_S_S16384 : (⟨S_, .i32⟩ : BufTy).Contents (Elt F) → (⟨S16384, .i32⟩ : BufTy).Contents (Elt F)),
    StableHlo.binary main_v24 main_v34 main_v35 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16385#32),
    StableHlo.unary main_c_6 main_v36 (broadcastInDim S16384 ![] bcast_S_S16384 : (⟨S_, .i32⟩ : BufTy).Contents (Elt F) → (⟨S16384, .i32⟩ : BufTy).Contents (Elt F)),
    StableHlo.binary main_v24 main_v36 main_v37 (addi : (⟨S16384, .i32⟩ : BufTy).Contents (Elt F) → (⟨S16384, .i32⟩ : BufTy).Contents (Elt F) → (⟨S16384, .i32⟩ : BufTy).Contents (Elt F)),
    StableHlo.ternary main_v35 main_v37 main_v24 main_v38 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v38 main_v39 (broadcastInDim S16384x1 ![0] bcast_S16384_S16384x1_0 : (⟨S16384, .i32⟩ : BufTy).Contents (Elt F) → (⟨S16384x1, .i32⟩ : BufTy).Contents (Elt F)),
    StableHlo.ternary main_v25 main_v39 main_v33 main_v40 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v40 main_v41 ((extractStridedSlice S16384 ![0] · slices_S16385_S16384_0) : (⟨S16385, .i32⟩ : BufTy).Contents (Elt F) → (⟨S16384, .i32⟩ : BufTy).Contents (Elt F)),
    StableHlo.nullary main_c_7 (constantI S_ 32 0#32),
    StableHlo.unary main_c_7 main_v42 (broadcastInDim S16385 ![] bcast_S_S16385 : (⟨S_, .i32⟩ : BufTy).Contents (Elt F) → (⟨S16385, .i32⟩ : BufTy).Contents (Elt F)),
    StableHlo.reshape main_v15 main_v43 rfl shapeCasts_S16x1024_S16384,
    StableHlo.nullary main_c_8 (constantI S_ 32 0#32),
    StableHlo.unary main_c_8 main_v44 (broadcastInDim S16384 ![] bcast_S_S16384 : (⟨S_, .i32⟩ : BufTy).Contents (Elt F) → (⟨S16384, .i32⟩ : BufTy).Contents (Elt F)),
    StableHlo.binary main_v24 main_v44 main_v45 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 16385#32),
    StableHlo.unary main_c_9 main_v46 (broadcastInDim S16384 ![] bcast_S_S16384 : (⟨S_, .i32⟩ : BufTy).Contents (Elt F) → (⟨S16384, .i32⟩ : BufTy).Contents (Elt F)),
    StableHlo.binary main_v24 main_v46 main_v47 (addi : (⟨S16384, .i32⟩ : BufTy).Contents (Elt F) → (⟨S16384, .i32⟩ : BufTy).Contents (Elt F) → (⟨S16384, .i32⟩ : BufTy).Contents (Elt F)),
    StableHlo.ternary main_v45 main_v47 main_v24 main_v48 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v48 main_v49 (broadcastInDim S16384x1 ![0] bcast_S16384_S16384x1_0 : (⟨S16384, .i32⟩ : BufTy).Contents (Elt F) → (⟨S16384x1, .i32⟩ : BufTy).Contents (Elt F)),
    StableHlo.ternary main_v42 main_v49 main_v43 main_v50 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v50 main_v51 ((extractStridedSlice S16384 ![0] · slices_S16385_S16384_0) : (⟨S16385, .i32⟩ : BufTy).Contents (Elt F) → (⟨S16384, .i32⟩ : BufTy).Contents (Elt F)),
    StableHlo.nullary main_c_10 (constantI S_ 32 0#32),
    StableHlo.unary main_c_10 main_v52 (broadcastInDim S1 ![] bcast_S_S1 : (⟨S_, .i32⟩ : BufTy).Contents (Elt F) → (⟨S1, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_arg4 : StableHlo.TRef sig ⟨S1024, .i32⟩) main_call3.call0.v0 main_call3.call0.v1 (fun x v => Host.reduceWindow IntOp.addi ![1024] ![1] ![1023] ![0] x v reduceWindows_S1024_S1024_w1024s1p1023_0 h_S_),
    StableHlo.unary main_v53 main_v54 ((extractStridedSlice S1023 ![0] · slices_S1024_S1023_0) : (⟨S1024, .i32⟩ : BufTy).Contents (Elt F) → (⟨S1023, .i32⟩ : BufTy).Contents (Elt F)),
    StableHlo.binary main_v52 main_v54 main_v55 ((fun a b => concatenate S1024 0 [⟨S1, a⟩, ⟨S1023, b⟩] concatenates_S1_S1023_S1024_d0) : (⟨S1, .i32⟩ : BufTy).Contents (Elt F) → (⟨S1023, .i32⟩ : BufTy).Contents (Elt F) → (⟨S1024, .i32⟩ : BufTy).Contents (Elt F)),
    StableHlo.nullary main_v56 (iotaInDim S1024 32 0),
    StableHlo.nullary main_v57 (iotaInDim S16 32 0),
    StableHlo.unary main_v56 main_v58 (broadcastInDim S1024x16 ![0] bcast_S1024_S1024x16_0 : (⟨S1024, .i32⟩ : BufTy).Contents (Elt F) → (⟨S1024x16, .i32⟩ : BufTy).Contents (Elt F)),
    StableHlo.unary main_v57 main_v59 (broadcastInDim S1024x16 ![1] bcast_S16_S1024x16_1 : (⟨S16, .i32⟩ : BufTy).Contents (Elt F) → (⟨S1024x16, .i32⟩ : BufTy).Contents (Elt F)),
    StableHlo.unary main_arg4 main_v60 (broadcastInDim S1024x1 ![0] bcast_S1024_S1024x1_0 : (⟨S1024, .i32⟩ : BufTy).Contents (Elt F) → (⟨S1024x1, .i32⟩ : BufTy).Contents (Elt F)),
    StableHlo.unary main_v60 main_v61 (broadcastInDim S1024x16 ![0, 1] bcast_S1024x1_S1024x16_0_1 : (⟨S1024x1, .i32⟩ : BufTy).Contents (Elt F) → (⟨S1024x16, .i32⟩ : BufTy).Contents (Elt F)),
    StableHlo.binary main_v59 main_v61 main_v62 (cmpi .slt : (⟨S1024x16, .i32⟩ : BufTy).Contents (Elt F) → (⟨S1024x16, .i32⟩ : BufTy).Contents (Elt F) → (⟨S1024x16, .i1⟩ : BufTy).Contents (Elt F)),
    StableHlo.unary main_v55 main_v63 (broadcastInDim S1024x1 ![0] bcast_S1024_S1024x1_0 : (⟨S1024, .i32⟩ : BufTy).Contents (Elt F) → (⟨S1024x1, .i32⟩ : BufTy).Contents (Elt F)),
    StableHlo.unary main_v63 main_v64 (broadcastInDim S1024x16 ![0, 1] bcast_S1024x1_S1024x16_0_1 : (⟨S1024x1, .i32⟩ : BufTy).Contents (Elt F) → (⟨S1024x16, .i32⟩ : BufTy).Contents (Elt F)),
    StableHlo.binary main_v64 main_v59 main_v65 (addi : (⟨S1024x16, .i32⟩ : BufTy).Contents (Elt F) → (⟨S1024x16, .i32⟩ : BufTy).Contents (Elt F) → (⟨S1024x16, .i32⟩ : BufTy).Contents (Elt F)),
    StableHlo.nullary main_c_11 (constantI S_ 32 16384#32),
    StableHlo.TRef.unary (.of main_c_11 : StableHlo.TRef sig ⟨S_, .i32⟩) main_call4.v0 id,
    StableHlo.TRef.unary main_call4.v0 main_call4.v1 (broadcastInDim S1024x16 ![] bcast_S_S1024x16),
    StableHlo.TRef.ternary (.of main_v62 : StableHlo.TRef sig ⟨S1024x16, .i1⟩) (.of main_v65 : StableHlo.TRef sig ⟨S1024x16, .i32⟩) main_call4.v1 main_call4.v2 select,
    StableHlo.reshape main_v66 main_v67 rfl shapeCasts_S1024x16_S16384,
    StableHlo.unary main_arg2 main_v68 (broadcastInDim S1024x1 ![0] bcast_S1024_S1024x1_0 : (⟨S1024, .i32⟩ : BufTy).Contents (Elt F) → (⟨S1024x1, .i32⟩ : BufTy).Contents (Elt F)),
    StableHlo.unary main_v68 main_v69 (broadcastInDim S1024x16 ![0, 1] bcast_S1024x1_S1024x16_0_1 : (⟨S1024x1, .i32⟩ : BufTy).Contents (Elt F) → (⟨S1024x16, .i32⟩ : BufTy).Contents (Elt F)),
    StableHlo.reshape main_v69 main_v70 rfl shapeCasts_S1024x16_S16384,
    StableHlo.nullary main_c_12 (constantI S_ 32 0#32),
    StableHlo.unary main_c_12 main_v71 (broadcastInDim S16385 ![] bcast_S_S16385 : (⟨S_, .i32⟩ : BufTy).Contents (Elt F) → (⟨S16385, .i32⟩ : BufTy).Contents (Elt F)),
    StableHlo.nullary main_c_13 (constantI S_ 32 0#32),
    StableHlo.unary main_c_13 main_v72 (broadcastInDim S16384 ![] bcast_S_S16384 : (⟨S_, .i32⟩ : BufTy).Contents (Elt F) → (⟨S16384, .i32⟩ : BufTy).Contents (Elt F)),
    StableHlo.binary main_v67 main_v72 main_v73 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 16385#32),
    StableHlo.unary main_c_14 main_v74 (broadcastInDim S16384 ![] bcast_S_S16384 : (⟨S_, .i32⟩ : BufTy).Contents (Elt F) → (⟨S16384, .i32⟩ : BufTy).Contents (Elt F)),
    StableHlo.binary main_v67 main_v74 main_v75 (addi : (⟨S16384, .i32⟩ : BufTy).Contents (Elt F) → (⟨S16384, .i32⟩ : BufTy).Contents (Elt F) → (⟨S16384, .i32⟩ : BufTy).Contents (Elt F)),
    StableHlo.ternary main_v73 main_v75 main_v67 main_v76 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v76 main_v77 (broadcastInDim S16384x1 ![0] bcast_S16384_S16384x1_0 : (⟨S16384, .i32⟩ : BufTy).Contents (Elt F) → (⟨S16384x1, .i32⟩ : BufTy).Contents (Elt F)),
    StableHlo.ternary main_v71 main_v77 main_v70 main_v78 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v78 main_v79 ((extractStridedSlice S16384 ![0] · slices_S16385_S16384_0) : (⟨S16385, .i32⟩ : BufTy).Contents (Elt F) → (⟨S16384, .i32⟩ : BufTy).Contents (Elt F)),
    StableHlo.nullary main_c_15 (constantI S_ 32 0#32),
    StableHlo.unary main_c_15 main_v80 (broadcastInDim S1 ![] bcast_S_S1 : (⟨S_, .i32⟩ : BufTy).Contents (Elt F) → (⟨S1, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_arg4 : StableHlo.TRef sig ⟨S1024, .i32⟩) main_call5.call0.v0 main_call5.call0.v1 (fun x v => Host.reduceWindow IntOp.addi ![1024] ![1] ![1023] ![0] x v reduceWindows_S1024_S1024_w1024s1p1023_0 h_S_),
    StableHlo.unary main_v81 main_v82 ((extractStridedSlice S1023 ![0] · slices_S1024_S1023_0) : (⟨S1024, .i32⟩ : BufTy).Contents (Elt F) → (⟨S1023, .i32⟩ : BufTy).Contents (Elt F)),
    StableHlo.binary main_v80 main_v82 main_v83 ((fun a b => concatenate S1024 0 [⟨S1, a⟩, ⟨S1023, b⟩] concatenates_S1_S1023_S1024_d0) : (⟨S1, .i32⟩ : BufTy).Contents (Elt F) → (⟨S1023, .i32⟩ : BufTy).Contents (Elt F) → (⟨S1024, .i32⟩ : BufTy).Contents (Elt F)),
    StableHlo.nullary main_v84 (iotaInDim S1024 32 0),
    StableHlo.nullary main_v85 (iotaInDim S16 32 0),
    StableHlo.unary main_v84 main_v86 (broadcastInDim S1024x16 ![0] bcast_S1024_S1024x16_0 : (⟨S1024, .i32⟩ : BufTy).Contents (Elt F) → (⟨S1024x16, .i32⟩ : BufTy).Contents (Elt F)),
    StableHlo.unary main_v85 main_v87 (broadcastInDim S1024x16 ![1] bcast_S16_S1024x16_1 : (⟨S16, .i32⟩ : BufTy).Contents (Elt F) → (⟨S1024x16, .i32⟩ : BufTy).Contents (Elt F)),
    StableHlo.unary main_arg4 main_v88 (broadcastInDim S1024x1 ![0] bcast_S1024_S1024x1_0 : (⟨S1024, .i32⟩ : BufTy).Contents (Elt F) → (⟨S1024x1, .i32⟩ : BufTy).Contents (Elt F)),
    StableHlo.unary main_v88 main_v89 (broadcastInDim S1024x16 ![0, 1] bcast_S1024x1_S1024x16_0_1 : (⟨S1024x1, .i32⟩ : BufTy).Contents (Elt F) → (⟨S1024x16, .i32⟩ : BufTy).Contents (Elt F)),
    StableHlo.binary main_v87 main_v89 main_v90 (cmpi .slt : (⟨S1024x16, .i32⟩ : BufTy).Contents (Elt F) → (⟨S1024x16, .i32⟩ : BufTy).Contents (Elt F) → (⟨S1024x16, .i1⟩ : BufTy).Contents (Elt F)),
    StableHlo.unary main_v83 main_v91 (broadcastInDim S1024x1 ![0] bcast_S1024_S1024x1_0 : (⟨S1024, .i32⟩ : BufTy).Contents (Elt F) → (⟨S1024x1, .i32⟩ : BufTy).Contents (Elt F)),
    StableHlo.unary main_v91 main_v92 (broadcastInDim S1024x16 ![0, 1] bcast_S1024x1_S1024x16_0_1 : (⟨S1024x1, .i32⟩ : BufTy).Contents (Elt F) → (⟨S1024x16, .i32⟩ : BufTy).Contents (Elt F)),
    StableHlo.binary main_v92 main_v87 main_v93 (addi : (⟨S1024x16, .i32⟩ : BufTy).Contents (Elt F) → (⟨S1024x16, .i32⟩ : BufTy).Contents (Elt F) → (⟨S1024x16, .i32⟩ : BufTy).Contents (Elt F)),
    StableHlo.nullary main_c_16 (constantI S_ 32 16384#32),
    StableHlo.TRef.unary (.of main_c_16 : StableHlo.TRef sig ⟨S_, .i32⟩) main_call6.v0 id,
    StableHlo.TRef.unary main_call6.v0 main_call6.v1 (broadcastInDim S1024x16 ![] bcast_S_S1024x16),
    StableHlo.TRef.ternary (.of main_v90 : StableHlo.TRef sig ⟨S1024x16, .i1⟩) (.of main_v93 : StableHlo.TRef sig ⟨S1024x16, .i32⟩) main_call6.v1 main_call6.v2 select,
    StableHlo.reshape main_v94 main_v95 rfl shapeCasts_S1024x16_S16384,
    StableHlo.unary main_arg3 main_v96 (broadcastInDim S1024x1 ![0] bcast_S1024_S1024x1_0 : (⟨S1024, .i32⟩ : BufTy).Contents (Elt F) → (⟨S1024x1, .i32⟩ : BufTy).Contents (Elt F)),
    StableHlo.unary main_v96 main_v97 (broadcastInDim S1024x16 ![0, 1] bcast_S1024x1_S1024x16_0_1 : (⟨S1024x1, .i32⟩ : BufTy).Contents (Elt F) → (⟨S1024x16, .i32⟩ : BufTy).Contents (Elt F)),
    StableHlo.reshape main_v97 main_v98 rfl shapeCasts_S1024x16_S16384,
    StableHlo.nullary main_c_17 (constantI S_ 32 0#32),
    StableHlo.unary main_c_17 main_v99 (broadcastInDim S16385 ![] bcast_S_S16385 : (⟨S_, .i32⟩ : BufTy).Contents (Elt F) → (⟨S16385, .i32⟩ : BufTy).Contents (Elt F)),
    StableHlo.nullary main_c_18 (constantI S_ 32 0#32),
    StableHlo.unary main_c_18 main_v100 (broadcastInDim S16384 ![] bcast_S_S16384 : (⟨S_, .i32⟩ : BufTy).Contents (Elt F) → (⟨S16384, .i32⟩ : BufTy).Contents (Elt F)),
    StableHlo.binary main_v95 main_v100 main_v101 (cmpi .slt : (⟨S16384, .i32⟩ : BufTy).Contents (Elt F) → (⟨S16384, .i32⟩ : BufTy).Contents (Elt F) → (⟨S16384, .i1⟩ : BufTy).Contents (Elt F)),
    StableHlo.nullary main_c_19 (constantI S_ 32 16385#32),
    StableHlo.unary main_c_19 main_v102 (broadcastInDim S16384 ![] bcast_S_S16384 : (⟨S_, .i32⟩ : BufTy).Contents (Elt F) → (⟨S16384, .i32⟩ : BufTy).Contents (Elt F)),
    StableHlo.binary main_v95 main_v102 main_v103 (addi : (⟨S16384, .i32⟩ : BufTy).Contents (Elt F) → (⟨S16384, .i32⟩ : BufTy).Contents (Elt F) → (⟨S16384, .i32⟩ : BufTy).Contents (Elt F)),
    StableHlo.ternary main_v101 main_v103 main_v95 main_v104 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v104 main_v105 (broadcastInDim S16384x1 ![0] bcast_S16384_S16384x1_0 : (⟨S16384, .i32⟩ : BufTy).Contents (Elt F) → (⟨S16384x1, .i32⟩ : BufTy).Contents (Elt F)),
    StableHlo.ternary main_v99 main_v105 main_v98 main_v106 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v106 main_v107 ((extractStridedSlice S16384 ![0] · slices_S16385_S16384_0) : (⟨S16385, .i32⟩ : BufTy).Contents (Elt F) → (⟨S16384, .i32⟩ : BufTy).Contents (Elt F)),
    StableHlo.nullary main_c_20 (constantI S_ 32 0#32),
    StableHlo.unary main_c_20 main_v108 (broadcastInDim S16384 ![] bcast_S_S16384 : (⟨S_, .i32⟩ : BufTy).Contents (Elt F) → (⟨S16384, .i32⟩ : BufTy).Contents (Elt F)),
    StableHlo.binary main_v41 main_v108 main_v109 (cmpi .slt : (⟨S16384, .i32⟩ : BufTy).Contents (Elt F) → (⟨S16384, .i32⟩ : BufTy).Contents (Elt F) → (⟨S16384, .i1⟩ : BufTy).Contents (Elt F)),
    StableHlo.nullary main_c_21 (constantI S_ 32 1024#32),
    StableHlo.unary main_c_21 main_v110 (broadcastInDim S16384 ![] bcast_S_S16384 : (⟨S_, .i32⟩ : BufTy).Contents (Elt F) → (⟨S16384, .i32⟩ : BufTy).Contents (Elt F)),
    StableHlo.binary main_v41 main_v110 main_v111 (addi : (⟨S16384, .i32⟩ : BufTy).Contents (Elt F) → (⟨S16384, .i32⟩ : BufTy).Contents (Elt F) → (⟨S16384, .i32⟩ : BufTy).Contents (Elt F)),
    StableHlo.ternary main_v109 main_v111 main_v41 main_v112 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_22 (constantI S_ 32 0#32),
    StableHlo.unary main_c_22 main_v113 (broadcastInDim S16384 ![] bcast_S_S16384 : (⟨S_, .i32⟩ : BufTy).Contents (Elt F) → (⟨S16384, .i32⟩ : BufTy).Contents (Elt F)),
    StableHlo.binary main_v51 main_v113 main_v114 (cmpi .slt : (⟨S16384, .i32⟩ : BufTy).Contents (Elt F) → (⟨S16384, .i32⟩ : BufTy).Contents (Elt F) → (⟨S16384, .i1⟩ : BufTy).Contents (Elt F)),
    StableHlo.nullary main_c_23 (constantI S_ 32 16#32),
    StableHlo.unary main_c_23 main_v115 (broadcastInDim S16384 ![] bcast_S_S16384 : (⟨S_, .i32⟩ : BufTy).Contents (Elt F) → (⟨S16384, .i32⟩ : BufTy).Contents (Elt F)),
    StableHlo.binary main_v51 main_v115 main_v116 (addi : (⟨S16384, .i32⟩ : BufTy).Contents (Elt F) → (⟨S16384, .i32⟩ : BufTy).Contents (Elt F) → (⟨S16384, .i32⟩ : BufTy).Contents (Elt F)),
    StableHlo.ternary main_v114 main_v116 main_v51 main_v117 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v112 main_v118 (broadcastInDim S16384x1 ![0] bcast_S16384_S16384x1_0 : (⟨S16384, .i32⟩ : BufTy).Contents (Elt F) → (⟨S16384x1, .i32⟩ : BufTy).Contents (Elt F)),
    StableHlo.unary main_v117 main_v119 (broadcastInDim S16384x1 ![0] bcast_S16384_S16384x1_0 : (⟨S16384, .i32⟩ : BufTy).Contents (Elt F) → (⟨S16384x1, .i32⟩ : BufTy).Contents (Elt F)),
    StableHlo.binary main_v118 main_v119 main_v120 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_arg0 main_v120 main_v121 ((fun x i => Host.gather gather_S1024x16x1024_S16384x2_S16384x1024_1_01_n_n_01_1_111024 x i) : (⟨S1024x16x1024, .f32⟩ : BufTy).Contents (Elt F) → (⟨S16384x2, .i32⟩ : BufTy).Contents (Elt F) → (⟨S16384x1024, .f32⟩ : BufTy).Contents (Elt F)),
    StableHlo.nullary main_v122 (iotaInDim S1024 32 0),
    StableHlo.unary main_v122 main_v123 (broadcastInDim S1x1024 ![1] bcast_S1024_S1x1024_1 : (⟨S1024, .i32⟩ : BufTy).Contents (Elt F) → (⟨S1x1024, .i32⟩ : BufTy).Contents (Elt F)),
    StableHlo.unary main_v79 main_v124 (broadcastInDim S16384x1 ![0] bcast_S16384_S16384x1_0 : (⟨S16384, .i32⟩ : BufTy).Contents (Elt F) → (⟨S16384x1, .i32⟩ : BufTy).Contents (Elt F)),
    StableHlo.unary main_v123 main_v125 (broadcastInDim S16384x1024 ![0, 1] bcast_S1x1024_S16384x1024_0_1 : (⟨S1x1024, .i32⟩ : BufTy).Contents (Elt F) → (⟨S16384x1024, .i32⟩ : BufTy).Contents (Elt F)),
    StableHlo.unary main_v124 main_v126 (broadcastInDim S16384x1024 ![0, 1] bcast_S16384x1_S16384x1024_0_1 : (⟨S16384x1, .i32⟩ : BufTy).Contents (Elt F) → (⟨S16384x1024, .i32⟩ : BufTy).Contents (Elt F)),
    StableHlo.binary main_v125 main_v126 main_v127 (cmpi .slt : (⟨S16384x1024, .i32⟩ : BufTy).Contents (Elt F) → (⟨S16384x1024, .i32⟩ : BufTy).Contents (Elt F) → (⟨S16384x1024, .i1⟩ : BufTy).Contents (Elt F)),
    StableHlo.nullary main_cst (constant S_ .f32 0x00000000#32),
    StableHlo.TRef.unary (.of main_cst : StableHlo.TRef sig ⟨S_, .f32⟩) main_call7.v0 id,
    StableHlo.TRef.unary main_call7.v0 main_call7.v1 (broadcastInDim S16384x1024 ![] bcast_S_S16384x1024),
    StableHlo.TRef.ternary (.of main_v127 : StableHlo.TRef sig ⟨S16384x1024, .i1⟩) (.of main_v121 : StableHlo.TRef sig ⟨S16384x1024, .f32⟩) main_call7.v1 main_call7.v2 select,
    StableHlo.nullary main_cst_24 (constant S_ .f32 0x00000000#32),
    StableHlo.binary main_v128 main_cst_24 main_v129 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.unary main_v79 main_v130 (sitofp .f32 : (⟨S16384, .i32⟩ : BufTy).Contents (Elt F) → (⟨S16384, .f32⟩ : BufTy).Contents (Elt F)),
    StableHlo.unary main_v129 main_v131 (broadcastInDim S16384x1 ![0] bcast_S16384_S16384x1_0 : (⟨S16384, .f32⟩ : BufTy).Contents (Elt F) → (⟨S16384x1, .f32⟩ : BufTy).Contents (Elt F)),
    StableHlo.unary main_arg5 main_v132 (broadcastInDim S1x1024 ![1] bcast_S1024_S1x1024_1 : (⟨S1024, .f32⟩ : BufTy).Contents (Elt F) → (⟨S1x1024, .f32⟩ : BufTy).Contents (Elt F)),
    StableHlo.unary main_v131 main_v133 (broadcastInDim S16384x1024 ![0, 1] bcast_S16384x1_S16384x1024_0_1 : (⟨S16384x1, .f32⟩ : BufTy).Contents (Elt F) → (⟨S16384x1024, .f32⟩ : BufTy).Contents (Elt F)),
    StableHlo.unary main_v132 main_v134 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v133 main_v134 main_v135 (mulf : (⟨S16384x1024, .f32⟩ : BufTy).Contents (Elt F) → (⟨S16384x1024, .f32⟩ : BufTy).Contents (Elt F) → (⟨S16384x1024, .f32⟩ : BufTy).Contents (Elt F)),
    StableHlo.unary main_v130 main_v136 (broadcastInDim S16384x1 ![0] bcast_S16384_S16384x1_0 : (⟨S16384, .f32⟩ : BufTy).Contents (Elt F) → (⟨S16384x1, .f32⟩ : BufTy).Contents (Elt F)),
    StableHlo.unary main_arg6 main_v137 (broadcastInDim S1x1024 ![1] bcast_S1024_S1x1024_1 : (⟨S1024, .f32⟩ : BufTy).Contents (Elt F) → (⟨S1x1024, .f32⟩ : BufTy).Contents (Elt F)),
    StableHlo.unary main_v136 main_v138 (broadcastInDim S16384x1024 ![0, 1] bcast_S16384x1_S16384x1024_0_1 : (⟨S16384x1, .f32⟩ : BufTy).Contents (Elt F) → (⟨S16384x1024, .f32⟩ : BufTy).Contents (Elt F)),
    StableHlo.unary main_v137 main_v139 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v138 main_v139 main_v140 (mulf : (⟨S16384x1024, .f32⟩ : BufTy).Contents (Elt F) → (⟨S16384x1024, .f32⟩ : BufTy).Contents (Elt F) → (⟨S16384x1024, .f32⟩ : BufTy).Contents (Elt F)),
    StableHlo.binary main_v135 main_v140 main_v141 (addf : (⟨S16384x1024, .f32⟩ : BufTy).Contents (Elt F) → (⟨S16384x1024, .f32⟩ : BufTy).Contents (Elt F) → (⟨S16384x1024, .f32⟩ : BufTy).Contents (Elt F)),
    StableHlo.unary main_v141 main_v142 (Host.negf : (⟨S16384x1024, .f32⟩ : BufTy).Contents (Elt F) → (⟨S16384x1024, .f32⟩ : BufTy).Contents (Elt F)),
    StableHlo.unary main_v142 main_v143 (Host.exp : (⟨S16384x1024, .f32⟩ : BufTy).Contents (Elt F) → (⟨S16384x1024, .f32⟩ : BufTy).Contents (Elt F)),
    StableHlo.nullary main_cst_25 (constant S_ .f32 0x3F800000#32),
    StableHlo.unary main_cst_25 main_v144 (broadcastInDim S16384x1024 ![] bcast_S_S16384x1024 : (⟨S_, .f32⟩ : BufTy).Contents (Elt F) → (⟨S16384x1024, .f32⟩ : BufTy).Contents (Elt F)),
    StableHlo.binary main_v144 main_v143 main_v145 (addf : (⟨S16384x1024, .f32⟩ : BufTy).Contents (Elt F) → (⟨S16384x1024, .f32⟩ : BufTy).Contents (Elt F) → (⟨S16384x1024, .f32⟩ : BufTy).Contents (Elt F)),
    StableHlo.nullary main_cst_26 (constant S_ .f32 0x3F800000#32),
    StableHlo.unary main_cst_26 main_v146 (broadcastInDim S16384x1024 ![] bcast_S_S16384x1024 : (⟨S_, .f32⟩ : BufTy).Contents (Elt F) → (⟨S16384x1024, .f32⟩ : BufTy).Contents (Elt F)),
    StableHlo.binary main_v146 main_v145 main_v147 (Host.divf : (⟨S16384x1024, .f32⟩ : BufTy).Contents (Elt F) → (⟨S16384x1024, .f32⟩ : BufTy).Contents (Elt F) → (⟨S16384x1024, .f32⟩ : BufTy).Contents (Elt F)),
    StableHlo.nullary main_c_27 (constantI S_ 32 0#32),
    StableHlo.unary main_c_27 main_v148 (broadcastInDim S16384 ![] bcast_S_S16384 : (⟨S_, .i32⟩ : BufTy).Contents (Elt F) → (⟨S16384, .i32⟩ : BufTy).Contents (Elt F)),
    StableHlo.binary main_v41 main_v148 main_v149 (cmpi .slt : (⟨S16384, .i32⟩ : BufTy).Contents (Elt F) → (⟨S16384, .i32⟩ : BufTy).Contents (Elt F) → (⟨S16384, .i1⟩ : BufTy).Contents (Elt F)),
    StableHlo.nullary main_c_28 (constantI S_ 32 1024#32),
    StableHlo.unary main_c_28 main_v150 (broadcastInDim S16384 ![] bcast_S_S16384 : (⟨S_, .i32⟩ : BufTy).Contents (Elt F) → (⟨S16384, .i32⟩ : BufTy).Contents (Elt F)),
    StableHlo.binary main_v41 main_v150 main_v151 (addi : (⟨S16384, .i32⟩ : BufTy).Contents (Elt F) → (⟨S16384, .i32⟩ : BufTy).Contents (Elt F) → (⟨S16384, .i32⟩ : BufTy).Contents (Elt F)),
    StableHlo.ternary main_v149 main_v151 main_v41 main_v152 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_29 (constantI S_ 32 0#32),
    StableHlo.unary main_c_29 main_v153 (broadcastInDim S16384 ![] bcast_S_S16384 : (⟨S_, .i32⟩ : BufTy).Contents (Elt F) → (⟨S16384, .i32⟩ : BufTy).Contents (Elt F)),
    StableHlo.binary main_v51 main_v153 main_v154 (cmpi .slt : (⟨S16384, .i32⟩ : BufTy).Contents (Elt F) → (⟨S16384, .i32⟩ : BufTy).Contents (Elt F) → (⟨S16384, .i1⟩ : BufTy).Contents (Elt F)),
    StableHlo.nullary main_c_30 (constantI S_ 32 16#32),
    StableHlo.unary main_c_30 main_v155 (broadcastInDim S16384 ![] bcast_S_S16384 : (⟨S_, .i32⟩ : BufTy).Contents (Elt F) → (⟨S16384, .i32⟩ : BufTy).Contents (Elt F)),
    StableHlo.binary main_v51 main_v155 main_v156 (addi : (⟨S16384, .i32⟩ : BufTy).Contents (Elt F) → (⟨S16384, .i32⟩ : BufTy).Contents (Elt F) → (⟨S16384, .i32⟩ : BufTy).Contents (Elt F)),
    StableHlo.ternary main_v154 main_v156 main_v51 main_v157 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v152 main_v158 (broadcastInDim S16384x1 ![0] bcast_S16384_S16384x1_0 : (⟨S16384, .i32⟩ : BufTy).Contents (Elt F) → (⟨S16384x1, .i32⟩ : BufTy).Contents (Elt F)),
    StableHlo.unary main_v157 main_v159 (broadcastInDim S16384x1 ![0] bcast_S16384_S16384x1_0 : (⟨S16384, .i32⟩ : BufTy).Contents (Elt F) → (⟨S16384x1, .i32⟩ : BufTy).Contents (Elt F)),
    StableHlo.binary main_v158 main_v159 main_v160 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_arg1 main_v160 main_v161 ((fun x i => Host.gather gather_S1024x16x32_S16384x2_S16384x32_1_01_n_n_01_1_1132 x i) : (⟨S1024x16x32, .f32⟩ : BufTy).Contents (Elt F) → (⟨S16384x2, .i32⟩ : BufTy).Contents (Elt F) → (⟨S16384x32, .f32⟩ : BufTy).Contents (Elt F)),
    StableHlo.nullary main_v162 (iotaInDim S32 32 0),
    StableHlo.unary main_v162 main_v163 (broadcastInDim S1x32 ![1] bcast_S32_S1x32_1 : (⟨S32, .i32⟩ : BufTy).Contents (Elt F) → (⟨S1x32, .i32⟩ : BufTy).Contents (Elt F)),
    StableHlo.unary main_v107 main_v164 (broadcastInDim S16384x1 ![0] bcast_S16384_S16384x1_0 : (⟨S16384, .i32⟩ : BufTy).Contents (Elt F) → (⟨S16384x1, .i32⟩ : BufTy).Contents (Elt F)),
    StableHlo.unary main_v163 main_v165 (broadcastInDim S16384x32 ![0, 1] bcast_S1x32_S16384x32_0_1 : (⟨S1x32, .i32⟩ : BufTy).Contents (Elt F) → (⟨S16384x32, .i32⟩ : BufTy).Contents (Elt F)),
    StableHlo.unary main_v164 main_v166 (broadcastInDim S16384x32 ![0, 1] bcast_S16384x1_S16384x32_0_1 : (⟨S16384x1, .i32⟩ : BufTy).Contents (Elt F) → (⟨S16384x32, .i32⟩ : BufTy).Contents (Elt F)),
    StableHlo.binary main_v165 main_v166 main_v167 (cmpi .slt : (⟨S16384x32, .i32⟩ : BufTy).Contents (Elt F) → (⟨S16384x32, .i32⟩ : BufTy).Contents (Elt F) → (⟨S16384x32, .i1⟩ : BufTy).Contents (Elt F)),
    StableHlo.nullary main_cst_31 (constant S_ .f32 0x00000000#32),
    StableHlo.TRef.unary (.of main_cst_31 : StableHlo.TRef sig ⟨S_, .f32⟩) main_call8.v0 id,
    StableHlo.TRef.unary main_call8.v0 main_call8.v1 (broadcastInDim S16384x32 ![] bcast_S_S16384x32),
    StableHlo.TRef.ternary (.of main_v167 : StableHlo.TRef sig ⟨S16384x32, .i1⟩) (.of main_v161 : StableHlo.TRef sig ⟨S16384x32, .f32⟩) main_call8.v1 main_call8.v2 select,
    StableHlo.nullary main_cst_32 (constant S_ .f32 0x00000000#32),
    StableHlo.binary main_v168 main_cst_32 main_v169 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    StableHlo.unary main_v107 main_v170 (sitofp .f32 : (⟨S16384, .i32⟩ : BufTy).Contents (Elt F) → (⟨S16384, .f32⟩ : BufTy).Contents (Elt F)),
    StableHlo.unary main_v169 main_v171 (broadcastInDim S16384x1 ![0] bcast_S16384_S16384x1_0 : (⟨S16384, .f32⟩ : BufTy).Contents (Elt F) → (⟨S16384x1, .f32⟩ : BufTy).Contents (Elt F)),
    StableHlo.unary main_arg7 main_v172 (broadcastInDim S1x32 ![1] bcast_S32_S1x32_1 : (⟨S32, .f32⟩ : BufTy).Contents (Elt F) → (⟨S1x32, .f32⟩ : BufTy).Contents (Elt F)),
    StableHlo.unary main_v171 main_v173 (broadcastInDim S16384x32 ![0, 1] bcast_S16384x1_S16384x32_0_1 : (⟨S16384x1, .f32⟩ : BufTy).Contents (Elt F) → (⟨S16384x32, .f32⟩ : BufTy).Contents (Elt F)),
    StableHlo.unary main_v172 main_v174 (broadcastInDim S16384x32 ![0, 1] bcast_S1x32_S16384x32_0_1 : (⟨S1x32, .f32⟩ : BufTy).Contents (Elt F) → (⟨S16384x32, .f32⟩ : BufTy).Contents (Elt F)),
    StableHlo.binary main_v173 main_v174 main_v175 (mulf : (⟨S16384x32, .f32⟩ : BufTy).Contents (Elt F) → (⟨S16384x32, .f32⟩ : BufTy).Contents (Elt F) → (⟨S16384x32, .f32⟩ : BufTy).Contents (Elt F)),
    StableHlo.unary main_v170 main_v176 (broadcastInDim S16384x1 ![0] bcast_S16384_S16384x1_0 : (⟨S16384, .f32⟩ : BufTy).Contents (Elt F) → (⟨S16384x1, .f32⟩ : BufTy).Contents (Elt F)),
    StableHlo.unary main_arg8 main_v177 (broadcastInDim S1x32 ![1] bcast_S32_S1x32_1 : (⟨S32, .f32⟩ : BufTy).Contents (Elt F) → (⟨S1x32, .f32⟩ : BufTy).Contents (Elt F)),
    StableHlo.unary main_v176 main_v178 (broadcastInDim S16384x32 ![0, 1] bcast_S16384x1_S16384x32_0_1 : (⟨S16384x1, .f32⟩ : BufTy).Contents (Elt F) → (⟨S16384x32, .f32⟩ : BufTy).Contents (Elt F)),
    StableHlo.unary main_v177 main_v179 (broadcastInDim S16384x32 ![0, 1] bcast_S1x32_S16384x32_0_1 : (⟨S1x32, .f32⟩ : BufTy).Contents (Elt F) → (⟨S16384x32, .f32⟩ : BufTy).Contents (Elt F)),
    StableHlo.binary main_v178 main_v179 main_v180 (mulf : (⟨S16384x32, .f32⟩ : BufTy).Contents (Elt F) → (⟨S16384x32, .f32⟩ : BufTy).Contents (Elt F) → (⟨S16384x32, .f32⟩ : BufTy).Contents (Elt F)),
    StableHlo.binary main_v175 main_v180 main_v181 (addf : (⟨S16384x32, .f32⟩ : BufTy).Contents (Elt F) → (⟨S16384x32, .f32⟩ : BufTy).Contents (Elt F) → (⟨S16384x32, .f32⟩ : BufTy).Contents (Elt F)),
    StableHlo.unary main_v181 main_v182 (Host.negf : (⟨S16384x32, .f32⟩ : BufTy).Contents (Elt F) → (⟨S16384x32, .f32⟩ : BufTy).Contents (Elt F)),
    StableHlo.unary main_v182 main_v183 (Host.exp : (⟨S16384x32, .f32⟩ : BufTy).Contents (Elt F) → (⟨S16384x32, .f32⟩ : BufTy).Contents (Elt F)),
    StableHlo.nullary main_cst_33 (constant S_ .f32 0x3F800000#32),
    StableHlo.unary main_cst_33 main_v184 (broadcastInDim S16384x32 ![] bcast_S_S16384x32 : (⟨S_, .f32⟩ : BufTy).Contents (Elt F) → (⟨S16384x32, .f32⟩ : BufTy).Contents (Elt F)),
    StableHlo.binary main_v184 main_v183 main_v185 (addf : (⟨S16384x32, .f32⟩ : BufTy).Contents (Elt F) → (⟨S16384x32, .f32⟩ : BufTy).Contents (Elt F) → (⟨S16384x32, .f32⟩ : BufTy).Contents (Elt F)),
    StableHlo.nullary main_cst_34 (constant S_ .f32 0x3F800000#32),
    StableHlo.unary main_cst_34 main_v186 (broadcastInDim S16384x32 ![] bcast_S_S16384x32 : (⟨S_, .f32⟩ : BufTy).Contents (Elt F) → (⟨S16384x32, .f32⟩ : BufTy).Contents (Elt F)),
    StableHlo.binary main_v186 main_v185 main_v187 (Host.divf : (⟨S16384x32, .f32⟩ : BufTy).Contents (Elt F) → (⟨S16384x32, .f32⟩ : BufTy).Contents (Elt F) → (⟨S16384x32, .f32⟩ : BufTy).Contents (Elt F)),
    StableHlo.binary main_v147 main_v187 main_v188 ((fun a b => concatenate S16384x1056 1 [⟨S16384x1024, a⟩, ⟨S16384x32, b⟩] concatenates_S16384x1024_S16384x32_S16384x1056_d1) : (⟨S16384x1024, .f32⟩ : BufTy).Contents (Elt F) → (⟨S16384x32, .f32⟩ : BufTy).Contents (Elt F) → (⟨S16384x1056, .f32⟩ : BufTy).Contents (Elt F)),
    StableHlo.unary main_arg9 main_v189 ((transpose S1056x2048 [1, 0] · transposes_S2048x1056_S1056x2048_1_0) : (⟨S2048x1056, .f32⟩ : BufTy).Contents (Elt F) → (⟨S1056x2048, .f32⟩ : BufTy).Contents (Elt F)),
    StableHlo.binary main_v188 main_v189 main_v190 ((fun l r => Host.dotGeneral dot_S16384x1056_S1056x2048_S16384x2048_1_0_0_1_n_n none l r) : (⟨S16384x1056, .f32⟩ : BufTy).Contents (Elt F) → (⟨S1056x2048, .f32⟩ : BufTy).Contents (Elt F) → (⟨S16384x2048, .f32⟩ : BufTy).Contents (Elt F)),
    StableHlo.unary main_arg10 main_v191 (broadcastInDim S1x2048 ![1] bcast_S2048_S1x2048_1 : (⟨S2048, .f32⟩ : BufTy).Contents (Elt F) → (⟨S1x2048, .f32⟩ : BufTy).Contents (Elt F)),
    StableHlo.unary main_v191 main_v192 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v190 main_v192 main_v193 (addf : (⟨S16384x2048, .f32⟩ : BufTy).Contents (Elt F) → (⟨S16384x2048, .f32⟩ : BufTy).Contents (Elt F) → (⟨S16384x2048, .f32⟩ : BufTy).Contents (Elt F)),
    StableHlo.TRef.nullary main_call9.cst (constant S_ .f32 0x00000000#32),
    StableHlo.TRef.unary main_call9.cst main_call9.v0 (broadcastInDim S16384x2048 ![] bcast_S_S16384x2048),
    StableHlo.TRef.binary (.of main_v193 : StableHlo.TRef sig ⟨S16384x2048, .f32⟩) main_call9.v0 main_call9.v1 maximumf,
    StableHlo.nullary main_c_35 (constantI S_ 32 0#32),
    StableHlo.binary main_arg4 main_c_35 main_v195 ((fun x v => Host.reduce IntOp.addi x v reducesTo_S1024_S_d0 h_S_) : (⟨S1024, .i32⟩ : BufTy).Contents (Elt F) → (⟨S_, .i32⟩ : BufTy).Contents (Elt F) → (⟨S_, .i32⟩ : BufTy).Contents (Elt F)),
    StableHlo.nullary main_v196 (iotaInDim S16384 32 0),
    StableHlo.unary main_v195 main_v197 (broadcastInDim S16384 ![] bcast_S_S16384 : (⟨S_, .i32⟩ : BufTy).Contents (Elt F) → (⟨S16384, .i32⟩ : BufTy).Contents (Elt F)),
    StableHlo.binary main_v196 main_v197 main_v198 (cmpi .slt : (⟨S16384, .i32⟩ : BufTy).Contents (Elt F) → (⟨S16384, .i32⟩ : BufTy).Contents (Elt F) → (⟨S16384, .i1⟩ : BufTy).Contents (Elt F)),
    StableHlo.unary main_v198 main_v199 (broadcastInDim S16384x1 ![0] bcast_S16384_S16384x1_0 : (⟨S16384, .i1⟩ : BufTy).Contents (Elt F) → (⟨S16384x1, .i1⟩ : BufTy).Contents (Elt F)),
    StableHlo.nullary main_cst_36 (constant S_ .f32 0x00000000#32),
    StableHlo.TRef.unary (.of main_cst_36 : StableHlo.TRef sig ⟨S_, .f32⟩) main_call10.v0 id,
    StableHlo.TRef.unary (.of main_v199 : StableHlo.TRef sig ⟨S16384x1, .i1⟩) main_call10.v1 (broadcastInDim S16384x2048 ![0, 1] bcast_S16384x1_S16384x2048_0_1),
    StableHlo.TRef.unary main_call10.v0 main_call10.v2 (broadcastInDim S16384x2048 ![] bcast_S_S16384x2048),
    StableHlo.TRef.ternary main_call10.v1 (.of main_v194 : StableHlo.TRef sig ⟨S16384x2048, .f32⟩) main_call10.v2 main_call10.v3 select ]

/-! ## The same line, window by window

@main is printed as consecutive windows `main_part0 … main_part3` (and a last one that only returns); `opsK` is window
`K`'s stretch of the list above, a callee's operations at its call. Each fact about the whole line — it is the program, it
touches TensorCore buffers only, it leaves no buffer undetermined — is proved on the stretches and joined over the
append. -/

set_option maxHeartbeats 4000000 in
/-- The operations of `main_part0`, in order (66 of them). -/
def ops0 : List (HloOp τ sig (Elt F)) :=
  [ StableHlo.unary main_arg4 main_v0 (negi : (⟨S1024, .i32⟩ : BufTy).Contents (Elt F) → (⟨S1024, .i32⟩ : BufTy).Contents (Elt F)),
    StableHlo.TRef.nullary main_call0.v0 (iotaInDim S1024 32 0),
    StableHlo.TRef.binary (.of main_v0 : StableHlo.TRef sig ⟨S1024, .i32⟩) main_call0.v0 main_call0.v1_0 (fun x y => (Host.sort2 S1024 0 comparator_i32_i32_d0 x y).1),
    StableHlo.TRef.binary (.of main_v0 : StableHlo.TRef sig ⟨S1024, .i32⟩) main_call0.v0 main_call0.v1_1 (fun x y => (Host.sort2 S1024 0 comparator_i32_i32_d0 x y).2),
    StableHlo.nullary main_v2 (iotaInDim S16 32 0),
    StableHlo.unary main_arg4 main_v3 (broadcastInDim S1x1024 ![1] bcast_S1024_S1x1024_1 : (⟨S1024, .i32⟩ : BufTy).Contents (Elt F) → (⟨S1x1024, .i32⟩ : BufTy).Contents (Elt F)),
    StableHlo.unary main_v2 main_v4 (broadcastInDim S16x1 ![0] bcast_S16_S16x1_0 : (⟨S16, .i32⟩ : BufTy).Contents (Elt F) → (⟨S16x1, .i32⟩ : BufTy).Contents (Elt F)),
    StableHlo.unary main_v3 main_v5 (broadcastInDim S16x1024 ![0, 1] bcast_S1x1024_S16x1024_0_1 : (⟨S1x1024, .i32⟩ : BufTy).Contents (Elt F) → (⟨S16x1024, .i32⟩ : BufTy).Contents (Elt F)),
    StableHlo.unary main_v4 main_v6 (broadcastInDim S16x1024 ![0, 1] bcast_S16x1_S16x1024_0_1 : (⟨S16x1, .i32⟩ : BufTy).Contents (Elt F) → (⟨S16x1024, .i32⟩ : BufTy).Contents (Elt F)),
    StableHlo.binary main_v5 main_v6 main_v7 (cmpi .sgt : (⟨S16x1024, .i32⟩ : BufTy).Contents (Elt F) → (⟨S16x1024, .i32⟩ : BufTy).Contents (Elt F) → (⟨S16x1024, .i1⟩ : BufTy).Contents (Elt F)),
    StableHlo.unary main_v7 main_v8 ((extui 32 · natLt_1_32) : (⟨S16x1024, .i1⟩ : BufTy).Contents (Elt F) → (⟨S16x1024, .i32⟩ : BufTy).Contents (Elt F)),
    StableHlo.nullary main_c (constantI S_ 32 0#32),
    StableHlo.binary main_v8 main_c main_v9 ((fun x v => Host.reduce IntOp.addi x v reducesTo_S16x1024_S16_d1 h_S_) : (⟨S16x1024, .i32⟩ : BufTy).Contents (Elt F) → (⟨S_, .i32⟩ : BufTy).Contents (Elt F) → (⟨S16, .i32⟩ : BufTy).Contents (Elt F)),
    StableHlo.nullary main_c_0 (constantI S_ 32 0#32),
    StableHlo.unary main_c_0 main_v10 (broadcastInDim S1 ![] bcast_S_S1 : (⟨S_, .i32⟩ : BufTy).Contents (Elt F) → (⟨S1, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v9 : StableHlo.TRef sig ⟨S16, .i32⟩) main_call1.call0.v0 main_call1.call0.v1 (fun x v => Host.reduceWindow IntOp.addi ![16] ![1] ![15] ![0] x v reduceWindows_S16_S16_w16s1p15_0 h_S_),
    StableHlo.unary main_v11 main_v12 ((extractStridedSlice S15 ![0] · slices_S16_S15_0) : (⟨S16, .i32⟩ : BufTy).Contents (Elt F) → (⟨S15, .i32⟩ : BufTy).Contents (Elt F)),
    StableHlo.binary main_v10 main_v12 main_v13 ((fun a b => concatenate S16 0 [⟨S1, a⟩, ⟨S15, b⟩] concatenates_S1_S15_S16_d0) : (⟨S1, .i32⟩ : BufTy).Contents (Elt F) → (⟨S15, .i32⟩ : BufTy).Contents (Elt F) → (⟨S16, .i32⟩ : BufTy).Contents (Elt F)),
    StableHlo.nullary main_v14 (iotaInDim S1024 32 0),
    StableHlo.unary main_v2 main_v15 (broadcastInDim S16x1024 ![0] bcast_S16_S16x1024_0 : (⟨S16, .i32⟩ : BufTy).Contents (Elt F) → (⟨S16x1024, .i32⟩ : BufTy).Contents (Elt F)),
    StableHlo.unary main_v14 main_v16 (broadcastInDim S16x1024 ![1] bcast_S1024_S16x1024_1 : (⟨S1024, .i32⟩ : BufTy).Contents (Elt F) → (⟨S16x1024, .i32⟩ : BufTy).Contents (Elt F)),
    StableHlo.unary main_v9 main_v17 (broadcastInDim S16x1 ![0] bcast_S16_S16x1_0 : (⟨S16, .i32⟩ : BufTy).Contents (Elt F) → (⟨S16x1, .i32⟩ : BufTy).Contents (Elt F)),
    StableHlo.unary main_v17 main_v18 (broadcastInDim S16x1024 ![0, 1] bcast_S16x1_S16x1024_0_1 : (⟨S16x1, .i32⟩ : BufTy).Contents (Elt F) → (⟨S16x1024, .i32⟩ : BufTy).Contents (Elt F)),
    StableHlo.binary main_v16 main_v18 main_v19 (cmpi .slt : (⟨S16x1024, .i32⟩ : BufTy).Contents (Elt F) → (⟨S16x1024, .i32⟩ : BufTy).Contents (Elt F) → (⟨S16x1024, .i1⟩ : BufTy).Contents (Elt F)),
    StableHlo.unary main_v13 main_v20 (broadcastInDim S16x1 ![0] bcast_S16_S16x1_0 : (⟨S16, .i32⟩ : BufTy).Contents (Elt F) → (⟨S16x1, .i32⟩ : BufTy).Contents (Elt F)),
    StableHlo.unary main_v20 main_v21 (broadcastInDim S16x1024 ![0, 1] bcast_S16x1_S16x1024_0_1 : (⟨S16x1, .i32⟩ : BufTy).Contents (Elt F) → (⟨S16x1024, .i32⟩ : BufTy).Contents (Elt F)),
    StableHlo.binary main_v21 main_v16 main_v22 (addi : (⟨S16x1024, .i32⟩ : BufTy).Contents (Elt F) → (⟨S16x1024, .i32⟩ : BufTy).Contents (Elt F) → (⟨S16x1024, .i32⟩ : BufTy).Contents (Elt F)),
    StableHlo.nullary main_c_1 (constantI S_ 32 16384#32),
    StableHlo.TRef.unary (.of main_c_1 : StableHlo.TRef sig ⟨S_, .i32⟩) main_call2.v0 id,
    StableHlo.TRef.unary main_call2.v0 main_call2.v1 (broadcastInDim S16x1024 ![] bcast_S_S16x1024),
    StableHlo.TRef.ternary (.of main_v19 : StableHlo.TRef sig ⟨S16x1024, .i1⟩) (.of main_v22 : StableHlo.TRef sig ⟨S16x1024, .i32⟩) main_call2.v1 main_call2.v2 select,
    StableHlo.reshape main_v23 main_v24 rfl shapeCasts_S16x1024_S16384,
    StableHlo.nullary main_c_2 (constantI S_ 32 0#32),
    StableHlo.unary main_c_2 main_v25 (broadcastInDim S16385 ![] bcast_S_S16385 : (⟨S_, .i32⟩ : BufTy).Contents (Elt F) → (⟨S16385, .i32⟩ : BufTy).Contents (Elt F)),
    StableHlo.nullary main_c_3 (constantI S_ 32 0#32),
    StableHlo.unary main_c_3 main_v26 (broadcastInDim S16x1024 ![] bcast_S_S16x1024 : (⟨S_, .i32⟩ : BufTy).Contents (Elt F) → (⟨S16x1024, .i32⟩ : BufTy).Contents (Elt F)),
    StableHlo.binary main_v16 main_v26 main_v27 (cmpi .slt : (⟨S16x1024, .i32⟩ : BufTy).Contents (Elt F) → (⟨S16x1024, .i32⟩ : BufTy).Contents (Elt F) → (⟨S16x1024, .i1⟩ : BufTy).Contents (Elt F)),
    StableHlo.nullary main_c_4 (constantI S_ 32 1024#32),
    StableHlo.unary main_c_4 main_v28 (broadcastInDim S16x1024 ![] bcast_S_S16x1024 : (⟨S_, .i32⟩ : BufTy).Contents (Elt F) → (⟨S16x1024, .i32⟩ : BufTy).Contents (Elt F)),
    StableHlo.binary main_v16 main_v28 main_v29 (addi : (⟨S16x1024, .i32⟩ : BufTy).Contents (Elt F) → (⟨S16x1024, .i32⟩ : BufTy).Contents (Elt F) → (⟨S16x1024, .i32⟩ : BufTy).Contents (Elt F)),
    StableHlo.ternary main_v27 main_v29 main_v16 main_v30 (select : (⟨S16x1024, .i1⟩ : BufTy).Contents (Elt F) → (⟨S16x1024, .i32⟩ : BufTy).Contents (Elt F) → (⟨S16x1024, .i32⟩ : BufTy).Contents (Elt F) → (⟨S16x1024, .i32⟩ : BufTy).Contents (Elt F)),
    StableHlo.unary main_v30 main_v31 (broadcastInDim S16x1024x1 ![0, 1] bcast_S16x1024_S16x1024x1_0_1 : (⟨S16x1024, .i32⟩ : BufTy).Contents (Elt F) → (⟨S16x1024x1, .i32⟩ : BufTy).Contents (Elt F)),
    StableHlo.binary main_v1 main_v31 main_v32 ((fun x i => Host.gather gather_S1024_S16x1024x1_S16x1024_n_0_n_n_0_2_1 x i) : (⟨S1024, .i32⟩ : BufTy).Contents (Elt F) → (⟨S16x1024x1, .i32⟩ : BufTy).Contents (Elt F) → (⟨S16x1024, .i32⟩ : BufTy).Contents (Elt F)),
    StableHlo.reshape main_v32 main_v33 rfl shapeCasts_S16x1024_S16384,
    StableHlo.nullary main_c_5 (constantI S_ 32 0#32),
    StableHlo.unary main_c_5 main_v34 (broadcastInDim S16384 ![] bcast_S_S16384 : (⟨S_, .i32⟩ : BufTy).Contents (Elt F) → (⟨S16384, .i32⟩ : BufTy).Contents (Elt F)),
    StableHlo.binary main_v24 main_v34 main_v35 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 16385#32),
    StableHlo.unary main_c_6 main_v36 (broadcastInDim S16384 ![] bcast_S_S16384 : (⟨S_, .i32⟩ : BufTy).Contents (Elt F) → (⟨S16384, .i32⟩ : BufTy).Contents (Elt F)),
    StableHlo.binary main_v24 main_v36 main_v37 (addi : (⟨S16384, .i32⟩ : BufTy).Contents (Elt F) → (⟨S16384, .i32⟩ : BufTy).Contents (Elt F) → (⟨S16384, .i32⟩ : BufTy).Contents (Elt F)),
    StableHlo.ternary main_v35 main_v37 main_v24 main_v38 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v38 main_v39 (broadcastInDim S16384x1 ![0] bcast_S16384_S16384x1_0 : (⟨S16384, .i32⟩ : BufTy).Contents (Elt F) → (⟨S16384x1, .i32⟩ : BufTy).Contents (Elt F)),
    StableHlo.ternary main_v25 main_v39 main_v33 main_v40 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v40 main_v41 ((extractStridedSlice S16384 ![0] · slices_S16385_S16384_0) : (⟨S16385, .i32⟩ : BufTy).Contents (Elt F) → (⟨S16384, .i32⟩ : BufTy).Contents (Elt F)),
    StableHlo.nullary main_c_7 (constantI S_ 32 0#32),
    StableHlo.unary main_c_7 main_v42 (broadcastInDim S16385 ![] bcast_S_S16385 : (⟨S_, .i32⟩ : BufTy).Contents (Elt F) → (⟨S16385, .i32⟩ : BufTy).Contents (Elt F)),
    StableHlo.reshape main_v15 main_v43 rfl shapeCasts_S16x1024_S16384,
    StableHlo.nullary main_c_8 (constantI S_ 32 0#32),
    StableHlo.unary main_c_8 main_v44 (broadcastInDim S16384 ![] bcast_S_S16384 : (⟨S_, .i32⟩ : BufTy).Contents (Elt F) → (⟨S16384, .i32⟩ : BufTy).Contents (Elt F)),
    StableHlo.binary main_v24 main_v44 main_v45 (cmpi .slt : (⟨S16384, .i32⟩ : BufTy).Contents (Elt F) → (⟨S16384, .i32⟩ : BufTy).Contents (Elt F) → (⟨S16384, .i1⟩ : BufTy).Contents (Elt F)),
    StableHlo.nullary main_c_9 (constantI S_ 32 16385#32),
    StableHlo.unary main_c_9 main_v46 (broadcastInDim S16384 ![] bcast_S_S16384 : (⟨S_, .i32⟩ : BufTy).Contents (Elt F) → (⟨S16384, .i32⟩ : BufTy).Contents (Elt F)),
    StableHlo.binary main_v24 main_v46 main_v47 (addi : (⟨S16384, .i32⟩ : BufTy).Contents (Elt F) → (⟨S16384, .i32⟩ : BufTy).Contents (Elt F) → (⟨S16384, .i32⟩ : BufTy).Contents (Elt F)),
    StableHlo.ternary main_v45 main_v47 main_v24 main_v48 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) ]

set_option maxHeartbeats 4000000 in
/-- The operations of `main_part1`, in order (68 of them). -/
def ops1 : List (HloOp τ sig (Elt F)) :=
  [ StableHlo.unary main_v48 main_v49 (broadcastInDim S16384x1 ![0] bcast_S16384_S16384x1_0 : (⟨S16384, .i32⟩ : BufTy).Contents (Elt F) → (⟨S16384x1, .i32⟩ : BufTy).Contents (Elt F)),
    StableHlo.ternary main_v42 main_v49 main_v43 main_v50 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v50 main_v51 ((extractStridedSlice S16384 ![0] · slices_S16385_S16384_0) : (⟨S16385, .i32⟩ : BufTy).Contents (Elt F) → (⟨S16384, .i32⟩ : BufTy).Contents (Elt F)),
    StableHlo.nullary main_c_10 (constantI S_ 32 0#32),
    StableHlo.unary main_c_10 main_v52 (broadcastInDim S1 ![] bcast_S_S1 : (⟨S_, .i32⟩ : BufTy).Contents (Elt F) → (⟨S1, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_arg4 : StableHlo.TRef sig ⟨S1024, .i32⟩) main_call3.call0.v0 main_call3.call0.v1 (fun x v => Host.reduceWindow IntOp.addi ![1024] ![1] ![1023] ![0] x v reduceWindows_S1024_S1024_w1024s1p1023_0 h_S_),
    StableHlo.unary main_v53 main_v54 ((extractStridedSlice S1023 ![0] · slices_S1024_S1023_0) : (⟨S1024, .i32⟩ : BufTy).Contents (Elt F) → (⟨S1023, .i32⟩ : BufTy).Contents (Elt F)),
    StableHlo.binary main_v52 main_v54 main_v55 ((fun a b => concatenate S1024 0 [⟨S1, a⟩, ⟨S1023, b⟩] concatenates_S1_S1023_S1024_d0) : (⟨S1, .i32⟩ : BufTy).Contents (Elt F) → (⟨S1023, .i32⟩ : BufTy).Contents (Elt F) → (⟨S1024, .i32⟩ : BufTy).Contents (Elt F)),
    StableHlo.nullary main_v56 (iotaInDim S1024 32 0),
    StableHlo.nullary main_v57 (iotaInDim S16 32 0),
    StableHlo.unary main_v56 main_v58 (broadcastInDim S1024x16 ![0] bcast_S1024_S1024x16_0 : (⟨S1024, .i32⟩ : BufTy).Contents (Elt F) → (⟨S1024x16, .i32⟩ : BufTy).Contents (Elt F)),
    StableHlo.unary main_v57 main_v59 (broadcastInDim S1024x16 ![1] bcast_S16_S1024x16_1 : (⟨S16, .i32⟩ : BufTy).Contents (Elt F) → (⟨S1024x16, .i32⟩ : BufTy).Contents (Elt F)),
    StableHlo.unary main_arg4 main_v60 (broadcastInDim S1024x1 ![0] bcast_S1024_S1024x1_0 : (⟨S1024, .i32⟩ : BufTy).Contents (Elt F) → (⟨S1024x1, .i32⟩ : BufTy).Contents (Elt F)),
    StableHlo.unary main_v60 main_v61 (broadcastInDim S1024x16 ![0, 1] bcast_S1024x1_S1024x16_0_1 : (⟨S1024x1, .i32⟩ : BufTy).Contents (Elt F) → (⟨S1024x16, .i32⟩ : BufTy).Contents (Elt F)),
    StableHlo.binary main_v59 main_v61 main_v62 (cmpi .slt : (⟨S1024x16, .i32⟩ : BufTy).Contents (Elt F) → (⟨S1024x16, .i32⟩ : BufTy).Contents (Elt F) → (⟨S1024x16, .i1⟩ : BufTy).Contents (Elt F)),
    StableHlo.unary main_v55 main_v63 (broadcastInDim S1024x1 ![0] bcast_S1024_S1024x1_0 : (⟨S1024, .i32⟩ : BufTy).Contents (Elt F) → (⟨S1024x1, .i32⟩ : BufTy).Contents (Elt F)),
    StableHlo.unary main_v63 main_v64 (broadcastInDim S1024x16 ![0, 1] bcast_S1024x1_S1024x16_0_1 : (⟨S1024x1, .i32⟩ : BufTy).Contents (Elt F) → (⟨S1024x16, .i32⟩ : BufTy).Contents (Elt F)),
    StableHlo.binary main_v64 main_v59 main_v65 (addi : (⟨S1024x16, .i32⟩ : BufTy).Contents (Elt F) → (⟨S1024x16, .i32⟩ : BufTy).Contents (Elt F) → (⟨S1024x16, .i32⟩ : BufTy).Contents (Elt F)),
    StableHlo.nullary main_c_11 (constantI S_ 32 16384#32),
    StableHlo.TRef.unary (.of main_c_11 : StableHlo.TRef sig ⟨S_, .i32⟩) main_call4.v0 id,
    StableHlo.TRef.unary main_call4.v0 main_call4.v1 (broadcastInDim S1024x16 ![] bcast_S_S1024x16),
    StableHlo.TRef.ternary (.of main_v62 : StableHlo.TRef sig ⟨S1024x16, .i1⟩) (.of main_v65 : StableHlo.TRef sig ⟨S1024x16, .i32⟩) main_call4.v1 main_call4.v2 select,
    StableHlo.reshape main_v66 main_v67 rfl shapeCasts_S1024x16_S16384,
    StableHlo.unary main_arg2 main_v68 (broadcastInDim S1024x1 ![0] bcast_S1024_S1024x1_0 : (⟨S1024, .i32⟩ : BufTy).Contents (Elt F) → (⟨S1024x1, .i32⟩ : BufTy).Contents (Elt F)),
    StableHlo.unary main_v68 main_v69 (broadcastInDim S1024x16 ![0, 1] bcast_S1024x1_S1024x16_0_1 : (⟨S1024x1, .i32⟩ : BufTy).Contents (Elt F) → (⟨S1024x16, .i32⟩ : BufTy).Contents (Elt F)),
    StableHlo.reshape main_v69 main_v70 rfl shapeCasts_S1024x16_S16384,
    StableHlo.nullary main_c_12 (constantI S_ 32 0#32),
    StableHlo.unary main_c_12 main_v71 (broadcastInDim S16385 ![] bcast_S_S16385 : (⟨S_, .i32⟩ : BufTy).Contents (Elt F) → (⟨S16385, .i32⟩ : BufTy).Contents (Elt F)),
    StableHlo.nullary main_c_13 (constantI S_ 32 0#32),
    StableHlo.unary main_c_13 main_v72 (broadcastInDim S16384 ![] bcast_S_S16384 : (⟨S_, .i32⟩ : BufTy).Contents (Elt F) → (⟨S16384, .i32⟩ : BufTy).Contents (Elt F)),
    StableHlo.binary main_v67 main_v72 main_v73 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 16385#32),
    StableHlo.unary main_c_14 main_v74 (broadcastInDim S16384 ![] bcast_S_S16384 : (⟨S_, .i32⟩ : BufTy).Contents (Elt F) → (⟨S16384, .i32⟩ : BufTy).Contents (Elt F)),
    StableHlo.binary main_v67 main_v74 main_v75 (addi : (⟨S16384, .i32⟩ : BufTy).Contents (Elt F) → (⟨S16384, .i32⟩ : BufTy).Contents (Elt F) → (⟨S16384, .i32⟩ : BufTy).Contents (Elt F)),
    StableHlo.ternary main_v73 main_v75 main_v67 main_v76 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v76 main_v77 (broadcastInDim S16384x1 ![0] bcast_S16384_S16384x1_0 : (⟨S16384, .i32⟩ : BufTy).Contents (Elt F) → (⟨S16384x1, .i32⟩ : BufTy).Contents (Elt F)),
    StableHlo.ternary main_v71 main_v77 main_v70 main_v78 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v78 main_v79 ((extractStridedSlice S16384 ![0] · slices_S16385_S16384_0) : (⟨S16385, .i32⟩ : BufTy).Contents (Elt F) → (⟨S16384, .i32⟩ : BufTy).Contents (Elt F)),
    StableHlo.nullary main_c_15 (constantI S_ 32 0#32),
    StableHlo.unary main_c_15 main_v80 (broadcastInDim S1 ![] bcast_S_S1 : (⟨S_, .i32⟩ : BufTy).Contents (Elt F) → (⟨S1, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_arg4 : StableHlo.TRef sig ⟨S1024, .i32⟩) main_call5.call0.v0 main_call5.call0.v1 (fun x v => Host.reduceWindow IntOp.addi ![1024] ![1] ![1023] ![0] x v reduceWindows_S1024_S1024_w1024s1p1023_0 h_S_),
    StableHlo.unary main_v81 main_v82 ((extractStridedSlice S1023 ![0] · slices_S1024_S1023_0) : (⟨S1024, .i32⟩ : BufTy).Contents (Elt F) → (⟨S1023, .i32⟩ : BufTy).Contents (Elt F)),
    StableHlo.binary main_v80 main_v82 main_v83 ((fun a b => concatenate S1024 0 [⟨S1, a⟩, ⟨S1023, b⟩] concatenates_S1_S1023_S1024_d0) : (⟨S1, .i32⟩ : BufTy).Contents (Elt F) → (⟨S1023, .i32⟩ : BufTy).Contents (Elt F) → (⟨S1024, .i32⟩ : BufTy).Contents (Elt F)),
    StableHlo.nullary main_v84 (iotaInDim S1024 32 0),
    StableHlo.nullary main_v85 (iotaInDim S16 32 0),
    StableHlo.unary main_v84 main_v86 (broadcastInDim S1024x16 ![0] bcast_S1024_S1024x16_0 : (⟨S1024, .i32⟩ : BufTy).Contents (Elt F) → (⟨S1024x16, .i32⟩ : BufTy).Contents (Elt F)),
    StableHlo.unary main_v85 main_v87 (broadcastInDim S1024x16 ![1] bcast_S16_S1024x16_1 : (⟨S16, .i32⟩ : BufTy).Contents (Elt F) → (⟨S1024x16, .i32⟩ : BufTy).Contents (Elt F)),
    StableHlo.unary main_arg4 main_v88 (broadcastInDim S1024x1 ![0] bcast_S1024_S1024x1_0 : (⟨S1024, .i32⟩ : BufTy).Contents (Elt F) → (⟨S1024x1, .i32⟩ : BufTy).Contents (Elt F)),
    StableHlo.unary main_v88 main_v89 (broadcastInDim S1024x16 ![0, 1] bcast_S1024x1_S1024x16_0_1 : (⟨S1024x1, .i32⟩ : BufTy).Contents (Elt F) → (⟨S1024x16, .i32⟩ : BufTy).Contents (Elt F)),
    StableHlo.binary main_v87 main_v89 main_v90 (cmpi .slt : (⟨S1024x16, .i32⟩ : BufTy).Contents (Elt F) → (⟨S1024x16, .i32⟩ : BufTy).Contents (Elt F) → (⟨S1024x16, .i1⟩ : BufTy).Contents (Elt F)),
    StableHlo.unary main_v83 main_v91 (broadcastInDim S1024x1 ![0] bcast_S1024_S1024x1_0 : (⟨S1024, .i32⟩ : BufTy).Contents (Elt F) → (⟨S1024x1, .i32⟩ : BufTy).Contents (Elt F)),
    StableHlo.unary main_v91 main_v92 (broadcastInDim S1024x16 ![0, 1] bcast_S1024x1_S1024x16_0_1 : (⟨S1024x1, .i32⟩ : BufTy).Contents (Elt F) → (⟨S1024x16, .i32⟩ : BufTy).Contents (Elt F)),
    StableHlo.binary main_v92 main_v87 main_v93 (addi : (⟨S1024x16, .i32⟩ : BufTy).Contents (Elt F) → (⟨S1024x16, .i32⟩ : BufTy).Contents (Elt F) → (⟨S1024x16, .i32⟩ : BufTy).Contents (Elt F)),
    StableHlo.nullary main_c_16 (constantI S_ 32 16384#32),
    StableHlo.TRef.unary (.of main_c_16 : StableHlo.TRef sig ⟨S_, .i32⟩) main_call6.v0 id,
    StableHlo.TRef.unary main_call6.v0 main_call6.v1 (broadcastInDim S1024x16 ![] bcast_S_S1024x16),
    StableHlo.TRef.ternary (.of main_v90 : StableHlo.TRef sig ⟨S1024x16, .i1⟩) (.of main_v93 : StableHlo.TRef sig ⟨S1024x16, .i32⟩) main_call6.v1 main_call6.v2 select,
    StableHlo.reshape main_v94 main_v95 rfl shapeCasts_S1024x16_S16384,
    StableHlo.unary main_arg3 main_v96 (broadcastInDim S1024x1 ![0] bcast_S1024_S1024x1_0 : (⟨S1024, .i32⟩ : BufTy).Contents (Elt F) → (⟨S1024x1, .i32⟩ : BufTy).Contents (Elt F)),
    StableHlo.unary main_v96 main_v97 (broadcastInDim S1024x16 ![0, 1] bcast_S1024x1_S1024x16_0_1 : (⟨S1024x1, .i32⟩ : BufTy).Contents (Elt F) → (⟨S1024x16, .i32⟩ : BufTy).Contents (Elt F)),
    StableHlo.reshape main_v97 main_v98 rfl shapeCasts_S1024x16_S16384,
    StableHlo.nullary main_c_17 (constantI S_ 32 0#32),
    StableHlo.unary main_c_17 main_v99 (broadcastInDim S16385 ![] bcast_S_S16385 : (⟨S_, .i32⟩ : BufTy).Contents (Elt F) → (⟨S16385, .i32⟩ : BufTy).Contents (Elt F)),
    StableHlo.nullary main_c_18 (constantI S_ 32 0#32) ]

set_option maxHeartbeats 4000000 in
/-- The operations of `main_part2`, in order (62 of them). -/
def ops2 : List (HloOp τ sig (Elt F)) :=
  [ StableHlo.unary main_c_18 main_v100 (broadcastInDim S16384 ![] bcast_S_S16384 : (⟨S_, .i32⟩ : BufTy).Contents (Elt F) → (⟨S16384, .i32⟩ : BufTy).Contents (Elt F)),
    StableHlo.binary main_v95 main_v100 main_v101 (cmpi .slt : (⟨S16384, .i32⟩ : BufTy).Contents (Elt F) → (⟨S16384, .i32⟩ : BufTy).Contents (Elt F) → (⟨S16384, .i1⟩ : BufTy).Contents (Elt F)),
    StableHlo.nullary main_c_19 (constantI S_ 32 16385#32),
    StableHlo.unary main_c_19 main_v102 (broadcastInDim S16384 ![] bcast_S_S16384 : (⟨S_, .i32⟩ : BufTy).Contents (Elt F) → (⟨S16384, .i32⟩ : BufTy).Contents (Elt F)),
    StableHlo.binary main_v95 main_v102 main_v103 (addi : (⟨S16384, .i32⟩ : BufTy).Contents (Elt F) → (⟨S16384, .i32⟩ : BufTy).Contents (Elt F) → (⟨S16384, .i32⟩ : BufTy).Contents (Elt F)),
    StableHlo.ternary main_v101 main_v103 main_v95 main_v104 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v104 main_v105 (broadcastInDim S16384x1 ![0] bcast_S16384_S16384x1_0 : (⟨S16384, .i32⟩ : BufTy).Contents (Elt F) → (⟨S16384x1, .i32⟩ : BufTy).Contents (Elt F)),
    StableHlo.ternary main_v99 main_v105 main_v98 main_v106 ((fun x i u => Host.scatter scatter_S16385_S16384x1_S16384_n_0_0_1 (fun _ b => b) x i u) : (⟨S16385, .i32⟩ : BufTy).Contents (Elt F) → (⟨S16384x1, .i32⟩ : BufTy).Contents (Elt F) → (⟨S16384, .i32⟩ : BufTy).Contents (Elt F) → (⟨S16385, .i32⟩ : BufTy).Contents (Elt F)),
    StableHlo.unary main_v106 main_v107 ((extractStridedSlice S16384 ![0] · slices_S16385_S16384_0) : (⟨S16385, .i32⟩ : BufTy).Contents (Elt F) → (⟨S16384, .i32⟩ : BufTy).Contents (Elt F)),
    StableHlo.nullary main_c_20 (constantI S_ 32 0#32),
    StableHlo.unary main_c_20 main_v108 (broadcastInDim S16384 ![] bcast_S_S16384 : (⟨S_, .i32⟩ : BufTy).Contents (Elt F) → (⟨S16384, .i32⟩ : BufTy).Contents (Elt F)),
    StableHlo.binary main_v41 main_v108 main_v109 (cmpi .slt : (⟨S16384, .i32⟩ : BufTy).Contents (Elt F) → (⟨S16384, .i32⟩ : BufTy).Contents (Elt F) → (⟨S16384, .i1⟩ : BufTy).Contents (Elt F)),
    StableHlo.nullary main_c_21 (constantI S_ 32 1024#32),
    StableHlo.unary main_c_21 main_v110 (broadcastInDim S16384 ![] bcast_S_S16384 : (⟨S_, .i32⟩ : BufTy).Contents (Elt F) → (⟨S16384, .i32⟩ : BufTy).Contents (Elt F)),
    StableHlo.binary main_v41 main_v110 main_v111 (addi : (⟨S16384, .i32⟩ : BufTy).Contents (Elt F) → (⟨S16384, .i32⟩ : BufTy).Contents (Elt F) → (⟨S16384, .i32⟩ : BufTy).Contents (Elt F)),
    StableHlo.ternary main_v109 main_v111 main_v41 main_v112 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_22 (constantI S_ 32 0#32),
    StableHlo.unary main_c_22 main_v113 (broadcastInDim S16384 ![] bcast_S_S16384 : (⟨S_, .i32⟩ : BufTy).Contents (Elt F) → (⟨S16384, .i32⟩ : BufTy).Contents (Elt F)),
    StableHlo.binary main_v51 main_v113 main_v114 (cmpi .slt : (⟨S16384, .i32⟩ : BufTy).Contents (Elt F) → (⟨S16384, .i32⟩ : BufTy).Contents (Elt F) → (⟨S16384, .i1⟩ : BufTy).Contents (Elt F)),
    StableHlo.nullary main_c_23 (constantI S_ 32 16#32),
    StableHlo.unary main_c_23 main_v115 (broadcastInDim S16384 ![] bcast_S_S16384 : (⟨S_, .i32⟩ : BufTy).Contents (Elt F) → (⟨S16384, .i32⟩ : BufTy).Contents (Elt F)),
    StableHlo.binary main_v51 main_v115 main_v116 (addi : (⟨S16384, .i32⟩ : BufTy).Contents (Elt F) → (⟨S16384, .i32⟩ : BufTy).Contents (Elt F) → (⟨S16384, .i32⟩ : BufTy).Contents (Elt F)),
    StableHlo.ternary main_v114 main_v116 main_v51 main_v117 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v112 main_v118 (broadcastInDim S16384x1 ![0] bcast_S16384_S16384x1_0 : (⟨S16384, .i32⟩ : BufTy).Contents (Elt F) → (⟨S16384x1, .i32⟩ : BufTy).Contents (Elt F)),
    StableHlo.unary main_v117 main_v119 (broadcastInDim S16384x1 ![0] bcast_S16384_S16384x1_0 : (⟨S16384, .i32⟩ : BufTy).Contents (Elt F) → (⟨S16384x1, .i32⟩ : BufTy).Contents (Elt F)),
    StableHlo.binary main_v118 main_v119 main_v120 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_arg0 main_v120 main_v121 ((fun x i => Host.gather gather_S1024x16x1024_S16384x2_S16384x1024_1_01_n_n_01_1_111024 x i) : (⟨S1024x16x1024, .f32⟩ : BufTy).Contents (Elt F) → (⟨S16384x2, .i32⟩ : BufTy).Contents (Elt F) → (⟨S16384x1024, .f32⟩ : BufTy).Contents (Elt F)),
    StableHlo.nullary main_v122 (iotaInDim S1024 32 0),
    StableHlo.unary main_v122 main_v123 (broadcastInDim S1x1024 ![1] bcast_S1024_S1x1024_1 : (⟨S1024, .i32⟩ : BufTy).Contents (Elt F) → (⟨S1x1024, .i32⟩ : BufTy).Contents (Elt F)),
    StableHlo.unary main_v79 main_v124 (broadcastInDim S16384x1 ![0] bcast_S16384_S16384x1_0 : (⟨S16384, .i32⟩ : BufTy).Contents (Elt F) → (⟨S16384x1, .i32⟩ : BufTy).Contents (Elt F)),
    StableHlo.unary main_v123 main_v125 (broadcastInDim S16384x1024 ![0, 1] bcast_S1x1024_S16384x1024_0_1 : (⟨S1x1024, .i32⟩ : BufTy).Contents (Elt F) → (⟨S16384x1024, .i32⟩ : BufTy).Contents (Elt F)),
    StableHlo.unary main_v124 main_v126 (broadcastInDim S16384x1024 ![0, 1] bcast_S16384x1_S16384x1024_0_1 : (⟨S16384x1, .i32⟩ : BufTy).Contents (Elt F) → (⟨S16384x1024, .i32⟩ : BufTy).Contents (Elt F)),
    StableHlo.binary main_v125 main_v126 main_v127 (cmpi .slt : (⟨S16384x1024, .i32⟩ : BufTy).Contents (Elt F) → (⟨S16384x1024, .i32⟩ : BufTy).Contents (Elt F) → (⟨S16384x1024, .i1⟩ : BufTy).Contents (Elt F)),
    StableHlo.nullary main_cst (constant S_ .f32 0x00000000#32),
    StableHlo.TRef.unary (.of main_cst : StableHlo.TRef sig ⟨S_, .f32⟩) main_call7.v0 id,
    StableHlo.TRef.unary main_call7.v0 main_call7.v1 (broadcastInDim S16384x1024 ![] bcast_S_S16384x1024),
    StableHlo.TRef.ternary (.of main_v127 : StableHlo.TRef sig ⟨S16384x1024, .i1⟩) (.of main_v121 : StableHlo.TRef sig ⟨S16384x1024, .f32⟩) main_call7.v1 main_call7.v2 select,
    StableHlo.nullary main_cst_24 (constant S_ .f32 0x00000000#32),
    StableHlo.binary main_v128 main_cst_24 main_v129 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    StableHlo.unary main_v79 main_v130 (sitofp .f32 : (⟨S16384, .i32⟩ : BufTy).Contents (Elt F) → (⟨S16384, .f32⟩ : BufTy).Contents (Elt F)),
    StableHlo.unary main_v129 main_v131 (broadcastInDim S16384x1 ![0] bcast_S16384_S16384x1_0 : (⟨S16384, .f32⟩ : BufTy).Contents (Elt F) → (⟨S16384x1, .f32⟩ : BufTy).Contents (Elt F)),
    StableHlo.unary main_arg5 main_v132 (broadcastInDim S1x1024 ![1] bcast_S1024_S1x1024_1 : (⟨S1024, .f32⟩ : BufTy).Contents (Elt F) → (⟨S1x1024, .f32⟩ : BufTy).Contents (Elt F)),
    StableHlo.unary main_v131 main_v133 (broadcastInDim S16384x1024 ![0, 1] bcast_S16384x1_S16384x1024_0_1 : (⟨S16384x1, .f32⟩ : BufTy).Contents (Elt F) → (⟨S16384x1024, .f32⟩ : BufTy).Contents (Elt F)),
    StableHlo.unary main_v132 main_v134 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v133 main_v134 main_v135 (mulf : (⟨S16384x1024, .f32⟩ : BufTy).Contents (Elt F) → (⟨S16384x1024, .f32⟩ : BufTy).Contents (Elt F) → (⟨S16384x1024, .f32⟩ : BufTy).Contents (Elt F)),
    StableHlo.unary main_v130 main_v136 (broadcastInDim S16384x1 ![0] bcast_S16384_S16384x1_0 : (⟨S16384, .f32⟩ : BufTy).Contents (Elt F) → (⟨S16384x1, .f32⟩ : BufTy).Contents (Elt F)),
    StableHlo.unary main_arg6 main_v137 (broadcastInDim S1x1024 ![1] bcast_S1024_S1x1024_1 : (⟨S1024, .f32⟩ : BufTy).Contents (Elt F) → (⟨S1x1024, .f32⟩ : BufTy).Contents (Elt F)),
    StableHlo.unary main_v136 main_v138 (broadcastInDim S16384x1024 ![0, 1] bcast_S16384x1_S16384x1024_0_1 : (⟨S16384x1, .f32⟩ : BufTy).Contents (Elt F) → (⟨S16384x1024, .f32⟩ : BufTy).Contents (Elt F)),
    StableHlo.unary main_v137 main_v139 (broadcastInDim S16384x1024 ![0, 1] bcast_S1x1024_S16384x1024_0_1 : (⟨S1x1024, .f32⟩ : BufTy).Contents (Elt F) → (⟨S16384x1024, .f32⟩ : BufTy).Contents (Elt F)),
    StableHlo.binary main_v138 main_v139 main_v140 (mulf : (⟨S16384x1024, .f32⟩ : BufTy).Contents (Elt F) → (⟨S16384x1024, .f32⟩ : BufTy).Contents (Elt F) → (⟨S16384x1024, .f32⟩ : BufTy).Contents (Elt F)),
    StableHlo.binary main_v135 main_v140 main_v141 (addf : (⟨S16384x1024, .f32⟩ : BufTy).Contents (Elt F) → (⟨S16384x1024, .f32⟩ : BufTy).Contents (Elt F) → (⟨S16384x1024, .f32⟩ : BufTy).Contents (Elt F)),
    StableHlo.unary main_v141 main_v142 (Host.negf : (⟨S16384x1024, .f32⟩ : BufTy).Contents (Elt F) → (⟨S16384x1024, .f32⟩ : BufTy).Contents (Elt F)),
    StableHlo.unary main_v142 main_v143 (Host.exp : (⟨S16384x1024, .f32⟩ : BufTy).Contents (Elt F) → (⟨S16384x1024, .f32⟩ : BufTy).Contents (Elt F)),
    StableHlo.nullary main_cst_25 (constant S_ .f32 0x3F800000#32),
    StableHlo.unary main_cst_25 main_v144 (broadcastInDim S16384x1024 ![] bcast_S_S16384x1024 : (⟨S_, .f32⟩ : BufTy).Contents (Elt F) → (⟨S16384x1024, .f32⟩ : BufTy).Contents (Elt F)),
    StableHlo.binary main_v144 main_v143 main_v145 (addf : (⟨S16384x1024, .f32⟩ : BufTy).Contents (Elt F) → (⟨S16384x1024, .f32⟩ : BufTy).Contents (Elt F) → (⟨S16384x1024, .f32⟩ : BufTy).Contents (Elt F)),
    StableHlo.nullary main_cst_26 (constant S_ .f32 0x3F800000#32),
    StableHlo.unary main_cst_26 main_v146 (broadcastInDim S16384x1024 ![] bcast_S_S16384x1024 : (⟨S_, .f32⟩ : BufTy).Contents (Elt F) → (⟨S16384x1024, .f32⟩ : BufTy).Contents (Elt F)),
    StableHlo.binary main_v146 main_v145 main_v147 (Host.divf : (⟨S16384x1024, .f32⟩ : BufTy).Contents (Elt F) → (⟨S16384x1024, .f32⟩ : BufTy).Contents (Elt F) → (⟨S16384x1024, .f32⟩ : BufTy).Contents (Elt F)),
    StableHlo.nullary main_c_27 (constantI S_ 32 0#32),
    StableHlo.unary main_c_27 main_v148 (broadcastInDim S16384 ![] bcast_S_S16384 : (⟨S_, .i32⟩ : BufTy).Contents (Elt F) → (⟨S16384, .i32⟩ : BufTy).Contents (Elt F)),
    StableHlo.binary main_v41 main_v148 main_v149 (cmpi .slt : (⟨S16384, .i32⟩ : BufTy).Contents (Elt F) → (⟨S16384, .i32⟩ : BufTy).Contents (Elt F) → (⟨S16384, .i1⟩ : BufTy).Contents (Elt F)) ]

set_option maxHeartbeats 4000000 in
/-- The operations of `main_part3`, in order (67 of them). -/
def ops3 : List (HloOp τ sig (Elt F)) :=
  [ StableHlo.nullary main_c_28 (constantI S_ 32 1024#32),
    StableHlo.unary main_c_28 main_v150 (broadcastInDim S16384 ![] bcast_S_S16384 : (⟨S_, .i32⟩ : BufTy).Contents (Elt F) → (⟨S16384, .i32⟩ : BufTy).Contents (Elt F)),
    StableHlo.binary main_v41 main_v150 main_v151 (addi : (⟨S16384, .i32⟩ : BufTy).Contents (Elt F) → (⟨S16384, .i32⟩ : BufTy).Contents (Elt F) → (⟨S16384, .i32⟩ : BufTy).Contents (Elt F)),
    StableHlo.ternary main_v149 main_v151 main_v41 main_v152 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.nullary main_c_29 (constantI S_ 32 0#32),
    StableHlo.unary main_c_29 main_v153 (broadcastInDim S16384 ![] bcast_S_S16384 : (⟨S_, .i32⟩ : BufTy).Contents (Elt F) → (⟨S16384, .i32⟩ : BufTy).Contents (Elt F)),
    StableHlo.binary main_v51 main_v153 main_v154 (cmpi .slt : (⟨S16384, .i32⟩ : BufTy).Contents (Elt F) → (⟨S16384, .i32⟩ : BufTy).Contents (Elt F) → (⟨S16384, .i1⟩ : BufTy).Contents (Elt F)),
    StableHlo.nullary main_c_30 (constantI S_ 32 16#32),
    StableHlo.unary main_c_30 main_v155 (broadcastInDim S16384 ![] bcast_S_S16384 : (⟨S_, .i32⟩ : BufTy).Contents (Elt F) → (⟨S16384, .i32⟩ : BufTy).Contents (Elt F)),
    StableHlo.binary main_v51 main_v155 main_v156 (addi : (⟨S16384, .i32⟩ : BufTy).Contents (Elt F) → (⟨S16384, .i32⟩ : BufTy).Contents (Elt F) → (⟨S16384, .i32⟩ : BufTy).Contents (Elt F)),
    StableHlo.ternary main_v154 main_v156 main_v51 main_v157 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v152 main_v158 (broadcastInDim S16384x1 ![0] bcast_S16384_S16384x1_0 : (⟨S16384, .i32⟩ : BufTy).Contents (Elt F) → (⟨S16384x1, .i32⟩ : BufTy).Contents (Elt F)),
    StableHlo.unary main_v157 main_v159 (broadcastInDim S16384x1 ![0] bcast_S16384_S16384x1_0 : (⟨S16384, .i32⟩ : BufTy).Contents (Elt F) → (⟨S16384x1, .i32⟩ : BufTy).Contents (Elt F)),
    StableHlo.binary main_v158 main_v159 main_v160 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F)),
    StableHlo.binary main_arg1 main_v160 main_v161 ((fun x i => Host.gather gather_S1024x16x32_S16384x2_S16384x32_1_01_n_n_01_1_1132 x i) : (⟨S1024x16x32, .f32⟩ : BufTy).Contents (Elt F) → (⟨S16384x2, .i32⟩ : BufTy).Contents (Elt F) → (⟨S16384x32, .f32⟩ : BufTy).Contents (Elt F)),
    StableHlo.nullary main_v162 (iotaInDim S32 32 0),
    StableHlo.unary main_v162 main_v163 (broadcastInDim S1x32 ![1] bcast_S32_S1x32_1 : (⟨S32, .i32⟩ : BufTy).Contents (Elt F) → (⟨S1x32, .i32⟩ : BufTy).Contents (Elt F)),
    StableHlo.unary main_v107 main_v164 (broadcastInDim S16384x1 ![0] bcast_S16384_S16384x1_0 : (⟨S16384, .i32⟩ : BufTy).Contents (Elt F) → (⟨S16384x1, .i32⟩ : BufTy).Contents (Elt F)),
    StableHlo.unary main_v163 main_v165 (broadcastInDim S16384x32 ![0, 1] bcast_S1x32_S16384x32_0_1 : (⟨S1x32, .i32⟩ : BufTy).Contents (Elt F) → (⟨S16384x32, .i32⟩ : BufTy).Contents (Elt F)),
    StableHlo.unary main_v164 main_v166 (broadcastInDim S16384x32 ![0, 1] bcast_S16384x1_S16384x32_0_1 : (⟨S16384x1, .i32⟩ : BufTy).Contents (Elt F) → (⟨S16384x32, .i32⟩ : BufTy).Contents (Elt F)),
    StableHlo.binary main_v165 main_v166 main_v167 (cmpi .slt : (⟨S16384x32, .i32⟩ : BufTy).Contents (Elt F) → (⟨S16384x32, .i32⟩ : BufTy).Contents (Elt F) → (⟨S16384x32, .i1⟩ : BufTy).Contents (Elt F)),
    StableHlo.nullary main_cst_31 (constant S_ .f32 0x00000000#32),
    StableHlo.TRef.unary (.of main_cst_31 : StableHlo.TRef sig ⟨S_, .f32⟩) main_call8.v0 id,
    StableHlo.TRef.unary main_call8.v0 main_call8.v1 (broadcastInDim S16384x32 ![] bcast_S_S16384x32),
    StableHlo.TRef.ternary (.of main_v167 : StableHlo.TRef sig ⟨S16384x32, .i1⟩) (.of main_v161 : StableHlo.TRef sig ⟨S16384x32, .f32⟩) main_call8.v1 main_call8.v2 select,
    StableHlo.nullary main_cst_32 (constant S_ .f32 0x00000000#32),
    StableHlo.binary main_v168 main_cst_32 main_v169 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    StableHlo.unary main_v107 main_v170 (sitofp .f32 : (⟨S16384, .i32⟩ : BufTy).Contents (Elt F) → (⟨S16384, .f32⟩ : BufTy).Contents (Elt F)),
    StableHlo.unary main_v169 main_v171 (broadcastInDim S16384x1 ![0] bcast_S16384_S16384x1_0 : (⟨S16384, .f32⟩ : BufTy).Contents (Elt F) → (⟨S16384x1, .f32⟩ : BufTy).Contents (Elt F)),
    StableHlo.unary main_arg7 main_v172 (broadcastInDim S1x32 ![1] bcast_S32_S1x32_1 : (⟨S32, .f32⟩ : BufTy).Contents (Elt F) → (⟨S1x32, .f32⟩ : BufTy).Contents (Elt F)),
    StableHlo.unary main_v171 main_v173 (broadcastInDim S16384x32 ![0, 1] bcast_S16384x1_S16384x32_0_1 : (⟨S16384x1, .f32⟩ : BufTy).Contents (Elt F) → (⟨S16384x32, .f32⟩ : BufTy).Contents (Elt F)),
    StableHlo.unary main_v172 main_v174 (broadcastInDim S16384x32 ![0, 1] bcast_S1x32_S16384x32_0_1 : (⟨S1x32, .f32⟩ : BufTy).Contents (Elt F) → (⟨S16384x32, .f32⟩ : BufTy).Contents (Elt F)),
    StableHlo.binary main_v173 main_v174 main_v175 (mulf : (⟨S16384x32, .f32⟩ : BufTy).Contents (Elt F) → (⟨S16384x32, .f32⟩ : BufTy).Contents (Elt F) → (⟨S16384x32, .f32⟩ : BufTy).Contents (Elt F)),
    StableHlo.unary main_v170 main_v176 (broadcastInDim S16384x1 ![0] bcast_S16384_S16384x1_0 : (⟨S16384, .f32⟩ : BufTy).Contents (Elt F) → (⟨S16384x1, .f32⟩ : BufTy).Contents (Elt F)),
    StableHlo.unary main_arg8 main_v177 (broadcastInDim S1x32 ![1] bcast_S32_S1x32_1 : (⟨S32, .f32⟩ : BufTy).Contents (Elt F) → (⟨S1x32, .f32⟩ : BufTy).Contents (Elt F)),
    StableHlo.unary main_v176 main_v178 (broadcastInDim S16384x32 ![0, 1] bcast_S16384x1_S16384x32_0_1 : (⟨S16384x1, .f32⟩ : BufTy).Contents (Elt F) → (⟨S16384x32, .f32⟩ : BufTy).Contents (Elt F)),
    StableHlo.unary main_v177 main_v179 (broadcastInDim S16384x32 ![0, 1] bcast_S1x32_S16384x32_0_1 : (⟨S1x32, .f32⟩ : BufTy).Contents (Elt F) → (⟨S16384x32, .f32⟩ : BufTy).Contents (Elt F)),
    StableHlo.binary main_v178 main_v179 main_v180 (mulf : (⟨S16384x32, .f32⟩ : BufTy).Contents (Elt F) → (⟨S16384x32, .f32⟩ : BufTy).Contents (Elt F) → (⟨S16384x32, .f32⟩ : BufTy).Contents (Elt F)),
    StableHlo.binary main_v175 main_v180 main_v181 (addf : (⟨S16384x32, .f32⟩ : BufTy).Contents (Elt F) → (⟨S16384x32, .f32⟩ : BufTy).Contents (Elt F) → (⟨S16384x32, .f32⟩ : BufTy).Contents (Elt F)),
    StableHlo.unary main_v181 main_v182 (Host.negf : (⟨S16384x32, .f32⟩ : BufTy).Contents (Elt F) → (⟨S16384x32, .f32⟩ : BufTy).Contents (Elt F)),
    StableHlo.unary main_v182 main_v183 (Host.exp : (⟨S16384x32, .f32⟩ : BufTy).Contents (Elt F) → (⟨S16384x32, .f32⟩ : BufTy).Contents (Elt F)),
    StableHlo.nullary main_cst_33 (constant S_ .f32 0x3F800000#32),
    StableHlo.unary main_cst_33 main_v184 (broadcastInDim S16384x32 ![] bcast_S_S16384x32 : (⟨S_, .f32⟩ : BufTy).Contents (Elt F) → (⟨S16384x32, .f32⟩ : BufTy).Contents (Elt F)),
    StableHlo.binary main_v184 main_v183 main_v185 (addf : (⟨S16384x32, .f32⟩ : BufTy).Contents (Elt F) → (⟨S16384x32, .f32⟩ : BufTy).Contents (Elt F) → (⟨S16384x32, .f32⟩ : BufTy).Contents (Elt F)),
    StableHlo.nullary main_cst_34 (constant S_ .f32 0x3F800000#32),
    StableHlo.unary main_cst_34 main_v186 (broadcastInDim S16384x32 ![] bcast_S_S16384x32 : (⟨S_, .f32⟩ : BufTy).Contents (Elt F) → (⟨S16384x32, .f32⟩ : BufTy).Contents (Elt F)),
    StableHlo.binary main_v186 main_v185 main_v187 (Host.divf : (⟨S16384x32, .f32⟩ : BufTy).Contents (Elt F) → (⟨S16384x32, .f32⟩ : BufTy).Contents (Elt F) → (⟨S16384x32, .f32⟩ : BufTy).Contents (Elt F)),
    StableHlo.binary main_v147 main_v187 main_v188 ((fun a b => concatenate S16384x1056 1 [⟨S16384x1024, a⟩, ⟨S16384x32, b⟩] concatenates_S16384x1024_S16384x32_S16384x1056_d1) : (⟨S16384x1024, .f32⟩ : BufTy).Contents (Elt F) → (⟨S16384x32, .f32⟩ : BufTy).Contents (Elt F) → (⟨S16384x1056, .f32⟩ : BufTy).Contents (Elt F)),
    StableHlo.unary main_arg9 main_v189 ((transpose S1056x2048 [1, 0] · transposes_S2048x1056_S1056x2048_1_0) : (⟨S2048x1056, .f32⟩ : BufTy).Contents (Elt F) → (⟨S1056x2048, .f32⟩ : BufTy).Contents (Elt F)),
    StableHlo.binary main_v188 main_v189 main_v190 ((fun l r => Host.dotGeneral dot_S16384x1056_S1056x2048_S16384x2048_1_0_0_1_n_n none l r) : (⟨S16384x1056, .f32⟩ : BufTy).Contents (Elt F) → (⟨S1056x2048, .f32⟩ : BufTy).Contents (Elt F) → (⟨S16384x2048, .f32⟩ : BufTy).Contents (Elt F)),
    StableHlo.unary main_arg10 main_v191 (broadcastInDim S1x2048 ![1] bcast_S2048_S1x2048_1 : (⟨S2048, .f32⟩ : BufTy).Contents (Elt F) → (⟨S1x2048, .f32⟩ : BufTy).Contents (Elt F)),
    StableHlo.unary main_v191 main_v192 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v190 main_v192 main_v193 (addf : (⟨S16384x2048, .f32⟩ : BufTy).Contents (Elt F) → (⟨S16384x2048, .f32⟩ : BufTy).Contents (Elt F) → (⟨S16384x2048, .f32⟩ : BufTy).Contents (Elt F)),
    StableHlo.TRef.nullary main_call9.cst (constant S_ .f32 0x00000000#32),
    StableHlo.TRef.unary main_call9.cst main_call9.v0 (broadcastInDim S16384x2048 ![] bcast_S_S16384x2048),
    StableHlo.TRef.binary (.of main_v193 : StableHlo.TRef sig ⟨S16384x2048, .f32⟩) main_call9.v0 main_call9.v1 maximumf,
    StableHlo.nullary main_c_35 (constantI S_ 32 0#32),
    StableHlo.binary main_arg4 main_c_35 main_v195 ((fun x v => Host.reduce IntOp.addi x v reducesTo_S1024_S_d0 h_S_) : (⟨S1024, .i32⟩ : BufTy).Contents (Elt F) → (⟨S_, .i32⟩ : BufTy).Contents (Elt F) → (⟨S_, .i32⟩ : BufTy).Contents (Elt F)),
    StableHlo.nullary main_v196 (iotaInDim S16384 32 0),
    StableHlo.unary main_v195 main_v197 (broadcastInDim S16384 ![] bcast_S_S16384 : (⟨S_, .i32⟩ : BufTy).Contents (Elt F) → (⟨S16384, .i32⟩ : BufTy).Contents (Elt F)),
    StableHlo.binary main_v196 main_v197 main_v198 (cmpi .slt : (⟨S16384, .i32⟩ : BufTy).Contents (Elt F) → (⟨S16384, .i32⟩ : BufTy).Contents (Elt F) → (⟨S16384, .i1⟩ : BufTy).Contents (Elt F)),
    StableHlo.unary main_v198 main_v199 (broadcastInDim S16384x1 ![0] bcast_S16384_S16384x1_0 : (⟨S16384, .i1⟩ : BufTy).Contents (Elt F) → (⟨S16384x1, .i1⟩ : BufTy).Contents (Elt F)),
    StableHlo.nullary main_cst_36 (constant S_ .f32 0x00000000#32),
    StableHlo.TRef.unary (.of main_cst_36 : StableHlo.TRef sig ⟨S_, .f32⟩) main_call10.v0 id,
    StableHlo.TRef.unary (.of main_v199 : StableHlo.TRef sig ⟨S16384x1, .i1⟩) main_call10.v1 (broadcastInDim S16384x2048 ![0, 1] bcast_S16384x1_S16384x2048_0_1),
    StableHlo.TRef.unary main_call10.v0 main_call10.v2 (broadcastInDim S16384x2048 ![] bcast_S_S16384x2048),
    StableHlo.TRef.ternary main_call10.v1 (.of main_v194 : StableHlo.TRef sig ⟨S16384x2048, .f32⟩) main_call10.v2 main_call10.v3 select ]

/-- The line is its four stretches one after the other: the same literal list, cut. -/
theorem ops_eq : (ops (F := F)) = ops0 ++ ops1 ++ ops2 ++ ops3 := rfl

-- the binds re-associated under the chain: one level of recursion per statement
set_option maxRecDepth 4096 in
set_option maxHeartbeats 4000000 in
/-- Window `main_part0` is its stretch run in order: the callees' definitions unfolded at their calls and the records at
    their fields, both sides are one chain of `hlo` steps once sequencing is reassociated. -/
theorem main_part0_eq (c : Dev nD) : main_part0 (F := F) c = seq ops0 := by
  simp only [main_part0, fn_argsort.body, fn_cumsum.body, fn_cumsum_0.body, fn_where.body, ops0, seq, bind_assoc, pure_bind] <;> rfl

theorem ops0_sub : (ops0 : List (HloOp τ sig (Elt F))).Forall fun op => op.bufs ⊆ tcRefs τ sig :=
  ⟨unary_bufs_sub .., nullary_bufs_sub .., binary_bufs_sub .., binary_bufs_sub .., nullary_bufs_sub .., unary_bufs_sub ..,
    unary_bufs_sub .., unary_bufs_sub .., unary_bufs_sub .., binary_bufs_sub .., unary_bufs_sub .., nullary_bufs_sub ..,
    binary_bufs_sub .., nullary_bufs_sub .., unary_bufs_sub .., nullary_bufs_sub .., unary_bufs_sub .., binary_bufs_sub ..,
    unary_bufs_sub .., binary_bufs_sub .., nullary_bufs_sub .., unary_bufs_sub .., unary_bufs_sub .., unary_bufs_sub ..,
    unary_bufs_sub .., binary_bufs_sub .., unary_bufs_sub .., unary_bufs_sub .., binary_bufs_sub .., nullary_bufs_sub ..,
    unary_bufs_sub .., unary_bufs_sub .., ternary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., reshape_bufs_sub .., nullary_bufs_sub .., unary_bufs_sub ..,
    binary_bufs_sub .., nullary_bufs_sub .., unary_bufs_sub .., binary_bufs_sub .., ternary_bufs_sub .., unary_bufs_sub ..,
    ternary_bufs_sub .., unary_bufs_sub .., nullary_bufs_sub .., unary_bufs_sub .., reshape_bufs_sub .., nullary_bufs_sub ..,
    unary_bufs_sub .., binary_bufs_sub .., nullary_bufs_sub .., unary_bufs_sub .., binary_bufs_sub .., ternary_bufs_sub ..⟩

/-- Every operation of the stretch determines the buffer it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl⟩

-- the binds re-associated under the chain: one level of recursion per statement
set_option maxRecDepth 4096 in
set_option maxHeartbeats 4000000 in
/-- Window `main_part1` is its stretch run in order: the callees' definitions unfolded at their calls and the records at
    their fields, both sides are one chain of `hlo` steps once sequencing is reassociated. -/
theorem main_part1_eq (c : Dev nD) : main_part1 (F := F) c = seq ops1 := by
  simp only [main_part1, fn_cumsum_1.body, fn_cumsum_2.body, fn_where_3.body, ops1, seq, bind_assoc, pure_bind] <;> rfl

theorem ops1_sub : (ops1 : List (HloOp τ sig (Elt F))).Forall fun op => op.bufs ⊆ tcRefs τ sig :=
  ⟨unary_bufs_sub .., ternary_bufs_sub .., unary_bufs_sub .., nullary_bufs_sub .., unary_bufs_sub .., nullary_bufs_sub ..,
    unary_bufs_sub .., binary_bufs_sub .., unary_bufs_sub .., binary_bufs_sub .., nullary_bufs_sub .., nullary_bufs_sub ..,
    unary_bufs_sub .., unary_bufs_sub .., unary_bufs_sub .., unary_bufs_sub .., binary_bufs_sub .., unary_bufs_sub ..,
    unary_bufs_sub .., binary_bufs_sub .., nullary_bufs_sub .., unary_bufs_sub .., unary_bufs_sub .., ternary_bufs_sub ..,
    reshape_bufs_sub .., unary_bufs_sub .., unary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., unary_bufs_sub .., nullary_bufs_sub .., unary_bufs_sub ..,
    nullary_bufs_sub .., unary_bufs_sub .., binary_bufs_sub .., unary_bufs_sub .., binary_bufs_sub .., nullary_bufs_sub ..,
    nullary_bufs_sub .., unary_bufs_sub .., unary_bufs_sub .., unary_bufs_sub .., unary_bufs_sub .., binary_bufs_sub ..,
    unary_bufs_sub .., unary_bufs_sub .., binary_bufs_sub .., nullary_bufs_sub .., unary_bufs_sub .., unary_bufs_sub ..,
    ternary_bufs_sub .., reshape_bufs_sub .., unary_bufs_sub .., unary_bufs_sub .., reshape_bufs_sub .., nullary_bufs_sub ..,
    unary_bufs_sub .., nullary_bufs_sub ..⟩

/-- Every operation of the stretch determines the buffer it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl⟩

-- the binds re-associated under the chain: one level of recursion per statement
set_option maxRecDepth 4096 in
set_option maxHeartbeats 4000000 in
/-- Window `main_part2` is its stretch run in order: the callees' definitions unfolded at their calls and the records at
    their fields, both sides are one chain of `hlo` steps once sequencing is reassociated. -/
theorem main_part2_eq (c : Dev nD) : main_part2 (F := F) c = seq ops2 := by
  simp only [main_part2, fn_where_4.body, ops2, seq, bind_assoc, pure_bind] <;> rfl

theorem ops2_sub : (ops2 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., unary_bufs_sub ..,
    unary_bufs_sub .., unary_bufs_sub .., binary_bufs_sub .., nullary_bufs_sub .., unary_bufs_sub .., unary_bufs_sub ..,
    ternary_bufs_sub .., nullary_bufs_sub .., binary_bufs_sub .., unary_bufs_sub .., unary_bufs_sub .., unary_bufs_sub ..,
    unary_bufs_sub .., unary_bufs_sub .., binary_bufs_sub .., unary_bufs_sub .., unary_bufs_sub .., unary_bufs_sub ..,
    unary_bufs_sub .., binary_bufs_sub .., binary_bufs_sub .., unary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub ..⟩

/-- Every operation of the stretch determines the buffer it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

-- the binds re-associated under the chain: one level of recursion per statement
set_option maxRecDepth 4096 in
set_option maxHeartbeats 4000000 in
/-- Window `main_part3` is its stretch run in order: the callees' definitions unfolded at their calls and the records at
    their fields, both sides are one chain of `hlo` steps once sequencing is reassociated. -/
theorem main_part3_eq (c : Dev nD) : main_part3 (F := F) c = seq ops3 := by
  simp only [main_part3, fn_where_5.body, fn_relu.body, fn_where_6.body, ops3, seq, bind_assoc, pure_bind] <;> rfl

theorem ops3_sub : (ops3 : List (HloOp τ sig (Elt F))).Forall fun op => op.bufs ⊆ tcRefs τ sig :=
  ⟨nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., unary_bufs_sub ..,
    unary_bufs_sub .., unary_bufs_sub .., binary_bufs_sub .., nullary_bufs_sub .., unary_bufs_sub .., unary_bufs_sub ..,
    ternary_bufs_sub .., nullary_bufs_sub .., binary_bufs_sub .., unary_bufs_sub .., unary_bufs_sub .., unary_bufs_sub ..,
    unary_bufs_sub .., unary_bufs_sub .., binary_bufs_sub .., unary_bufs_sub .., unary_bufs_sub .., unary_bufs_sub ..,
    unary_bufs_sub .., binary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., unary_bufs_sub .., nullary_bufs_sub .., unary_bufs_sub .., unary_bufs_sub .., unary_bufs_sub ..,
    ternary_bufs_sub ..⟩

/-- Every operation of the stretch determines the buffer it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl⟩

/-- @main is the whole line: its windows in order are the stretches in order, the last window only returns, and a line
    of an append is the two lines in sequence. -/
theorem main_eq (c : Dev nD) : main (F := F) c = seq ops := by
  rw [ops_eq]
  simp only [main, main_part4, seq_append, main_part0_eq, main_part1_eq, main_part2_eq, main_part3_eq, bind_assoc,
    bind_pure_unit]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [ops_eq]
  exact List.forall_append.2 ⟨List.forall_append.2 ⟨List.forall_append.2 ⟨ops0_sub, ops1_sub⟩, ops2_sub⟩, ops3_sub⟩

theorem ops_fresh : ∀ op ∈ (ops : List (HloOp τ sig (Elt F))), op.fresh = ∅ := by
  rw [ops_eq]
  exact List.forall_iff_forall_mem.1
    (List.forall_append.2 ⟨List.forall_append.2 ⟨List.forall_append.2 ⟨ops0_fresh, ops1_fresh⟩, ops2_fresh⟩, ops3_fresh⟩)

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (Proc.devRef .tc b) :=
  run_seq scopedRefs_eq scopedSems_eq defs main (fun _ => ops) main_eq (fun _ => ops_sub) m ρ (fun _ => ops_fresh)

end Cert.ReferenceIdeal.Hand

end
-- ==== Proof.RefValue.lean ====
/-
  The reference's result over the extended reals is the encoder `Cert.Encoder.out` of the arguments, whatever they are:
  its two-index gather reads row `(srcB r, srcT r)` (both in range, so the clamp is the identity), its logistic is
  spelt `1 / (1 + exp (-x))`, which is the logistic of the extended reals, its one matrix product over the 1056
  concatenated units is the sum over the first 1024 and the last 32, and its row mask is a select.
-/
import proofs.«400249_j88502096101408_2_alg».proof.Proof.RefRun
import proofs.«400249_j88502096101408_2_alg».proof.Proof.Encoder
import Idealize.ShloMosaic.Lib.Pipeline.Value
import Idealize.ShloMosaic.Lib.StackMember
import Idealize.ShloMosaic.PureOps.Ideal.Laws

noncomputable section

namespace Cert.ReferenceIdeal.Hand

open Idealize.ShloMosaic Idealize.SL.Sem Idealize.ShloMosaic.StableHlo Cert.ReferenceIdeal.Gen

open Idealize.ShloMosaic.ValueIdx Cert.Packing

/-! ## The reference's value chain, operation by operation -/

/-- An index array read with wrap-around: an entry below zero has the axis length `n` added. -/
def normIdx (n : BitVec 32) (x : IVec S16384 32) : IVec S16384 32 :=
  select (cmpi .slt x (broadcastInDim S16384 ![] bcast_S_S16384 (constantI S_ 32 0#32)))
    (addi x (broadcastInDim S16384 ![] bcast_S_S16384 (constantI S_ 32 n))) x

/-- The two index arrays side by side: row `r` holds the pair (sequence, step). -/
def startIdx (sb st : IVec S16384 32) : IVec S16384x2 32 :=
  concatenate S16384x2 1
    [⟨S16384x1, broadcastInDim S16384x1 ![0] bcast_S16384_S16384x1_0 (normIdx 1024#32 sb)⟩,
     ⟨S16384x1, broadcastInDim S16384x1 ![0] bcast_S16384_S16384x1_0 (normIdx 16#32 st)⟩]
    concatenates_S16384x1_S16384x1_S16384x2_d1

/-- The packed rows of the weights. -/
def gatherW (W : FVec Ideal S1024x16x1024 .f32) (sb st : IVec S16384 32) : FVec Ideal S16384x1024 .f32 :=
  Host.gather gather_S1024x16x1024_S16384x2_S16384x1024_1_01_n_n_01_1_111024 W (startIdx sb st)

/-- The packed rows of the biases. -/
def gatherB (B : FVec Ideal S1024x16x32 .f32) (sb st : IVec S16384 32) : FVec Ideal S16384x32 .f32 :=
  Host.gather gather_S1024x16x32_S16384x2_S16384x32_1_01_n_n_01_1_1132 B (startIdx sb st)

/-- Position below the row's count, for the 1024 weight positions. -/
def maskW (wpl : IVec S16384 32) : IVec S16384x1024 1 :=
  cmpi .slt
    (broadcastInDim S16384x1024 ![0, 1] bcast_S1x1024_S16384x1024_0_1
      (broadcastInDim S1x1024 ![1] bcast_S1024_S1x1024_1 (iotaInDim S1024 32 0)))
    (broadcastInDim S16384x1024 ![0, 1] bcast_S16384x1_S16384x1024_0_1
      (broadcastInDim S16384x1 ![0] bcast_S16384_S16384x1_0 wpl))

/-- Position below the row's count, for the 32 bias positions. -/
def maskB (bpl : IVec S16384 32) : IVec S16384x32 1 :=
  cmpi .slt
    (broadcastInDim S16384x32 ![0, 1] bcast_S1x32_S16384x32_0_1
      (broadcastInDim S1x32 ![1] bcast_S32_S1x32_1 (iotaInDim S32 32 0)))
    (broadcastInDim S16384x32 ![0, 1] bcast_S16384x1_S16384x32_0_1
      (broadcastInDim S16384x1 ![0] bcast_S16384_S16384x1_0 bpl))

/-- The masked row sums of the packed weights. -/
def sumW (W : FVec Ideal S1024x16x1024 .f32) (sb st wpl : IVec S16384 32) : FVec Ideal S16384 .f32 :=
  Host.reduceAdd (F := Ideal)
    (select (maskW wpl) (gatherW W sb st)
      (broadcastInDim S16384x1024 ![] bcast_S_S16384x1024 (id (constant (F := Ideal) S_ .f32 0x00000000#32))))
    (constant (F := Ideal) S_ .f32 0x00000000#32) reducesTo_S16384x1024_S16384_d1 h_S_

/-- The masked row sums of the packed biases. -/
def sumB (B : FVec Ideal S1024x16x32 .f32) (sb st bpl : IVec S16384 32) : FVec Ideal S16384 .f32 :=
  Host.reduceAdd (F := Ideal)
    (select (maskB bpl) (gatherB B sb st)
      (broadcastInDim S16384x32 ![] bcast_S_S16384x32 (id (constant (F := Ideal) S_ .f32 0x00000000#32))))
    (constant (F := Ideal) S_ .f32 0x00000000#32) reducesTo_S16384x32_S16384_d1 h_S_

/-- The embedding of the weights' row sums, one unit per weight: `1 / (1 + exp (-(s · w + n · b)))`. -/
def embW (s : FVec Ideal S16384 .f32) (wpl : IVec S16384 32) (tww twb : FVec Ideal S1024 .f32) :
    FVec Ideal S16384x1024 .f32 :=
  Host.divf (F := Ideal)
    (broadcastInDim S16384x1024 ![] bcast_S_S16384x1024 (constant (F := Ideal) S_ .f32 0x3F800000#32))
    (addf (broadcastInDim S16384x1024 ![] bcast_S_S16384x1024 (constant (F := Ideal) S_ .f32 0x3F800000#32))
      (Host.exp (F := Ideal) (Host.negf (F := Ideal)
        (addf
          (mulf
            (broadcastInDim S16384x1024 ![0, 1] bcast_S16384x1_S16384x1024_0_1
              (broadcastInDim S16384x1 ![0] bcast_S16384_S16384x1_0 s))
            (broadcastInDim S16384x1024 ![0, 1] bcast_S1x1024_S16384x1024_0_1
              (broadcastInDim S1x1024 ![1] bcast_S1024_S1x1024_1 tww)))
          (mulf
            (broadcastInDim S16384x1024 ![0, 1] bcast_S16384x1_S16384x1024_0_1
              (broadcastInDim S16384x1 ![0] bcast_S16384_S16384x1_0 (sitofp (F := Ideal) .f32 wpl)))
            (broadcastInDim S16384x1024 ![0, 1] bcast_S1x1024_S16384x1024_0_1
              (broadcastInDim S1x1024 ![1] bcast_S1024_S1x1024_1 twb)))))))

/-- The embedding of the biases' row sums, one unit per bias. -/
def embB (s : FVec Ideal S16384 .f32) (bpl : IVec S16384 32) (tbw tbb : FVec Ideal S32 .f32) :
    FVec Ideal S16384x32 .f32 :=
  Host.divf (F := Ideal)
    (broadcastInDim S16384x32 ![] bcast_S_S16384x32 (constant (F := Ideal) S_ .f32 0x3F800000#32))
    (addf (broadcastInDim S16384x32 ![] bcast_S_S16384x32 (constant (F := Ideal) S_ .f32 0x3F800000#32))
      (Host.exp (F := Ideal) (Host.negf (F := Ideal)
        (addf
          (mulf
            (broadcastInDim S16384x32 ![0, 1] bcast_S16384x1_S16384x32_0_1
              (broadcastInDim S16384x1 ![0] bcast_S16384_S16384x1_0 s))
            (broadcastInDim S16384x32 ![0, 1] bcast_S1x32_S16384x32_0_1
              (broadcastInDim S1x32 ![1] bcast_S32_S1x32_1 tbw)))
          (mulf
            (broadcastInDim S16384x32 ![0, 1] bcast_S16384x1_S16384x32_0_1
              (broadcastInDim S16384x1 ![0] bcast_S16384_S16384x1_0 (sitofp (F := Ideal) .f32 bpl)))
            (broadcastInDim S16384x32 ![0, 1] bcast_S1x32_S16384x32_0_1
              (broadcastInDim S1x32 ![1] bcast_S32_S1x32_1 tbb)))))))

/-- The encoder: the 1056 concatenated units times the transposed encoder matrix, plus the bias, clipped at zero. -/
def encode (eW : FVec Ideal S16384x1024 .f32) (eB : FVec Ideal S16384x32 .f32) (ew : FVec Ideal S2048x1056 .f32)
    (eb : FVec Ideal S2048 .f32) : FVec Ideal S16384x2048 .f32 :=
  maximumf
    (addf
      (Host.dotGeneral (F := Ideal) dot_S16384x1056_S1056x2048_S16384x2048_1_0_0_1_n_n none
        (concatenate S16384x1056 1 [⟨S16384x1024, eW⟩, ⟨S16384x32, eB⟩] concatenates_S16384x1024_S16384x32_S16384x1056_d1)
        (transpose S1056x2048 [1, 0] ew transposes_S2048x1056_S1056x2048_1_0))
      (broadcastInDim S16384x2048 ![0, 1] bcast_S1x2048_S16384x2048_0_1
        (broadcastInDim S1x2048 ![1] bcast_S2048_S1x2048_1 eb)))
    (broadcastInDim S16384x2048 ![] bcast_S_S16384x2048 (constant (F := Ideal) S_ .f32 0x00000000#32))

/-- Row below the total length, as a column. -/
def rowMask (nv : IVec S_ 32) : IVec S16384x1 1 :=
  broadcastInDim S16384x1 ![0] bcast_S16384_S16384x1_0
    (cmpi .slt (iotaInDim S16384 32 0) (broadcastInDim S16384 ![] bcast_S_S16384 nv))

/-- The reference's value chain from the packed index arrays to its result, one operation after the other. -/
def refTerm (W : FVec Ideal S1024x16x1024 .f32) (B : FVec Ideal S1024x16x32 .f32) (sb st wpl bpl : IVec S16384 32)
    (nv : IVec S_ 32) (tww twb : FVec Ideal S1024 .f32) (tbw tbb : FVec Ideal S32 .f32)
    (ew : FVec Ideal S2048x1056 .f32) (eb : FVec Ideal S2048 .f32) : FVec Ideal S16384x2048 .f32 :=
  select (broadcastInDim S16384x2048 ![0, 1] bcast_S16384x1_S16384x2048_0_1 (rowMask nv))
    (encode (embW (sumW W sb st wpl) wpl tww twb) (embB (sumB B sb st bpl) bpl tbw tbb) ew eb)
    (broadcastInDim S16384x2048 ![] bcast_S_S16384x2048 (id (constant (F := Ideal) S_ .f32 0x00000000#32)))

/-! ## The gathered rows -/

theorem normIdx_apply (n : BitVec 32) (x : IVec S16384 32) (i : S16384.Idx) :
    normIdx n x i = Scalar.select (IntOp.cmpi .slt (x i) 0#32) (IntOp.addi (x i) n) (x i) := rfl

/-- An entry that is a small natural number is not below zero, so the wrap-around leaves it. -/
theorem normIdx_of_small (n : BitVec 32) (x : IVec S16384 32) (i : S16384.Idx) (h : (x i).toNat < 2147483648) :
    normIdx n x i = x i := by
  rw [normIdx_apply]
  have hx : (x i).toInt = ((x i).toNat : Int) := BitVec.toInt_eq_toNat_of_lt (by omega)
  have hc : ¬ IntOp.cmpi .slt (x i) 0#32 = 1#1 := by
    rw [IntOp.cmpi_slt, hx]
    show ¬ ((x i).toNat : Int) < 0
    omega
  exact if_neg hc

theorem startIdx_zero (sb st : IVec S16384 32) (r : Fin 16384) :
    startIdx sb st (ix2 r (0 : Fin 2)) = normIdx 1024#32 sb (ix1 r) := by
  unfold startIdx
  refine (concatenate_pair_apply_left (t := S16384x2) (s₁ := S16384x1) (s₂ := S16384x1) (1 : Fin 2) _ _ concatenates_S16384x1_S16384x1_S16384x2_d1 (ix2 r (0 : Fin 2)) rfl
    (ix2 r (0 : Fin 1)) (fun b => by match b with | ⟨0, _⟩ => rfl | ⟨1, _⟩ => rfl)).trans ?_
  exact broadcastInDim_apply _ bcast_S16384_S16384x1_0 _ (ix2 r (0 : Fin 1)) (ix1 r)
    (fun a => by match a with | ⟨0, _⟩ => rfl)

theorem startIdx_one (sb st : IVec S16384 32) (r : Fin 16384) :
    startIdx sb st (ix2 r (1 : Fin 2)) = normIdx 16#32 st (ix1 r) := by
  unfold startIdx
  refine (concatenate_pair_apply_right (t := S16384x2) (s₁ := S16384x1) (s₂ := S16384x1) (1 : Fin 2) _ _ concatenates_S16384x1_S16384x1_S16384x2_d1 (ix2 r (1 : Fin 2)) rfl rfl
    (ix2 r (0 : Fin 1)) (fun b hb => by
      match b with
      | ⟨0, _⟩ => rfl
      | ⟨1, _⟩ => exact absurd rfl hb) rfl).trans ?_
  exact broadcastInDim_apply _ bcast_S16384_S16384x1_0 _ (ix2 r (0 : Fin 1)) (ix1 r)
    (fun a => by match a with | ⟨0, _⟩ => rfl)

/-! ## A two-index gather of whole rows: operand `[A, T, P]`, start indices `[R, 2]`, result `[R, P]` -/

section Rows
variable {α : Type}

/-- Its dimension numbers. -/
abbrev rowDims (A T P R : Nat)
    (wf : GatherDims.WF ⟨3, ![A, T, P]⟩ ⟨2, ![R, 2]⟩ ⟨2, ![R, P]⟩ [1] [0, 1] [] [0, 1] [] 1 ![1, 1, P]) :
    GatherDims ⟨3, ![A, T, P]⟩ ⟨2, ![R, 2]⟩ ⟨2, ![R, P]⟩ where
  offsetDims := [1]
  collapsedSliceDims := [0, 1]
  operandBatchingDims := []
  startIndicesBatchingDims := []
  startIndexMap := [0, 1]
  indexVectorDim := 1
  sliceSizes := ![1, 1, P]
  wf := wf

variable {A T P R w : Nat}
  (wf : GatherDims.WF ⟨3, ![A, T, P]⟩ ⟨2, ![R, 2]⟩ ⟨2, ![R, P]⟩ [1] [0, 1] [] [0, 1] [] 1 ![1, 1, P])
  (idx : IVec ⟨2, ![R, 2]⟩ w) (r : Fin R) (q : Fin P)

theorem rowDims_axis0 :
    ((rowDims A T P R wf).operandIdx (ix2 r q) idx 0).val = min (idx (ix2 r (0 : Fin 2))).toInt.toNat (A - 1) := by
  show (rowDims A T P R wf).start (ix2 r q) idx 0 + (rowDims A T P R wf).batchCoord (ix2 r q) 0
    + (rowDims A T P R wf).offCoord (ix2 r q) 0 = _
  rw [GatherDims.batchCoord_eq_zero _ _ _ List.not_mem_nil,
    GatherDims.offCoord_eq_zero _ _ _ (fun h => ((GatherDims.mem_sKept _ _).mp h).1 (show (0 : Fin 3) ∈ ([0, 1] : List (Fin 3)) from by decide))]
  simp only [Nat.add_zero]
  unfold GatherDims.start
  rw [dif_pos (show (0 : Fin 3) ∈ (rowDims A T P R wf).startIndexMap from (show (0 : Fin 3) ∈ ([0, 1] : List (Fin 3)) from by decide))]
  have hsi : (rowDims A T P R wf).siIdx (ix2 r q) ⟨List.idxOf (0 : Fin 3) (rowDims A T P R wf).startIndexMap,
      List.idxOf_lt_length_iff.2 (show (0 : Fin 3) ∈ ([0, 1] : List (Fin 3)) from by decide)⟩ = ix2 r (0 : Fin 2) := by
    funext b; refine Fin.ext ?_
    match b with
    | ⟨0, _⟩ => rfl
    | ⟨1, _⟩ => rfl
  rw [hsi]
  rfl

theorem rowDims_axis1 :
    ((rowDims A T P R wf).operandIdx (ix2 r q) idx 1).val = min (idx (ix2 r (1 : Fin 2))).toInt.toNat (T - 1) := by
  show (rowDims A T P R wf).start (ix2 r q) idx 1 + (rowDims A T P R wf).batchCoord (ix2 r q) 1
    + (rowDims A T P R wf).offCoord (ix2 r q) 1 = _
  rw [GatherDims.batchCoord_eq_zero _ _ _ List.not_mem_nil,
    GatherDims.offCoord_eq_zero _ _ _ (fun h => ((GatherDims.mem_sKept _ _).mp h).1 (show (1 : Fin 3) ∈ ([0, 1] : List (Fin 3)) from by decide))]
  simp only [Nat.add_zero]
  unfold GatherDims.start
  rw [dif_pos (show (1 : Fin 3) ∈ (rowDims A T P R wf).startIndexMap from (show (1 : Fin 3) ∈ ([0, 1] : List (Fin 3)) from by decide))]
  have hsi : (rowDims A T P R wf).siIdx (ix2 r q) ⟨List.idxOf (1 : Fin 3) (rowDims A T P R wf).startIndexMap,
      List.idxOf_lt_length_iff.2 (show (1 : Fin 3) ∈ ([0, 1] : List (Fin 3)) from by decide)⟩ = ix2 r (1 : Fin 2) := by
    funext b; refine Fin.ext ?_
    match b with
    | ⟨0, _⟩ => rfl
    | ⟨1, _⟩ => rfl
  rw [hsi]
  rfl

theorem rowDims_axis2 :
    ((rowDims A T P R wf).operandIdx (ix2 r q) idx 2).val = q.val := by
  show (rowDims A T P R wf).start (ix2 r q) idx 2 + (rowDims A T P R wf).batchCoord (ix2 r q) 2
    + (rowDims A T P R wf).offCoord (ix2 r q) 2 = _
  rw [GatherDims.batchCoord_eq_zero _ _ _ List.not_mem_nil]
  unfold GatherDims.start
  rw [dif_neg (show ¬ (2 : Fin 3) ∈ (rowDims A T P R wf).startIndexMap from
    (show ¬ (2 : Fin 3) ∈ ([0, 1] : List (Fin 3)) from by decide))]
  unfold GatherDims.offCoord
  rw [dif_pos (show (2 : Fin 3) ∈ (rowDims A T P R wf).sKept from
    (GatherDims.mem_sKept _ _).mpr ⟨(show ¬ (2 : Fin 3) ∈ ([0, 1] : List (Fin 3)) from by decide), List.not_mem_nil⟩)]
  simp only [Nat.zero_add, Nat.add_zero]
  rfl

/-- THE GATHER READ AT `(r, q)`: the operand's row at the pair of start indices of row `r`, each read signed and
    clamped into its axis, at position `q`. -/
theorem gather_rows_apply (hA : 0 < A) (hT : 0 < T) (x : (⟨3, ![A, T, P]⟩ : Shape).Idx → α) :
    Host.gather (rowDims A T P R wf) x idx (ix2 r q)
      = x (ix3 ⟨min (idx (ix2 r (0 : Fin 2))).toInt.toNat (A - 1), by omega⟩
          ⟨min (idx (ix2 r (1 : Fin 2))).toInt.toNat (T - 1), by omega⟩ q) := by
  unfold Host.gather
  refine congrArg x (funext fun a => Fin.ext ?_)
  match a with
  | ⟨0, _⟩ => exact rowDims_axis0 wf idx r q
  | ⟨1, _⟩ => exact rowDims_axis1 wf idx r q
  | ⟨2, _⟩ => exact rowDims_axis2 wf idx r q

end Rows

/-! ## The masked row sums -/

theorem gatherW_apply (W : FVec Ideal S1024x16x1024 .f32) (sb st : IVec S16384 32) (r : Fin 16384) (q : Fin 1024)
    (hb : (sb (ix1 r)).toNat < 1024) (ht : (st (ix1 r)).toNat < 16) :
    gatherW W sb st (ix2 r q) = W (ix3 ⟨(sb (ix1 r)).toNat, hb⟩ ⟨(st (ix1 r)).toNat, ht⟩ q) := by
  unfold gatherW
  refine (gather_rows_apply (A := 1024) (T := 16) (P := 1024) (R := 16384)
    gather_S1024x16x1024_S16384x2_S16384x1024_1_01_n_n_01_1_111024_wf (startIdx sb st) r q (by decide) (by decide) W).trans ?_
  have e0 : min (startIdx sb st (ix2 r (0 : Fin 2))).toInt.toNat (1024 - 1) = (sb (ix1 r)).toNat := by
    rw [startIdx_zero, normIdx_of_small _ _ _ (by omega), BitVec.toInt_eq_toNat_of_lt (by omega)]
    omega
  have e1 : min (startIdx sb st (ix2 r (1 : Fin 2))).toInt.toNat (16 - 1) = (st (ix1 r)).toNat := by
    rw [startIdx_one, normIdx_of_small _ _ _ (by omega), BitVec.toInt_eq_toNat_of_lt (by omega)]
    omega
  refine congrArg W (funext fun a => Fin.ext ?_)
  match a with
  | ⟨0, _⟩ => exact e0
  | ⟨1, _⟩ => exact e1
  | ⟨2, _⟩ => rfl

theorem gatherB_apply (B : FVec Ideal S1024x16x32 .f32) (sb st : IVec S16384 32) (r : Fin 16384) (q : Fin 32)
    (hb : (sb (ix1 r)).toNat < 1024) (ht : (st (ix1 r)).toNat < 16) :
    gatherB B sb st (ix2 r q) = B (ix3 ⟨(sb (ix1 r)).toNat, hb⟩ ⟨(st (ix1 r)).toNat, ht⟩ q) := by
  unfold gatherB
  refine (gather_rows_apply (A := 1024) (T := 16) (P := 32) (R := 16384)
    gather_S1024x16x32_S16384x2_S16384x32_1_01_n_n_01_1_1132_wf (startIdx sb st) r q (by decide) (by decide) B).trans ?_
  have e0 : min (startIdx sb st (ix2 r (0 : Fin 2))).toInt.toNat (1024 - 1) = (sb (ix1 r)).toNat := by
    rw [startIdx_zero, normIdx_of_small _ _ _ (by omega), BitVec.toInt_eq_toNat_of_lt (by omega)]
    omega
  have e1 : min (startIdx sb st (ix2 r (1 : Fin 2))).toInt.toNat (16 - 1) = (st (ix1 r)).toNat := by
    rw [startIdx_one, normIdx_of_small _ _ _ (by omega), BitVec.toInt_eq_toNat_of_lt (by omega)]
    omega
  refine congrArg B (funext fun a => Fin.ext ?_)
  match a with
  | ⟨0, _⟩ => exact e0
  | ⟨1, _⟩ => exact e1
  | ⟨2, _⟩ => rfl

theorem maskW_apply (wpl : IVec S16384 32) (r : Fin 16384) (q : Fin 1024) :
    maskW wpl (ix2 r q) = IntOp.cmpi .slt (BitVec.ofNat 32 q.val) (wpl (ix1 r)) := by
  have e1 : broadcastInDim S16384x1024 ![0, 1] bcast_S1x1024_S16384x1024_0_1
      (broadcastInDim S1x1024 ![1] bcast_S1024_S1x1024_1 (iotaInDim S1024 32 0)) (ix2 r q) = BitVec.ofNat 32 q.val :=
    (broadcastInDim_apply _ bcast_S1x1024_S16384x1024_0_1 _ (ix2 r q) (ix2 (0 : Fin 1) q)
      (fun a => by match a with | ⟨0, _⟩ => rfl | ⟨1, _⟩ => rfl)).trans
    (broadcastInDim_apply _ bcast_S1024_S1x1024_1 _ (ix2 (0 : Fin 1) q) (ix1 q) (fun a => by match a with | ⟨0, _⟩ => rfl))
  have e2 : broadcastInDim S16384x1024 ![0, 1] bcast_S16384x1_S16384x1024_0_1
      (broadcastInDim S16384x1 ![0] bcast_S16384_S16384x1_0 wpl) (ix2 r q) = wpl (ix1 r) :=
    (broadcastInDim_apply _ bcast_S16384x1_S16384x1024_0_1 _ (ix2 r q) (ix2 r (0 : Fin 1))
      (fun a => by match a with | ⟨0, _⟩ => rfl | ⟨1, _⟩ => rfl)).trans
    (broadcastInDim_apply _ bcast_S16384_S16384x1_0 _ (ix2 r (0 : Fin 1)) (ix1 r) (fun a => by match a with | ⟨0, _⟩ => rfl))
  exact congrArg₂ (IntOp.cmpi .slt) e1 e2

theorem maskB_apply (bpl : IVec S16384 32) (r : Fin 16384) (q : Fin 32) :
    maskB bpl (ix2 r q) = IntOp.cmpi .slt (BitVec.ofNat 32 q.val) (bpl (ix1 r)) := by
  have e1 : broadcastInDim S16384x32 ![0, 1] bcast_S1x32_S16384x32_0_1
      (broadcastInDim S1x32 ![1] bcast_S32_S1x32_1 (iotaInDim S32 32 0)) (ix2 r q) = BitVec.ofNat 32 q.val :=
    (broadcastInDim_apply _ bcast_S1x32_S16384x32_0_1 _ (ix2 r q) (ix2 (0 : Fin 1) q)
      (fun a => by match a with | ⟨0, _⟩ => rfl | ⟨1, _⟩ => rfl)).trans
    (broadcastInDim_apply _ bcast_S32_S1x32_1 _ (ix2 (0 : Fin 1) q) (ix1 q) (fun a => by match a with | ⟨0, _⟩ => rfl))
  have e2 : broadcastInDim S16384x32 ![0, 1] bcast_S16384x1_S16384x32_0_1
      (broadcastInDim S16384x1 ![0] bcast_S16384_S16384x1_0 bpl) (ix2 r q) = bpl (ix1 r) :=
    (broadcastInDim_apply _ bcast_S16384x1_S16384x32_0_1 _ (ix2 r q) (ix2 r (0 : Fin 1))
      (fun a => by match a with | ⟨0, _⟩ => rfl | ⟨1, _⟩ => rfl)).trans
    (broadcastInDim_apply _ bcast_S16384_S16384x1_0 _ (ix2 r (0 : Fin 1)) (ix1 r) (fun a => by match a with | ⟨0, _⟩ => rfl))
  exact congrArg₂ (IntOp.cmpi .slt) e1 e2

theorem whereW_apply (W : FVec Ideal S1024x16x1024 .f32) (sb st wpl : IVec S16384 32) (r : Fin 16384) (k : Fin 1024)
    (hb : (sb (ix1 r)).toNat < 1024) (ht : (st (ix1 r)).toNat < 16) :
    select (maskW wpl) (gatherW W sb st)
        (broadcastInDim S16384x1024 ![] bcast_S_S16384x1024 (id (constant (F := Ideal) S_ .f32 0x00000000#32))) (ix2 r k)
      = if IntOp.cmpi .slt (BitVec.ofNat 32 k.val) (wpl (ix1 r)) = 1#1
          then W (ix3 ⟨(sb (ix1 r)).toNat, hb⟩ ⟨(st (ix1 r)).toNat, ht⟩ k) else 0 := by
  show Scalar.select (maskW wpl (ix2 r k)) (gatherW W sb st (ix2 r k)) (Ideal.ofBits .f32 0x00000000#32) = _
  rw [maskW_apply, gatherW_apply W sb st r k hb ht, Ideal.ofBits_zero_f32]
  rfl

theorem sumW_apply (W : FVec Ideal S1024x16x1024 .f32) (sb st wpl : IVec S16384 32) (r : Fin 16384)
    (hb : (sb (ix1 r)).toNat < 1024) (ht : (st (ix1 r)).toNat < 16) :
    sumW W sb st wpl (ix1 r)
      = Cert.Encoder.maskedSum (fun q : Fin 1024 => W (ix3 ⟨(sb (ix1 r)).toNat, hb⟩ ⟨(st (ix1 r)).toNat, ht⟩ q)) (wpl (ix1 r)) := by
  unfold sumW Host.reduceAdd
  have hR : S16384x1024.Reduces [1] S16384 := by decide
  refine (Ideal.hostReduceAdd_single reducesTo_S16384x1024_S16384_d1 hR _ _ (ix1 r)).trans ?_
  have h0 : constant (F := Ideal) S_ .f32 0x00000000#32 (Shape.Idx.first h_S_) = 0 := Ideal.ofBits_zero_f32
  rw [h0, zero_add]
  unfold Cert.Encoder.maskedSum
  refine Finset.sum_congr rfl fun k _ => ?_
  have hl : hR.lift (ix1 r) k = ix2 r k := funext fun a => Fin.ext (by match a with | ⟨0, _⟩ => rfl | ⟨1, _⟩ => rfl)
  rw [hl]
  exact whereW_apply W sb st wpl r k hb ht

theorem whereB_apply (B : FVec Ideal S1024x16x32 .f32) (sb st bpl : IVec S16384 32) (r : Fin 16384) (k : Fin 32)
    (hb : (sb (ix1 r)).toNat < 1024) (ht : (st (ix1 r)).toNat < 16) :
    select (maskB bpl) (gatherB B sb st)
        (broadcastInDim S16384x32 ![] bcast_S_S16384x32 (id (constant (F := Ideal) S_ .f32 0x00000000#32))) (ix2 r k)
      = if IntOp.cmpi .slt (BitVec.ofNat 32 k.val) (bpl (ix1 r)) = 1#1
          then B (ix3 ⟨(sb (ix1 r)).toNat, hb⟩ ⟨(st (ix1 r)).toNat, ht⟩ k) else 0 := by
  show Scalar.select (maskB bpl (ix2 r k)) (gatherB B sb st (ix2 r k)) (Ideal.ofBits .f32 0x00000000#32) = _
  rw [maskB_apply, gatherB_apply B sb st r k hb ht, Ideal.ofBits_zero_f32]
  rfl

theorem sumB_apply (B : FVec Ideal S1024x16x32 .f32) (sb st bpl : IVec S16384 32) (r : Fin 16384)
    (hb : (sb (ix1 r)).toNat < 1024) (ht : (st (ix1 r)).toNat < 16) :
    sumB B sb st bpl (ix1 r)
      = Cert.Encoder.maskedSum (fun q : Fin 32 => B (ix3 ⟨(sb (ix1 r)).toNat, hb⟩ ⟨(st (ix1 r)).toNat, ht⟩ q)) (bpl (ix1 r)) := by
  unfold sumB Host.reduceAdd
  have hR : S16384x32.Reduces [1] S16384 := by decide
  refine (Ideal.hostReduceAdd_single reducesTo_S16384x32_S16384_d1 hR _ _ (ix1 r)).trans ?_
  have h0 : constant (F := Ideal) S_ .f32 0x00000000#32 (Shape.Idx.first h_S_) = 0 := Ideal.ofBits_zero_f32
  rw [h0, zero_add]
  unfold Cert.Encoder.maskedSum
  refine Finset.sum_congr rfl fun k _ => ?_
  have hl : hR.lift (ix1 r) k = ix2 r k := funext fun a => Fin.ext (by match a with | ⟨0, _⟩ => rfl | ⟨1, _⟩ => rfl)
  rw [hl]
  exact whereB_apply B sb st bpl r k hb ht

/-! ## Rows and columns laid over a matrix -/

section Lay
variable {α : Type}

theorem col1024_apply (x : S16384.Idx → α) (r : Fin 16384) (k : Fin 1024) :
    broadcastInDim S16384x1024 ![0, 1] bcast_S16384x1_S16384x1024_0_1
      (broadcastInDim S16384x1 ![0] bcast_S16384_S16384x1_0 x) (ix2 r k) = x (ix1 r) :=
  (broadcastInDim_apply _ bcast_S16384x1_S16384x1024_0_1 _ (ix2 r k) (ix2 r (0 : Fin 1))
    (fun a => by match a with | ⟨0, _⟩ => rfl | ⟨1, _⟩ => rfl)).trans
  (broadcastInDim_apply _ bcast_S16384_S16384x1_0 _ (ix2 r (0 : Fin 1)) (ix1 r) (fun a => by match a with | ⟨0, _⟩ => rfl))

theorem row1024_apply (x : S1024.Idx → α) (r : Fin 16384) (k : Fin 1024) :
    broadcastInDim S16384x1024 ![0, 1] bcast_S1x1024_S16384x1024_0_1
      (broadcastInDim S1x1024 ![1] bcast_S1024_S1x1024_1 x) (ix2 r k) = x (ix1 k) :=
  (broadcastInDim_apply _ bcast_S1x1024_S16384x1024_0_1 _ (ix2 r k) (ix2 (0 : Fin 1) k)
    (fun a => by match a with | ⟨0, _⟩ => rfl | ⟨1, _⟩ => rfl)).trans
  (broadcastInDim_apply _ bcast_S1024_S1x1024_1 _ (ix2 (0 : Fin 1) k) (ix1 k) (fun a => by match a with | ⟨0, _⟩ => rfl))

theorem col32_apply (x : S16384.Idx → α) (r : Fin 16384) (k : Fin 32) :
    broadcastInDim S16384x32 ![0, 1] bcast_S16384x1_S16384x32_0_1
      (broadcastInDim S16384x1 ![0] bcast_S16384_S16384x1_0 x) (ix2 r k) = x (ix1 r) :=
  (broadcastInDim_apply _ bcast_S16384x1_S16384x32_0_1 _ (ix2 r k) (ix2 r (0 : Fin 1))
    (fun a => by match a with | ⟨0, _⟩ => rfl | ⟨1, _⟩ => rfl)).trans
  (broadcastInDim_apply _ bcast_S16384_S16384x1_0 _ (ix2 r (0 : Fin 1)) (ix1 r) (fun a => by match a with | ⟨0, _⟩ => rfl))

theorem row32_apply (x : S32.Idx → α) (r : Fin 16384) (k : Fin 32) :
    broadcastInDim S16384x32 ![0, 1] bcast_S1x32_S16384x32_0_1
      (broadcastInDim S1x32 ![1] bcast_S32_S1x32_1 x) (ix2 r k) = x (ix1 k) :=
  (broadcastInDim_apply _ bcast_S1x32_S16384x32_0_1 _ (ix2 r k) (ix2 (0 : Fin 1) k)
    (fun a => by match a with | ⟨0, _⟩ => rfl | ⟨1, _⟩ => rfl)).trans
  (broadcastInDim_apply _ bcast_S32_S1x32_1 _ (ix2 (0 : Fin 1) k) (ix1 k) (fun a => by match a with | ⟨0, _⟩ => rfl))

theorem row2048_apply (x : S2048.Idx → α) (r : Fin 16384) (j : Fin 2048) :
    broadcastInDim S16384x2048 ![0, 1] bcast_S1x2048_S16384x2048_0_1
      (broadcastInDim S1x2048 ![1] bcast_S2048_S1x2048_1 x) (ix2 r j) = x (ix1 j) :=
  (broadcastInDim_apply _ bcast_S1x2048_S16384x2048_0_1 _ (ix2 r j) (ix2 (0 : Fin 1) j)
    (fun a => by match a with | ⟨0, _⟩ => rfl | ⟨1, _⟩ => rfl)).trans
  (broadcastInDim_apply _ bcast_S2048_S1x2048_1 _ (ix2 (0 : Fin 1) j) (ix1 j) (fun a => by match a with | ⟨0, _⟩ => rfl))

end Lay

/-! ## The embedding -/

/-- The word of `1.0` is the extended real `1`. -/
theorem ofBits_one_f32 : Ideal.ofBits .f32 0x3F800000#32 = 1 := by
  simp [Ideal.ofBits, Ideal.ieee, -EReal.coe_mul]; norm_num

/-- `1 / (1 + exp (-x))` written with the host's operations is read entry by entry. -/
theorem logistic_chain {s : Shape} (o₁ o₂ a b c d : FVec Ideal s .f32) (i : s.Idx) :
    Host.divf (F := Ideal) o₁ (addf o₂ (Host.exp (F := Ideal) (Host.negf (F := Ideal) (addf (mulf a b) (mulf c d))))) i
      = Ideal.div (o₁ i) (o₂ i + Ideal.exp (-(a i * b i + c i * d i))) := rfl

theorem embW_apply (s : FVec Ideal S16384 .f32) (wpl : IVec S16384 32) (tww twb : FVec Ideal S1024 .f32)
    (r : Fin 16384) (k : Fin 1024) :
    embW s wpl tww twb (ix2 r k) = Cert.Encoder.embed (s (ix1 r)) (wpl (ix1 r)) (tww (ix1 k)) (twb (ix1 k)) := by
  unfold embW
  refine (logistic_chain _ _ _ _ _ _ (ix2 r k)).trans ?_
  rw [col1024_apply, row1024_apply, col1024_apply, row1024_apply]
  show Ideal.div (Ideal.ofBits .f32 0x3F800000#32) (Ideal.ofBits .f32 0x3F800000#32 + _) = _
  rw [ofBits_one_f32]
  rfl

theorem embB_apply (s : FVec Ideal S16384 .f32) (bpl : IVec S16384 32) (tbw tbb : FVec Ideal S32 .f32)
    (r : Fin 16384) (k : Fin 32) :
    embB s bpl tbw tbb (ix2 r k) = Cert.Encoder.embed (s (ix1 r)) (bpl (ix1 r)) (tbw (ix1 k)) (tbb (ix1 k)) := by
  unfold embB
  refine (logistic_chain _ _ _ _ _ _ (ix2 r k)).trans ?_
  rw [col32_apply, row32_apply, col32_apply, row32_apply]
  show Ideal.div (Ideal.ofBits .f32 0x3F800000#32) (Ideal.ofBits .f32 0x3F800000#32 + _) = _
  rw [ofBits_one_f32]
  rfl

/-! ## The encoder -/

/-- A sum over the 1056 concatenated units is the sum over the first 1024 plus the sum over the last 32. -/
theorem sum_split_1056 (f : Fin 1056 → EReal) :
    ∑ c : Fin 1056, f c = ∑ i : Fin 1024, f ⟨i.val, by omega⟩ + ∑ i : Fin 32, f ⟨1024 + i.val, by omega⟩ :=
  Fin.sum_univ_add (M := EReal) (a := 1024) (b := 32) f

theorem encode_apply (eW : FVec Ideal S16384x1024 .f32) (eB : FVec Ideal S16384x32 .f32) (ew : FVec Ideal S2048x1056 .f32)
    (eb : FVec Ideal S2048 .f32) (r : Fin 16384) (j : Fin 2048) :
    encode eW eB ew eb (ix2 r j)
      = max ((∑ k : Fin 1024, eW (ix2 r k) * ew (ix2 j (⟨k.val, by omega⟩ : Fin 1056))
          + ∑ k : Fin 32, eB (ix2 r k) * ew (ix2 j (⟨1024 + k.val, by omega⟩ : Fin 1056))) + eb (ix1 j)) 0 := by
  unfold encode
  show max (Host.dotGeneral (F := Ideal) _ none _ _ (ix2 r j) + _) (Ideal.ofBits .f32 0x00000000#32) = _
  rw [row2048_apply, Ideal.ofBits_zero_f32]
  refine congrArg (fun z => max (z + eb (ix1 j)) 0) ?_
  refine (StackMember.dotGeneral_plain_apply (m := 16384) (n := 2048) (k := 1056) none _ _ r j).trans ?_
  rw [sum_split_1056]
  refine congrArg₂ (· + ·) (Finset.sum_congr rfl fun k _ => ?_) (Finset.sum_congr rfl fun k _ => ?_)
  · refine congrArg₂ (· * ·) ?_ ?_
    · exact concatenate_pair_apply_left (t := S16384x1056) (s₁ := S16384x1024) (s₂ := S16384x32) (1 : Fin 2) _ _
        concatenates_S16384x1024_S16384x32_S16384x1056_d1 (ix2 r (⟨k.val, by omega⟩ : Fin 1056)) rfl (ix2 r k)
        (fun b => by match b with | ⟨0, _⟩ => rfl | ⟨1, _⟩ => rfl)
    · exact transpose_apply [1, 0] ew transposes_S2048x1056_S1056x2048_1_0 (ix2 (⟨k.val, by omega⟩ : Fin 1056) j)
        (ix2 j (⟨k.val, by omega⟩ : Fin 1056)) (fun b => by match b with | ⟨0, _⟩ => rfl | ⟨1, _⟩ => rfl)
  · refine congrArg₂ (· * ·) ?_ ?_
    · exact concatenate_pair_apply_right (t := S16384x1056) (s₁ := S16384x1024) (s₂ := S16384x32) (1 : Fin 2) _ _
        concatenates_S16384x1024_S16384x32_S16384x1056_d1 (ix2 r (⟨1024 + k.val, by omega⟩ : Fin 1056)) rfl rfl (ix2 r k)
        (fun b hb => by
          match b with
          | ⟨0, _⟩ => rfl
          | ⟨1, _⟩ => exact absurd rfl hb)
        (show k.val + 1024 = 1024 + k.val from Nat.add_comm _ _)
    · exact transpose_apply [1, 0] ew transposes_S2048x1056_S1056x2048_1_0 (ix2 (⟨1024 + k.val, by omega⟩ : Fin 1056) j)
        (ix2 j (⟨1024 + k.val, by omega⟩ : Fin 1056)) (fun b => by match b with | ⟨0, _⟩ => rfl | ⟨1, _⟩ => rfl)

/-! ## The row mask and the whole chain -/

theorem rowMask_apply (nv : IVec S_ 32) (r : Fin 16384) (j : Fin 2048) :
    broadcastInDim S16384x2048 ![0, 1] bcast_S16384x1_S16384x2048_0_1 (rowMask nv) (ix2 r j)
      = IntOp.cmpi .slt (BitVec.ofNat 32 r.val) (nv ix0) := by
  unfold rowMask
  refine ((broadcastInDim_apply _ bcast_S16384x1_S16384x2048_0_1 _ (ix2 r j) (ix2 r (0 : Fin 1))
    (fun a => by match a with | ⟨0, _⟩ => rfl | ⟨1, _⟩ => rfl)).trans
    (broadcastInDim_apply _ bcast_S16384_S16384x1_0 _ (ix2 r (0 : Fin 1)) (ix1 r) (fun a => by match a with | ⟨0, _⟩ => rfl))).trans ?_
  show IntOp.cmpi .slt (BitVec.ofNat 32 r.val) (broadcastInDim S16384 ![] bcast_S_S16384 nv (ix1 r)) = _
  exact congrArg (IntOp.cmpi .slt (BitVec.ofNat 32 r.val)) (congrArg nv (funext fun a => a.elim0))

/-- THE CHAIN READ AT `(r, j)`, when row `r`'s two indices are in range. -/
theorem refTerm_apply (W : FVec Ideal S1024x16x1024 .f32) (B : FVec Ideal S1024x16x32 .f32) (sb st wpl bpl : IVec S16384 32)
    (nv : IVec S_ 32) (tww twb : FVec Ideal S1024 .f32) (tbw tbb : FVec Ideal S32 .f32)
    (ew : FVec Ideal S2048x1056 .f32) (eb : FVec Ideal S2048 .f32) (r : Fin 16384) (j : Fin 2048)
    (hb : (sb (ix1 r)).toNat < 1024) (ht : (st (ix1 r)).toNat < 16) :
    refTerm W B sb st wpl bpl nv tww twb tbw tbb ew eb (ix2 r j)
      = if IntOp.cmpi .slt (BitVec.ofNat 32 r.val) (nv ix0) = 1#1 then
          Cert.Encoder.encEntry (fun q => W (ix3 ⟨(sb (ix1 r)).toNat, hb⟩ ⟨(st (ix1 r)).toNat, ht⟩ q))
            (fun q => B (ix3 ⟨(sb (ix1 r)).toNat, hb⟩ ⟨(st (ix1 r)).toNat, ht⟩ q)) (wpl (ix1 r)) (bpl (ix1 r))
            (fun k => tww (ix1 k)) (fun k => twb (ix1 k)) (fun k => tbw (ix1 k)) (fun k => tbb (ix1 k))
            (fun k => ew (ix2 j k)) (eb (ix1 j))
        else 0 := by
  unfold refTerm
  show Scalar.select (broadcastInDim S16384x2048 ![0, 1] bcast_S16384x1_S16384x2048_0_1 (rowMask nv) (ix2 r j))
    (encode _ _ ew eb (ix2 r j)) (Ideal.ofBits .f32 0x00000000#32) = _
  rw [rowMask_apply, encode_apply, Ideal.ofBits_zero_f32]
  unfold Cert.Encoder.encEntry
  refine congrArg (fun z => Scalar.select (IntOp.cmpi .slt (BitVec.ofNat 32 r.val) (nv ix0)) (max (z + eb (ix1 j)) 0) 0) ?_
  refine congrArg₂ (· + ·) (Finset.sum_congr rfl fun k _ => ?_) (Finset.sum_congr rfl fun k _ => ?_)
  · rw [embW_apply, sumW_apply W sb st wpl r hb ht]
  · rw [embB_apply, sumB_apply B sb st bpl r hb ht]

/-- THE CHAIN IS THE ENCODER: over the packed index arrays of the lengths, whose entries are in range whatever the
    lengths are. -/
theorem refTerm_eq_out (W : FVec Ideal S1024x16x1024 .f32) (B : FVec Ideal S1024x16x32 .f32) (wp bp g : IVec S1024 32)
    (tww twb : FVec Ideal S1024 .f32) (tbw tbb : FVec Ideal S32 .f32)
    (ew : FVec Ideal S2048x1056 .f32) (eb : FVec Ideal S2048 .f32) :
    refTerm W B (srcB g) (srcT g) (packLens g wp) (packLens g bp) (nValid g) tww twb tbw tbb ew eb
      = Cert.Encoder.out W B wp bp g tww twb tbw tbb ew eb := by
  funext idx
  obtain ⟨r, j, rfl⟩ : ∃ (r : Fin 16384) (j : Fin 2048), idx = ix2 r j := ⟨idx 0, idx 1, eq_ix2 idx⟩
  rw [refTerm_apply W B (srcB g) (srcT g) (packLens g wp) (packLens g bp) (nValid g) tww twb tbw tbb ew eb r j
    (srcB_lt g (ix1 r)) (srcT_lt g (ix1 r))]
  rfl

/-! ## The run: the chain is what the operations leave in the result buffer -/

section Run

attribute [local irreducible] Host.sort2 Host.scatter Host.gather Host.reduce Host.reduceWindow

/-- Two lines run one after the other: the second from what the first leaves. -/
theorem after_append' (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The whole line is its four stretches in order. -/
theorem after_split (V : Valuation τ sig (Elt Ideal)) :
    after (ops (F := Ideal)) V = after ops3 (after ops2 (after ops1 (after ops0 V))) := by
  rw [ops_eq, after_append', after_append', after_append']

/-- The eleven arguments. -/
def argRefs : List (Ref sig .tc) :=
  [main_arg0, main_arg1, main_arg2, main_arg3, main_arg4, main_arg5, main_arg6, main_arg7, main_arg8, main_arg9, main_arg10]

set_option maxRecDepth 16384 in
set_option maxHeartbeats 16000000 in
/-- The first two stretches write no argument. -/
theorem head_keeps (V : Valuation τ sig (Elt Ideal)) :
    ∀ b ∈ argRefs, after ops1 (after ops0 V) (Proc.devRef .tc b) = V (Proc.devRef .tc b) := by
  intro b hb
  simp only [argRefs, List.mem_cons, List.not_mem_nil, or_false] at hb
  unfold ops0 ops1
  rcases hb with rfl | rfl | rfl | rfl | rfl | rfl | rfl | rfl | rfl | rfl | rfl <;> after_results_simp

set_option maxRecDepth 16384 in
set_option maxHeartbeats 16000000 in
/-- The last two stretches write neither an argument nor the three packed arrays they read. -/
theorem tail_keeps (V : Valuation τ sig (Elt Ideal)) :
    ∀ b ∈ argRefs ++ [main_v41, main_v51, main_v79],
      after ops3 (after ops2 V) (Proc.devRef .tc b) = V (Proc.devRef .tc b) := by
  intro b hb
  simp only [argRefs, List.cons_append, List.nil_append, List.mem_cons, List.not_mem_nil, or_false] at hb
  unfold ops2 ops3
  rcases hb with rfl | rfl | rfl | rfl | rfl | rfl | rfl | rfl | rfl | rfl | rfl | rfl | rfl | rfl <;> after_results_simp

set_option maxRecDepth 16384 in
set_option maxHeartbeats 8000000 in
/-- The last two stretches, from any contents: the chain over what they find in the buffers the first two left. -/
theorem tail_v200 (V : Valuation τ sig (Elt Ideal)) :
    (after ops3 (after ops2 V) (Proc.devRef .tc main_v200) : FVec Ideal S16384x2048 .f32)
      = refTerm (V (Proc.devRef .tc main_arg0)) (V (Proc.devRef .tc main_arg1))
          (V (Proc.devRef .tc main_v41)) (V (Proc.devRef .tc main_v51)) (V (Proc.devRef .tc main_v79))
          (after ops3 (after ops2 V) (Proc.devRef .tc main_v107))
          (nValid (V (Proc.devRef .tc main_arg4)))
          (V (Proc.devRef .tc main_arg5)) (V (Proc.devRef .tc main_arg6))
          (V (Proc.devRef .tc main_arg7)) (V (Proc.devRef .tc main_arg8))
          (V (Proc.devRef .tc main_arg9)) (V (Proc.devRef .tc main_arg10)) := by
  unfold ops2 ops3
  generalize hcat2 : ((fun a b => concatenate S16384x1056 1 [⟨S16384x1024, a⟩, ⟨S16384x32, b⟩] concatenates_S16384x1024_S16384x32_S16384x1056_d1) : (⟨S16384x1024, .f32⟩ : BufTy).Contents (Elt Ideal) → (⟨S16384x32, .f32⟩ : BufTy).Contents (Elt Ideal) → (⟨S16384x1056, .f32⟩ : BufTy).Contents (Elt Ideal)) = cat2
  generalize hcatI : ((fun a b => concatenate S16384x2 1 [⟨S16384x1, a⟩, ⟨S16384x1, b⟩] concatenates_S16384x1_S16384x1_S16384x2_d1) : (⟨S16384x1, .i32⟩ : BufTy).Contents (Elt Ideal) → (⟨S16384x1, .i32⟩ : BufTy).Contents (Elt Ideal) → (⟨S16384x2, .i32⟩ : BufTy).Contents (Elt Ideal)) = catI
  after_results_simp
  subst hcat2 hcatI
  beta_reduce
  set_option maxHeartbeats 1000000 in rfl

set_option maxRecDepth 16384 in
set_option maxHeartbeats 16000000 in
/-- The first two stretches leave the sequence of each packed row … -/
theorem head_v41 (V : Valuation τ sig (Elt Ideal)) :
    (after ops1 (after ops0 V) (Proc.devRef .tc main_v41) : IVec S16384 32) = srcB (V (Proc.devRef .tc main_arg4)) := by
  unfold ops0 ops1
  after_results_simp
  rfl

set_option maxRecDepth 16384 in
set_option maxHeartbeats 16000000 in
/-- … its step … -/
theorem head_v51 (V : Valuation τ sig (Elt Ideal)) :
    (after ops1 (after ops0 V) (Proc.devRef .tc main_v51) : IVec S16384 32) = srcT (V (Proc.devRef .tc main_arg4)) := by
  unfold ops0 ops1
  after_results_simp
  rfl

set_option maxRecDepth 16384 in
set_option maxHeartbeats 16000000 in
/-- … and its count of weights. -/
theorem head_v79 (V : Valuation τ sig (Elt Ideal)) :
    (after ops1 (after ops0 V) (Proc.devRef .tc main_v79) : IVec S16384 32)
      = packLens (V (Proc.devRef .tc main_arg4)) (V (Proc.devRef .tc main_arg2)) := by
  unfold ops0 ops1
  after_results_simp
  rfl

set_option maxRecDepth 16384 in
set_option maxHeartbeats 16000000 in
/-- The count of biases of each packed row, which the third stretch finishes. -/
theorem full_v107 (V : Valuation τ sig (Elt Ideal)) :
    (after ops3 (after ops2 (after ops1 (after ops0 V))) (Proc.devRef .tc main_v107) : IVec S16384 32)
      = packLens (V (Proc.devRef .tc main_arg4)) (V (Proc.devRef .tc main_arg3)) := by
  unfold ops0 ops1 ops2 ops3
  after_results_simp
  rfl

/-- No operation of the line writes an argument. -/
theorem after_arg (V : Valuation τ sig (Elt Ideal)) (b : Ref sig .tc) (hb : b ∈ argRefs) :
    after (ops (F := Ideal)) V (Proc.devRef .tc b) = V (Proc.devRef .tc b) := by
  rw [after_split, tail_keeps _ b (List.mem_append_left _ hb), head_keeps V b hb]

/-- THE RUN'S RESULT: the chain over the arguments and the packed index arrays of the lengths. -/
theorem after_v200 (V : Valuation τ sig (Elt Ideal)) :
    (after (ops (F := Ideal)) V (Proc.devRef .tc main_v200) : FVec Ideal S16384x2048 .f32)
      = refTerm (V (Proc.devRef .tc main_arg0)) (V (Proc.devRef .tc main_arg1)) (srcB (V (Proc.devRef .tc main_arg4))) (srcT (V (Proc.devRef .tc main_arg4)))
          (packLens (V (Proc.devRef .tc main_arg4)) (V (Proc.devRef .tc main_arg2))) (packLens (V (Proc.devRef .tc main_arg4)) (V (Proc.devRef .tc main_arg3)))
          (nValid (V (Proc.devRef .tc main_arg4))) (V (Proc.devRef .tc main_arg5)) (V (Proc.devRef .tc main_arg6)) (V (Proc.devRef .tc main_arg7)) (V (Proc.devRef .tc main_arg8))
          (V (Proc.devRef .tc main_arg9)) (V (Proc.devRef .tc main_arg10)) := by
  rw [after_split]
  refine (tail_v200 _).trans ?_
  rw [full_v107 V, head_v41 V, head_v51 V, head_v79 V,
    head_keeps V main_arg0 (by decide), head_keeps V main_arg1 (by decide), head_keeps V main_arg4 (by decide),
    head_keeps V main_arg5 (by decide), head_keeps V main_arg6 (by decide), head_keeps V main_arg7 (by decide),
    head_keeps V main_arg8 (by decide), head_keeps V main_arg9 (by decide), head_keeps V main_arg10 (by decide)]

end Run

theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v200)
        = Cert.Encoder.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c =>
    ⟨(h c main_v200).trans ((after_v200 (launchContents m c)).trans (refTerm_eq_out _ _ _ _ _ _ _ _ _ _ _)),
      (h c main_arg0).trans (after_arg (launchContents m c) main_arg0 (by decide)),
      (h c main_arg1).trans (after_arg (launchContents m c) main_arg1 (by decide)),
      (h c main_arg2).trans (after_arg (launchContents m c) main_arg2 (by decide)),
      (h c main_arg3).trans (after_arg (launchContents m c) main_arg3 (by decide)),
      (h c main_arg4).trans (after_arg (launchContents m c) main_arg4 (by decide)),
      (h c main_arg5).trans (after_arg (launchContents m c) main_arg5 (by decide)),
      (h c main_arg6).trans (after_arg (launchContents m c) main_arg6 (by decide)),
      (h c main_arg7).trans (after_arg (launchContents m c) main_arg7 (by decide)),
      (h c main_arg8).trans (after_arg (launchContents m c) main_arg8 (by decide)),
      (h c main_arg9).trans (after_arg (launchContents m c) main_arg9 (by decide)),
      (h c main_arg10).trans (after_arg (launchContents m c) main_arg10 (by decide))⟩) (run_main (F := Ideal) m ρ)

end Cert.ReferenceIdeal.Hand

end
-- ==== Proof.PreDecode.lean ====
/-
  The precondition read at the lengths: its last two conjuncts say that every length is between 0 and 16.
-/
import proofs.«400249_j88502096101408_2_alg».proof.Pre_finite_inputs
import proofs.«400249_j88502096101408_2_alg».proof.Proof.Gen.Pre_finite_inputs
import Idealize.ShloMosaic.Lib.ReduceAll
import Idealize.ShloMosaic.Lib.StableHlo.Predicate

noncomputable section

namespace Cert.Pre_finite_inputs.Hand

open Idealize.ShloMosaic Cert.Pre_finite_inputs

variable {F : FTy → Type} [FloatOps F]

/-- A signed word that tests at least 0 and at most 16 reads, as an integer, between 0 and 16. -/
theorem bounds_of_bits (x : BitVec 32) (h0 : IntOp.cmpi .sge x 0#32 = 1#1) (h16 : IntOp.cmpi .sle x 16#32 = 1#1) :
    0 ≤ x.toInt ∧ x.toInt ≤ 16 := by
  rw [IntOp.cmpi_sge] at h0
  rw [IntOp.cmpi_sle] at h16
  exact ⟨h0, h16⟩

theorem lengths_of_pre [Cert.Pre_finite_inputs.Facts]
    (a0 : FVec F S1024x16x1024 .f32) (a1 : FVec F S1024x16x32 .f32) (a2 a3 a4 : IVec S1024 32)
    (a5 a6 : FVec F S1024 .f32) (a7 a8 : FVec F S32 .f32) (a9 : FVec F S2048x1056 .f32) (a10 : FVec F S2048 .f32)
    (h : Cert.Pre_finite_inputs.fn (F := F) a0 a1 a2 a3 a4 a5 a6 a7 a8 a9 a10 = (fun _ => 1#1)) :
    ∀ i, 0 ≤ (a4 i).toInt ∧ (a4 i).toInt ≤ 16 := by
  intro i
  -- the rank-zero shape has exactly one index
  haveI : Subsingleton S_.Idx := ⟨fun a b => funext fun d => d.elim0⟩
  -- the predicate's one word, as the chain of conjunctions it is
  have e := congrFun h (fun a => a.elim0)
  dsimp only [fn, fn_part1, fn_part2] at e
  -- the outermost conjunction: everything before it, and "every length is at most 16"
  obtain ⟨e1, e16⟩ := IntOp.andi_eq_one.1 (show IntOp.andi _ _ = 1#1 from e)
  -- the next one: everything before it, and "every length is at least 0"
  obtain ⟨_, e0⟩ := IntOp.andi_eq_one.1 (show IntOp.andi _ _ = 1#1 from e1)
  -- a conjunction over all 1024 entries that holds, holds at entry i
  have k16 := Host.reduce_andi_all _ _ _ _ _ e16 i
  have k0 := Host.reduce_andi_all _ _ _ _ _ e0 i
  -- at entry i each comparison is against the constant itself
  exact bounds_of_bits (a4 i) k0 k16

end Cert.Pre_finite_inputs.Hand

end
-- ==== Proof.lean ====
/-
  The certificate's claims.  Both kernel programs run to the end and keep their arguments: the one pallas_call's
  pipeline is admissible at every value of the prefetched total length (the clamped block index never exceeds the grid
  coordinate), so the frames need nothing of the precondition; the reference is a straight line of host operations.  Over the extended reals, under
  lengths between 0 and 16 (the precondition's last two conjuncts: then the 1024 lengths sum without wrapping to at most
  16384, and the kernel's block-index clamp is the identity on every tile it computes), the kernel's result and the
  reference's are both the encoder `Cert.Encoder.out` of the arguments.  The ideal pass rewrote nothing, so the
  idealization claim is trivial.
-/
import proofs.«400249_j88502096101408_2_alg».proof.Defs
import proofs.«400249_j88502096101408_2_alg».proof.Proof.Gen.Kernel
import proofs.«400249_j88502096101408_2_alg».proof.Proof.Gen.KernelIdeal
import proofs.«400249_j88502096101408_2_alg».proof.Proof.Gen.ReferenceIdeal
import proofs.«400249_j88502096101408_2_alg».proof.Proof.Gen.Pre_finite_inputs
import proofs.«400249_j88502096101408_2_alg».proof.Proof.KernelFrameBits
import proofs.«400249_j88502096101408_2_alg».proof.Proof.KernelValue
import proofs.«400249_j88502096101408_2_alg».proof.Proof.RefValue
import proofs.«400249_j88502096101408_2_alg».proof.Proof.PreDecode
import Idealize.ShloMosaic.Adequacy
import Idealize.ShloMosaic.Init

noncomputable section

namespace Cert.Proof

open Idealize.ShloMosaic Idealize.SL.Sem

theorem frame_kernel : Cert.frame_Kernel := fun m g _ => Cert.Kernel.Hand.frame (F := Bits) m g

theorem frame_kernelIdeal : Cert.frame_KernelIdeal := fun m g _ => Cert.KernelIdeal.Hand.frame (F := Ideal) m g

theorem frame_referenceIdeal : Cert.frame_ReferenceIdeal := fun m g _ =>
  (θ_run Cert.ReferenceIdeal.defs _ _).mono (fun _ h c => (h c).2) (Cert.ReferenceIdeal.Hand.value m g)

/-- The precondition's bound on the lengths, at the kernel's memory. -/
theorem lengths_bound (m : (ℓ : Loc Cert.KernelIdeal.nD Cert.KernelIdeal.τ Cert.KernelIdeal.sig) → Buf (Elt Ideal) ℓ)
    (h : Cert.Pre_KernelIdeal m) (c : Dev Cert.KernelIdeal.nD) (i) :
    0 ≤ ((m ((c.tc : Thread Cert.KernelIdeal.nD Cert.KernelIdeal.τ).loc Cert.KernelIdeal.main_arg4) : IVec Cert.KernelIdeal.S1024 32) i).toInt
      ∧ ((m ((c.tc : Thread Cert.KernelIdeal.nD Cert.KernelIdeal.τ).loc Cert.KernelIdeal.main_arg4) : IVec Cert.KernelIdeal.S1024 32) i).toInt ≤ 16 :=
  Cert.Pre_finite_inputs.Hand.lengths_of_pre (F := Ideal) _ _ _ _ _ _ _ _ _ _ _ (h c) i

theorem algebraic : Cert.algebraic_KernelIdeal_ReferenceIdeal := by
  intro m g m' g' hpre hagree
  refine ⟨_, Cert.KernelIdeal.Hand.value m g (lengths_bound m hpre), ?_⟩
  refine (θ_run Cert.ReferenceIdeal.defs _ _).mono (fun r h c => ⟨(h c).1.trans ?_, (h c).2⟩) (Cert.ReferenceIdeal.Hand.value m' g')
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
